-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v138)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v138) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1250000 : Shape := ⟨1, ![1250000]⟩
abbrev S64x64 : Shape := ⟨2, ![64, 64]⟩
abbrev S64 : Shape := ⟨1, ![64]⟩
abbrev S256x64 : Shape := ⟨2, ![256, 64]⟩
abbrev S1 : Shape := ⟨1, ![1]⟩
abbrev S64x129 : Shape := ⟨2, ![64, 129]⟩
abbrev S129 : Shape := ⟨1, ![129]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S1 : S_.BroadcastsInDim S1 (![] : Fin 0 → Fin S1.rank)
  reducesTo_S1_S_d0 : S1.ReducesTo [0] S_
  bcast_S_S64x129 : S_.BroadcastsInDim S64x129 (![] : Fin 0 → Fin S64x129.rank)
  reducesTo_S64x129_S_d0_1 : S64x129.ReducesTo [0, 1] S_
  bcast_S_S129 : S_.BroadcastsInDim S129 (![] : Fin 0 → Fin S129.rank)
  reducesTo_S129_S_d0 : S129.ReducesTo [0] S_

variable [Facts]

def fn_part6 {F : FTy → Type} [FloatOps F] (main_arg25 : FVec F S64 .f32) (main_arg26 : FVec F S64x129 .f32) (main_arg27 : FVec F S129 .f32) (main_v98 : IVec S_ 1) (main_v101 : IVec S64x64 1) (main_c_39 : IVec S_ 1) : IVec S_ 1 :=
  let main_v102 : IVec S_ 1 := (fun x v => Host.reduce IntOp.andi x v reducesTo_S64x64_S_d0_1 h_S_) main_v101 main_c_39
  let main_v103 : IVec S_ 1 := andi main_v98 main_v102
  let main_v104 : FVec F S64 .f32 := Host.absf main_arg25
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x129 .f32 := Host.absf main_arg26
  let main_cst_42 : FVec F S_ .f32 := constant S_ .f32 0x7F800000#32
  let main_v110 : FVec F S64x129 .f32 := broadcastInDim S64x129 ![] bcast_S_S64x129 main_cst_42
  let main_v111 : IVec S64x129 1 := cmpf .olt main_v109 main_v110
  let main_c_43 : IVec S_ 1 := constantI S_ 1 1#1
  let main_v112 : IVec S_ 1 := (fun x v => Host.reduce IntOp.andi x v reducesTo_S64x129_S_d0_1 h_S_) main_v111 main_c_43
  let main_v113 : IVec S_ 1 := andi main_v108 main_v112
  let main_v114 : FVec F S129 .f32 := Host.absf main_arg27
  let main_cst_44 : FVec F S_ .f32 := constant S_ .f32 0x7F800000#32
  let main_v115 : FVec F S129 .f32 := broadcastInDim S129 ![] bcast_S_S129 main_cst_44
  let main_v116 : IVec S129 1 := cmpf .olt main_v114 main_v115
  let main_c_45 : IVec S_ 1 := constantI S_ 1 1#1
  let main_v117 : IVec S_ 1 := (fun x v => Host.reduce IntOp.andi x v reducesTo_S129_S_d0 h_S_) main_v116 main_c_45
  let main_v118 : IVec S_ 1 := andi main_v113 main_v117
  main_v118

def fn_part5 {F : FTy → Type} [FloatOps F] (main_arg22 : FVec F S64 .f32) (main_arg23 : FVec F S1 .f32) (main_arg24 : FVec F S64x64 .f32) (main_arg25 : FVec F S64 .f32) (main_arg26 : FVec F S64x129 .f32) (main_arg27 : FVec F S129 .f32) (main_v83 : IVec S_ 1) (main_v84 : FVec F S256x64 .f32) (main_cst_32 : FVec F S_ .f32) : IVec S_ 1 :=
  let main_v85 : FVec F S256x64 .f32 := broadcastInDim S256x64 ![] bcast_S_S256x64 main_cst_32
  let main_v86 : IVec S256x64 1 := cmpf .olt main_v84 main_v85
  let main_c_33 : IVec S_ 1 := constantI S_ 1 1#1
  let main_v87 : IVec S_ 1 := (fun x v => Host.reduce IntOp.andi x v reducesTo_S256x64_S_d0_1 h_S_) main_v86 main_c_33
  let main_v88 : IVec S_ 1 := andi main_v83 main_v87
  let main_v89 : FVec F S64 .f32 := Host.absf main_arg22
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S1 .f32 := Host.absf main_arg23
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_v99 : FVec F S64x64 .f32 := Host.absf main_arg24
  let main_cst_38 : FVec F S_ .f32 := constant S_ .f32 0x7F800000#32
  let main_v100 : FVec F S64x64 .f32 := broadcastInDim S64x64 ![] bcast_S_S64x64 main_cst_38
  let main_v101 : IVec S64x64 1 := cmpf .olt main_v99 main_v100
  let main_c_39 : IVec S_ 1 := constantI S_ 1 1#1
  fn_part6 (F := F) main_arg25 main_arg26 main_arg27 main_v98 main_v101 main_c_39

def fn_part4 {F : FTy → Type} [FloatOps F] (main_arg18 : FVec F S64 .f32) (main_arg19 : FVec F S64 .f32) (main_arg20 : FVec F S64 .f32) (main_arg21 : FVec F S256x64 .f32) (main_arg22 : FVec F S64 .f32) (main_arg23 : FVec F S1 .f32) (main_arg24 : FVec F S64x64 .f32) (main_arg25 : FVec F S64 .f32) (main_arg26 : FVec F S64x129 .f32) (main_arg27 : FVec F S129 .f32) (main_v63 : IVec S_ 1) (main_v67 : IVec S_ 1) : IVec S_ 1 :=
  let main_v68 : IVec S_ 1 := andi main_v63 main_v67
  let main_v69 : FVec F S64 .f32 := Host.absf main_arg18
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg19
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg20
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S256x64 .f32 := Host.absf main_arg21
  let main_cst_32 : FVec F S_ .f32 := constant S_ .f32 0x7F800000#32
  fn_part5 (F := F) main_arg22 main_arg23 main_arg24 main_arg25 main_arg26 main_arg27 main_v83 main_v84 main_cst_32

def fn_part3 {F : FTy → Type} [FloatOps F] (main_arg15 : FVec F S64 .f32) (main_arg16 : FVec F S64 .f32) (main_arg17 : FVec F S64x64 .f32) (main_arg18 : FVec F S64 .f32) (main_arg19 : FVec F S64 .f32) (main_arg20 : FVec F S64 .f32) (main_arg21 : FVec F S256x64 .f32) (main_arg22 : FVec F S64 .f32) (main_arg23 : FVec F S1 .f32) (main_arg24 : FVec F S64x64 .f32) (main_arg25 : FVec F S64 .f32) (main_arg26 : FVec F S64x129 .f32) (main_arg27 : FVec F S129 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg15
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg16
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg17
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg18 main_arg19 main_arg20 main_arg21 main_arg22 main_arg23 main_arg24 main_arg25 main_arg26 main_arg27 main_v63 main_v67

def fn_part2 {F : FTy → Type} [FloatOps F] (main_arg11 : FVec F S64 .f32) (main_arg12 : FVec F S64 .f32) (main_arg13 : FVec F S64x64 .f32) (main_arg14 : FVec F S64 .f32) (main_arg15 : FVec F S64 .f32) (main_arg16 : FVec F S64 .f32) (main_arg17 : FVec F S64x64 .f32) (main_arg18 : FVec F S64 .f32) (main_arg19 : FVec F S64 .f32) (main_arg20 : FVec F S64 .f32) (main_arg21 : FVec F S256x64 .f32) (main_arg22 : FVec F S64 .f32) (main_arg23 : FVec F S1 .f32) (main_arg24 : FVec F S64x64 .f32) (main_arg25 : FVec F S64 .f32) (main_arg26 : FVec F S64x129 .f32) (main_arg27 : FVec F S129 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg12
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg13
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg14
  let main_cst_18 : FVec F S_ .f32 := constant S_ .f32 0x7F800000#32
  let main_v50 : FVec F S64 .f32 := broadcastInDim S64 ![] bcast_S_S64 main_cst_18
  fn_part3 (F := F) main_arg15 main_arg16 main_arg17 main_arg18 main_arg19 main_arg20 main_arg21 main_arg22 main_arg23 main_arg24 main_arg25 main_arg26 main_arg27 main_v48 main_v49 main_v50

def fn_part1 {F : FTy → Type} [FloatOps F] (main_arg8 : FVec F S64 .f32) (main_arg9 : FVec F S64x64 .f32) (main_arg10 : FVec F S64 .f32) (main_arg11 : FVec F S64 .f32) (main_arg12 : FVec F S64 .f32) (main_arg13 : FVec F S64x64 .f32) (main_arg14 : FVec F S64 .f32) (main_arg15 : FVec F S64 .f32) (main_arg16 : FVec F S64 .f32) (main_arg17 : FVec F S64x64 .f32) (main_arg18 : FVec F S64 .f32) (main_arg19 : FVec F S64 .f32) (main_arg20 : FVec F S64 .f32) (main_arg21 : FVec F S256x64 .f32) (main_arg22 : FVec F S64 .f32) (main_arg23 : FVec F S1 .f32) (main_arg24 : FVec F S64x64 .f32) (main_arg25 : FVec F S64 .f32) (main_arg26 : FVec F S64x129 .f32) (main_arg27 : FVec F S129 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg8
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg9
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S100000x64 .f32) (main_arg1 : IVec S1250000 32) (main_arg2 : IVec S1250000 32) (main_arg3 : IVec S1250000 32) (main_arg4 : IVec S1250000 32) (main_arg5 : FVec F S64x64 .f32) (main_arg6 : FVec F S64 .f32) (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S64x64 .f32) (main_arg14 : FVec F S64 .f32) (main_arg15 : FVec F S64 .f32) (main_arg16 : FVec F S64 .f32) (main_arg17 : FVec F S64x64 .f32) (main_arg18 : FVec F S64 .f32) (main_arg19 : FVec F S64 .f32) (main_arg20 : FVec F S64 .f32) (main_arg21 : FVec F S256x64 .f32) (main_arg22 : FVec F S64 .f32) (main_arg23 : FVec F S1 .f32) (main_arg24 : FVec F S64x64 .f32) (main_arg25 : FVec F S64 .f32) (main_arg26 : FVec F S64x129 .f32) (main_arg27 : FVec F S129 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg5
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg6
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S100000x64 : Shape := ⟨2, ![100000, 64]⟩
abbrev S1250000 : Shape := ⟨1, ![1250000]⟩
abbrev S64x64 : Shape := ⟨2, ![64, 64]⟩
abbrev S64 : Shape := ⟨1, ![64]⟩
abbrev S256x64 : Shape := ⟨2, ![256, 64]⟩
abbrev S1 : Shape := ⟨1, ![1]⟩
abbrev S64x129 : Shape := ⟨2, ![64, 129]⟩
abbrev S129 : Shape := ⟨1, ![129]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1250000x64 : Shape := ⟨2, ![1250000, 64]⟩
abbrev S1x64 : Shape := ⟨2, ![1, 64]⟩
abbrev S5000x64 : Shape := ⟨2, ![5000, 64]⟩
abbrev S1x1 : Shape := ⟨2, ![1, 1]⟩
abbrev S1x129 : Shape := ⟨2, ![1, 129]⟩
abbrev S100000x129 : Shape := ⟨2, ![100000, 129]⟩
abbrev S5000x129 : Shape := ⟨2, ![5000, 129]⟩

abbrev nBuf : Space → Nat
  | .hbm => 293
  | .vmem => 72
  | .smem => 0
  | _ => 0

abbrev hbmTy0_0 (i : Nat) : BufTy := match i % 128 with
  | 0 => ⟨S100000x64, .f32⟩
  | 1 => ⟨S1250000, .i32⟩
  | 2 => ⟨S1250000, .i32⟩
  | 3 => ⟨S1250000, .i32⟩
  | 4 => ⟨S1250000, .i32⟩
  | 5 => ⟨S64x64, .f32⟩
  | 6 => ⟨S64, .f32⟩
  | 7 => ⟨S64, .f32⟩
  | 8 => ⟨S64, .f32⟩
  | 9 => ⟨S64x64, .f32⟩
  | 10 => ⟨S64, .f32⟩
  | 11 => ⟨S64, .f32⟩
  | 12 => ⟨S64, .f32⟩
  | 13 => ⟨S64x64, .f32⟩
  | 14 => ⟨S64, .f32⟩
  | 15 => ⟨S64, .f32⟩
  | 16 => ⟨S64, .f32⟩
  | 17 => ⟨S64x64, .f32⟩
  | 18 => ⟨S64, .f32⟩
  | 19 => ⟨S64, .f32⟩
  | 20 => ⟨S64, .f32⟩
  | 21 => ⟨S256x64, .f32⟩
  | 22 => ⟨S64, .f32⟩
  | 23 => ⟨S1, .f32⟩
  | 24 => ⟨S64x64, .f32⟩
  | 25 => ⟨S64, .f32⟩
  | 26 => ⟨S64x129, .f32⟩
  | 27 => ⟨S129, .f32⟩
  | 28 => ⟨S_, .f32⟩
  | 29 => ⟨S1250000, .f32⟩
  | 30 => ⟨S_, .f32⟩
  | 31 => ⟨S100000, .f32⟩
  | 32 => ⟨S1250000x1, .i32⟩
  | 33 => ⟨S100000, .f32⟩
  | 34 => ⟨S_, .f32⟩
  | 35 => ⟨S100000, .f32⟩
  | 36 => ⟨S1250000x1, .i32⟩
  | 37 => ⟨S100000, .f32⟩
  | 38 => ⟨S_, .f32⟩
  | 39 => ⟨S_, .f32⟩
  | 40 => ⟨S100000, .f32⟩
  | 41 => ⟨S100000, .f32⟩
  | 42 => ⟨S100000, .f32⟩
  | 43 => ⟨S_, .f32⟩
  | 44 => ⟨S_, .f32⟩
  | 45 => ⟨S100000, .f32⟩
  | 46 => ⟨S100000, .f32⟩
  | 47 => ⟨S100000, .f32⟩
  | 48 => ⟨S100000x1, .f32⟩
  | 49 => ⟨S100000x64, .f32⟩
  | 50 => ⟨S100000x64, .f32⟩
  | 51 => ⟨S_, .i32⟩
  | 52 => ⟨S1250000, .i32⟩
  | 53 => ⟨S1250000, .i1⟩
  | 54 => ⟨S_, .i32⟩
  | 55 => ⟨S1250000, .i32⟩
  | 56 => ⟨S1250000, .i32⟩
  | 57 => ⟨S1250000, .i32⟩
  | 58 => ⟨S1250000x1, .i32⟩
  | 59 => ⟨S1250000x64, .f32⟩
  | 60 => ⟨S_, .f32⟩
  | 61 => ⟨S100000x64, .f32⟩
  | 62 => ⟨S1250000x1, .i32⟩
  | 63 => ⟨S100000x64, .f32⟩
  | 64 => ⟨S100000x1, .f32⟩
  | 65 => ⟨S100000x64, .f32⟩
  | 66 => ⟨S100000x64, .f32⟩
  | 67 => ⟨S1x64, .f32⟩
  | 68 => ⟨S100000x64, .f32⟩
  | 69 => ⟨S_, .f32⟩
  | 70 => ⟨S64, .f32⟩
  | 71 => ⟨S_, .f32⟩
  | 72 => ⟨S64, .f32⟩
  | 73 => ⟨S64, .f32⟩
  | 74 => ⟨S1x64, .f32⟩
  | 75 => ⟨S_, .i32⟩
  | 76 => ⟨S_, .f32⟩
  | 77 => ⟨S64, .f32⟩
  | 78 => ⟨S1x64, .f32⟩
  | 79 => ⟨S_, .f32⟩
  | 80 => ⟨S1x64, .f32⟩
  | 81 => ⟨S1x64, .f32⟩
  | 82 => ⟨S100000x64, .f32⟩
  | 83 => ⟨S100000x64, .f32⟩
  | 84 => ⟨S100000x64, .f32⟩
  | 85 => ⟨S_, .f32⟩
  | 86 => ⟨S_, .f32⟩
  | 87 => ⟨S_, .f32⟩
  | 88 => ⟨S_, .f32⟩
  | 89 => ⟨S64, .f32⟩
  | 90 => ⟨S64, .f32⟩
  | 91 => ⟨S64, .f32⟩
  | 92 => ⟨S_, .f32⟩
  | 93 => ⟨S_, .i1⟩
  | 94 => ⟨S_, .f32⟩
  | 95 => ⟨S_, .f32⟩
  | 96 => ⟨S64, .f32⟩
  | 97 => ⟨S64, .f32⟩
  | 98 => ⟨S1x64, .f32⟩
  | 99 => ⟨S1x64, .f32⟩
  | 100 => ⟨S1x64, .f32⟩
  | 101 => ⟨S100000x64, .f32⟩
  | 102 => ⟨S100000x1, .f32⟩
  | 103 => ⟨S100000x64, .f32⟩
  | 104 => ⟨S100000x64, .f32⟩
  | 105 => ⟨S_, .i32⟩
  | 106 => ⟨S1250000, .i32⟩
  | 107 => ⟨S1250000, .i1⟩
  | 108 => ⟨S_, .i32⟩
  | 109 => ⟨S1250000, .i32⟩
  | 110 => ⟨S1250000, .i32⟩
  | 111 => ⟨S1250000, .i32⟩
  | 112 => ⟨S1250000x1, .i32⟩
  | 113 => ⟨S1250000x64, .f32⟩
  | 114 => ⟨S_, .f32⟩
  | 115 => ⟨S100000x64, .f32⟩
  | 116 => ⟨S1250000x1, .i32⟩
  | 117 => ⟨S100000x64, .f32⟩
  | 118 => ⟨S100000x1, .f32⟩
  | 119 => ⟨S100000x64, .f32⟩
  | 120 => ⟨S100000x64, .f32⟩
  | 121 => ⟨S1x64, .f32⟩
  | 122 => ⟨S100000x64, .f32⟩
  | 123 => ⟨S_, .f32⟩
  | 124 => ⟨S64, .f32⟩
  | 125 => ⟨S_, .f32⟩
  | 126 => ⟨S64, .f32⟩
  | 127 => ⟨S64, .f32⟩
  | _ => ⟨S100000x64, .f32⟩

abbrev hbmTy0_1 (i : Nat) : BufTy := match i % 128 with
  | 0 => ⟨S1x64, .f32⟩
  | 1 => ⟨S_, .i32⟩
  | 2 => ⟨S_, .f32⟩
  | 3 => ⟨S64, .f32⟩
  | 4 => ⟨S1x64, .f32⟩
  | 5 => ⟨S_, .f32⟩
  | 6 => ⟨S1x64, .f32⟩
  | 7 => ⟨S1x64, .f32⟩
  | 8 => ⟨S100000x64, .f32⟩
  | 9 => ⟨S100000x64, .f32⟩
  | 10 => ⟨S100000x64, .f32⟩
  | 11 => ⟨S_, .f32⟩
  | 12 => ⟨S_, .f32⟩
  | 13 => ⟨S_, .f32⟩
  | 14 => ⟨S_, .f32⟩
  | 15 => ⟨S64, .f32⟩
  | 16 => ⟨S64, .f32⟩
  | 17 => ⟨S64, .f32⟩
  | 18 => ⟨S_, .f32⟩
  | 19 => ⟨S_, .i1⟩
  | 20 => ⟨S_, .f32⟩
  | 21 => ⟨S_, .f32⟩
  | 22 => ⟨S64, .f32⟩
  | 23 => ⟨S64, .f32⟩
  | 24 => ⟨S1x64, .f32⟩
  | 25 => ⟨S1x64, .f32⟩
  | 26 => ⟨S1x64, .f32⟩
  | 27 => ⟨S100000x64, .f32⟩
  | 28 => ⟨S_, .f32⟩
  | 29 => ⟨S1250000, .f32⟩
  | 30 => ⟨S_, .f32⟩
  | 31 => ⟨S100000, .f32⟩
  | 32 => ⟨S1250000x1, .i32⟩
  | 33 => ⟨S100000, .f32⟩
  | 34 => ⟨S_, .f32⟩
  | 35 => ⟨S100000, .f32⟩
  | 36 => ⟨S1250000x1, .i32⟩
  | 37 => ⟨S100000, .f32⟩
  | 38 => ⟨S_, .f32⟩
  | 39 => ⟨S_, .f32⟩
  | 40 => ⟨S100000, .f32⟩
  | 41 => ⟨S100000, .f32⟩
  | 42 => ⟨S100000, .f32⟩
  | 43 => ⟨S_, .f32⟩
  | 44 => ⟨S_, .f32⟩
  | 45 => ⟨S100000, .f32⟩
  | 46 => ⟨S100000, .f32⟩
  | 47 => ⟨S100000, .f32⟩
  | 48 => ⟨S100000x1, .f32⟩
  | 49 => ⟨S100000x64, .f32⟩
  | 50 => ⟨S100000x64, .f32⟩
  | 51 => ⟨S_, .i32⟩
  | 52 => ⟨S1250000, .i32⟩
  | 53 => ⟨S1250000, .i1⟩
  | 54 => ⟨S_, .i32⟩
  | 55 => ⟨S1250000, .i32⟩
  | 56 => ⟨S1250000, .i32⟩
  | 57 => ⟨S1250000, .i32⟩
  | 58 => ⟨S1250000x1, .i32⟩
  | 59 => ⟨S1250000x64, .f32⟩
  | 60 => ⟨S_, .f32⟩
  | 61 => ⟨S100000x64, .f32⟩
  | 62 => ⟨S1250000x1, .i32⟩
  | 63 => ⟨S100000x64, .f32⟩
  | 64 => ⟨S100000x1, .f32⟩
  | 65 => ⟨S100000x64, .f32⟩
  | 66 => ⟨S100000x64, .f32⟩
  | 67 => ⟨S1x64, .f32⟩
  | 68 => ⟨S100000x64, .f32⟩
  | 69 => ⟨S_, .f32⟩
  | 70 => ⟨S64, .f32⟩
  | 71 => ⟨S_, .f32⟩
  | 72 => ⟨S64, .f32⟩
  | 73 => ⟨S64, .f32⟩
  | 74 => ⟨S1x64, .f32⟩
  | 75 => ⟨S_, .i32⟩
  | 76 => ⟨S_, .f32⟩
  | 77 => ⟨S64, .f32⟩
  | 78 => ⟨S1x64, .f32⟩
  | 79 => ⟨S_, .f32⟩
  | 80 => ⟨S1x64, .f32⟩
  | 81 => ⟨S1x64, .f32⟩
  | 82 => ⟨S100000x64, .f32⟩
  | 83 => ⟨S100000x64, .f32⟩
  | 84 => ⟨S100000x64, .f32⟩
  | 85 => ⟨S_, .f32⟩
  | 86 => ⟨S_, .f32⟩
  | 87 => ⟨S_, .f32⟩
  | 88 => ⟨S_, .f32⟩
  | 89 => ⟨S64, .f32⟩
  | 90 => ⟨S64, .f32⟩
  | 91 => ⟨S64, .f32⟩
  | 92 => ⟨S_, .f32⟩
  | 93 => ⟨S_, .i1⟩
  | 94 => ⟨S_, .f32⟩
  | 95 => ⟨S_, .f32⟩
  | 96 => ⟨S64, .f32⟩
  | 97 => ⟨S64, .f32⟩
  | 98 => ⟨S1x64, .f32⟩
  | 99 => ⟨S1x64, .f32⟩
  | 100 => ⟨S1x64, .f32⟩
  | 101 => ⟨S100000x64, .f32⟩
  | 102 => ⟨S100000x1, .f32⟩
  | 103 => ⟨S100000x64, .f32⟩
  | 104 => ⟨S100000x64, .f32⟩
  | 105 => ⟨S_, .i32⟩
  | 106 => ⟨S1250000, .i32⟩
  | 107 => ⟨S1250000, .i1⟩
  | 108 => ⟨S_, .i32⟩
  | 109 => ⟨S1250000, .i32⟩
  | 110 => ⟨S1250000, .i32⟩
  | 111 => ⟨S1250000, .i32⟩
  | 112 => ⟨S1250000x1, .i32⟩
  | 113 => ⟨S1250000x64, .f32⟩
  | 114 => ⟨S_, .f32⟩
  | 115 => ⟨S100000x64, .f32⟩
  | 116 => ⟨S1250000x1, .i32⟩
  | 117 => ⟨S100000x64, .f32⟩
  | 118 => ⟨S100000x1, .f32⟩
  | 119 => ⟨S100000x64, .f32⟩
  | 120 => ⟨S100000x64, .f32⟩
  | 121 => ⟨S1x64, .f32⟩
  | 122 => ⟨S100000x64, .f32⟩
  | 123 => ⟨S_, .f32⟩
  | 124 => ⟨S64, .f32⟩
  | 125 => ⟨S_, .f32⟩
  | 126 => ⟨S64, .f32⟩
  | 127 => ⟨S64, .f32⟩
  | _ => ⟨S100000x64, .f32⟩

abbrev hbmTy0_2 (i : Nat) : BufTy := match i % 128 with
  | 0 => ⟨S1x64, .f32⟩
  | 1 => ⟨S_, .i32⟩
  | 2 => ⟨S_, .f32⟩
  | 3 => ⟨S64, .f32⟩
  | 4 => ⟨S1x64, .f32⟩
  | 5 => ⟨S_, .f32⟩
  | 6 => ⟨S1x64, .f32⟩
  | 7 => ⟨S1x64, .f32⟩
  | 8 => ⟨S100000x64, .f32⟩
  | 9 => ⟨S100000x64, .f32⟩
  | 10 => ⟨S100000x64, .f32⟩
  | 11 => ⟨S_, .f32⟩
  | 12 => ⟨S_, .f32⟩
  | 13 => ⟨S_, .f32⟩
  | 14 => ⟨S_, .f32⟩
  | 15 => ⟨S64, .f32⟩
  | 16 => ⟨S64, .f32⟩
  | 17 => ⟨S64, .f32⟩
  | 18 => ⟨S_, .f32⟩
  | 19 => ⟨S_, .i1⟩
  | 20 => ⟨S_, .f32⟩
  | 21 => ⟨S_, .f32⟩
  | 22 => ⟨S64, .f32⟩
  | 23 => ⟨S64, .f32⟩
  | 24 => ⟨S1x64, .f32⟩
  | 25 => ⟨S1x64, .f32⟩
  | 26 => ⟨S1x64, .f32⟩
  | 27 => ⟨S100000x64, .f32⟩
  | 28 => ⟨S64x64, .f32⟩
  | 29 => ⟨S64x64, .f32⟩
  | 30 => ⟨S64x64, .f32⟩
  | 31 => ⟨S64x64, .f32⟩
  | 32 => ⟨S1x64, .f32⟩
  | 33 => ⟨S1x1, .f32⟩
  | 34 => ⟨S1x64, .f32⟩
  | 35 => ⟨S1x129, .f32⟩
  | 36 => ⟨S100000x129, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S64x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S1x64, .f32⟩
  | .local _ .vmem, ⟨51, _⟩ => ⟨S1x64, .f32⟩
  | .local _ .vmem, ⟨52, _⟩ => ⟨S1x64, .f32⟩
  | .local _ .vmem, ⟨53, _⟩ => ⟨S1x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S5000x64, .f32⟩
  | .local _ .vmem, ⟨60, _⟩ => ⟨S64x64, .f32⟩
  | .local _ .vmem, ⟨61, _⟩ => ⟨S64x64, .f32⟩
  | .local _ .vmem, ⟨62, _⟩ => ⟨S64x64, .f32⟩
  | .local _ .vmem, ⟨63, _⟩ => ⟨S64x64, .f32⟩
  | .local _ .vmem, ⟨64, _⟩ => ⟨S1x64, .f32⟩
  | .local _ .vmem, ⟨65, _⟩ => ⟨S1x1, .f32⟩
  | .local _ .vmem, ⟨66, _⟩ => ⟨S64x64, .f32⟩
  | .local _ .vmem, ⟨67, _⟩ => ⟨S1x64, .f32⟩
  | .local _ .vmem, ⟨68, _⟩ => ⟨S64x129, .f32⟩
  | .local _ .vmem, ⟨69, _⟩ => ⟨S1x129, .f32⟩
  | .local _ .vmem, ⟨70, _⟩ => ⟨S5000x129, .f32⟩
  | .local _ .vmem, ⟨71, _⟩ => ⟨S5000x129, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_cst_0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst_1 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_v7 : Ref sig .tc := ⟨.hbm, 41, rfl⟩
abbrev main_v8 : Ref sig .tc := ⟨.hbm, 42, rfl⟩
abbrev main_cst_3 : Ref sig .tc := ⟨.hbm, 43, rfl⟩
abbrev main_call1_v0 : Ref sig .tc := ⟨.hbm, 44, rfl⟩
abbrev main_call1_v1 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_c : Ref sig .tc := ⟨.hbm, 51, rfl⟩
abbrev main_v14 : Ref sig .tc := ⟨.hbm, 52, rfl⟩
abbrev main_v15 : Ref sig .tc := ⟨.hbm, 53, rfl⟩
abbrev main_c_4 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_cst_5 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_cst_6 : Ref sig .tc := ⟨.hbm, 69, rfl⟩
abbrev main_v29 : Ref sig .tc := ⟨.hbm, 70, rfl⟩
abbrev main_cst_7 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_c_8 : Ref sig .tc := ⟨.hbm, 75, rfl⟩
abbrev main_call2_cst : Ref sig .tc := ⟨.hbm, 76, rfl⟩
abbrev main_call2_v0 : Ref sig .tc := ⟨.hbm, 77, rfl⟩
abbrev main_call2_v1 : Ref sig .tc := ⟨.hbm, 78, rfl⟩
abbrev main_call2_cst_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_v6 : Ref sig .tc := ⟨.hbm, 84, rfl⟩
abbrev main_call2_v7 : Ref sig .tc := ⟨.hbm, 85, rfl⟩
abbrev main_call2_cst_1 : Ref sig .tc := ⟨.hbm, 86, rfl⟩
abbrev main_call2_v8 : Ref sig .tc := ⟨.hbm, 87, rfl⟩
abbrev main_call2_cst_2 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_cst_3 : Ref sig .tc := ⟨.hbm, 92, rfl⟩
abbrev main_call2_v12 : Ref sig .tc := ⟨.hbm, 93, rfl⟩
abbrev main_call2_cst_4 : Ref sig .tc := ⟨.hbm, 94, rfl⟩
abbrev main_call2_call0_v0 : Ref sig .tc := ⟨.hbm, 95, rfl⟩
abbrev main_call2_call0_v1 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_c_9 : Ref sig .tc := ⟨.hbm, 105, rfl⟩
abbrev main_v41 : Ref sig .tc := ⟨.hbm, 106, rfl⟩
abbrev main_v42 : Ref sig .tc := ⟨.hbm, 107, rfl⟩
abbrev main_c_10 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_cst_11 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_cst_12 : Ref sig .tc := ⟨.hbm, 123, rfl⟩
abbrev main_v56 : Ref sig .tc := ⟨.hbm, 124, rfl⟩
abbrev main_cst_13 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_c_14 : Ref sig .tc := ⟨.hbm, 129, rfl⟩
abbrev main_call3_cst : Ref sig .tc := ⟨.hbm, 130, rfl⟩
abbrev main_call3_v0 : Ref sig .tc := ⟨.hbm, 131, rfl⟩
abbrev main_call3_v1 : Ref sig .tc := ⟨.hbm, 132, rfl⟩
abbrev main_call3_cst_0 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_call3_v5 : Ref sig .tc := ⟨.hbm, 137, rfl⟩
abbrev main_call3_v6 : Ref sig .tc := ⟨.hbm, 138, rfl⟩
abbrev main_call3_v7 : Ref sig .tc := ⟨.hbm, 139, rfl⟩
abbrev main_call3_cst_1 : Ref sig .tc := ⟨.hbm, 140, rfl⟩
abbrev main_call3_v8 : Ref sig .tc := ⟨.hbm, 141, rfl⟩
abbrev main_call3_cst_2 : Ref sig .tc := ⟨.hbm, 142, rfl⟩
abbrev main_call3_v9 : Ref sig .tc := ⟨.hbm, 143, rfl⟩
abbrev main_call3_v10 : Ref sig .tc := ⟨.hbm, 144, rfl⟩
abbrev main_call3_v11 : Ref sig .tc := ⟨.hbm, 145, rfl⟩
abbrev main_call3_cst_3 : Ref sig .tc := ⟨.hbm, 146, rfl⟩
abbrev main_call3_v12 : Ref sig .tc := ⟨.hbm, 147, rfl⟩
abbrev main_call3_cst_4 : Ref sig .tc := ⟨.hbm, 148, rfl⟩
abbrev main_call3_call0_v0 : Ref sig .tc := ⟨.hbm, 149, rfl⟩
abbrev main_call3_call0_v1 : Ref sig .tc := ⟨.hbm, 150, rfl⟩
abbrev main_v60 : Ref sig .tc := ⟨.hbm, 151, rfl⟩
abbrev main_v61 : Ref sig .tc := ⟨.hbm, 152, rfl⟩
abbrev main_v62 : Ref sig .tc := ⟨.hbm, 153, rfl⟩
abbrev main_v63 : Ref sig .tc := ⟨.hbm, 154, rfl⟩
abbrev main_v64 : Ref sig .tc := ⟨.hbm, 155, rfl⟩
abbrev main_cst_15 : Ref sig .tc := ⟨.hbm, 156, rfl⟩
abbrev main_v65 : Ref sig .tc := ⟨.hbm, 157, rfl⟩
abbrev main_cst_16 : Ref sig .tc := ⟨.hbm, 158, rfl⟩
abbrev main_v66 : Ref sig .tc := ⟨.hbm, 159, rfl⟩
abbrev main_v67 : Ref sig .tc := ⟨.hbm, 160, rfl⟩
abbrev main_v68 : Ref sig .tc := ⟨.hbm, 161, rfl⟩
abbrev main_cst_17 : Ref sig .tc := ⟨.hbm, 162, rfl⟩
abbrev main_v69 : Ref sig .tc := ⟨.hbm, 163, rfl⟩
abbrev main_v70 : Ref sig .tc := ⟨.hbm, 164, rfl⟩
abbrev main_v71 : Ref sig .tc := ⟨.hbm, 165, rfl⟩
abbrev main_cst_18 : Ref sig .tc := ⟨.hbm, 166, rfl⟩
abbrev main_call4_v0 : Ref sig .tc := ⟨.hbm, 167, rfl⟩
abbrev main_call4_v1 : Ref sig .tc := ⟨.hbm, 168, rfl⟩
abbrev main_v72 : Ref sig .tc := ⟨.hbm, 169, rfl⟩
abbrev main_v73 : Ref sig .tc := ⟨.hbm, 170, rfl⟩
abbrev main_cst_19 : Ref sig .tc := ⟨.hbm, 171, rfl⟩
abbrev main_call5_v0 : Ref sig .tc := ⟨.hbm, 172, rfl⟩
abbrev main_call5_v1 : Ref sig .tc := ⟨.hbm, 173, rfl⟩
abbrev main_v74 : Ref sig .tc := ⟨.hbm, 174, rfl⟩
abbrev main_v75 : Ref sig .tc := ⟨.hbm, 175, rfl⟩
abbrev main_v76 : Ref sig .tc := ⟨.hbm, 176, rfl⟩
abbrev main_v77 : Ref sig .tc := ⟨.hbm, 177, rfl⟩
abbrev main_v78 : Ref sig .tc := ⟨.hbm, 178, rfl⟩
abbrev main_c_20 : Ref sig .tc := ⟨.hbm, 179, rfl⟩
abbrev main_v79 : Ref sig .tc := ⟨.hbm, 180, rfl⟩
abbrev main_v80 : Ref sig .tc := ⟨.hbm, 181, rfl⟩
abbrev main_c_21 : Ref sig .tc := ⟨.hbm, 182, rfl⟩
abbrev main_v81 : Ref sig .tc := ⟨.hbm, 183, rfl⟩
abbrev main_v82 : Ref sig .tc := ⟨.hbm, 184, rfl⟩
abbrev main_v83 : Ref sig .tc := ⟨.hbm, 185, rfl⟩
abbrev main_v84 : Ref sig .tc := ⟨.hbm, 186, rfl⟩
abbrev main_v85 : Ref sig .tc := ⟨.hbm, 187, rfl⟩
abbrev main_cst_22 : Ref sig .tc := ⟨.hbm, 188, rfl⟩
abbrev main_v86 : Ref sig .tc := ⟨.hbm, 189, rfl⟩
abbrev main_v87 : Ref sig .tc := ⟨.hbm, 190, rfl⟩
abbrev main_v88 : Ref sig .tc := ⟨.hbm, 191, rfl⟩
abbrev main_v89 : Ref sig .tc := ⟨.hbm, 192, rfl⟩
abbrev main_v90 : Ref sig .tc := ⟨.hbm, 193, rfl⟩
abbrev main_v91 : Ref sig .tc := ⟨.hbm, 194, rfl⟩
abbrev main_v92 : Ref sig .tc := ⟨.hbm, 195, rfl⟩
abbrev main_v93 : Ref sig .tc := ⟨.hbm, 196, rfl⟩
abbrev main_cst_23 : Ref sig .tc := ⟨.hbm, 197, rfl⟩
abbrev main_v94 : Ref sig .tc := ⟨.hbm, 198, rfl⟩
abbrev main_cst_24 : Ref sig .tc := ⟨.hbm, 199, rfl⟩
abbrev main_v95 : Ref sig .tc := ⟨.hbm, 200, rfl⟩
abbrev main_v96 : Ref sig .tc := ⟨.hbm, 201, rfl⟩
abbrev main_v97 : Ref sig .tc := ⟨.hbm, 202, rfl⟩
abbrev main_c_25 : Ref sig .tc := ⟨.hbm, 203, rfl⟩
abbrev main_call6_cst : Ref sig .tc := ⟨.hbm, 204, rfl⟩
abbrev main_call6_v0 : Ref sig .tc := ⟨.hbm, 205, rfl⟩
abbrev main_call6_v1 : Ref sig .tc := ⟨.hbm, 206, rfl⟩
abbrev main_call6_cst_0 : Ref sig .tc := ⟨.hbm, 207, rfl⟩
abbrev main_call6_v2 : Ref sig .tc := ⟨.hbm, 208, rfl⟩
abbrev main_call6_v3 : Ref sig .tc := ⟨.hbm, 209, rfl⟩
abbrev main_call6_v4 : Ref sig .tc := ⟨.hbm, 210, rfl⟩
abbrev main_call6_v5 : Ref sig .tc := ⟨.hbm, 211, rfl⟩
abbrev main_call6_v6 : Ref sig .tc := ⟨.hbm, 212, rfl⟩
abbrev main_call6_v7 : Ref sig .tc := ⟨.hbm, 213, rfl⟩
abbrev main_call6_cst_1 : Ref sig .tc := ⟨.hbm, 214, rfl⟩
abbrev main_call6_v8 : Ref sig .tc := ⟨.hbm, 215, rfl⟩
abbrev main_call6_cst_2 : Ref sig .tc := ⟨.hbm, 216, rfl⟩
abbrev main_call6_v9 : Ref sig .tc := ⟨.hbm, 217, rfl⟩
abbrev main_call6_v10 : Ref sig .tc := ⟨.hbm, 218, rfl⟩
abbrev main_call6_v11 : Ref sig .tc := ⟨.hbm, 219, rfl⟩
abbrev main_call6_cst_3 : Ref sig .tc := ⟨.hbm, 220, rfl⟩
abbrev main_call6_v12 : Ref sig .tc := ⟨.hbm, 221, rfl⟩
abbrev main_call6_cst_4 : Ref sig .tc := ⟨.hbm, 222, rfl⟩
abbrev main_call6_call0_v0 : Ref sig .tc := ⟨.hbm, 223, rfl⟩
abbrev main_call6_call0_v1 : Ref sig .tc := ⟨.hbm, 224, rfl⟩
abbrev main_v98 : Ref sig .tc := ⟨.hbm, 225, rfl⟩
abbrev main_v99 : Ref sig .tc := ⟨.hbm, 226, rfl⟩
abbrev main_v100 : Ref sig .tc := ⟨.hbm, 227, rfl⟩
abbrev main_v101 : Ref sig .tc := ⟨.hbm, 228, rfl⟩
abbrev main_v102 : Ref sig .tc := ⟨.hbm, 229, rfl⟩
abbrev main_v103 : Ref sig .tc := ⟨.hbm, 230, rfl⟩
abbrev main_v104 : Ref sig .tc := ⟨.hbm, 231, rfl⟩
abbrev main_v105 : Ref sig .tc := ⟨.hbm, 232, rfl⟩
abbrev main_c_26 : Ref sig .tc := ⟨.hbm, 233, rfl⟩
abbrev main_v106 : Ref sig .tc := ⟨.hbm, 234, rfl⟩
abbrev main_v107 : Ref sig .tc := ⟨.hbm, 235, rfl⟩
abbrev main_c_27 : Ref sig .tc := ⟨.hbm, 236, rfl⟩
abbrev main_v108 : Ref sig .tc := ⟨.hbm, 237, rfl⟩
abbrev main_v109 : Ref sig .tc := ⟨.hbm, 238, rfl⟩
abbrev main_v110 : Ref sig .tc := ⟨.hbm, 239, rfl⟩
abbrev main_v111 : Ref sig .tc := ⟨.hbm, 240, rfl⟩
abbrev main_v112 : Ref sig .tc := ⟨.hbm, 241, rfl⟩
abbrev main_cst_28 : Ref sig .tc := ⟨.hbm, 242, rfl⟩
abbrev main_v113 : Ref sig .tc := ⟨.hbm, 243, rfl⟩
abbrev main_v114 : Ref sig .tc := ⟨.hbm, 244, rfl⟩
abbrev main_v115 : Ref sig .tc := ⟨.hbm, 245, rfl⟩
abbrev main_v116 : Ref sig .tc := ⟨.hbm, 246, rfl⟩
abbrev main_v117 : Ref sig .tc := ⟨.hbm, 247, rfl⟩
abbrev main_v118 : Ref sig .tc := ⟨.hbm, 248, rfl⟩
abbrev main_v119 : Ref sig .tc := ⟨.hbm, 249, rfl⟩
abbrev main_v120 : Ref sig .tc := ⟨.hbm, 250, rfl⟩
abbrev main_cst_29 : Ref sig .tc := ⟨.hbm, 251, rfl⟩
abbrev main_v121 : Ref sig .tc := ⟨.hbm, 252, rfl⟩
abbrev main_cst_30 : Ref sig .tc := ⟨.hbm, 253, rfl⟩
abbrev main_v122 : Ref sig .tc := ⟨.hbm, 254, rfl⟩
abbrev main_v123 : Ref sig .tc := ⟨.hbm, 255, rfl⟩
abbrev main_v124 : Ref sig .tc := ⟨.hbm, 256, rfl⟩
abbrev main_c_31 : Ref sig .tc := ⟨.hbm, 257, rfl⟩
abbrev main_call7_cst : Ref sig .tc := ⟨.hbm, 258, rfl⟩
abbrev main_call7_v0 : Ref sig .tc := ⟨.hbm, 259, rfl⟩
abbrev main_call7_v1 : Ref sig .tc := ⟨.hbm, 260, rfl⟩
abbrev main_call7_cst_0 : Ref sig .tc := ⟨.hbm, 261, rfl⟩
abbrev main_call7_v2 : Ref sig .tc := ⟨.hbm, 262, rfl⟩
abbrev main_call7_v3 : Ref sig .tc := ⟨.hbm, 263, rfl⟩
abbrev main_call7_v4 : Ref sig .tc := ⟨.hbm, 264, rfl⟩
abbrev main_call7_v5 : Ref sig .tc := ⟨.hbm, 265, rfl⟩
abbrev main_call7_v6 : Ref sig .tc := ⟨.hbm, 266, rfl⟩
abbrev main_call7_v7 : Ref sig .tc := ⟨.hbm, 267, rfl⟩
abbrev main_call7_cst_1 : Ref sig .tc := ⟨.hbm, 268, rfl⟩
abbrev main_call7_v8 : Ref sig .tc := ⟨.hbm, 269, rfl⟩
abbrev main_call7_cst_2 : Ref sig .tc := ⟨.hbm, 270, rfl⟩
abbrev main_call7_v9 : Ref sig .tc := ⟨.hbm, 271, rfl⟩
abbrev main_call7_v10 : Ref sig .tc := ⟨.hbm, 272, rfl⟩
abbrev main_call7_v11 : Ref sig .tc := ⟨.hbm, 273, rfl⟩
abbrev main_call7_cst_3 : Ref sig .tc := ⟨.hbm, 274, rfl⟩
abbrev main_call7_v12 : Ref sig .tc := ⟨.hbm, 275, rfl⟩
abbrev main_call7_cst_4 : Ref sig .tc := ⟨.hbm, 276, rfl⟩
abbrev main_call7_call0_v0 : Ref sig .tc := ⟨.hbm, 277, rfl⟩
abbrev main_call7_call0_v1 : Ref sig .tc := ⟨.hbm, 278, rfl⟩
abbrev main_v125 : Ref sig .tc := ⟨.hbm, 279, rfl⟩
abbrev main_v126 : Ref sig .tc := ⟨.hbm, 280, rfl⟩
abbrev main_v127 : Ref sig .tc := ⟨.hbm, 281, rfl⟩
abbrev main_v128 : Ref sig .tc := ⟨.hbm, 282, rfl⟩
abbrev main_v129 : Ref sig .tc := ⟨.hbm, 283, rfl⟩
abbrev main_v130 : Ref sig .tc := ⟨.hbm, 284, rfl⟩
abbrev main_v131 : Ref sig .tc := ⟨.hbm, 285, rfl⟩
abbrev main_v132 : Ref sig .tc := ⟨.hbm, 286, rfl⟩
abbrev main_v133 : Ref sig .tc := ⟨.hbm, 287, rfl⟩
abbrev main_v134 : Ref sig .tc := ⟨.hbm, 288, rfl⟩
abbrev main_v135 : Ref sig .tc := ⟨.hbm, 289, rfl⟩
abbrev main_v136 : Ref sig .tc := ⟨.hbm, 290, rfl⟩
abbrev main_v137 : Ref sig .tc := ⟨.hbm, 291, rfl⟩
abbrev main_v138 : Ref sig .tc := ⟨.hbm, 292, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg5_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg3_0 : Ref sig .tc := ⟨.vmem, 52, rfl⟩
abbrev cc7_stg4_0 : Ref sig .tc := ⟨.vmem, 53, rfl⟩
abbrev cc7_stg5_0 : Ref sig .tc := ⟨.vmem, 54, rfl⟩
abbrev cc7_stg5_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_stg3_0 : Ref sig .tc := ⟨.vmem, 61, rfl⟩
abbrev cc8_stg4_0 : Ref sig .tc := ⟨.vmem, 62, rfl⟩
abbrev cc8_stg5_0 : Ref sig .tc := ⟨.vmem, 63, rfl⟩
abbrev cc8_stg6_0 : Ref sig .tc := ⟨.vmem, 64, rfl⟩
abbrev cc8_stg7_0 : Ref sig .tc := ⟨.vmem, 65, rfl⟩
abbrev cc8_stg8_0 : Ref sig .tc := ⟨.vmem, 66, rfl⟩
abbrev cc8_stg9_0 : Ref sig .tc := ⟨.vmem, 67, rfl⟩
abbrev cc8_stg10_0 : Ref sig .tc := ⟨.vmem, 68, rfl⟩
abbrev cc8_stg11_0 : Ref sig .tc := ⟨.vmem, 69, rfl⟩
abbrev cc8_stg12_0 : Ref sig .tc := ⟨.vmem, 70, rfl⟩
abbrev cc8_stg12_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem4_0 : DmaSem sig := 39
abbrev cc5_sem5_0 : DmaSem sig := 40
abbrev cc5_sem5_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem3_1 : DmaSem sig := 47
abbrev cc7_sem0_0 : DmaSem sig := 48
abbrev cc7_sem0_1 : DmaSem sig := 49
abbrev cc7_sem1_0 : DmaSem sig := 50
abbrev cc7_sem2_0 : DmaSem sig := 51
abbrev cc7_sem3_0 : DmaSem sig := 52
abbrev cc7_sem4_0 : DmaSem sig := 53
abbrev cc7_sem5_0 : DmaSem sig := 54
abbrev cc7_sem5_1 : DmaSem sig := 55
abbrev cc8_sem0_0 : DmaSem sig := 56
abbrev cc8_sem0_1 : DmaSem sig := 57
abbrev cc8_sem1_0 : DmaSem sig := 58
abbrev cc8_sem1_1 : DmaSem sig := 59
abbrev cc8_sem2_0 : DmaSem sig := 60
abbrev cc8_sem3_0 : DmaSem sig := 61
abbrev cc8_sem4_0 : DmaSem sig := 62
abbrev cc8_sem5_0 : DmaSem sig := 63
abbrev cc8_sem6_0 : DmaSem sig := 64
abbrev cc8_sem7_0 : DmaSem sig := 65
abbrev cc8_sem8_0 : DmaSem sig := 66
abbrev cc8_sem9_0 : DmaSem sig := 67
abbrev cc8_sem10_0 : DmaSem sig := 68
abbrev cc8_sem11_0 : DmaSem sig := 69
abbrev cc8_sem12_0 : DmaSem sig := 70
abbrev cc8_sem12_1 : DmaSem sig := 71

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_10 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_11 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_12 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S64x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S64x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x64 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x1 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S64x64 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S1x64 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 1 → Memref sig .tc .vmem S64x129 .f32 := fun | 0 => Memref.whole cc8_stg10_0 | ⟨_ + 1, h⟩ => absurd h (Nat.not_lt.2 (Nat.le_add_left _ _))
abbrev sem8_10 : Fin 1 → DmaSem sig := fun | 0 => cc8_sem10_0 | ⟨_ + 1, h⟩ => absurd h (Nat.not_lt.2 (Nat.le_add_left _ _))
abbrev reads8_10 : Fin grid8.rank → Bool := ![false]

abbrev stage8_11 : Fin 1 → Memref sig .tc .vmem S1x129 .f32 := fun | 0 => Memref.whole cc8_stg11_0 | ⟨_ + 1, h⟩ => absurd h (Nat.not_lt.2 (Nat.le_add_left _ _))
abbrev sem8_11 : Fin 1 → DmaSem sig := fun | 0 => cc8_sem11_0 | ⟨_ + 1, h⟩ => absurd h (Nat.not_lt.2 (Nat.le_add_left _ _))
abbrev reads8_11 : Fin grid8.rank → Bool := ![false]

abbrev stage8_12 : Fin 2 → Memref sig .tc .vmem S5000x129 .f32 := fun | 0 => Memref.whole cc8_stg12_0 | 1 => Memref.whole cc8_stg12_1 | ⟨_ + 2, h⟩ => absurd h (Nat.not_lt.2 (Nat.le_add_left _ _))
abbrev sem8_12 : Fin 2 → DmaSem sig := fun | 0 => cc8_sem12_0 | 1 => cc8_sem12_1 | ⟨_ + 2, h⟩ => absurd h (Nat.not_lt.2 (Nat.le_add_left _ _))
abbrev reads8_12 : Fin grid8.rank → Bool := ![true]

class Facts₀ : Prop where
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  slices_S256x64_S64x64_0_0 : S256x64.Slices ![0, 0] S64x64
  slices_S256x64_S64x64_64_0 : S256x64.Slices ![64, 0] S64x64
  slices_S256x64_S64x64_128_0 : S256x64.Slices ![128, 0] S64x64
  slices_S256x64_S64x64_192_0 : S256x64.Slices ![192, 0] S64x64
  shapeCasts_S1_S1x1 : S1.ShapeCasts S1x1
  shapeCasts_S129_S1x129 : S129.ShapeCasts S1x129
  shapeCasts_S64x64_S64x64 : S64x64.ShapeCasts S64x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x64 : S1x1.Broadcasts S5000x64
  inb_S64x129_S64x129_0_0 : ∀ a, (![0, 0] : Fin 2 → Nat) a + S64x129.size a ≤ S64x129.size a
  h_S64x129 : 0 < S64x129.numel
  inb_S1x129_S1x129_0_0 : ∀ a, (![0, 0] : Fin 2 → Nat) a + S1x129.size a ≤ S1x129.size a
  h_S1x129 : 0 < S1x129.numel
  shapeCasts_S1x129_S1x129 : S1x129.ShapeCasts S1x129
  broadcasts_S1x129_S5000x129 : S1x129.Broadcasts S5000x129
  inb_S5000x129_S5000x129_0_0 : ∀ a, (![0, 0] : Fin 2 → Nat) a + S5000x129.size a ≤ S5000x129.size a
  h_S5000x129 : 0 < S5000x129.numel
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x64_S64x64_S5000x64_1_0_0_1_n_n_wf : DotDims.WF S5000x64 S64x64 S5000x64 [1] [0] [0] [1] [] []
  dot_S5000x64_S64x129_S5000x129_1_0_0_1_n_n_wf : DotDims.WF S5000x64 S64x129 S5000x129 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S100000x64.size a
  hwx5_5 : ∀ i : grid5.Coords, EltTy.bits .f32 = 32 ∨ (Rect.block (s := S100000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S100000x64.size a
  hwx6_3 : ∀ i : grid6.Coords, EltTy.bits .f32 = 32 ∨ (Rect.block (s := S100000x64) S5000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x64.size a ≤ S100000x64.size a
  hwx7_5 : ∀ i : grid7.Coords, EltTy.bits .f32 = 32 ∨ (Rect.block (s := S100000x64) S5000x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S100000x64.size a
  hwx8_1 : ∀ i : grid8.Coords, EltTy.bits .f32 = 32 ∨ (Rect.block (s := S100000x64) S5000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x64.size a ≤ S64x64.size a
  hwx8_2 : ∀ i : grid8.Coords, EltTy.bits .f32 = 32 ∨ (Rect.block (s := S64x64) S64x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x64.size a ≤ S64x64.size a
  hwx8_3 : ∀ i : grid8.Coords, EltTy.bits .f32 = 32 ∨ (Rect.block (s := S64x64) S64x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S64x64.size a ≤ S64x64.size a
  hwx8_4 : ∀ i : grid8.Coords, EltTy.bits .f32 = 32 ∨ (Rect.block (s := S64x64) S64x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S64x64.size a ≤ S64x64.size a
  hwx8_5 : ∀ i : grid8.Coords, EltTy.bits .f32 = 32 ∨ (Rect.block (s := S64x64) S64x64.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x64.size a ≤ S1x64.size a
  hwx8_6 : ∀ i : grid8.Coords, EltTy.bits .f32 = 32 ∨ (Rect.block (s := S1x64) S1x64.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x1.size a ≤ S1x1.size a
  hwx8_7 : ∀ i : grid8.Coords, EltTy.bits .f32 = 32 ∨ (Rect.block (s := S1x1) S1x1.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S64x64.size a ≤ S64x64.size a
  hwx8_8 : ∀ i : grid8.Coords, EltTy.bits .f32 = 32 ∨ (Rect.block (s := S64x64) S64x64.size (cc8_transform_8 i) (hinb8_8 i)).WholeWords (EltTy.packing .f32)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S1x64.size a ≤ S1x64.size a
  hwx8_9 : ∀ i : grid8.Coords, EltTy.bits .f32 = 32 ∨ (Rect.block (s := S1x64) S1x64.size (cc8_transform_9 i) (hinb8_9 i)).WholeWords (EltTy.packing .f32)
  hstage8_10 : ∀ j, (stage8_10 j).IsWhole
  nbuf8_10 : grid8.bufCount reads8_10 true = 1
  hreads8_10 : ∀ i i' : grid8.Coords, (∀ a, reads8_10 a = true → i a = i' a) → cc8_transform_10 i = cc8_transform_10 i'
  hinb8_10 : ∀ (i : grid8.Coords) a, (cc8_transform_10 i a + 1) * S64x129.size a ≤ S64x129.size a
  hwx8_10 : ∀ i : grid8.Coords, EltTy.bits .f32 = 32 ∨ (Rect.block (s := S64x129) S64x129.size (cc8_transform_10 i) (hinb8_10 i)).WholeWords (EltTy.packing .f32)
  hstage8_11 : ∀ j, (stage8_11 j).IsWhole
  nbuf8_11 : grid8.bufCount reads8_11 true = 1
  hreads8_11 : ∀ i i' : grid8.Coords, (∀ a, reads8_11 a = true → i a = i' a) → cc8_transform_11 i = cc8_transform_11 i'
  hinb8_11 : ∀ (i : grid8.Coords) a, (cc8_transform_11 i a + 1) * S1x129.size a ≤ S1x129.size a
  hwx8_11 : ∀ i : grid8.Coords, EltTy.bits .f32 = 32 ∨ (Rect.block (s := S1x129) S1x129.size (cc8_transform_11 i) (hinb8_11 i)).WholeWords (EltTy.packing .f32)
  hstage8_12 : ∀ j, (stage8_12 j).IsWhole
  nbuf8_12 : grid8.bufCount reads8_12 false = 2
  hreads8_12 : ∀ i i' : grid8.Coords, (∀ a, reads8_12 a = true → i a = i' a) → cc8_transform_12 i = cc8_transform_12 i'
  hinb8_12 : ∀ (i : grid8.Coords) a, (cc8_transform_12 i a + 1) * S5000x129.size a ≤ S100000x129.size a
  hwx8_12 : ∀ i : grid8.Coords, EltTy.bits .f32 = 32 ∨ (Rect.block (s := S100000x129) S5000x129.size (cc8_transform_12 i) (hinb8_12 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x129_S5000x129_1_0_0_1_n_n : DotDims S5000x64 S64x129 S5000x129 where
  lhsContracting := [1]
  rhsContracting := [0]
  lhsNonContracting := [0]
  rhsNonContracting := [1]
  lhsBatch := []
  rhsBatch := []
  wf := dot_S5000x64_S64x129_S5000x129_1_0_0_1_n_n_wf

abbrev win0_0 : Pipeline.Window sig grid0 :=
  Pipeline.Window.ofSpec (Memref.whole main_v26) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v55) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v64) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v91) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v92) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v93) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v93) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v97) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v99) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v100) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v101) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v102) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v118) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg17) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v119) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v120) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v120) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v124) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v126) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v127) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v128) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v129) S5000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v64) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v129) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v130) S64x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v131) S64x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v132) S64x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v133) S64x64.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v134) S1x64.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v135) S1x1.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_arg24) S64x64.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v136) S1x64.size cc8_transform_9 reads8_9 false true 1 stage8_9 sem8_9
    hrank8 hreads8_9 hinb8_9 nbuf8_9 (Memref.isWhole_whole _) hwx8_9 hstage8_9

abbrev win8_10 : Pipeline.Window sig grid8 :=
  Pipeline.Window.ofSpec (Memref.whole main_arg26) S64x129.size cc8_transform_10 reads8_10 false true 1 stage8_10 sem8_10
    hrank8 hreads8_10 hinb8_10 nbuf8_10 (Memref.isWhole_whole _) hwx8_10 hstage8_10

abbrev win8_11 : Pipeline.Window sig grid8 :=
  Pipeline.Window.ofSpec (Memref.whole main_v137) S1x129.size cc8_transform_11 reads8_11 false true 1 stage8_11 sem8_11
    hrank8 hreads8_11 hinb8_11 nbuf8_11 (Memref.isWhole_whole _) hwx8_11 hstage8_11

abbrev win8_12 : Pipeline.Window sig grid8 :=
  Pipeline.Window.ofSpec (Memref.whole main_v138) S5000x129.size cc8_transform_12 reads8_12 true false 2 stage8_12 sem8_12
    hrank8 hreads8_12 hinb8_12 nbuf8_12 (Memref.isWhole_whole _) hwx8_12 hstage8_12

abbrev win8 : Fin 13 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | 11 => win8_11 | 12 => win8_12 | ⟨_ + 13, h⟩ => absurd h (Nat.not_lt.2 (Nat.le_add_left _ _))
abbrev spec8 : Fin 13 → Pipeline.WinSpec sig grid8.rank := fun w => (win8 w).toWinSpec

class Facts : Prop extends Facts₀ where

variable [Facts]
-- ==== ReferenceIdeal.lean ====
abbrev S100000x64 : Shape := ⟨2, ![100000, 64]⟩
abbrev S1250000 : Shape := ⟨1, ![1250000]⟩
abbrev S64x64 : Shape := ⟨2, ![64, 64]⟩
abbrev S64 : Shape := ⟨1, ![64]⟩
abbrev S256x64 : Shape := ⟨2, ![256, 64]⟩
abbrev S1 : Shape := ⟨1, ![1]⟩
abbrev S64x129 : Shape := ⟨2, ![64, 129]⟩
abbrev S129 : Shape := ⟨1, ![129]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1250000x64 : Shape := ⟨2, ![1250000, 64]⟩
abbrev S1x64 : Shape := ⟨2, ![1, 64]⟩
abbrev S100000x256 : Shape := ⟨2, ![100000, 256]⟩
abbrev S1x1 : Shape := ⟨2, ![1, 1]⟩
abbrev S100000x129 : Shape := ⟨2, ![100000, 129]⟩
abbrev S1x129 : Shape := ⟨2, ![1, 129]⟩

abbrev nBuf : Space → Nat
  | .hbm => 473
  | .vmem => 0
  | .smem => 0
  | _ => 0

abbrev hbmTy0_0 (i : Nat) : BufTy := match i % 128 with
  | 0 => ⟨S100000x64, .f32⟩
  | 1 => ⟨S1250000, .i32⟩
  | 2 => ⟨S1250000, .i32⟩
  | 3 => ⟨S1250000, .i32⟩
  | 4 => ⟨S1250000, .i32⟩
  | 5 => ⟨S64x64, .f32⟩
  | 6 => ⟨S64, .f32⟩
  | 7 => ⟨S64, .f32⟩
  | 8 => ⟨S64, .f32⟩
  | 9 => ⟨S64x64, .f32⟩
  | 10 => ⟨S64, .f32⟩
  | 11 => ⟨S64, .f32⟩
  | 12 => ⟨S64, .f32⟩
  | 13 => ⟨S64x64, .f32⟩
  | 14 => ⟨S64, .f32⟩
  | 15 => ⟨S64, .f32⟩
  | 16 => ⟨S64, .f32⟩
  | 17 => ⟨S64x64, .f32⟩
  | 18 => ⟨S64, .f32⟩
  | 19 => ⟨S64, .f32⟩
  | 20 => ⟨S64, .f32⟩
  | 21 => ⟨S256x64, .f32⟩
  | 22 => ⟨S64, .f32⟩
  | 23 => ⟨S1, .f32⟩
  | 24 => ⟨S64x64, .f32⟩
  | 25 => ⟨S64, .f32⟩
  | 26 => ⟨S64x129, .f32⟩
  | 27 => ⟨S129, .f32⟩
  | 28 => ⟨S_, .f32⟩
  | 29 => ⟨S1250000, .f32⟩
  | 30 => ⟨S_, .f32⟩
  | 31 => ⟨S100000, .f32⟩
  | 32 => ⟨S1250000x1, .i32⟩
  | 33 => ⟨S100000, .f32⟩
  | 34 => ⟨S_, .f32⟩
  | 35 => ⟨S100000, .f32⟩
  | 36 => ⟨S1250000x1, .i32⟩
  | 37 => ⟨S100000, .f32⟩
  | 38 => ⟨S_, .f32⟩
  | 39 => ⟨S_, .f32⟩
  | 40 => ⟨S100000, .f32⟩
  | 41 => ⟨S100000, .f32⟩
  | 42 => ⟨S100000, .f32⟩
  | 43 => ⟨S_, .f32⟩
  | 44 => ⟨S_, .f32⟩
  | 45 => ⟨S100000, .f32⟩
  | 46 => ⟨S100000, .f32⟩
  | 47 => ⟨S100000, .f32⟩
  | 48 => ⟨S100000x1, .f32⟩
  | 49 => ⟨S100000x64, .f32⟩
  | 50 => ⟨S100000x64, .f32⟩
  | 51 => ⟨S_, .i32⟩
  | 52 => ⟨S1250000, .i32⟩
  | 53 => ⟨S1250000, .i1⟩
  | 54 => ⟨S_, .i32⟩
  | 55 => ⟨S1250000, .i32⟩
  | 56 => ⟨S1250000, .i32⟩
  | 57 => ⟨S1250000, .i32⟩
  | 58 => ⟨S1250000x1, .i32⟩
  | 59 => ⟨S1250000x64, .f32⟩
  | 60 => ⟨S_, .f32⟩
  | 61 => ⟨S100000x64, .f32⟩
  | 62 => ⟨S1250000x1, .i32⟩
  | 63 => ⟨S100000x64, .f32⟩
  | 64 => ⟨S100000x1, .f32⟩
  | 65 => ⟨S100000x64, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .i1⟩
  | 74 => ⟨S_, .f32⟩
  | 75 => ⟨S100000x64, .f32⟩
  | 76 => ⟨S100000x64, .i1⟩
  | 77 => ⟨S_, .f32⟩
  | 78 => ⟨S_, .f32⟩
  | 79 => ⟨S100000x64, .f32⟩
  | 80 => ⟨S100000x64, .f32⟩
  | 81 => ⟨S100000x64, .f32⟩
  | 82 => ⟨S_, .f32⟩
  | 83 => ⟨S100000x64, .f32⟩
  | 84 => ⟨S100000x64, .f32⟩
  | 85 => ⟨S100000x64, .f32⟩
  | 86 => ⟨S_, .f32⟩
  | 87 => ⟨S64, .f32⟩
  | 88 => ⟨S_, .f32⟩
  | 89 => ⟨S64, .f32⟩
  | 90 => ⟨S64, .f32⟩
  | 91 => ⟨S_, .i32⟩
  | 92 => ⟨S_, .f32⟩
  | 93 => ⟨S64, .f32⟩
  | 94 => ⟨S1x64, .f32⟩
  | 95 => ⟨S_, .f32⟩
  | 96 => ⟨S1x64, .f32⟩
  | 97 => ⟨S1x64, .f32⟩
  | 98 => ⟨S100000x64, .f32⟩
  | 99 => ⟨S100000x64, .f32⟩
  | 100 => ⟨S100000x64, .f32⟩
  | 101 => ⟨S_, .f32⟩
  | 102 => ⟨S_, .f32⟩
  | 103 => ⟨S_, .f32⟩
  | 104 => ⟨S_, .f32⟩
  | 105 => ⟨S64, .f32⟩
  | 106 => ⟨S64, .f32⟩
  | 107 => ⟨S64, .f32⟩
  | 108 => ⟨S_, .f32⟩
  | 109 => ⟨S_, .i1⟩
  | 110 => ⟨S_, .f32⟩
  | 111 => ⟨S_, .f32⟩
  | 112 => ⟨S64, .f32⟩
  | 113 => ⟨S64, .f32⟩
  | 114 => ⟨S1x64, .f32⟩
  | 115 => ⟨S100000x64, .f32⟩
  | 116 => ⟨S100000x64, .f32⟩
  | 117 => ⟨S_, .f32⟩
  | 118 => ⟨S64, .f32⟩
  | 119 => ⟨S64, .f32⟩
  | 120 => ⟨S64, .f32⟩
  | 121 => ⟨S1x64, .f32⟩
  | 122 => ⟨S100000x64, .f32⟩
  | 123 => ⟨S100000x64, .f32⟩
  | 124 => ⟨S1x64, .f32⟩
  | 125 => ⟨S100000x64, .f32⟩
  | 126 => ⟨S100000x64, .f32⟩
  | 127 => ⟨S1x64, .f32⟩
  | _ => ⟨S100000x64, .f32⟩

abbrev hbmTy0_1 (i : Nat) : BufTy := match i % 128 with
  | 0 => ⟨S100000x64, .f32⟩
  | 1 => ⟨S100000x64, .f32⟩
  | 2 => ⟨S_, .f32⟩
  | 3 => ⟨S1250000, .f32⟩
  | 4 => ⟨S_, .f32⟩
  | 5 => ⟨S100000, .f32⟩
  | 6 => ⟨S1250000x1, .i32⟩
  | 7 => ⟨S100000, .f32⟩
  | 8 => ⟨S_, .f32⟩
  | 9 => ⟨S100000, .f32⟩
  | 10 => ⟨S1250000x1, .i32⟩
  | 11 => ⟨S100000, .f32⟩
  | 12 => ⟨S_, .f32⟩
  | 13 => ⟨S_, .f32⟩
  | 14 => ⟨S100000, .f32⟩
  | 15 => ⟨S100000, .f32⟩
  | 16 => ⟨S100000, .f32⟩
  | 17 => ⟨S_, .f32⟩
  | 18 => ⟨S_, .f32⟩
  | 19 => ⟨S100000, .f32⟩
  | 20 => ⟨S100000, .f32⟩
  | 21 => ⟨S100000, .f32⟩
  | 22 => ⟨S100000x1, .f32⟩
  | 23 => ⟨S100000x64, .f32⟩
  | 24 => ⟨S100000x64, .f32⟩
  | 25 => ⟨S_, .i32⟩
  | 26 => ⟨S1250000, .i32⟩
  | 27 => ⟨S1250000, .i1⟩
  | 28 => ⟨S_, .i32⟩
  | 29 => ⟨S1250000, .i32⟩
  | 30 => ⟨S1250000, .i32⟩
  | 31 => ⟨S1250000, .i32⟩
  | 32 => ⟨S1250000x1, .i32⟩
  | 33 => ⟨S1250000x64, .f32⟩
  | 34 => ⟨S_, .f32⟩
  | 35 => ⟨S100000x64, .f32⟩
  | 36 => ⟨S1250000x1, .i32⟩
  | 37 => ⟨S100000x64, .f32⟩
  | 38 => ⟨S100000x1, .f32⟩
  | 39 => ⟨S100000x64, .f32⟩
  | 40 => ⟨S100000x64, .f32⟩
  | 41 => ⟨S100000x64, .f32⟩
  | 42 => ⟨S1x64, .f32⟩
  | 43 => ⟨S100000x64, .f32⟩
  | 44 => ⟨S100000x64, .f32⟩
  | 45 => ⟨S_, .f32⟩
  | 46 => ⟨S100000x64, .f32⟩
  | 47 => ⟨S100000x64, .i1⟩
  | 48 => ⟨S_, .f32⟩
  | 49 => ⟨S100000x64, .f32⟩
  | 50 => ⟨S100000x64, .i1⟩
  | 51 => ⟨S_, .f32⟩
  | 52 => ⟨S_, .f32⟩
  | 53 => ⟨S100000x64, .f32⟩
  | 54 => ⟨S100000x64, .f32⟩
  | 55 => ⟨S100000x64, .f32⟩
  | 56 => ⟨S_, .f32⟩
  | 57 => ⟨S100000x64, .f32⟩
  | 58 => ⟨S100000x64, .f32⟩
  | 59 => ⟨S100000x64, .f32⟩
  | 60 => ⟨S_, .f32⟩
  | 61 => ⟨S64, .f32⟩
  | 62 => ⟨S_, .f32⟩
  | 63 => ⟨S64, .f32⟩
  | 64 => ⟨S64, .f32⟩
  | 65 => ⟨S_, .i32⟩
  | 66 => ⟨S_, .f32⟩
  | 67 => ⟨S64, .f32⟩
  | 68 => ⟨S1x64, .f32⟩
  | 69 => ⟨S_, .f32⟩
  | 70 => ⟨S1x64, .f32⟩
  | 71 => ⟨S1x64, .f32⟩
  | 72 => ⟨S100000x64, .f32⟩
  | 73 => ⟨S100000x64, .f32⟩
  | 74 => ⟨S100000x64, .f32⟩
  | 75 => ⟨S_, .f32⟩
  | 76 => ⟨S_, .f32⟩
  | 77 => ⟨S_, .f32⟩
  | 78 => ⟨S_, .f32⟩
  | 79 => ⟨S64, .f32⟩
  | 80 => ⟨S64, .f32⟩
  | 81 => ⟨S64, .f32⟩
  | 82 => ⟨S_, .f32⟩
  | 83 => ⟨S_, .i1⟩
  | 84 => ⟨S_, .f32⟩
  | 85 => ⟨S_, .f32⟩
  | 86 => ⟨S64, .f32⟩
  | 87 => ⟨S64, .f32⟩
  | 88 => ⟨S1x64, .f32⟩
  | 89 => ⟨S100000x64, .f32⟩
  | 90 => ⟨S100000x64, .f32⟩
  | 91 => ⟨S_, .f32⟩
  | 92 => ⟨S64, .f32⟩
  | 93 => ⟨S64, .f32⟩
  | 94 => ⟨S64, .f32⟩
  | 95 => ⟨S1x64, .f32⟩
  | 96 => ⟨S100000x64, .f32⟩
  | 97 => ⟨S100000x64, .f32⟩
  | 98 => ⟨S1x64, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S_, .f32⟩
  | 105 => ⟨S1250000, .f32⟩
  | 106 => ⟨S_, .f32⟩
  | 107 => ⟨S100000, .f32⟩
  | 108 => ⟨S1250000x1, .i32⟩
  | 109 => ⟨S100000, .f32⟩
  | 110 => ⟨S_, .f32⟩
  | 111 => ⟨S100000, .f32⟩
  | 112 => ⟨S1250000x1, .i32⟩
  | 113 => ⟨S100000, .f32⟩
  | 114 => ⟨S_, .f32⟩
  | 115 => ⟨S_, .f32⟩
  | 116 => ⟨S100000, .f32⟩
  | 117 => ⟨S100000, .f32⟩
  | 118 => ⟨S100000, .f32⟩
  | 119 => ⟨S_, .f32⟩
  | 120 => ⟨S_, .f32⟩
  | 121 => ⟨S100000, .f32⟩
  | 122 => ⟨S100000, .f32⟩
  | 123 => ⟨S100000, .f32⟩
  | 124 => ⟨S100000x1, .f32⟩
  | 125 => ⟨S100000x64, .f32⟩
  | 126 => ⟨S100000x64, .f32⟩
  | 127 => ⟨S_, .i32⟩
  | _ => ⟨S100000x64, .f32⟩

abbrev hbmTy0_2 (i : Nat) : BufTy := match i % 128 with
  | 0 => ⟨S1250000, .i32⟩
  | 1 => ⟨S1250000, .i1⟩
  | 2 => ⟨S_, .i32⟩
  | 3 => ⟨S1250000, .i32⟩
  | 4 => ⟨S1250000, .i32⟩
  | 5 => ⟨S1250000, .i32⟩
  | 6 => ⟨S1250000x1, .i32⟩
  | 7 => ⟨S1250000x64, .f32⟩
  | 8 => ⟨S_, .f32⟩
  | 9 => ⟨S100000x64, .f32⟩
  | 10 => ⟨S1250000x1, .i32⟩
  | 11 => ⟨S100000x64, .f32⟩
  | 12 => ⟨S100000x1, .f32⟩
  | 13 => ⟨S100000x64, .f32⟩
  | 14 => ⟨S100000x64, .f32⟩
  | 15 => ⟨S100000x64, .f32⟩
  | 16 => ⟨S1x64, .f32⟩
  | 17 => ⟨S100000x64, .f32⟩
  | 18 => ⟨S100000x64, .f32⟩
  | 19 => ⟨S_, .f32⟩
  | 20 => ⟨S100000x64, .f32⟩
  | 21 => ⟨S100000x64, .i1⟩
  | 22 => ⟨S_, .f32⟩
  | 23 => ⟨S100000x64, .f32⟩
  | 24 => ⟨S100000x64, .i1⟩
  | 25 => ⟨S_, .f32⟩
  | 26 => ⟨S_, .f32⟩
  | 27 => ⟨S100000x64, .f32⟩
  | 28 => ⟨S100000x64, .f32⟩
  | 29 => ⟨S100000x64, .f32⟩
  | 30 => ⟨S_, .f32⟩
  | 31 => ⟨S100000x64, .f32⟩
  | 32 => ⟨S100000x64, .f32⟩
  | 33 => ⟨S100000x64, .f32⟩
  | 34 => ⟨S_, .f32⟩
  | 35 => ⟨S64, .f32⟩
  | 36 => ⟨S_, .f32⟩
  | 37 => ⟨S64, .f32⟩
  | 38 => ⟨S64, .f32⟩
  | 39 => ⟨S_, .i32⟩
  | 40 => ⟨S_, .f32⟩
  | 41 => ⟨S64, .f32⟩
  | 42 => ⟨S1x64, .f32⟩
  | 43 => ⟨S_, .f32⟩
  | 44 => ⟨S1x64, .f32⟩
  | 45 => ⟨S1x64, .f32⟩
  | 46 => ⟨S100000x64, .f32⟩
  | 47 => ⟨S100000x64, .f32⟩
  | 48 => ⟨S100000x64, .f32⟩
  | 49 => ⟨S_, .f32⟩
  | 50 => ⟨S_, .f32⟩
  | 51 => ⟨S_, .f32⟩
  | 52 => ⟨S_, .f32⟩
  | 53 => ⟨S64, .f32⟩
  | 54 => ⟨S64, .f32⟩
  | 55 => ⟨S64, .f32⟩
  | 56 => ⟨S_, .f32⟩
  | 57 => ⟨S_, .i1⟩
  | 58 => ⟨S_, .f32⟩
  | 59 => ⟨S_, .f32⟩
  | 60 => ⟨S64, .f32⟩
  | 61 => ⟨S64, .f32⟩
  | 62 => ⟨S1x64, .f32⟩
  | 63 => ⟨S100000x64, .f32⟩
  | 64 => ⟨S100000x64, .f32⟩
  | 65 => ⟨S_, .f32⟩
  | 66 => ⟨S64, .f32⟩
  | 67 => ⟨S64, .f32⟩
  | 68 => ⟨S64, .f32⟩
  | 69 => ⟨S1x64, .f32⟩
  | 70 => ⟨S100000x64, .f32⟩
  | 71 => ⟨S100000x64, .f32⟩
  | 72 => ⟨S1x64, .f32⟩
  | 73 => ⟨S100000x64, .f32⟩
  | 74 => ⟨S100000x64, .f32⟩
  | 75 => ⟨S1x64, .f32⟩
  | 76 => ⟨S100000x64, .f32⟩
  | 77 => ⟨S100000x64, .f32⟩
  | 78 => ⟨S_, .f32⟩
  | 79 => ⟨S1250000, .f32⟩
  | 80 => ⟨S_, .f32⟩
  | 81 => ⟨S100000, .f32⟩
  | 82 => ⟨S1250000x1, .i32⟩
  | 83 => ⟨S100000, .f32⟩
  | 84 => ⟨S_, .f32⟩
  | 85 => ⟨S100000, .f32⟩
  | 86 => ⟨S1250000x1, .i32⟩
  | 87 => ⟨S100000, .f32⟩
  | 88 => ⟨S_, .f32⟩
  | 89 => ⟨S_, .f32⟩
  | 90 => ⟨S100000, .f32⟩
  | 91 => ⟨S100000, .f32⟩
  | 92 => ⟨S100000, .f32⟩
  | 93 => ⟨S_, .f32⟩
  | 94 => ⟨S_, .f32⟩
  | 95 => ⟨S100000, .f32⟩
  | 96 => ⟨S100000, .f32⟩
  | 97 => ⟨S100000, .f32⟩
  | 98 => ⟨S100000x1, .f32⟩
  | 99 => ⟨S100000x64, .f32⟩
  | 100 => ⟨S100000x64, .f32⟩
  | 101 => ⟨S_, .i32⟩
  | 102 => ⟨S1250000, .i32⟩
  | 103 => ⟨S1250000, .i1⟩
  | 104 => ⟨S_, .i32⟩
  | 105 => ⟨S1250000, .i32⟩
  | 106 => ⟨S1250000, .i32⟩
  | 107 => ⟨S1250000, .i32⟩
  | 108 => ⟨S1250000x1, .i32⟩
  | 109 => ⟨S1250000x64, .f32⟩
  | 110 => ⟨S_, .f32⟩
  | 111 => ⟨S100000x64, .f32⟩
  | 112 => ⟨S1250000x1, .i32⟩
  | 113 => ⟨S100000x64, .f32⟩
  | 114 => ⟨S100000x1, .f32⟩
  | 115 => ⟨S100000x64, .f32⟩
  | 116 => ⟨S100000x64, .f32⟩
  | 117 => ⟨S100000x64, .f32⟩
  | 118 => ⟨S1x64, .f32⟩
  | 119 => ⟨S100000x64, .f32⟩
  | 120 => ⟨S100000x64, .f32⟩
  | 121 => ⟨S_, .f32⟩
  | 122 => ⟨S100000x64, .f32⟩
  | 123 => ⟨S100000x64, .i1⟩
  | 124 => ⟨S_, .f32⟩
  | 125 => ⟨S100000x64, .f32⟩
  | 126 => ⟨S100000x64, .i1⟩
  | 127 => ⟨S_, .f32⟩
  | _ => ⟨S100000x64, .f32⟩

abbrev hbmTy0_3 (i : Nat) : BufTy := match i % 128 with
  | 0 => ⟨S_, .f32⟩
  | 1 => ⟨S100000x64, .f32⟩
  | 2 => ⟨S100000x64, .f32⟩
  | 3 => ⟨S100000x64, .f32⟩
  | 4 => ⟨S_, .f32⟩
  | 5 => ⟨S100000x64, .f32⟩
  | 6 => ⟨S100000x64, .f32⟩
  | 7 => ⟨S100000x64, .f32⟩
  | 8 => ⟨S_, .f32⟩
  | 9 => ⟨S64, .f32⟩
  | 10 => ⟨S_, .f32⟩
  | 11 => ⟨S64, .f32⟩
  | 12 => ⟨S64, .f32⟩
  | 13 => ⟨S_, .i32⟩
  | 14 => ⟨S_, .f32⟩
  | 15 => ⟨S64, .f32⟩
  | 16 => ⟨S1x64, .f32⟩
  | 17 => ⟨S_, .f32⟩
  | 18 => ⟨S1x64, .f32⟩
  | 19 => ⟨S1x64, .f32⟩
  | 20 => ⟨S100000x64, .f32⟩
  | 21 => ⟨S100000x64, .f32⟩
  | 22 => ⟨S100000x64, .f32⟩
  | 23 => ⟨S_, .f32⟩
  | 24 => ⟨S_, .f32⟩
  | 25 => ⟨S_, .f32⟩
  | 26 => ⟨S_, .f32⟩
  | 27 => ⟨S64, .f32⟩
  | 28 => ⟨S64, .f32⟩
  | 29 => ⟨S64, .f32⟩
  | 30 => ⟨S_, .f32⟩
  | 31 => ⟨S_, .i1⟩
  | 32 => ⟨S_, .f32⟩
  | 33 => ⟨S_, .f32⟩
  | 34 => ⟨S64, .f32⟩
  | 35 => ⟨S64, .f32⟩
  | 36 => ⟨S1x64, .f32⟩
  | 37 => ⟨S100000x64, .f32⟩
  | 38 => ⟨S100000x64, .f32⟩
  | 39 => ⟨S_, .f32⟩
  | 40 => ⟨S64, .f32⟩
  | 41 => ⟨S64, .f32⟩
  | 42 => ⟨S64, .f32⟩
  | 43 => ⟨S1x64, .f32⟩
  | 44 => ⟨S100000x64, .f32⟩
  | 45 => ⟨S100000x64, .f32⟩
  | 46 => ⟨S1x64, .f32⟩
  | 47 => ⟨S100000x64, .f32⟩
  | 48 => ⟨S100000x64, .f32⟩
  | 49 => ⟨S1x64, .f32⟩
  | 50 => ⟨S100000x64, .f32⟩
  | 51 => ⟨S100000x64, .f32⟩
  | 52 => ⟨S100000x64, .f32⟩
  | 53 => ⟨S100000x64, .f32⟩
  | 54 => ⟨S100000x64, .f32⟩
  | 55 => ⟨S100000x256, .f32⟩
  | 56 => ⟨S100000x64, .f32⟩
  | 57 => ⟨S1x64, .f32⟩
  | 58 => ⟨S100000x64, .f32⟩
  | 59 => ⟨S100000x64, .f32⟩
  | 60 => ⟨S_, .f32⟩
  | 61 => ⟨S100000x64, .f32⟩
  | 62 => ⟨S100000x64, .i1⟩
  | 63 => ⟨S1x1, .f32⟩
  | 64 => ⟨S100000x64, .f32⟩
  | 65 => ⟨S100000x64, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S100000x64, .f32⟩
  | 84 => ⟨S100000x64, .f32⟩
  | 85 => ⟨S100000x129, .f32⟩
  | 86 => ⟨S1x129, .f32⟩
  | 87 => ⟨S100000x129, .f32⟩
  | 88 => ⟨S100000x129, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_cst_0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst_1 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_v7 : Ref sig .tc := ⟨.hbm, 41, rfl⟩
abbrev main_v8 : Ref sig .tc := ⟨.hbm, 42, rfl⟩
abbrev main_cst_3 : Ref sig .tc := ⟨.hbm, 43, rfl⟩
abbrev main_call1_v0 : Ref sig .tc := ⟨.hbm, 44, rfl⟩
abbrev main_call1_v1 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_c : Ref sig .tc := ⟨.hbm, 51, rfl⟩
abbrev main_v14 : Ref sig .tc := ⟨.hbm, 52, rfl⟩
abbrev main_v15 : Ref sig .tc := ⟨.hbm, 53, rfl⟩
abbrev main_c_4 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_cst_5 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_call2_cst : Ref sig .tc := ⟨.hbm, 71, rfl⟩
abbrev main_call2_v0 : Ref sig .tc := ⟨.hbm, 72, rfl⟩
abbrev main_call2_v1 : Ref sig .tc := ⟨.hbm, 73, rfl⟩
abbrev main_call2_cst_0 : Ref sig .tc := ⟨.hbm, 74, rfl⟩
abbrev main_call2_v2 : Ref sig .tc := ⟨.hbm, 75, rfl⟩
abbrev main_call2_v3 : Ref sig .tc := ⟨.hbm, 76, rfl⟩
abbrev main_call2_cst_1 : Ref sig .tc := ⟨.hbm, 77, rfl⟩
abbrev main_call2_call0_v0 : Ref sig .tc := ⟨.hbm, 78, rfl⟩
abbrev main_call2_call0_v1 : Ref sig .tc := ⟨.hbm, 79, rfl⟩
abbrev main_call2_v4 : Ref sig .tc := ⟨.hbm, 80, rfl⟩
abbrev main_call2_v5 : Ref sig .tc := ⟨.hbm, 81, rfl⟩
abbrev main_call2_cst_2 : Ref sig .tc := ⟨.hbm, 82, rfl⟩
abbrev main_call2_v6 : Ref sig .tc := ⟨.hbm, 83, rfl⟩
abbrev main_call2_v7 : Ref sig .tc := ⟨.hbm, 84, rfl⟩
abbrev main_v31 : Ref sig .tc := ⟨.hbm, 85, rfl⟩
abbrev main_cst_6 : Ref sig .tc := ⟨.hbm, 86, rfl⟩
abbrev main_v32 : Ref sig .tc := ⟨.hbm, 87, rfl⟩
abbrev main_cst_7 : Ref sig .tc := ⟨.hbm, 88, rfl⟩
abbrev main_v33 : Ref sig .tc := ⟨.hbm, 89, rfl⟩
abbrev main_v34 : Ref sig .tc := ⟨.hbm, 90, rfl⟩
abbrev main_c_8 : Ref sig .tc := ⟨.hbm, 91, rfl⟩
abbrev main_call3_cst : Ref sig .tc := ⟨.hbm, 92, rfl⟩
abbrev main_call3_v0 : Ref sig .tc := ⟨.hbm, 93, rfl⟩
abbrev main_call3_v1 : Ref sig .tc := ⟨.hbm, 94, rfl⟩
abbrev main_call3_cst_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_v6 : Ref sig .tc := ⟨.hbm, 100, rfl⟩
abbrev main_call3_v7 : Ref sig .tc := ⟨.hbm, 101, rfl⟩
abbrev main_call3_cst_1 : Ref sig .tc := ⟨.hbm, 102, rfl⟩
abbrev main_call3_v8 : Ref sig .tc := ⟨.hbm, 103, rfl⟩
abbrev main_call3_cst_2 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_cst_3 : Ref sig .tc := ⟨.hbm, 108, rfl⟩
abbrev main_call3_v12 : Ref sig .tc := ⟨.hbm, 109, rfl⟩
abbrev main_call3_cst_4 : Ref sig .tc := ⟨.hbm, 110, rfl⟩
abbrev main_call3_call0_v0 : Ref sig .tc := ⟨.hbm, 111, rfl⟩
abbrev main_call3_call0_v1 : Ref sig .tc := ⟨.hbm, 112, rfl⟩
abbrev main_v35 : Ref sig .tc := ⟨.hbm, 113, rfl⟩
abbrev main_v36 : Ref sig .tc := ⟨.hbm, 114, rfl⟩
abbrev main_v37 : Ref sig .tc := ⟨.hbm, 115, rfl⟩
abbrev main_v38 : Ref sig .tc := ⟨.hbm, 116, rfl⟩
abbrev main_cst_9 : Ref sig .tc := ⟨.hbm, 117, rfl⟩
abbrev main_v39 : Ref sig .tc := ⟨.hbm, 118, rfl⟩
abbrev main_v40 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_v50 : Ref sig .tc := ⟨.hbm, 129, rfl⟩
abbrev main_cst_10 : Ref sig .tc := ⟨.hbm, 130, rfl⟩
abbrev main_v51 : Ref sig .tc := ⟨.hbm, 131, rfl⟩
abbrev main_cst_11 : Ref sig .tc := ⟨.hbm, 132, rfl⟩
abbrev main_v52 : Ref sig .tc := ⟨.hbm, 133, rfl⟩
abbrev main_v53 : Ref sig .tc := ⟨.hbm, 134, rfl⟩
abbrev main_v54 : Ref sig .tc := ⟨.hbm, 135, rfl⟩
abbrev main_cst_12 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_cst_13 : Ref sig .tc := ⟨.hbm, 140, rfl⟩
abbrev main_call4_v0 : Ref sig .tc := ⟨.hbm, 141, rfl⟩
abbrev main_call4_v1 : Ref sig .tc := ⟨.hbm, 142, rfl⟩
abbrev main_v58 : Ref sig .tc := ⟨.hbm, 143, rfl⟩
abbrev main_v59 : Ref sig .tc := ⟨.hbm, 144, rfl⟩
abbrev main_cst_14 : Ref sig .tc := ⟨.hbm, 145, rfl⟩
abbrev main_call5_v0 : Ref sig .tc := ⟨.hbm, 146, rfl⟩
abbrev main_call5_v1 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_v64 : Ref sig .tc := ⟨.hbm, 152, rfl⟩
abbrev main_c_15 : Ref sig .tc := ⟨.hbm, 153, rfl⟩
abbrev main_v65 : Ref sig .tc := ⟨.hbm, 154, rfl⟩
abbrev main_v66 : Ref sig .tc := ⟨.hbm, 155, rfl⟩
abbrev main_c_16 : Ref sig .tc := ⟨.hbm, 156, rfl⟩
abbrev main_v67 : Ref sig .tc := ⟨.hbm, 157, rfl⟩
abbrev main_v68 : Ref sig .tc := ⟨.hbm, 158, rfl⟩
abbrev main_v69 : Ref sig .tc := ⟨.hbm, 159, rfl⟩
abbrev main_v70 : Ref sig .tc := ⟨.hbm, 160, rfl⟩
abbrev main_v71 : Ref sig .tc := ⟨.hbm, 161, rfl⟩
abbrev main_cst_17 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_v75 : Ref sig .tc := ⟨.hbm, 166, rfl⟩
abbrev main_v76 : Ref sig .tc := ⟨.hbm, 167, rfl⟩
abbrev main_v77 : Ref sig .tc := ⟨.hbm, 168, rfl⟩
abbrev main_v78 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_call6_cst : Ref sig .tc := ⟨.hbm, 173, rfl⟩
abbrev main_call6_v0 : Ref sig .tc := ⟨.hbm, 174, rfl⟩
abbrev main_call6_v1 : Ref sig .tc := ⟨.hbm, 175, rfl⟩
abbrev main_call6_cst_0 : Ref sig .tc := ⟨.hbm, 176, rfl⟩
abbrev main_call6_v2 : Ref sig .tc := ⟨.hbm, 177, rfl⟩
abbrev main_call6_v3 : Ref sig .tc := ⟨.hbm, 178, rfl⟩
abbrev main_call6_cst_1 : Ref sig .tc := ⟨.hbm, 179, rfl⟩
abbrev main_call6_call0_v0 : Ref sig .tc := ⟨.hbm, 180, rfl⟩
abbrev main_call6_call0_v1 : Ref sig .tc := ⟨.hbm, 181, rfl⟩
abbrev main_call6_v4 : Ref sig .tc := ⟨.hbm, 182, rfl⟩
abbrev main_call6_v5 : Ref sig .tc := ⟨.hbm, 183, rfl⟩
abbrev main_call6_cst_2 : Ref sig .tc := ⟨.hbm, 184, rfl⟩
abbrev main_call6_v6 : Ref sig .tc := ⟨.hbm, 185, rfl⟩
abbrev main_call6_v7 : Ref sig .tc := ⟨.hbm, 186, rfl⟩
abbrev main_v82 : Ref sig .tc := ⟨.hbm, 187, rfl⟩
abbrev main_cst_18 : Ref sig .tc := ⟨.hbm, 188, rfl⟩
abbrev main_v83 : Ref sig .tc := ⟨.hbm, 189, rfl⟩
abbrev main_cst_19 : Ref sig .tc := ⟨.hbm, 190, rfl⟩
abbrev main_v84 : Ref sig .tc := ⟨.hbm, 191, rfl⟩
abbrev main_v85 : Ref sig .tc := ⟨.hbm, 192, rfl⟩
abbrev main_c_20 : Ref sig .tc := ⟨.hbm, 193, rfl⟩
abbrev main_call7_cst : Ref sig .tc := ⟨.hbm, 194, rfl⟩
abbrev main_call7_v0 : Ref sig .tc := ⟨.hbm, 195, rfl⟩
abbrev main_call7_v1 : Ref sig .tc := ⟨.hbm, 196, rfl⟩
abbrev main_call7_cst_0 : Ref sig .tc := ⟨.hbm, 197, rfl⟩
abbrev main_call7_v2 : Ref sig .tc := ⟨.hbm, 198, rfl⟩
abbrev main_call7_v3 : Ref sig .tc := ⟨.hbm, 199, rfl⟩
abbrev main_call7_v4 : Ref sig .tc := ⟨.hbm, 200, rfl⟩
abbrev main_call7_v5 : Ref sig .tc := ⟨.hbm, 201, rfl⟩
abbrev main_call7_v6 : Ref sig .tc := ⟨.hbm, 202, rfl⟩
abbrev main_call7_v7 : Ref sig .tc := ⟨.hbm, 203, rfl⟩
abbrev main_call7_cst_1 : Ref sig .tc := ⟨.hbm, 204, rfl⟩
abbrev main_call7_v8 : Ref sig .tc := ⟨.hbm, 205, rfl⟩
abbrev main_call7_cst_2 : Ref sig .tc := ⟨.hbm, 206, rfl⟩
abbrev main_call7_v9 : Ref sig .tc := ⟨.hbm, 207, rfl⟩
abbrev main_call7_v10 : Ref sig .tc := ⟨.hbm, 208, rfl⟩
abbrev main_call7_v11 : Ref sig .tc := ⟨.hbm, 209, rfl⟩
abbrev main_call7_cst_3 : Ref sig .tc := ⟨.hbm, 210, rfl⟩
abbrev main_call7_v12 : Ref sig .tc := ⟨.hbm, 211, rfl⟩
abbrev main_call7_cst_4 : Ref sig .tc := ⟨.hbm, 212, rfl⟩
abbrev main_call7_call0_v0 : Ref sig .tc := ⟨.hbm, 213, rfl⟩
abbrev main_call7_call0_v1 : Ref sig .tc := ⟨.hbm, 214, rfl⟩
abbrev main_v86 : Ref sig .tc := ⟨.hbm, 215, rfl⟩
abbrev main_v87 : Ref sig .tc := ⟨.hbm, 216, rfl⟩
abbrev main_v88 : Ref sig .tc := ⟨.hbm, 217, rfl⟩
abbrev main_v89 : Ref sig .tc := ⟨.hbm, 218, rfl⟩
abbrev main_cst_21 : Ref sig .tc := ⟨.hbm, 219, rfl⟩
abbrev main_v90 : Ref sig .tc := ⟨.hbm, 220, rfl⟩
abbrev main_v91 : Ref sig .tc := ⟨.hbm, 221, rfl⟩
abbrev main_v92 : Ref sig .tc := ⟨.hbm, 222, rfl⟩
abbrev main_v93 : Ref sig .tc := ⟨.hbm, 223, rfl⟩
abbrev main_v94 : Ref sig .tc := ⟨.hbm, 224, rfl⟩
abbrev main_v95 : Ref sig .tc := ⟨.hbm, 225, rfl⟩
abbrev main_v96 : Ref sig .tc := ⟨.hbm, 226, rfl⟩
abbrev main_v97 : Ref sig .tc := ⟨.hbm, 227, rfl⟩
abbrev main_v98 : Ref sig .tc := ⟨.hbm, 228, rfl⟩
abbrev main_v99 : Ref sig .tc := ⟨.hbm, 229, rfl⟩
abbrev main_v100 : Ref sig .tc := ⟨.hbm, 230, rfl⟩
abbrev main_v101 : Ref sig .tc := ⟨.hbm, 231, rfl⟩
abbrev main_cst_22 : Ref sig .tc := ⟨.hbm, 232, rfl⟩
abbrev main_v102 : Ref sig .tc := ⟨.hbm, 233, rfl⟩
abbrev main_cst_23 : Ref sig .tc := ⟨.hbm, 234, rfl⟩
abbrev main_v103 : Ref sig .tc := ⟨.hbm, 235, rfl⟩
abbrev main_v104 : Ref sig .tc := ⟨.hbm, 236, rfl⟩
abbrev main_v105 : Ref sig .tc := ⟨.hbm, 237, rfl⟩
abbrev main_cst_24 : Ref sig .tc := ⟨.hbm, 238, rfl⟩
abbrev main_v106 : Ref sig .tc := ⟨.hbm, 239, rfl⟩
abbrev main_v107 : Ref sig .tc := ⟨.hbm, 240, rfl⟩
abbrev main_v108 : Ref sig .tc := ⟨.hbm, 241, rfl⟩
abbrev main_cst_25 : Ref sig .tc := ⟨.hbm, 242, rfl⟩
abbrev main_call8_v0 : Ref sig .tc := ⟨.hbm, 243, rfl⟩
abbrev main_call8_v1 : Ref sig .tc := ⟨.hbm, 244, rfl⟩
abbrev main_v109 : Ref sig .tc := ⟨.hbm, 245, rfl⟩
abbrev main_v110 : Ref sig .tc := ⟨.hbm, 246, rfl⟩
abbrev main_cst_26 : Ref sig .tc := ⟨.hbm, 247, rfl⟩
abbrev main_call9_v0 : Ref sig .tc := ⟨.hbm, 248, rfl⟩
abbrev main_call9_v1 : Ref sig .tc := ⟨.hbm, 249, rfl⟩
abbrev main_v111 : Ref sig .tc := ⟨.hbm, 250, rfl⟩
abbrev main_v112 : Ref sig .tc := ⟨.hbm, 251, rfl⟩
abbrev main_v113 : Ref sig .tc := ⟨.hbm, 252, rfl⟩
abbrev main_v114 : Ref sig .tc := ⟨.hbm, 253, rfl⟩
abbrev main_v115 : Ref sig .tc := ⟨.hbm, 254, rfl⟩
abbrev main_c_27 : Ref sig .tc := ⟨.hbm, 255, rfl⟩
abbrev main_v116 : Ref sig .tc := ⟨.hbm, 256, rfl⟩
abbrev main_v117 : Ref sig .tc := ⟨.hbm, 257, rfl⟩
abbrev main_c_28 : Ref sig .tc := ⟨.hbm, 258, rfl⟩
abbrev main_v118 : Ref sig .tc := ⟨.hbm, 259, rfl⟩
abbrev main_v119 : Ref sig .tc := ⟨.hbm, 260, rfl⟩
abbrev main_v120 : Ref sig .tc := ⟨.hbm, 261, rfl⟩
abbrev main_v121 : Ref sig .tc := ⟨.hbm, 262, rfl⟩
abbrev main_v122 : Ref sig .tc := ⟨.hbm, 263, rfl⟩
abbrev main_cst_29 : Ref sig .tc := ⟨.hbm, 264, rfl⟩
abbrev main_v123 : Ref sig .tc := ⟨.hbm, 265, rfl⟩
abbrev main_v124 : Ref sig .tc := ⟨.hbm, 266, rfl⟩
abbrev main_v125 : Ref sig .tc := ⟨.hbm, 267, rfl⟩
abbrev main_v126 : Ref sig .tc := ⟨.hbm, 268, rfl⟩
abbrev main_v127 : Ref sig .tc := ⟨.hbm, 269, rfl⟩
abbrev main_v128 : Ref sig .tc := ⟨.hbm, 270, rfl⟩
abbrev main_v129 : Ref sig .tc := ⟨.hbm, 271, rfl⟩
abbrev main_v130 : Ref sig .tc := ⟨.hbm, 272, rfl⟩
abbrev main_v131 : Ref sig .tc := ⟨.hbm, 273, rfl⟩
abbrev main_v132 : Ref sig .tc := ⟨.hbm, 274, rfl⟩
abbrev main_call10_cst : Ref sig .tc := ⟨.hbm, 275, rfl⟩
abbrev main_call10_v0 : Ref sig .tc := ⟨.hbm, 276, rfl⟩
abbrev main_call10_v1 : Ref sig .tc := ⟨.hbm, 277, rfl⟩
abbrev main_call10_cst_0 : Ref sig .tc := ⟨.hbm, 278, rfl⟩
abbrev main_call10_v2 : Ref sig .tc := ⟨.hbm, 279, rfl⟩
abbrev main_call10_v3 : Ref sig .tc := ⟨.hbm, 280, rfl⟩
abbrev main_call10_cst_1 : Ref sig .tc := ⟨.hbm, 281, rfl⟩
abbrev main_call10_call0_v0 : Ref sig .tc := ⟨.hbm, 282, rfl⟩
abbrev main_call10_call0_v1 : Ref sig .tc := ⟨.hbm, 283, rfl⟩
abbrev main_call10_v4 : Ref sig .tc := ⟨.hbm, 284, rfl⟩
abbrev main_call10_v5 : Ref sig .tc := ⟨.hbm, 285, rfl⟩
abbrev main_call10_cst_2 : Ref sig .tc := ⟨.hbm, 286, rfl⟩
abbrev main_call10_v6 : Ref sig .tc := ⟨.hbm, 287, rfl⟩
abbrev main_call10_v7 : Ref sig .tc := ⟨.hbm, 288, rfl⟩
abbrev main_v133 : Ref sig .tc := ⟨.hbm, 289, rfl⟩
abbrev main_cst_30 : Ref sig .tc := ⟨.hbm, 290, rfl⟩
abbrev main_v134 : Ref sig .tc := ⟨.hbm, 291, rfl⟩
abbrev main_cst_31 : Ref sig .tc := ⟨.hbm, 292, rfl⟩
abbrev main_v135 : Ref sig .tc := ⟨.hbm, 293, rfl⟩
abbrev main_v136 : Ref sig .tc := ⟨.hbm, 294, rfl⟩
abbrev main_c_32 : Ref sig .tc := ⟨.hbm, 295, rfl⟩
abbrev main_call11_cst : Ref sig .tc := ⟨.hbm, 296, rfl⟩
abbrev main_call11_v0 : Ref sig .tc := ⟨.hbm, 297, rfl⟩
abbrev main_call11_v1 : Ref sig .tc := ⟨.hbm, 298, rfl⟩
abbrev main_call11_cst_0 : Ref sig .tc := ⟨.hbm, 299, rfl⟩
abbrev main_call11_v2 : Ref sig .tc := ⟨.hbm, 300, rfl⟩
abbrev main_call11_v3 : Ref sig .tc := ⟨.hbm, 301, rfl⟩
abbrev main_call11_v4 : Ref sig .tc := ⟨.hbm, 302, rfl⟩
abbrev main_call11_v5 : Ref sig .tc := ⟨.hbm, 303, rfl⟩
abbrev main_call11_v6 : Ref sig .tc := ⟨.hbm, 304, rfl⟩
abbrev main_call11_v7 : Ref sig .tc := ⟨.hbm, 305, rfl⟩
abbrev main_call11_cst_1 : Ref sig .tc := ⟨.hbm, 306, rfl⟩
abbrev main_call11_v8 : Ref sig .tc := ⟨.hbm, 307, rfl⟩
abbrev main_call11_cst_2 : Ref sig .tc := ⟨.hbm, 308, rfl⟩
abbrev main_call11_v9 : Ref sig .tc := ⟨.hbm, 309, rfl⟩
abbrev main_call11_v10 : Ref sig .tc := ⟨.hbm, 310, rfl⟩
abbrev main_call11_v11 : Ref sig .tc := ⟨.hbm, 311, rfl⟩
abbrev main_call11_cst_3 : Ref sig .tc := ⟨.hbm, 312, rfl⟩
abbrev main_call11_v12 : Ref sig .tc := ⟨.hbm, 313, rfl⟩
abbrev main_call11_cst_4 : Ref sig .tc := ⟨.hbm, 314, rfl⟩
abbrev main_call11_call0_v0 : Ref sig .tc := ⟨.hbm, 315, rfl⟩
abbrev main_call11_call0_v1 : Ref sig .tc := ⟨.hbm, 316, rfl⟩
abbrev main_v137 : Ref sig .tc := ⟨.hbm, 317, rfl⟩
abbrev main_v138 : Ref sig .tc := ⟨.hbm, 318, rfl⟩
abbrev main_v139 : Ref sig .tc := ⟨.hbm, 319, rfl⟩
abbrev main_v140 : Ref sig .tc := ⟨.hbm, 320, rfl⟩
abbrev main_cst_33 : Ref sig .tc := ⟨.hbm, 321, rfl⟩
abbrev main_v141 : Ref sig .tc := ⟨.hbm, 322, rfl⟩
abbrev main_v142 : Ref sig .tc := ⟨.hbm, 323, rfl⟩
abbrev main_v143 : Ref sig .tc := ⟨.hbm, 324, rfl⟩
abbrev main_v144 : Ref sig .tc := ⟨.hbm, 325, rfl⟩
abbrev main_v145 : Ref sig .tc := ⟨.hbm, 326, rfl⟩
abbrev main_v146 : Ref sig .tc := ⟨.hbm, 327, rfl⟩
abbrev main_v147 : Ref sig .tc := ⟨.hbm, 328, rfl⟩
abbrev main_v148 : Ref sig .tc := ⟨.hbm, 329, rfl⟩
abbrev main_v149 : Ref sig .tc := ⟨.hbm, 330, rfl⟩
abbrev main_v150 : Ref sig .tc := ⟨.hbm, 331, rfl⟩
abbrev main_v151 : Ref sig .tc := ⟨.hbm, 332, rfl⟩
abbrev main_v152 : Ref sig .tc := ⟨.hbm, 333, rfl⟩
abbrev main_cst_34 : Ref sig .tc := ⟨.hbm, 334, rfl⟩
abbrev main_v153 : Ref sig .tc := ⟨.hbm, 335, rfl⟩
abbrev main_cst_35 : Ref sig .tc := ⟨.hbm, 336, rfl⟩
abbrev main_v154 : Ref sig .tc := ⟨.hbm, 337, rfl⟩
abbrev main_v155 : Ref sig .tc := ⟨.hbm, 338, rfl⟩
abbrev main_v156 : Ref sig .tc := ⟨.hbm, 339, rfl⟩
abbrev main_cst_36 : Ref sig .tc := ⟨.hbm, 340, rfl⟩
abbrev main_v157 : Ref sig .tc := ⟨.hbm, 341, rfl⟩
abbrev main_v158 : Ref sig .tc := ⟨.hbm, 342, rfl⟩
abbrev main_v159 : Ref sig .tc := ⟨.hbm, 343, rfl⟩
abbrev main_cst_37 : Ref sig .tc := ⟨.hbm, 344, rfl⟩
abbrev main_call12_v0 : Ref sig .tc := ⟨.hbm, 345, rfl⟩
abbrev main_call12_v1 : Ref sig .tc := ⟨.hbm, 346, rfl⟩
abbrev main_v160 : Ref sig .tc := ⟨.hbm, 347, rfl⟩
abbrev main_v161 : Ref sig .tc := ⟨.hbm, 348, rfl⟩
abbrev main_cst_38 : Ref sig .tc := ⟨.hbm, 349, rfl⟩
abbrev main_call13_v0 : Ref sig .tc := ⟨.hbm, 350, rfl⟩
abbrev main_call13_v1 : Ref sig .tc := ⟨.hbm, 351, rfl⟩
abbrev main_v162 : Ref sig .tc := ⟨.hbm, 352, rfl⟩
abbrev main_v163 : Ref sig .tc := ⟨.hbm, 353, rfl⟩
abbrev main_v164 : Ref sig .tc := ⟨.hbm, 354, rfl⟩
abbrev main_v165 : Ref sig .tc := ⟨.hbm, 355, rfl⟩
abbrev main_v166 : Ref sig .tc := ⟨.hbm, 356, rfl⟩
abbrev main_c_39 : Ref sig .tc := ⟨.hbm, 357, rfl⟩
abbrev main_v167 : Ref sig .tc := ⟨.hbm, 358, rfl⟩
abbrev main_v168 : Ref sig .tc := ⟨.hbm, 359, rfl⟩
abbrev main_c_40 : Ref sig .tc := ⟨.hbm, 360, rfl⟩
abbrev main_v169 : Ref sig .tc := ⟨.hbm, 361, rfl⟩
abbrev main_v170 : Ref sig .tc := ⟨.hbm, 362, rfl⟩
abbrev main_v171 : Ref sig .tc := ⟨.hbm, 363, rfl⟩
abbrev main_v172 : Ref sig .tc := ⟨.hbm, 364, rfl⟩
abbrev main_v173 : Ref sig .tc := ⟨.hbm, 365, rfl⟩
abbrev main_cst_41 : Ref sig .tc := ⟨.hbm, 366, rfl⟩
abbrev main_v174 : Ref sig .tc := ⟨.hbm, 367, rfl⟩
abbrev main_v175 : Ref sig .tc := ⟨.hbm, 368, rfl⟩
abbrev main_v176 : Ref sig .tc := ⟨.hbm, 369, rfl⟩
abbrev main_v177 : Ref sig .tc := ⟨.hbm, 370, rfl⟩
abbrev main_v178 : Ref sig .tc := ⟨.hbm, 371, rfl⟩
abbrev main_v179 : Ref sig .tc := ⟨.hbm, 372, rfl⟩
abbrev main_v180 : Ref sig .tc := ⟨.hbm, 373, rfl⟩
abbrev main_v181 : Ref sig .tc := ⟨.hbm, 374, rfl⟩
abbrev main_v182 : Ref sig .tc := ⟨.hbm, 375, rfl⟩
abbrev main_v183 : Ref sig .tc := ⟨.hbm, 376, rfl⟩
abbrev main_call14_cst : Ref sig .tc := ⟨.hbm, 377, rfl⟩
abbrev main_call14_v0 : Ref sig .tc := ⟨.hbm, 378, rfl⟩
abbrev main_call14_v1 : Ref sig .tc := ⟨.hbm, 379, rfl⟩
abbrev main_call14_cst_0 : Ref sig .tc := ⟨.hbm, 380, rfl⟩
abbrev main_call14_v2 : Ref sig .tc := ⟨.hbm, 381, rfl⟩
abbrev main_call14_v3 : Ref sig .tc := ⟨.hbm, 382, rfl⟩
abbrev main_call14_cst_1 : Ref sig .tc := ⟨.hbm, 383, rfl⟩
abbrev main_call14_call0_v0 : Ref sig .tc := ⟨.hbm, 384, rfl⟩
abbrev main_call14_call0_v1 : Ref sig .tc := ⟨.hbm, 385, rfl⟩
abbrev main_call14_v4 : Ref sig .tc := ⟨.hbm, 386, rfl⟩
abbrev main_call14_v5 : Ref sig .tc := ⟨.hbm, 387, rfl⟩
abbrev main_call14_cst_2 : Ref sig .tc := ⟨.hbm, 388, rfl⟩
abbrev main_call14_v6 : Ref sig .tc := ⟨.hbm, 389, rfl⟩
abbrev main_call14_v7 : Ref sig .tc := ⟨.hbm, 390, rfl⟩
abbrev main_v184 : Ref sig .tc := ⟨.hbm, 391, rfl⟩
abbrev main_cst_42 : Ref sig .tc := ⟨.hbm, 392, rfl⟩
abbrev main_v185 : Ref sig .tc := ⟨.hbm, 393, rfl⟩
abbrev main_cst_43 : Ref sig .tc := ⟨.hbm, 394, rfl⟩
abbrev main_v186 : Ref sig .tc := ⟨.hbm, 395, rfl⟩
abbrev main_v187 : Ref sig .tc := ⟨.hbm, 396, rfl⟩
abbrev main_c_44 : Ref sig .tc := ⟨.hbm, 397, rfl⟩
abbrev main_call15_cst : Ref sig .tc := ⟨.hbm, 398, rfl⟩
abbrev main_call15_v0 : Ref sig .tc := ⟨.hbm, 399, rfl⟩
abbrev main_call15_v1 : Ref sig .tc := ⟨.hbm, 400, rfl⟩
abbrev main_call15_cst_0 : Ref sig .tc := ⟨.hbm, 401, rfl⟩
abbrev main_call15_v2 : Ref sig .tc := ⟨.hbm, 402, rfl⟩
abbrev main_call15_v3 : Ref sig .tc := ⟨.hbm, 403, rfl⟩
abbrev main_call15_v4 : Ref sig .tc := ⟨.hbm, 404, rfl⟩
abbrev main_call15_v5 : Ref sig .tc := ⟨.hbm, 405, rfl⟩
abbrev main_call15_v6 : Ref sig .tc := ⟨.hbm, 406, rfl⟩
abbrev main_call15_v7 : Ref sig .tc := ⟨.hbm, 407, rfl⟩
abbrev main_call15_cst_1 : Ref sig .tc := ⟨.hbm, 408, rfl⟩
abbrev main_call15_v8 : Ref sig .tc := ⟨.hbm, 409, rfl⟩
abbrev main_call15_cst_2 : Ref sig .tc := ⟨.hbm, 410, rfl⟩
abbrev main_call15_v9 : Ref sig .tc := ⟨.hbm, 411, rfl⟩
abbrev main_call15_v10 : Ref sig .tc := ⟨.hbm, 412, rfl⟩
abbrev main_call15_v11 : Ref sig .tc := ⟨.hbm, 413, rfl⟩
abbrev main_call15_cst_3 : Ref sig .tc := ⟨.hbm, 414, rfl⟩
abbrev main_call15_v12 : Ref sig .tc := ⟨.hbm, 415, rfl⟩
abbrev main_call15_cst_4 : Ref sig .tc := ⟨.hbm, 416, rfl⟩
abbrev main_call15_call0_v0 : Ref sig .tc := ⟨.hbm, 417, rfl⟩
abbrev main_call15_call0_v1 : Ref sig .tc := ⟨.hbm, 418, rfl⟩
abbrev main_v188 : Ref sig .tc := ⟨.hbm, 419, rfl⟩
abbrev main_v189 : Ref sig .tc := ⟨.hbm, 420, rfl⟩
abbrev main_v190 : Ref sig .tc := ⟨.hbm, 421, rfl⟩
abbrev main_v191 : Ref sig .tc := ⟨.hbm, 422, rfl⟩
abbrev main_cst_45 : Ref sig .tc := ⟨.hbm, 423, rfl⟩
abbrev main_v192 : Ref sig .tc := ⟨.hbm, 424, rfl⟩
abbrev main_v193 : Ref sig .tc := ⟨.hbm, 425, rfl⟩
abbrev main_v194 : Ref sig .tc := ⟨.hbm, 426, rfl⟩
abbrev main_v195 : Ref sig .tc := ⟨.hbm, 427, rfl⟩
abbrev main_v196 : Ref sig .tc := ⟨.hbm, 428, rfl⟩
abbrev main_v197 : Ref sig .tc := ⟨.hbm, 429, rfl⟩
abbrev main_v198 : Ref sig .tc := ⟨.hbm, 430, rfl⟩
abbrev main_v199 : Ref sig .tc := ⟨.hbm, 431, rfl⟩
abbrev main_v200 : Ref sig .tc := ⟨.hbm, 432, rfl⟩
abbrev main_v201 : Ref sig .tc := ⟨.hbm, 433, rfl⟩
abbrev main_v202 : Ref sig .tc := ⟨.hbm, 434, rfl⟩
abbrev main_v203 : Ref sig .tc := ⟨.hbm, 435, rfl⟩
abbrev main_v204 : Ref sig .tc := ⟨.hbm, 436, rfl⟩
abbrev main_v205 : Ref sig .tc := ⟨.hbm, 437, rfl⟩
abbrev main_v206 : Ref sig .tc := ⟨.hbm, 438, rfl⟩
abbrev main_v207 : Ref sig .tc := ⟨.hbm, 439, rfl⟩
abbrev main_v208 : Ref sig .tc := ⟨.hbm, 440, rfl⟩
abbrev main_v209 : Ref sig .tc := ⟨.hbm, 441, rfl⟩
abbrev main_v210 : Ref sig .tc := ⟨.hbm, 442, rfl⟩
abbrev main_v211 : Ref sig .tc := ⟨.hbm, 443, rfl⟩
abbrev main_cst_46 : Ref sig .tc := ⟨.hbm, 444, rfl⟩
abbrev main_v212 : Ref sig .tc := ⟨.hbm, 445, rfl⟩
abbrev main_v213 : Ref sig .tc := ⟨.hbm, 446, rfl⟩
abbrev main_v214 : Ref sig .tc := ⟨.hbm, 447, rfl⟩
abbrev main_v215 : Ref sig .tc := ⟨.hbm, 448, rfl⟩
abbrev main_v216 : Ref sig .tc := ⟨.hbm, 449, rfl⟩
abbrev main_v217 : Ref sig .tc := ⟨.hbm, 450, rfl⟩
abbrev main_v218 : Ref sig .tc := ⟨.hbm, 451, rfl⟩
abbrev main_v219 : Ref sig .tc := ⟨.hbm, 452, rfl⟩
abbrev main_v220 : Ref sig .tc := ⟨.hbm, 453, rfl⟩
abbrev main_v221 : Ref sig .tc := ⟨.hbm, 454, rfl⟩
abbrev main_v222 : Ref sig .tc := ⟨.hbm, 455, rfl⟩
abbrev main_v223 : Ref sig .tc := ⟨.hbm, 456, rfl⟩
abbrev main_cst_47 : Ref sig .tc := ⟨.hbm, 457, rfl⟩
abbrev main_v224 : Ref sig .tc := ⟨.hbm, 458, rfl⟩
abbrev main_v225 : Ref sig .tc := ⟨.hbm, 459, rfl⟩
abbrev main_cst_48 : Ref sig .tc := ⟨.hbm, 460, rfl⟩
abbrev main_v226 : Ref sig .tc := ⟨.hbm, 461, rfl⟩
abbrev main_v227 : Ref sig .tc := ⟨.hbm, 462, rfl⟩
abbrev main_v228 : Ref sig .tc := ⟨.hbm, 463, rfl⟩
abbrev main_cst_49 : Ref sig .tc := ⟨.hbm, 464, rfl⟩
abbrev main_v229 : Ref sig .tc := ⟨.hbm, 465, rfl⟩
abbrev main_v230 : Ref sig .tc := ⟨.hbm, 466, rfl⟩
abbrev main_v231 : Ref sig .tc := ⟨.hbm, 467, rfl⟩
abbrev main_v232 : Ref sig .tc := ⟨.hbm, 468, rfl⟩
abbrev main_v233 : Ref sig .tc := ⟨.hbm, 469, rfl⟩
abbrev main_v234 : Ref sig .tc := ⟨.hbm, 470, rfl⟩
abbrev main_v235 : Ref sig .tc := ⟨.hbm, 471, rfl⟩
abbrev main_v236 : Ref sig .tc := ⟨.hbm, 472, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  concatenates_S100000x64_S100000x64_S100000x64_S100000x64_S100000x256_d1 : Shape.Concatenates [S100000x64, S100000x64, S100000x64, S100000x64] S100000x256 1
  bcast_S1_S1x1_1 : S1.BroadcastsInDim S1x1 (![1] : Fin 1 → Fin S1x1.rank)
  bcast_S1x1_S100000x64_0_1 : S1x1.BroadcastsInDim S100000x64 (![0, 1] : Fin 2 → Fin S100000x64.rank)
  bcast_S129_S1x129_1 : S129.BroadcastsInDim S1x129 (![1] : Fin 1 → Fin S1x129.rank)
  bcast_S1x129_S100000x129_0_1 : S1x129.BroadcastsInDim S100000x129 (![0, 1] : Fin 2 → Fin S100000x129.rank)
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x64_S100000x64_1_0_0_1_n_n_wf : DotDims.WF S100000x64 S64x64 S100000x64 [1] [0] [0] [1] [] []
  dot_S100000x256_S256x64_S100000x64_1_0_0_1_n_n_wf : DotDims.WF S100000x256 S256x64 S100000x64 [1] [0] [0] [1] [] []
  dot_S100000x64_S64x129_S100000x129_1_0_0_1_n_n_wf : DotDims.WF S100000x64 S64x129 S100000x129 [1] [0] [0] [1] [] []

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def dot_S100000x64_S64x129_S100000x129_1_0_0_1_n_n : DotDims S100000x64 S64x129 S100000x129 where
  lhsContracting := [1]
  rhsContracting := [0]
  lhsNonContracting := [0]
  rhsNonContracting := [1]
  lhsBatch := []
  rhsBatch := []
  wf := dot_S100000x64_S64x129_S100000x129_1_0_0_1_n_n_wf

class Facts : Prop extends Facts₀ where

variable [Facts]
-- ==== Proof.RefOps.lean ====
import proofs.«162194_j13769665151544_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem

variable {F : FTy → Type} [FloatOps F]

/-- Piece 0: 39 operations. -/
abbrev ops0 : List (HloOp τ sig (Elt F)) :=
  [ StableHlo.nullary main_cst (constant S_ .f32 0x3F800000#32),
    StableHlo.unary main_cst main_v0 (broadcastInDim S1250000 ![] bcast_S_S1250000 : (⟨S_, .f32⟩ : BufTy).Contents (Elt F) → (⟨S1250000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg1 main_v2 (broadcastInDim S1250000x1 ![0] bcast_S1250000_S1250000x1_0 : (⟨S1250000, .i32⟩ : BufTy).Contents (Elt F) → (⟨S1250000x1, .i32⟩ : BufTy).Contents (Elt F)),
    StableHlo.ternary main_v1 main_v2 main_v0 main_v3 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    StableHlo.nullary main_cst_1 (constant S_ .f32 0x00000000#32),
    StableHlo.unary main_cst_1 main_v4 (broadcastInDim S100000 ![] bcast_S_S100000 : (⟨S_, .f32⟩ : BufTy).Contents (Elt F) → (⟨S100000, .f32⟩ : BufTy).Contents (Elt F)),
    StableHlo.unary main_arg2 main_v5 (broadcastInDim S1250000x1 ![0] bcast_S1250000_S1250000x1_0 : (⟨S1250000, .i32⟩ : BufTy).Contents (Elt F) → (⟨S1250000x1, .i32⟩ : BufTy).Contents (Elt F)),
    StableHlo.ternary main_v4 main_v5 main_v0 main_v6 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    StableHlo.nullary main_cst_2 (constant S_ .f32 0x3F800000#32),
    StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.binary main_call0.v1 (.of main_v3 : StableHlo.TRef sig ⟨S100000, .f32⟩) main_call0.v2 maximumf,
    StableHlo.unary main_v7 main_v8 (Host.rsqrt : (⟨S100000, .f32⟩ : BufTy).Contents (Elt F) → (⟨S100000, .f32⟩ : BufTy).Contents (Elt F)),
    StableHlo.nullary main_cst_3 (constant S_ .f32 0x3F800000#32),
    StableHlo.TRef.unary (.of main_cst_3 : StableHlo.TRef sig ⟨S_, .f32⟩) main_call1.v0 id,
    StableHlo.TRef.unary main_call1.v0 main_call1.v1 (broadcastInDim S100000 ![] bcast_S_S100000),
    StableHlo.TRef.binary main_call1.v1 (.of main_v6 : StableHlo.TRef sig ⟨S100000, .f32⟩) main_call1.v2 maximumf,
    StableHlo.unary main_v9 main_v10 (Host.rsqrt : (⟨S100000, .f32⟩ : BufTy).Contents (Elt F) → (⟨S100000, .f32⟩ : BufTy).Contents (Elt F)),
    StableHlo.unary main_v8 main_v11 (broadcastInDim S100000x1 ![0] bcast_S100000_S100000x1_0 : (⟨S100000, .f32⟩ : BufTy).Contents (Elt F) → (⟨S100000x1, .f32⟩ : BufTy).Contents (Elt F)),
    StableHlo.unary main_v11 main_v12 (broadcastInDim S100000x64 ![0, 1] bcast_S100000x1_S100000x64_0_1 : (⟨S100000x1, .f32⟩ : BufTy).Contents (Elt F) → (⟨S100000x64, .f32⟩ : BufTy).Contents (Elt F)),
    StableHlo.binary main_arg0 main_v12 main_v13 (mulf : (⟨S100000x64, .f32⟩ : BufTy).Contents (Elt F) → (⟨S100000x64, .f32⟩ : BufTy).Contents (Elt F) → (⟨S100000x64, .f32⟩ : BufTy).Contents (Elt F)),
    StableHlo.nullary main_c (constantI S_ 32 0#32),
    StableHlo.unary main_c main_v14 (broadcastInDim S1250000 ![] bcast_S_S1250000 : (⟨S_, .i32⟩ : BufTy).Contents (Elt F) → (⟨S1250000, .i32⟩ : BufTy).Contents (Elt F)),
    StableHlo.binary main_arg1 main_v14 main_v15 (cmpi .slt : (⟨S1250000, .i32⟩ : BufTy).Contents (Elt F) → (⟨S1250000, .i32⟩ : BufTy).Contents (Elt F) → (⟨S1250000, .i1⟩ : BufTy).Contents (Elt F)),
    StableHlo.nullary main_c_4 (constantI S_ 32 100000#32),
    StableHlo.unary main_c_4 main_v16 (broadcastInDim S1250000 ![] bcast_S_S1250000 : (⟨S_, .i32⟩ : BufTy).Contents (Elt F) → (⟨S1250000, .i32⟩ : BufTy).Contents (Elt F)),
    StableHlo.binary main_arg1 main_v16 main_v17 (addi : (⟨S1250000, .i32⟩ : BufTy).Contents (Elt F) → (⟨S1250000, .i32⟩ : BufTy).Contents (Elt F) → (⟨S1250000, .i32⟩ : BufTy).Contents (Elt F)),
    StableHlo.ternary main_v15 main_v17 main_arg1 main_v18 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    StableHlo.unary main_v18 main_v19 (broadcastInDim S1250000x1 ![0] bcast_S1250000_S1250000x1_0 : (⟨S1250000, .i32⟩ : BufTy).Contents (Elt F) → (⟨S1250000x1, .i32⟩ : BufTy).Contents (Elt F)),
    StableHlo.binary main_v13 main_v19 main_v20 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    StableHlo.nullary main_cst_5 (constant S_ .f32 0x00000000#32),
    StableHlo.unary main_cst_5 main_v21 (broadcastInDim S100000x64 ![] bcast_S_S100000x64 : (⟨S_, .f32⟩ : BufTy).Contents (Elt F) → (⟨S100000x64, .f32⟩ : BufTy).Contents (Elt F)),
    StableHlo.unary main_arg2 main_v22 (broadcastInDim S1250000x1 ![0] bcast_S1250000_S1250000x1_0 : (⟨S1250000, .i32⟩ : BufTy).Contents (Elt F) → (⟨S1250000x1, .i32⟩ : BufTy).Contents (Elt F)),
    StableHlo.ternary main_v21 main_v22 main_v20 main_v23 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    StableHlo.unary main_v10 main_v24 (broadcastInDim S100000x1 ![0] bcast_S100000_S100000x1_0 : (⟨S100000, .f32⟩ : BufTy).Contents (Elt F) → (⟨S100000x1, .f32⟩ : BufTy).Contents (Elt F)),
    StableHlo.unary main_v24 main_v25 (broadcastInDim S100000x64 ![0, 1] bcast_S100000x1_S100000x64_0_1 : (⟨S100000x1, .f32⟩ : BufTy).Contents (Elt F) → (⟨S100000x64, .f32⟩ : BufTy).Contents (Elt F)),
    StableHlo.binary main_v23 main_v25 main_v26 (mulf : (⟨S100000x64, .f32⟩ : BufTy).Contents (Elt F) → (⟨S100000x64, .f32⟩ : BufTy).Contents (Elt F) → (⟨S100000x64, .f32⟩ : BufTy).Contents (Elt F)) ]
theorem ops0_sub : (ops0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.binary_bufs_sub .., StableHlo.unary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩
theorem ops0_fresh : (ops0 : List (HloOp τ sig (Elt F))).Forall fun op => op.fresh = ∅ := by
  simp only [List.Forall]; repeat' constructor

/-- Piece 1: 19 operations. -/
abbrev ops1 : List (HloOp τ sig (Elt F)) :=
  [ StableHlo.binary main_v26 main_arg5 main_v27 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S100000x64 ![0, 1] bcast_S1x64_S100000x64_0_1 : (⟨S1x64, .f32⟩ : BufTy).Contents (Elt F) → (⟨S100000x64, .f32⟩ : BufTy).Contents (Elt F)),
    StableHlo.binary main_v27 main_v29 main_v30 (addf : (⟨S100000x64, .f32⟩ : BufTy).Contents (Elt F) → (⟨S100000x64, .f32⟩ : BufTy).Contents (Elt F) → (⟨S100000x64, .f32⟩ : BufTy).Contents (Elt F)),
    StableHlo.TRef.nullary main_call2.cst (constant S_ .f32 0x00000000#32),
    StableHlo.TRef.unary main_call2.cst main_call2.v0 (broadcastInDim S100000x64 ![] bcast_S_S100000x64),
    StableHlo.TRef.binary (.of main_v30 : StableHlo.TRef sig ⟨S100000x64, .f32⟩) main_call2.v0 main_call2.v1 (cmpf .ogt),
    StableHlo.TRef.nullary main_call2.cst_0 (constant S_ .f32 0x00000000#32),
    StableHlo.TRef.unary main_call2.cst_0 main_call2.v2 (broadcastInDim S100000x64 ![] bcast_S_S100000x64),
    StableHlo.TRef.binary (.of main_v30 : StableHlo.TRef sig ⟨S100000x64, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x64 ![] bcast_S_S100000x64),
    StableHlo.TRef.ternary main_call2.v3 main_call2.call0.v1 (.of main_v30 : StableHlo.TRef sig ⟨S100000x64, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x64 ![] bcast_S_S100000x64),
    StableHlo.TRef.binary main_call2.v6 main_call2.v5 main_call2.v7 mulf,
    StableHlo.TRef.ternary main_call2.v1 (.of main_v30 : StableHlo.TRef sig ⟨S100000x64, .f32⟩) main_call2.v7 main_call2.call1.v0 select ]
theorem ops1_sub : (ops1 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩
theorem ops1_fresh : (ops1 : List (HloOp τ sig (Elt F))).Forall fun op => op.fresh = ∅ := by
  simp only [List.Forall]; repeat' constructor

/-- Piece 2: 28 operations. -/
abbrev ops2 : List (HloOp τ sig (Elt F)) :=
  [ StableHlo.nullary main_cst_6 (constant S_ .f32 0x00000000#32),
    StableHlo.binary main_v31 main_cst_6 main_v32 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_7 (constant S_ .f32 0x47C35000#32),
    StableHlo.unary main_cst_7 main_v33 (broadcastInDim S64 ![] bcast_S_S64 : (⟨S_, .f32⟩ : BufTy).Contents (Elt F) → (⟨S64, .f32⟩ : BufTy).Contents (Elt F)),
    StableHlo.binary main_v32 main_v33 main_v34 (Host.divf : (⟨S64, .f32⟩ : BufTy).Contents (Elt F) → (⟨S64, .f32⟩ : BufTy).Contents (Elt F) → (⟨S64, .f32⟩ : BufTy).Contents (Elt F)),
    StableHlo.nullary main_c_8 (constantI S_ 32 0#32),
    StableHlo.TRef.nullary main_call3.cst (constant S_ .f32 0x00000000#32),
    StableHlo.TRef.binary (.of main_v31 : StableHlo.TRef sig ⟨S100000x64, .f32⟩) main_call3.cst main_call3.v0 (fun x v => Host.reduceAdd x v reducesTo_S100000x64_S64_d0 h_S_),
    StableHlo.TRef.unary main_call3.v0 main_call3.v1 (broadcastInDim S1x64 ![1] bcast_S64_S1x64_1),
    StableHlo.TRef.nullary main_call3.cst_0 (constant S_ .f32 0x47C35000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S100000x64 ![0, 1] bcast_S1x64_S100000x64_0_1),
    StableHlo.TRef.binary (.of main_v31 : StableHlo.TRef sig ⟨S100000x64, .f32⟩) main_call3.v4 main_call3.v5 subf,
    StableHlo.TRef.binary main_call3.v5 main_call3.v5 main_call3.v6 mulf,
    StableHlo.TRef.unary (.of main_c_8 : StableHlo.TRef sig ⟨S_, .i32⟩) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b) ]
theorem ops2_sub : (ops2 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem ops2_fresh : (ops2 : List (HloOp τ sig (Elt F))).Forall fun op => op.fresh = ∅ := by
  simp only [List.Forall]; repeat' constructor

/-- Piece 3: 13 operations. -/
abbrev ops3 : List (HloOp τ sig (Elt F)) :=
  [ StableHlo.unary main_v34 main_v36 (broadcastInDim S1x64 ![1] bcast_S64_S1x64_1 : (⟨S64, .f32⟩ : BufTy).Contents (Elt F) → (⟨S1x64, .f32⟩ : BufTy).Contents (Elt F)),
    StableHlo.unary main_v36 main_v37 (broadcastInDim S100000x64 ![0, 1] bcast_S1x64_S100000x64_0_1 : (⟨S1x64, .f32⟩ : BufTy).Contents (Elt F) → (⟨S100000x64, .f32⟩ : BufTy).Contents (Elt F)),
    StableHlo.binary main_v31 main_v37 main_v38 (subf : (⟨S100000x64, .f32⟩ : BufTy).Contents (Elt F) → (⟨S100000x64, .f32⟩ : BufTy).Contents (Elt F) → (⟨S100000x64, .f32⟩ : BufTy).Contents (Elt F)),
    StableHlo.nullary main_cst_9 (constant S_ .f32 0x3727C5AC#32),
    StableHlo.unary main_cst_9 main_v39 (broadcastInDim S64 ![] bcast_S_S64 : (⟨S_, .f32⟩ : BufTy).Contents (Elt F) → (⟨S64, .f32⟩ : BufTy).Contents (Elt F)),
    StableHlo.binary main_v35 main_v39 main_v40 (addf : (⟨S64, .f32⟩ : BufTy).Contents (Elt F) → (⟨S64, .f32⟩ : BufTy).Contents (Elt F) → (⟨S64, .f32⟩ : BufTy).Contents (Elt F)),
    StableHlo.unary main_v40 main_v41 (Host.rsqrt : (⟨S64, .f32⟩ : BufTy).Contents (Elt F) → (⟨S64, .f32⟩ : BufTy).Contents (Elt F)),
    StableHlo.unary main_v41 main_v42 (broadcastInDim S1x64 ![1] bcast_S64_S1x64_1 : (⟨S64, .f32⟩ : BufTy).Contents (Elt F) → (⟨S1x64, .f32⟩ : BufTy).Contents (Elt F)),
    StableHlo.unary main_v42 main_v43 (broadcastInDim S100000x64 ![0, 1] bcast_S1x64_S100000x64_0_1 : (⟨S1x64, .f32⟩ : BufTy).Contents (Elt F) → (⟨S100000x64, .f32⟩ : BufTy).Contents (Elt F)),
    StableHlo.binary main_v38 main_v43 main_v44 (mulf : (⟨S100000x64, .f32⟩ : BufTy).Contents (Elt F) → (⟨S100000x64, .f32⟩ : BufTy).Contents (Elt F) → (⟨S100000x64, .f32⟩ : BufTy).Contents (Elt F)),
    StableHlo.unary main_arg7 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S100000x64 ![0, 1] bcast_S1x64_S100000x64_0_1 : (⟨S1x64, .f32⟩ : BufTy).Contents (Elt F) → (⟨S100000x64, .f32⟩ : BufTy).Contents (Elt F)),
    StableHlo.binary main_v44 main_v46 main_v47 (mulf : (⟨S100000x64, .f32⟩ : BufTy).Contents (Elt F) → (⟨S100000x64, .f32⟩ : BufTy).Contents (Elt F) → (⟨S100000x64, .f32⟩ : BufTy).Contents (Elt F)) ]
theorem ops3_sub : (ops3 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub ..⟩
theorem ops3_fresh : (ops3 : List (HloOp τ sig (Elt F))).Forall fun op => op.fresh = ∅ := by
  simp only [List.Forall]; repeat' constructor

/-- Piece 4: 3 operations. -/
abbrev ops4 : List (HloOp τ sig (Elt F)) :=
  [ StableHlo.unary main_arg8 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S100000x64 ![0, 1] bcast_S1x64_S100000x64_0_1 : (⟨S1x64, .f32⟩ : BufTy).Contents (Elt F) → (⟨S100000x64, .f32⟩ : BufTy).Contents (Elt F)),
    StableHlo.binary main_v47 main_v49 main_v50 (addf : (⟨S100000x64, .f32⟩ : BufTy).Contents (Elt F) → (⟨S100000x64, .f32⟩ : BufTy).Contents (Elt F) → (⟨S100000x64, .f32⟩ : BufTy).Contents (Elt F)) ]
theorem ops4_sub : (ops4 : List (HloOp τ sig (Elt F))).Forall fun op => op.bufs ⊆ StableHlo.tcRefs τ sig :=
  ⟨StableHlo.unary_bufs_sub .., StableHlo.unary_bufs_sub .., StableHlo.binary_bufs_sub ..⟩
theorem ops4_fresh : (ops4 : List (HloOp τ sig (Elt F))).Forall fun op => op.fresh = ∅ := by
  simp only [List.Forall]; repeat' constructor

/-- Piece 5: 39 operations. -/
abbrev ops5 : List (HloOp τ sig (Elt F)) :=
  [ StableHlo.nullary main_cst_10 (constant S_ .f32 0x3F800000#32),
    StableHlo.unary main_cst_10 main_v51 (broadcastInDim S1250000 ![] bcast_S_S1250000 : (⟨S_, .f32⟩ : BufTy).Contents (Elt F) → (⟨S1250000, .f32⟩ : BufTy).Contents (Elt F)),
    StableHlo.nullary main_cst_11 (constant S_ .f32 0x00000000#32),
    StableHlo.unary main_cst_11 main_v52 (broadcastInDim S100000 ![] bcast_S_S100000 : (⟨S_, .f32⟩ : BufTy).Contents (Elt F) → (⟨S100000, .f32⟩ : BufTy).Contents (Elt F)),
    StableHlo.unary main_arg1 main_v53 (broadcastInDim S1250000x1 ![0] bcast_S1250000_S1250000x1_0 : (⟨S1250000, .i32⟩ : BufTy).Contents (Elt F) → (⟨S1250000x1, .i32⟩ : BufTy).Contents (Elt F)),
    StableHlo.ternary main_v52 main_v53 main_v51 main_v54 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    StableHlo.nullary main_cst_12 (constant S_ .f32 0x00000000#32),
    StableHlo.unary main_cst_12 main_v55 (broadcastInDim S100000 ![] bcast_S_S100000 : (⟨S_, .f32⟩ : BufTy).Contents (Elt F) → (⟨S100000, .f32⟩ : BufTy).Contents (Elt F)),
    StableHlo.unary main_arg2 main_v56 (broadcastInDim S1250000x1 ![0] bcast_S1250000_S1250000x1_0 : (⟨S1250000, .i32⟩ : BufTy).Contents (Elt F) → (⟨S1250000x1, .i32⟩ : BufTy).Contents (Elt F)),
    StableHlo.ternary main_v55 main_v56 main_v51 main_v57 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    StableHlo.nullary main_cst_13 (constant S_ .f32 0x3F800000#32),
    StableHlo.TRef.unary (.of main_cst_13 : StableHlo.TRef sig ⟨S_, .f32⟩) main_call4.v0 id,
    StableHlo.TRef.unary main_call4.v0 main_call4.v1 (broadcastInDim S100000 ![] bcast_S_S100000),
    StableHlo.TRef.binary main_call4.v1 (.of main_v54 : StableHlo.TRef sig ⟨S100000, .f32⟩) main_call4.v2 maximumf,
    StableHlo.unary main_v58 main_v59 (Host.rsqrt : (⟨S100000, .f32⟩ : BufTy).Contents (Elt F) → (⟨S100000, .f32⟩ : BufTy).Contents (Elt F)),
    StableHlo.nullary main_cst_14 (constant S_ .f32 0x3F800000#32),
    StableHlo.TRef.unary (.of main_cst_14 : StableHlo.TRef sig ⟨S_, .f32⟩) main_call5.v0 id,
    StableHlo.TRef.unary main_call5.v0 main_call5.v1 (broadcastInDim S100000 ![] bcast_S_S100000),
    StableHlo.TRef.binary main_call5.v1 (.of main_v57 : StableHlo.TRef sig ⟨S100000, .f32⟩) main_call5.v2 maximumf,
    StableHlo.unary main_v60 main_v61 (Host.rsqrt : (⟨S100000, .f32⟩ : BufTy).Contents (Elt F) → (⟨S100000, .f32⟩ : BufTy).Contents (Elt F)),
    StableHlo.unary main_v59 main_v62 (broadcastInDim S100000x1 ![0] bcast_S100000_S100000x1_0 : (⟨S100000, .f32⟩ : BufTy).Contents (Elt F) → (⟨S100000x1, .f32⟩ : BufTy).Contents (Elt F)),
    StableHlo.unary main_v62 main_v63 (broadcastInDim S100000x64 ![0, 1] bcast_S100000x1_S100000x64_0_1 : (⟨S100000x1, .f32⟩ : BufTy).Contents (Elt F) → (⟨S100000x64, .f32⟩ : BufTy).Contents (Elt F)),
    StableHlo.binary main_v50 main_v63 main_v64 (mulf : (⟨S100000x64, .f32⟩ : BufTy).Contents (Elt F) → (⟨S100000x64, .f32⟩ : BufTy).Contents (Elt F) → (⟨S100000x64, .f32⟩ : BufTy).Contents (Elt F)),
    StableHlo.nullary main_c_15 (constantI S_ 32 0#32),
    StableHlo.unary main_c_15 main_v65 (broadcastInDim S1250000 ![] bcast_S_S1250000 : (⟨S_, .i32⟩ : BufTy).Contents (Elt F) → (⟨S1250000, .i32⟩ : BufTy).Contents (Elt F)),
    StableHlo.binary main_arg1 main_v65 main_v66 (cmpi .slt : (⟨S1250000, .i32⟩ : BufTy).Contents (Elt F) → (⟨S1250000, .i32⟩ : BufTy).Contents (Elt F) → (⟨S1250000, .i1⟩ : BufTy).Contents (Elt F)),
    StableHlo.nullary main_c_16 (constantI S_ 32 100000#32),
    StableHlo.unary main_c_16 main_v67 (broadcastInDim S1250000 ![] bcast_S_S1250000 : (⟨S_, .i32⟩ : BufTy).Contents (Elt F) → (⟨S1250000, .i32⟩ : BufTy).Contents (Elt F)),
    StableHlo.binary main_arg1 main_v67 main_v68 (addi : (⟨S1250000, .i32⟩ : BufTy).Contents (Elt F) → (⟨S1250000, .i32⟩ : BufTy).Contents (Elt F) → (⟨S1250000, .i32⟩ : BufTy).Contents (Elt F)),
    StableHlo.ternary main_v66 main_v68 main_arg1 main_v69 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    StableHlo.unary main_v69 main_v70 (broadcastInDim S1250000x1 ![0] bcast_S1250000_S1250000x1_0 : (⟨S1250000, .i32⟩ : BufTy).Contents (Elt F) → (⟨S1250000x1, .i32⟩ : BufTy).Contents (Elt F)),
    StableHlo.binary main_v64 main_v70 main_v71 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    StableHlo.nullary main_cst_17 (constant S_ .f32 0x00000000#32),
    StableHlo.unary main_cst_17 main_v72 (broadcastInDim S100000x64 ![] bcast_S_S100000x64 : (⟨S_, .f32⟩ : BufTy).Contents (Elt F) → (⟨S100000x64, .f32⟩ : BufTy).Contents (Elt F)),
    StableHlo.unary main_arg2 main_v73 (broadcastInDim S1250000x1 ![0] bcast_S1250000_S1250000x1_0 : (⟨S1250000, .i32⟩ : BufTy).Contents (Elt F) → (⟨S1250000x1, .i32⟩ : BufTy).Contents (Elt F)),
    StableHlo.ternary main_v72 main_v73 main_v71 main_v74 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    StableHlo.unary main_v61 main_v75 (broadcastInDim S100000x1 ![0] bcast_S100000_S100000x1_0 : (⟨S100000, .f32⟩ : BufTy).Contents (Elt F) → (⟨S100000x1, .f32⟩ : BufTy).Contents (Elt F)),
    StableHlo.unary main_v75 main_v76 (broadcastInDim S100000x64 ![0, 1] bcast_S100000x1_S100000x64_0_1 : (⟨S100000x1, .f32⟩ : BufTy).Contents (Elt F) → (⟨S100000x64, .f32⟩ : BufTy).Contents (Elt F)),
    StableHlo.binary main_v74 main_v76 main_v77 (mulf : (⟨S100000x64, .f32⟩ : BufTy).Contents (Elt F) → (⟨S100000x64, .f32⟩ : BufTy).Contents (Elt F) → (⟨S100000x64, .f32⟩ : BufTy).Contents (Elt F)) ]
theorem ops5_sub : (ops5 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.binary_bufs_sub .., StableHlo.unary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩
theorem ops5_fresh : (ops5 : List (HloOp τ sig (Elt F))).Forall fun op => op.fresh = ∅ := by
  simp only [List.Forall]; repeat' constructor

/-- Piece 6: 19 operations. -/
abbrev ops6 : List (HloOp τ sig (Elt F)) :=
  [ StableHlo.binary main_v77 main_arg9 main_v78 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg10 main_v79 (broadcastInDim S1x64 ![1] bcast_S64_S1x64_1 : (⟨S64, .f32⟩ : BufTy).Contents (Elt F) → (⟨S1x64, .f32⟩ : BufTy).Contents (Elt F)),
    StableHlo.unary main_v79 main_v80 (broadcastInDim S100000x64 ![0, 1] bcast_S1x64_S100000x64_0_1 : (⟨S1x64, .f32⟩ : BufTy).Contents (Elt F) → (⟨S100000x64, .f32⟩ : BufTy).Contents (Elt F)),
    StableHlo.binary main_v78 main_v80 main_v81 (addf : (⟨S100000x64, .f32⟩ : BufTy).Contents (Elt F) → (⟨S100000x64, .f32⟩ : BufTy).Contents (Elt F) → (⟨S100000x64, .f32⟩ : BufTy).Contents (Elt F)),
    StableHlo.TRef.nullary main_call6.cst (constant S_ .f32 0x00000000#32),
    StableHlo.TRef.unary main_call6.cst main_call6.v0 (broadcastInDim S100000x64 ![] bcast_S_S100000x64),
    StableHlo.TRef.binary (.of main_v81 : StableHlo.TRef sig ⟨S100000x64, .f32⟩) main_call6.v0 main_call6.v1 (cmpf .ogt),
    StableHlo.TRef.nullary main_call6.cst_0 (constant S_ .f32 0x00000000#32),
    StableHlo.TRef.unary main_call6.cst_0 main_call6.v2 (broadcastInDim S100000x64 ![] bcast_S_S100000x64),
    StableHlo.TRef.binary (.of main_v81 : StableHlo.TRef sig ⟨S100000x64, .f32⟩) main_call6.v2 main_call6.v3 (cmpf .ogt),
    StableHlo.TRef.nullary main_call6.cst_1 (constant S_ .f32 0x00000000#32),
    StableHlo.TRef.unary main_call6.cst_1 main_call6.call0.v0 id,
    StableHlo.TRef.unary main_call6.call0.v0 main_call6.call0.v1 (broadcastInDim S100000x64 ![] bcast_S_S100000x64),
    StableHlo.TRef.ternary main_call6.v3 main_call6.call0.v1 (.of main_v81 : StableHlo.TRef sig ⟨S100000x64, .f32⟩) main_call6.call0.v2 select,
    StableHlo.TRef.unary main_call6.call0.v2 main_call6.v5 Host.expm1,
    StableHlo.TRef.nullary main_call6.cst_2 (constant S_ .f32 0x3F800000#32),
    StableHlo.TRef.unary main_call6.cst_2 main_call6.v6 (broadcastInDim S100000x64 ![] bcast_S_S100000x64),
    StableHlo.TRef.binary main_call6.v6 main_call6.v5 main_call6.v7 mulf,
    StableHlo.TRef.ternary main_call6.v1 (.of main_v81 : StableHlo.TRef sig ⟨S100000x64, .f32⟩) main_call6.v7 main_call6.call1.v0 select ]
theorem ops6_sub : (ops6 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩
theorem ops6_fresh : (ops6 : List (HloOp τ sig (Elt F))).Forall fun op => op.fresh = ∅ := by
  simp only [List.Forall]; repeat' constructor

/-- Piece 7: 28 operations. -/
abbrev ops7 : List (HloOp τ sig (Elt F)) :=
  [ StableHlo.nullary main_cst_18 (constant S_ .f32 0x00000000#32),
    StableHlo.binary main_v82 main_cst_18 main_v83 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_19 (constant S_ .f32 0x47C35000#32),
    StableHlo.unary main_cst_19 main_v84 (broadcastInDim S64 ![] bcast_S_S64 : (⟨S_, .f32⟩ : BufTy).Contents (Elt F) → (⟨S64, .f32⟩ : BufTy).Contents (Elt F)),
    StableHlo.binary main_v83 main_v84 main_v85 (Host.divf : (⟨S64, .f32⟩ : BufTy).Contents (Elt F) → (⟨S64, .f32⟩ : BufTy).Contents (Elt F) → (⟨S64, .f32⟩ : BufTy).Contents (Elt F)),
    StableHlo.nullary main_c_20 (constantI S_ 32 0#32),
    StableHlo.TRef.nullary main_call7.cst (constant S_ .f32 0x00000000#32),
    StableHlo.TRef.binary (.of main_v82 : StableHlo.TRef sig ⟨S100000x64, .f32⟩) main_call7.cst main_call7.v0 (fun x v => Host.reduceAdd x v reducesTo_S100000x64_S64_d0 h_S_),
    StableHlo.TRef.unary main_call7.v0 main_call7.v1 (broadcastInDim S1x64 ![1] bcast_S64_S1x64_1),
    StableHlo.TRef.nullary main_call7.cst_0 (constant S_ .f32 0x47C35000#32),
    StableHlo.TRef.unary main_call7.cst_0 main_call7.v2 (broadcastInDim S1x64 ![] bcast_S_S1x64),
    StableHlo.TRef.binary main_call7.v1 main_call7.v2 main_call7.v3 Host.divf,
    StableHlo.TRef.unary main_call7.v3 main_call7.v4 (broadcastInDim S100000x64 ![0, 1] bcast_S1x64_S100000x64_0_1),
    StableHlo.TRef.binary (.of main_v82 : StableHlo.TRef sig ⟨S100000x64, .f32⟩) main_call7.v4 main_call7.v5 subf,
    StableHlo.TRef.binary main_call7.v5 main_call7.v5 main_call7.v6 mulf,
    StableHlo.TRef.unary (.of main_c_20 : StableHlo.TRef sig ⟨S_, .i32⟩) main_call7.v7 (sitofp .f32),
    StableHlo.TRef.nullary main_call7.cst_1 (constant S_ .f32 0x47C35000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S100000x64_S64_d0 h_S_),
    StableHlo.TRef.unary main_call7.v8 main_call7.v10 (broadcastInDim S64 ![] bcast_S_S64),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S64 ![] bcast_S_S64),
    StableHlo.TRef.ternary main_call7.v12 main_call7.v11 main_call7.call0.v1 main_call7.call0.v2 (fun p a b => select (broadcastInDim S64 ![] bcast_S_S64 p) a b) ]
theorem ops7_sub : (ops7 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem ops7_fresh : (ops7 : List (HloOp τ sig (Elt F))).Forall fun op => op.fresh = ∅ := by
  simp only [List.Forall]; repeat' constructor

/-- Piece 8: 10 operations. -/
abbrev ops8 : List (HloOp τ sig (Elt F)) :=
  [ StableHlo.unary main_v85 main_v87 (broadcastInDim S1x64 ![1] bcast_S64_S1x64_1 : (⟨S64, .f32⟩ : BufTy).Contents (Elt F) → (⟨S1x64, .f32⟩ : BufTy).Contents (Elt F)),
    StableHlo.unary main_v87 main_v88 (broadcastInDim S100000x64 ![0, 1] bcast_S1x64_S100000x64_0_1 : (⟨S1x64, .f32⟩ : BufTy).Contents (Elt F) → (⟨S100000x64, .f32⟩ : BufTy).Contents (Elt F)),
    StableHlo.binary main_v82 main_v88 main_v89 (subf : (⟨S100000x64, .f32⟩ : BufTy).Contents (Elt F) → (⟨S100000x64, .f32⟩ : BufTy).Contents (Elt F) → (⟨S100000x64, .f32⟩ : BufTy).Contents (Elt F)),
    StableHlo.nullary main_cst_21 (constant S_ .f32 0x3727C5AC#32),
    StableHlo.unary main_cst_21 main_v90 (broadcastInDim S64 ![] bcast_S_S64 : (⟨S_, .f32⟩ : BufTy).Contents (Elt F) → (⟨S64, .f32⟩ : BufTy).Contents (Elt F)),
    StableHlo.binary main_v86 main_v90 main_v91 (addf : (⟨S64, .f32⟩ : BufTy).Contents (Elt F) → (⟨S64, .f32⟩ : BufTy).Contents (Elt F) → (⟨S64, .f32⟩ : BufTy).Contents (Elt F)),
    StableHlo.unary main_v91 main_v92 (Host.rsqrt : (⟨S64, .f32⟩ : BufTy).Contents (Elt F) → (⟨S64, .f32⟩ : BufTy).Contents (Elt F)),
    StableHlo.unary main_v92 main_v93 (broadcastInDim S1x64 ![1] bcast_S64_S1x64_1 : (⟨S64, .f32⟩ : BufTy).Contents (Elt F) → (⟨S1x64, .f32⟩ : BufTy).Contents (Elt F)),
    StableHlo.unary main_v93 main_v94 (broadcastInDim S100000x64 ![0, 1] bcast_S1x64_S100000x64_0_1 : (⟨S1x64, .f32⟩ : BufTy).Contents (Elt F) → (⟨S100000x64, .f32⟩ : BufTy).Contents (Elt F)),
    StableHlo.binary main_v89 main_v94 main_v95 (mulf : (⟨S100000x64, .f32⟩ : BufTy).Contents (Elt F) → (⟨S100000x64, .f32⟩ : BufTy).Contents (Elt F) → (⟨S100000x64, .f32⟩ : BufTy).Contents (Elt F)) ]
theorem ops8_sub : (ops8 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub ..⟩
theorem ops8_fresh : (ops8 : List (HloOp τ sig (Elt F))).Forall fun op => op.fresh = ∅ := by
  simp only [List.Forall]; repeat' constructor

/-- Piece 9: 6 operations. -/
abbrev ops9 : List (HloOp τ sig (Elt F)) :=
  [ StableHlo.unary main_arg11 main_v96 (broadcastInDim S1x64 ![1] bcast_S64_S1x64_1 : (⟨S64, .f32⟩ : BufTy).Contents (Elt F) → (⟨S1x64, .f32⟩ : BufTy).Contents (Elt F)),
    StableHlo.unary main_v96 main_v97 (broadcastInDim S100000x64 ![0, 1] bcast_S1x64_S100000x64_0_1 : (⟨S1x64, .f32⟩ : BufTy).Contents (Elt F) → (⟨S100000x64, .f32⟩ : BufTy).Contents (Elt F)),
    StableHlo.binary main_v95 main_v97 main_v98 (mulf : (⟨S100000x64, .f32⟩ : BufTy).Contents (Elt F) → (⟨S100000x64, .f32⟩ : BufTy).Contents (Elt F) → (⟨S100000x64, .f32⟩ : BufTy).Contents (Elt F)),
    StableHlo.unary main_arg12 main_v99 (broadcastInDim S1x64 ![1] bcast_S64_S1x64_1 : (⟨S64, .f32⟩ : BufTy).Contents (Elt F) → (⟨S1x64, .f32⟩ : BufTy).Contents (Elt F)),
    StableHlo.unary main_v99 main_v100 (broadcastInDim S100000x64 ![0, 1] bcast_S1x64_S100000x64_0_1 : (⟨S1x64, .f32⟩ : BufTy).Contents (Elt F) → (⟨S100000x64, .f32⟩ : BufTy).Contents (Elt F)),
    StableHlo.binary main_v98 main_v100 main_v101 (addf : (⟨S100000x64, .f32⟩ : BufTy).Contents (Elt F) → (⟨S100000x64, .f32⟩ : BufTy).Contents (Elt F) → (⟨S100000x64, .f32⟩ : BufTy).Contents (Elt F)) ]
theorem ops9_sub : (ops9 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem ops9_fresh : (ops9 : List (HloOp τ sig (Elt F))).Forall fun op => op.fresh = ∅ := by
  simp only [List.Forall]; repeat' constructor

/-- Piece 10: 39 operations. -/
abbrev ops10 : List (HloOp τ sig (Elt F)) :=
  [ StableHlo.nullary main_cst_22 (constant S_ .f32 0x3F800000#32),
    StableHlo.unary main_cst_22 main_v102 (broadcastInDim S1250000 ![] bcast_S_S1250000 : (⟨S_, .f32⟩ : BufTy).Contents (Elt F) → (⟨S1250000, .f32⟩ : BufTy).Contents (Elt F)),
    StableHlo.nullary main_cst_23 (constant S_ .f32 0x00000000#32),
    StableHlo.unary main_cst_23 main_v103 (broadcastInDim S100000 ![] bcast_S_S100000 : (⟨S_, .f32⟩ : BufTy).Contents (Elt F) → (⟨S100000, .f32⟩ : BufTy).Contents (Elt F)),
    StableHlo.unary main_arg3 main_v104 (broadcastInDim S1250000x1 ![0] bcast_S1250000_S1250000x1_0 : (⟨S1250000, .i32⟩ : BufTy).Contents (Elt F) → (⟨S1250000x1, .i32⟩ : BufTy).Contents (Elt F)),
    StableHlo.ternary main_v103 main_v104 main_v102 main_v105 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    StableHlo.nullary main_cst_24 (constant S_ .f32 0x00000000#32),
    StableHlo.unary main_cst_24 main_v106 (broadcastInDim S100000 ![] bcast_S_S100000 : (⟨S_, .f32⟩ : BufTy).Contents (Elt F) → (⟨S100000, .f32⟩ : BufTy).Contents (Elt F)),
    StableHlo.unary main_arg4 main_v107 (broadcastInDim S1250000x1 ![0] bcast_S1250000_S1250000x1_0 : (⟨S1250000, .i32⟩ : BufTy).Contents (Elt F) → (⟨S1250000x1, .i32⟩ : BufTy).Contents (Elt F)),
    StableHlo.ternary main_v106 main_v107 main_v102 main_v108 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    StableHlo.nullary main_cst_25 (constant S_ .f32 0x3F800000#32),
    StableHlo.TRef.unary (.of main_cst_25 : StableHlo.TRef sig ⟨S_, .f32⟩) main_call8.v0 id,
    StableHlo.TRef.unary main_call8.v0 main_call8.v1 (broadcastInDim S100000 ![] bcast_S_S100000),
    StableHlo.TRef.binary main_call8.v1 (.of main_v105 : StableHlo.TRef sig ⟨S100000, .f32⟩) main_call8.v2 maximumf,
    StableHlo.unary main_v109 main_v110 (Host.rsqrt : (⟨S100000, .f32⟩ : BufTy).Contents (Elt F) → (⟨S100000, .f32⟩ : BufTy).Contents (Elt F)),
    StableHlo.nullary main_cst_26 (constant S_ .f32 0x3F800000#32),
    StableHlo.TRef.unary (.of main_cst_26 : StableHlo.TRef sig ⟨S_, .f32⟩) main_call9.v0 id,
    StableHlo.TRef.unary main_call9.v0 main_call9.v1 (broadcastInDim S100000 ![] bcast_S_S100000),
    StableHlo.TRef.binary main_call9.v1 (.of main_v108 : StableHlo.TRef sig ⟨S100000, .f32⟩) main_call9.v2 maximumf,
    StableHlo.unary main_v111 main_v112 (Host.rsqrt : (⟨S100000, .f32⟩ : BufTy).Contents (Elt F) → (⟨S100000, .f32⟩ : BufTy).Contents (Elt F)),
    StableHlo.unary main_v110 main_v113 (broadcastInDim S100000x1 ![0] bcast_S100000_S100000x1_0 : (⟨S100000, .f32⟩ : BufTy).Contents (Elt F) → (⟨S100000x1, .f32⟩ : BufTy).Contents (Elt F)),
    StableHlo.unary main_v113 main_v114 (broadcastInDim S100000x64 ![0, 1] bcast_S100000x1_S100000x64_0_1 : (⟨S100000x1, .f32⟩ : BufTy).Contents (Elt F) → (⟨S100000x64, .f32⟩ : BufTy).Contents (Elt F)),
    StableHlo.binary main_arg0 main_v114 main_v115 (mulf : (⟨S100000x64, .f32⟩ : BufTy).Contents (Elt F) → (⟨S100000x64, .f32⟩ : BufTy).Contents (Elt F) → (⟨S100000x64, .f32⟩ : BufTy).Contents (Elt F)),
    StableHlo.nullary main_c_27 (constantI S_ 32 0#32),
    StableHlo.unary main_c_27 main_v116 (broadcastInDim S1250000 ![] bcast_S_S1250000 : (⟨S_, .i32⟩ : BufTy).Contents (Elt F) → (⟨S1250000, .i32⟩ : BufTy).Contents (Elt F)),
    StableHlo.binary main_arg3 main_v116 main_v117 (cmpi .slt : (⟨S1250000, .i32⟩ : BufTy).Contents (Elt F) → (⟨S1250000, .i32⟩ : BufTy).Contents (Elt F) → (⟨S1250000, .i1⟩ : BufTy).Contents (Elt F)),
    StableHlo.nullary main_c_28 (constantI S_ 32 100000#32),
    StableHlo.unary main_c_28 main_v118 (broadcastInDim S1250000 ![] bcast_S_S1250000 : (⟨S_, .i32⟩ : BufTy).Contents (Elt F) → (⟨S1250000, .i32⟩ : BufTy).Contents (Elt F)),
    StableHlo.binary main_arg3 main_v118 main_v119 (addi : (⟨S1250000, .i32⟩ : BufTy).Contents (Elt F) → (⟨S1250000, .i32⟩ : BufTy).Contents (Elt F) → (⟨S1250000, .i32⟩ : BufTy).Contents (Elt F)),
    StableHlo.ternary main_v117 main_v119 main_arg3 main_v120 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    StableHlo.unary main_v120 main_v121 (broadcastInDim S1250000x1 ![0] bcast_S1250000_S1250000x1_0 : (⟨S1250000, .i32⟩ : BufTy).Contents (Elt F) → (⟨S1250000x1, .i32⟩ : BufTy).Contents (Elt F)),
    StableHlo.binary main_v115 main_v121 main_v122 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    StableHlo.nullary main_cst_29 (constant S_ .f32 0x00000000#32),
    StableHlo.unary main_cst_29 main_v123 (broadcastInDim S100000x64 ![] bcast_S_S100000x64 : (⟨S_, .f32⟩ : BufTy).Contents (Elt F) → (⟨S100000x64, .f32⟩ : BufTy).Contents (Elt F)),
    StableHlo.unary main_arg4 main_v124 (broadcastInDim S1250000x1 ![0] bcast_S1250000_S1250000x1_0 : (⟨S1250000, .i32⟩ : BufTy).Contents (Elt F) → (⟨S1250000x1, .i32⟩ : BufTy).Contents (Elt F)),
    StableHlo.ternary main_v123 main_v124 main_v122 main_v125 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    StableHlo.unary main_v112 main_v126 (broadcastInDim S100000x1 ![0] bcast_S100000_S100000x1_0 : (⟨S100000, .f32⟩ : BufTy).Contents (Elt F) → (⟨S100000x1, .f32⟩ : BufTy).Contents (Elt F)),
    StableHlo.unary main_v126 main_v127 (broadcastInDim S100000x64 ![0, 1] bcast_S100000x1_S100000x64_0_1 : (⟨S100000x1, .f32⟩ : BufTy).Contents (Elt F) → (⟨S100000x64, .f32⟩ : BufTy).Contents (Elt F)),
    StableHlo.binary main_v125 main_v127 main_v128 (mulf : (⟨S100000x64, .f32⟩ : BufTy).Contents (Elt F) → (⟨S100000x64, .f32⟩ : BufTy).Contents (Elt F) → (⟨S100000x64, .f32⟩ : BufTy).Contents (Elt F)) ]
theorem ops10_sub : (ops10 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.binary_bufs_sub .., StableHlo.unary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩
theorem ops10_fresh : (ops10 : List (HloOp τ sig (Elt F))).Forall fun op => op.fresh = ∅ := by
  simp only [List.Forall]; repeat' constructor

/-- Piece 11: 19 operations. -/
abbrev ops11 : List (HloOp τ sig (Elt F)) :=
  [ StableHlo.binary main_v128 main_arg13 main_v129 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg14 main_v130 (broadcastInDim S1x64 ![1] bcast_S64_S1x64_1 : (⟨S64, .f32⟩ : BufTy).Contents (Elt F) → (⟨S1x64, .f32⟩ : BufTy).Contents (Elt F)),
    StableHlo.unary main_v130 main_v131 (broadcastInDim S100000x64 ![0, 1] bcast_S1x64_S100000x64_0_1 : (⟨S1x64, .f32⟩ : BufTy).Contents (Elt F) → (⟨S100000x64, .f32⟩ : BufTy).Contents (Elt F)),
    StableHlo.binary main_v129 main_v131 main_v132 (addf : (⟨S100000x64, .f32⟩ : BufTy).Contents (Elt F) → (⟨S100000x64, .f32⟩ : BufTy).Contents (Elt F) → (⟨S100000x64, .f32⟩ : BufTy).Contents (Elt F)),
    StableHlo.TRef.nullary main_call10.cst (constant S_ .f32 0x00000000#32),
    StableHlo.TRef.unary main_call10.cst main_call10.v0 (broadcastInDim S100000x64 ![] bcast_S_S100000x64),
    StableHlo.TRef.binary (.of main_v132 : StableHlo.TRef sig ⟨S100000x64, .f32⟩) main_call10.v0 main_call10.v1 (cmpf .ogt),
    StableHlo.TRef.nullary main_call10.cst_0 (constant S_ .f32 0x00000000#32),
    StableHlo.TRef.unary main_call10.cst_0 main_call10.v2 (broadcastInDim S100000x64 ![] bcast_S_S100000x64),
    StableHlo.TRef.binary (.of main_v132 : StableHlo.TRef sig ⟨S100000x64, .f32⟩) main_call10.v2 main_call10.v3 (cmpf .ogt),
    StableHlo.TRef.nullary main_call10.cst_1 (constant S_ .f32 0x00000000#32),
    StableHlo.TRef.unary main_call10.cst_1 main_call10.call0.v0 id,
    StableHlo.TRef.unary main_call10.call0.v0 main_call10.call0.v1 (broadcastInDim S100000x64 ![] bcast_S_S100000x64),
    StableHlo.TRef.ternary main_call10.v3 main_call10.call0.v1 (.of main_v132 : StableHlo.TRef sig ⟨S100000x64, .f32⟩) main_call10.call0.v2 select,
    StableHlo.TRef.unary main_call10.call0.v2 main_call10.v5 Host.expm1,
    StableHlo.TRef.nullary main_call10.cst_2 (constant S_ .f32 0x3F800000#32),
    StableHlo.TRef.unary main_call10.cst_2 main_call10.v6 (broadcastInDim S100000x64 ![] bcast_S_S100000x64),
    StableHlo.TRef.binary main_call10.v6 main_call10.v5 main_call10.v7 mulf,
    StableHlo.TRef.ternary main_call10.v1 (.of main_v132 : StableHlo.TRef sig ⟨S100000x64, .f32⟩) main_call10.v7 main_call10.call1.v0 select ]
theorem ops11_sub : (ops11 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩
theorem ops11_fresh : (ops11 : List (HloOp τ sig (Elt F))).Forall fun op => op.fresh = ∅ := by
  simp only [List.Forall]; repeat' constructor

/-- Piece 12: 28 operations. -/
abbrev ops12 : List (HloOp τ sig (Elt F)) :=
  [ StableHlo.nullary main_cst_30 (constant S_ .f32 0x00000000#32),
    StableHlo.binary main_v133 main_cst_30 main_v134 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_31 (constant S_ .f32 0x47C35000#32),
    StableHlo.unary main_cst_31 main_v135 (broadcastInDim S64 ![] bcast_S_S64 : (⟨S_, .f32⟩ : BufTy).Contents (Elt F) → (⟨S64, .f32⟩ : BufTy).Contents (Elt F)),
    StableHlo.binary main_v134 main_v135 main_v136 (Host.divf : (⟨S64, .f32⟩ : BufTy).Contents (Elt F) → (⟨S64, .f32⟩ : BufTy).Contents (Elt F) → (⟨S64, .f32⟩ : BufTy).Contents (Elt F)),
    StableHlo.nullary main_c_32 (constantI S_ 32 0#32),
    StableHlo.TRef.nullary main_call11.cst (constant S_ .f32 0x00000000#32),
    StableHlo.TRef.binary (.of main_v133 : StableHlo.TRef sig ⟨S100000x64, .f32⟩) main_call11.cst main_call11.v0 (fun x v => Host.reduceAdd x v reducesTo_S100000x64_S64_d0 h_S_),
    StableHlo.TRef.unary main_call11.v0 main_call11.v1 (broadcastInDim S1x64 ![1] bcast_S64_S1x64_1),
    StableHlo.TRef.nullary main_call11.cst_0 (constant S_ .f32 0x47C35000#32),
    StableHlo.TRef.unary main_call11.cst_0 main_call11.v2 (broadcastInDim S1x64 ![] bcast_S_S1x64),
    StableHlo.TRef.binary main_call11.v1 main_call11.v2 main_call11.v3 Host.divf,
    StableHlo.TRef.unary main_call11.v3 main_call11.v4 (broadcastInDim S100000x64 ![0, 1] bcast_S1x64_S100000x64_0_1),
    StableHlo.TRef.binary (.of main_v133 : StableHlo.TRef sig ⟨S100000x64, .f32⟩) main_call11.v4 main_call11.v5 subf,
    StableHlo.TRef.binary main_call11.v5 main_call11.v5 main_call11.v6 mulf,
    StableHlo.TRef.unary (.of main_c_32 : StableHlo.TRef sig ⟨S_, .i32⟩) main_call11.v7 (sitofp .f32),
    StableHlo.TRef.nullary main_call11.cst_1 (constant S_ .f32 0x47C35000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S100000x64_S64_d0 h_S_),
    StableHlo.TRef.unary main_call11.v8 main_call11.v10 (broadcastInDim S64 ![] bcast_S_S64),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S64 ![] bcast_S_S64),
    StableHlo.TRef.ternary main_call11.v12 main_call11.v11 main_call11.call0.v1 main_call11.call0.v2 (fun p a b => select (broadcastInDim S64 ![] bcast_S_S64 p) a b) ]
theorem ops12_sub : (ops12 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem ops12_fresh : (ops12 : List (HloOp τ sig (Elt F))).Forall fun op => op.fresh = ∅ := by
  simp only [List.Forall]; repeat' constructor

/-- Piece 13: 7 operations. -/
abbrev ops13 : List (HloOp τ sig (Elt F)) :=
  [ StableHlo.unary main_v136 main_v138 (broadcastInDim S1x64 ![1] bcast_S64_S1x64_1 : (⟨S64, .f32⟩ : BufTy).Contents (Elt F) → (⟨S1x64, .f32⟩ : BufTy).Contents (Elt F)),
    StableHlo.unary main_v138 main_v139 (broadcastInDim S100000x64 ![0, 1] bcast_S1x64_S100000x64_0_1 : (⟨S1x64, .f32⟩ : BufTy).Contents (Elt F) → (⟨S100000x64, .f32⟩ : BufTy).Contents (Elt F)),
    StableHlo.binary main_v133 main_v139 main_v140 (subf : (⟨S100000x64, .f32⟩ : BufTy).Contents (Elt F) → (⟨S100000x64, .f32⟩ : BufTy).Contents (Elt F) → (⟨S100000x64, .f32⟩ : BufTy).Contents (Elt F)),
    StableHlo.nullary main_cst_33 (constant S_ .f32 0x3727C5AC#32),
    StableHlo.unary main_cst_33 main_v141 (broadcastInDim S64 ![] bcast_S_S64 : (⟨S_, .f32⟩ : BufTy).Contents (Elt F) → (⟨S64, .f32⟩ : BufTy).Contents (Elt F)),
    StableHlo.binary main_v137 main_v141 main_v142 (addf : (⟨S64, .f32⟩ : BufTy).Contents (Elt F) → (⟨S64, .f32⟩ : BufTy).Contents (Elt F) → (⟨S64, .f32⟩ : BufTy).Contents (Elt F)),
    StableHlo.unary main_v142 main_v143 (Host.rsqrt : (⟨S64, .f32⟩ : BufTy).Contents (Elt F) → (⟨S64, .f32⟩ : BufTy).Contents (Elt F)) ]
theorem ops13_sub : (ops13 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub ..⟩
theorem ops13_fresh : (ops13 : List (HloOp τ sig (Elt F))).Forall fun op => op.fresh = ∅ := by
  simp only [List.Forall]; repeat' constructor

/-- Piece 14: 9 operations. -/
abbrev ops14 : List (HloOp τ sig (Elt F)) :=
  [ StableHlo.unary main_v143 main_v144 (broadcastInDim S1x64 ![1] bcast_S64_S1x64_1 : (⟨S64, .f32⟩ : BufTy).Contents (Elt F) → (⟨S1x64, .f32⟩ : BufTy).Contents (Elt F)),
    StableHlo.unary main_v144 main_v145 (broadcastInDim S100000x64 ![0, 1] bcast_S1x64_S100000x64_0_1 : (⟨S1x64, .f32⟩ : BufTy).Contents (Elt F) → (⟨S100000x64, .f32⟩ : BufTy).Contents (Elt F)),
    StableHlo.binary main_v140 main_v145 main_v146 (mulf : (⟨S100000x64, .f32⟩ : BufTy).Contents (Elt F) → (⟨S100000x64, .f32⟩ : BufTy).Contents (Elt F) → (⟨S100000x64, .f32⟩ : BufTy).Contents (Elt F)),
    StableHlo.unary main_arg15 main_v147 (broadcastInDim S1x64 ![1] bcast_S64_S1x64_1 : (⟨S64, .f32⟩ : BufTy).Contents (Elt F) → (⟨S1x64, .f32⟩ : BufTy).Contents (Elt F)),
    StableHlo.unary main_v147 main_v148 (broadcastInDim S100000x64 ![0, 1] bcast_S1x64_S100000x64_0_1 : (⟨S1x64, .f32⟩ : BufTy).Contents (Elt F) → (⟨S100000x64, .f32⟩ : BufTy).Contents (Elt F)),
    StableHlo.binary main_v146 main_v148 main_v149 (mulf : (⟨S100000x64, .f32⟩ : BufTy).Contents (Elt F) → (⟨S100000x64, .f32⟩ : BufTy).Contents (Elt F) → (⟨S100000x64, .f32⟩ : BufTy).Contents (Elt F)),
    StableHlo.unary main_arg16 main_v150 (broadcastInDim S1x64 ![1] bcast_S64_S1x64_1 : (⟨S64, .f32⟩ : BufTy).Contents (Elt F) → (⟨S1x64, .f32⟩ : BufTy).Contents (Elt F)),
    StableHlo.unary main_v150 main_v151 (broadcastInDim S100000x64 ![0, 1] bcast_S1x64_S100000x64_0_1 : (⟨S1x64, .f32⟩ : BufTy).Contents (Elt F) → (⟨S100000x64, .f32⟩ : BufTy).Contents (Elt F)),
    StableHlo.binary main_v149 main_v151 main_v152 (addf : (⟨S100000x64, .f32⟩ : BufTy).Contents (Elt F) → (⟨S100000x64, .f32⟩ : BufTy).Contents (Elt F) → (⟨S100000x64, .f32⟩ : BufTy).Contents (Elt F)) ]
theorem ops14_sub : (ops14 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem ops14_fresh : (ops14 : List (HloOp τ sig (Elt F))).Forall fun op => op.fresh = ∅ := by
  simp only [List.Forall]; repeat' constructor

/-- Piece 15: 39 operations. -/
abbrev ops15 : List (HloOp τ sig (Elt F)) :=
  [ StableHlo.nullary main_cst_34 (constant S_ .f32 0x3F800000#32),
    StableHlo.unary main_cst_34 main_v153 (broadcastInDim S1250000 ![] bcast_S_S1250000 : (⟨S_, .f32⟩ : BufTy).Contents (Elt F) → (⟨S1250000, .f32⟩ : BufTy).Contents (Elt F)),
    StableHlo.nullary main_cst_35 (constant S_ .f32 0x00000000#32),
    StableHlo.unary main_cst_35 main_v154 (broadcastInDim S100000 ![] bcast_S_S100000 : (⟨S_, .f32⟩ : BufTy).Contents (Elt F) → (⟨S100000, .f32⟩ : BufTy).Contents (Elt F)),
    StableHlo.unary main_arg3 main_v155 (broadcastInDim S1250000x1 ![0] bcast_S1250000_S1250000x1_0 : (⟨S1250000, .i32⟩ : BufTy).Contents (Elt F) → (⟨S1250000x1, .i32⟩ : BufTy).Contents (Elt F)),
    StableHlo.ternary main_v154 main_v155 main_v153 main_v156 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    StableHlo.nullary main_cst_36 (constant S_ .f32 0x00000000#32),
    StableHlo.unary main_cst_36 main_v157 (broadcastInDim S100000 ![] bcast_S_S100000 : (⟨S_, .f32⟩ : BufTy).Contents (Elt F) → (⟨S100000, .f32⟩ : BufTy).Contents (Elt F)),
    StableHlo.unary main_arg4 main_v158 (broadcastInDim S1250000x1 ![0] bcast_S1250000_S1250000x1_0 : (⟨S1250000, .i32⟩ : BufTy).Contents (Elt F) → (⟨S1250000x1, .i32⟩ : BufTy).Contents (Elt F)),
    StableHlo.ternary main_v157 main_v158 main_v153 main_v159 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    StableHlo.nullary main_cst_37 (constant S_ .f32 0x3F800000#32),
    StableHlo.TRef.unary (.of main_cst_37 : StableHlo.TRef sig ⟨S_, .f32⟩) main_call12.v0 id,
    StableHlo.TRef.unary main_call12.v0 main_call12.v1 (broadcastInDim S100000 ![] bcast_S_S100000),
    StableHlo.TRef.binary main_call12.v1 (.of main_v156 : StableHlo.TRef sig ⟨S100000, .f32⟩) main_call12.v2 maximumf,
    StableHlo.unary main_v160 main_v161 (Host.rsqrt : (⟨S100000, .f32⟩ : BufTy).Contents (Elt F) → (⟨S100000, .f32⟩ : BufTy).Contents (Elt F)),
    StableHlo.nullary main_cst_38 (constant S_ .f32 0x3F800000#32),
    StableHlo.TRef.unary (.of main_cst_38 : StableHlo.TRef sig ⟨S_, .f32⟩) main_call13.v0 id,
    StableHlo.TRef.unary main_call13.v0 main_call13.v1 (broadcastInDim S100000 ![] bcast_S_S100000),
    StableHlo.TRef.binary main_call13.v1 (.of main_v159 : StableHlo.TRef sig ⟨S100000, .f32⟩) main_call13.v2 maximumf,
    StableHlo.unary main_v162 main_v163 (Host.rsqrt : (⟨S100000, .f32⟩ : BufTy).Contents (Elt F) → (⟨S100000, .f32⟩ : BufTy).Contents (Elt F)),
    StableHlo.unary main_v161 main_v164 (broadcastInDim S100000x1 ![0] bcast_S100000_S100000x1_0 : (⟨S100000, .f32⟩ : BufTy).Contents (Elt F) → (⟨S100000x1, .f32⟩ : BufTy).Contents (Elt F)),
    StableHlo.unary main_v164 main_v165 (broadcastInDim S100000x64 ![0, 1] bcast_S100000x1_S100000x64_0_1 : (⟨S100000x1, .f32⟩ : BufTy).Contents (Elt F) → (⟨S100000x64, .f32⟩ : BufTy).Contents (Elt F)),
    StableHlo.binary main_v152 main_v165 main_v166 (mulf : (⟨S100000x64, .f32⟩ : BufTy).Contents (Elt F) → (⟨S100000x64, .f32⟩ : BufTy).Contents (Elt F) → (⟨S100000x64, .f32⟩ : BufTy).Contents (Elt F)),
    StableHlo.nullary main_c_39 (constantI S_ 32 0#32),
    StableHlo.unary main_c_39 main_v167 (broadcastInDim S1250000 ![] bcast_S_S1250000 : (⟨S_, .i32⟩ : BufTy).Contents (Elt F) → (⟨S1250000, .i32⟩ : BufTy).Contents (Elt F)),
    StableHlo.binary main_arg3 main_v167 main_v168 (cmpi .slt : (⟨S1250000, .i32⟩ : BufTy).Contents (Elt F) → (⟨S1250000, .i32⟩ : BufTy).Contents (Elt F) → (⟨S1250000, .i1⟩ : BufTy).Contents (Elt F)),
    StableHlo.nullary main_c_40 (constantI S_ 32 100000#32),
    StableHlo.unary main_c_40 main_v169 (broadcastInDim S1250000 ![] bcast_S_S1250000 : (⟨S_, .i32⟩ : BufTy).Contents (Elt F) → (⟨S1250000, .i32⟩ : BufTy).Contents (Elt F)),
    StableHlo.binary main_arg3 main_v169 main_v170 (addi : (⟨S1250000, .i32⟩ : BufTy).Contents (Elt F) → (⟨S1250000, .i32⟩ : BufTy).Contents (Elt F) → (⟨S1250000, .i32⟩ : BufTy).Contents (Elt F)),
    StableHlo.ternary main_v168 main_v170 main_arg3 main_v171 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    StableHlo.unary main_v171 main_v172 (broadcastInDim S1250000x1 ![0] bcast_S1250000_S1250000x1_0 : (⟨S1250000, .i32⟩ : BufTy).Contents (Elt F) → (⟨S1250000x1, .i32⟩ : BufTy).Contents (Elt F)),
    StableHlo.binary main_v166 main_v172 main_v173 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    StableHlo.nullary main_cst_41 (constant S_ .f32 0x00000000#32),
    StableHlo.unary main_cst_41 main_v174 (broadcastInDim S100000x64 ![] bcast_S_S100000x64 : (⟨S_, .f32⟩ : BufTy).Contents (Elt F) → (⟨S100000x64, .f32⟩ : BufTy).Contents (Elt F)),
    StableHlo.unary main_arg4 main_v175 (broadcastInDim S1250000x1 ![0] bcast_S1250000_S1250000x1_0 : (⟨S1250000, .i32⟩ : BufTy).Contents (Elt F) → (⟨S1250000x1, .i32⟩ : BufTy).Contents (Elt F)),
    StableHlo.ternary main_v174 main_v175 main_v173 main_v176 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    StableHlo.unary main_v163 main_v177 (broadcastInDim S100000x1 ![0] bcast_S100000_S100000x1_0 : (⟨S100000, .f32⟩ : BufTy).Contents (Elt F) → (⟨S100000x1, .f32⟩ : BufTy).Contents (Elt F)),
    StableHlo.unary main_v177 main_v178 (broadcastInDim S100000x64 ![0, 1] bcast_S100000x1_S100000x64_0_1 : (⟨S100000x1, .f32⟩ : BufTy).Contents (Elt F) → (⟨S100000x64, .f32⟩ : BufTy).Contents (Elt F)),
    StableHlo.binary main_v176 main_v178 main_v179 (mulf : (⟨S100000x64, .f32⟩ : BufTy).Contents (Elt F) → (⟨S100000x64, .f32⟩ : BufTy).Contents (Elt F) → (⟨S100000x64, .f32⟩ : BufTy).Contents (Elt F)) ]
theorem ops15_sub : (ops15 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.binary_bufs_sub .., StableHlo.unary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩
theorem ops15_fresh : (ops15 : List (HloOp τ sig (Elt F))).Forall fun op => op.fresh = ∅ := by
  simp only [List.Forall]; repeat' constructor

/-- Piece 16: 19 operations. -/
abbrev ops16 : List (HloOp τ sig (Elt F)) :=
  [ StableHlo.binary main_v179 main_arg17 main_v180 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg18 main_v181 (broadcastInDim S1x64 ![1] bcast_S64_S1x64_1 : (⟨S64, .f32⟩ : BufTy).Contents (Elt F) → (⟨S1x64, .f32⟩ : BufTy).Contents (Elt F)),
    StableHlo.unary main_v181 main_v182 (broadcastInDim S100000x64 ![0, 1] bcast_S1x64_S100000x64_0_1 : (⟨S1x64, .f32⟩ : BufTy).Contents (Elt F) → (⟨S100000x64, .f32⟩ : BufTy).Contents (Elt F)),
    StableHlo.binary main_v180 main_v182 main_v183 (addf : (⟨S100000x64, .f32⟩ : BufTy).Contents (Elt F) → (⟨S100000x64, .f32⟩ : BufTy).Contents (Elt F) → (⟨S100000x64, .f32⟩ : BufTy).Contents (Elt F)),
    StableHlo.TRef.nullary main_call14.cst (constant S_ .f32 0x00000000#32),
    StableHlo.TRef.unary main_call14.cst main_call14.v0 (broadcastInDim S100000x64 ![] bcast_S_S100000x64),
    StableHlo.TRef.binary (.of main_v183 : StableHlo.TRef sig ⟨S100000x64, .f32⟩) main_call14.v0 main_call14.v1 (cmpf .ogt),
    StableHlo.TRef.nullary main_call14.cst_0 (constant S_ .f32 0x00000000#32),
    StableHlo.TRef.unary main_call14.cst_0 main_call14.v2 (broadcastInDim S100000x64 ![] bcast_S_S100000x64),
    StableHlo.TRef.binary (.of main_v183 : StableHlo.TRef sig ⟨S100000x64, .f32⟩) main_call14.v2 main_call14.v3 (cmpf .ogt),
    StableHlo.TRef.nullary main_call14.cst_1 (constant S_ .f32 0x00000000#32),
    StableHlo.TRef.unary main_call14.cst_1 main_call14.call0.v0 id,
    StableHlo.TRef.unary main_call14.call0.v0 main_call14.call0.v1 (broadcastInDim S100000x64 ![] bcast_S_S100000x64),
    StableHlo.TRef.ternary main_call14.v3 main_call14.call0.v1 (.of main_v183 : StableHlo.TRef sig ⟨S100000x64, .f32⟩) main_call14.call0.v2 select,
    StableHlo.TRef.unary main_call14.call0.v2 main_call14.v5 Host.expm1,
    StableHlo.TRef.nullary main_call14.cst_2 (constant S_ .f32 0x3F800000#32),
    StableHlo.TRef.unary main_call14.cst_2 main_call14.v6 (broadcastInDim S100000x64 ![] bcast_S_S100000x64),
    StableHlo.TRef.binary main_call14.v6 main_call14.v5 main_call14.v7 mulf,
    StableHlo.TRef.ternary main_call14.v1 (.of main_v183 : StableHlo.TRef sig ⟨S100000x64, .f32⟩) main_call14.v7 main_call14.call1.v0 select ]
theorem ops16_sub : (ops16 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩
theorem ops16_fresh : (ops16 : List (HloOp τ sig (Elt F))).Forall fun op => op.fresh = ∅ := by
  simp only [List.Forall]; repeat' constructor

/-- Piece 17: 28 operations. -/
abbrev ops17 : List (HloOp τ sig (Elt F)) :=
  [ StableHlo.nullary main_cst_42 (constant S_ .f32 0x00000000#32),
    StableHlo.binary main_v184 main_cst_42 main_v185 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_43 (constant S_ .f32 0x47C35000#32),
    StableHlo.unary main_cst_43 main_v186 (broadcastInDim S64 ![] bcast_S_S64 : (⟨S_, .f32⟩ : BufTy).Contents (Elt F) → (⟨S64, .f32⟩ : BufTy).Contents (Elt F)),
    StableHlo.binary main_v185 main_v186 main_v187 (Host.divf : (⟨S64, .f32⟩ : BufTy).Contents (Elt F) → (⟨S64, .f32⟩ : BufTy).Contents (Elt F) → (⟨S64, .f32⟩ : BufTy).Contents (Elt F)),
    StableHlo.nullary main_c_44 (constantI S_ 32 0#32),
    StableHlo.TRef.nullary main_call15.cst (constant S_ .f32 0x00000000#32),
    StableHlo.TRef.binary (.of main_v184 : StableHlo.TRef sig ⟨S100000x64, .f32⟩) main_call15.cst main_call15.v0 (fun x v => Host.reduceAdd x v reducesTo_S100000x64_S64_d0 h_S_),
    StableHlo.TRef.unary main_call15.v0 main_call15.v1 (broadcastInDim S1x64 ![1] bcast_S64_S1x64_1),
    StableHlo.TRef.nullary main_call15.cst_0 (constant S_ .f32 0x47C35000#32),
    StableHlo.TRef.unary main_call15.cst_0 main_call15.v2 (broadcastInDim S1x64 ![] bcast_S_S1x64),
    StableHlo.TRef.binary main_call15.v1 main_call15.v2 main_call15.v3 Host.divf,
    StableHlo.TRef.unary main_call15.v3 main_call15.v4 (broadcastInDim S100000x64 ![0, 1] bcast_S1x64_S100000x64_0_1),
    StableHlo.TRef.binary (.of main_v184 : StableHlo.TRef sig ⟨S100000x64, .f32⟩) main_call15.v4 main_call15.v5 subf,
    StableHlo.TRef.binary main_call15.v5 main_call15.v5 main_call15.v6 mulf,
    StableHlo.TRef.unary (.of main_c_44 : StableHlo.TRef sig ⟨S_, .i32⟩) main_call15.v7 (sitofp .f32),
    StableHlo.TRef.nullary main_call15.cst_1 (constant S_ .f32 0x47C35000#32),
    StableHlo.TRef.binary main_call15.cst_1 main_call15.v7 main_call15.v8 subf,
    StableHlo.TRef.nullary main_call15.cst_2 (constant S_ .f32 0x00000000#32),
    StableHlo.TRef.binary main_call15.v6 main_call15.cst_2 main_call15.v9 (fun x v => Host.reduceAdd x v reducesTo_S100000x64_S64_d0 h_S_),
    StableHlo.TRef.unary main_call15.v8 main_call15.v10 (broadcastInDim S64 ![] bcast_S_S64),
    StableHlo.TRef.binary main_call15.v9 main_call15.v10 main_call15.v11 Host.divf,
    StableHlo.TRef.nullary main_call15.cst_3 (constant S_ .f32 0x00000000#32),
    StableHlo.TRef.binary main_call15.v8 main_call15.cst_3 main_call15.v12 (cmpf .ogt),
    StableHlo.TRef.nullary main_call15.cst_4 (constant S_ .f32 0x7FC00000#32),
    StableHlo.TRef.unary main_call15.cst_4 main_call15.call0.v0 id,
    StableHlo.TRef.unary main_call15.call0.v0 main_call15.call0.v1 (broadcastInDim S64 ![] bcast_S_S64),
    StableHlo.TRef.ternary main_call15.v12 main_call15.v11 main_call15.call0.v1 main_call15.call0.v2 (fun p a b => select (broadcastInDim S64 ![] bcast_S_S64 p) a b) ]
theorem ops17_sub : (ops17 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
theorem ops17_fresh : (ops17 : List (HloOp τ sig (Elt F))).Forall fun op => op.fresh = ∅ := by
  simp only [List.Forall]; repeat' constructor

/-- Piece 18: 4 operations. -/
abbrev ops18 : List (HloOp τ sig (Elt F)) :=
  [ StableHlo.unary main_v187 main_v189 (broadcastInDim S1x64 ![1] bcast_S64_S1x64_1 : (⟨S64, .f32⟩ : BufTy).Contents (Elt F) → (⟨S1x64, .f32⟩ : BufTy).Contents (Elt F)),
    StableHlo.unary main_v189 main_v190 (broadcastInDim S100000x64 ![0, 1] bcast_S1x64_S100000x64_0_1 : (⟨S1x64, .f32⟩ : BufTy).Contents (Elt F) → (⟨S100000x64, .f32⟩ : BufTy).Contents (Elt F)),
    StableHlo.binary main_v184 main_v190 main_v191 (subf : (⟨S100000x64, .f32⟩ : BufTy).Contents (Elt F) → (⟨S100000x64, .f32⟩ : BufTy).Contents (Elt F) → (⟨S100000x64, .f32⟩ : BufTy).Contents (Elt F)),
    StableHlo.nullary main_cst_45 (constant S_ .f32 0x3727C5AC#32) ]
theorem ops18_sub : (ops18 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub ..⟩
theorem ops18_fresh : (ops18 : List (HloOp τ sig (Elt F))).Forall fun op => op.fresh = ∅ := by
  simp only [List.Forall]; repeat' constructor

/-- Piece 19: 12 operations. -/
abbrev ops19 : List (HloOp τ sig (Elt F)) :=
  [ StableHlo.unary main_cst_45 main_v192 (broadcastInDim S64 ![] bcast_S_S64 : (⟨S_, .f32⟩ : BufTy).Contents (Elt F) → (⟨S64, .f32⟩ : BufTy).Contents (Elt F)),
    StableHlo.binary main_v188 main_v192 main_v193 (addf : (⟨S64, .f32⟩ : BufTy).Contents (Elt F) → (⟨S64, .f32⟩ : BufTy).Contents (Elt F) → (⟨S64, .f32⟩ : BufTy).Contents (Elt F)),
    StableHlo.unary main_v193 main_v194 (Host.rsqrt : (⟨S64, .f32⟩ : BufTy).Contents (Elt F) → (⟨S64, .f32⟩ : BufTy).Contents (Elt F)),
    StableHlo.unary main_v194 main_v195 (broadcastInDim S1x64 ![1] bcast_S64_S1x64_1 : (⟨S64, .f32⟩ : BufTy).Contents (Elt F) → (⟨S1x64, .f32⟩ : BufTy).Contents (Elt F)),
    StableHlo.unary main_v195 main_v196 (broadcastInDim S100000x64 ![0, 1] bcast_S1x64_S100000x64_0_1 : (⟨S1x64, .f32⟩ : BufTy).Contents (Elt F) → (⟨S100000x64, .f32⟩ : BufTy).Contents (Elt F)),
    StableHlo.binary main_v191 main_v196 main_v197 (mulf : (⟨S100000x64, .f32⟩ : BufTy).Contents (Elt F) → (⟨S100000x64, .f32⟩ : BufTy).Contents (Elt F) → (⟨S100000x64, .f32⟩ : BufTy).Contents (Elt F)),
    StableHlo.unary main_arg19 main_v198 (broadcastInDim S1x64 ![1] bcast_S64_S1x64_1 : (⟨S64, .f32⟩ : BufTy).Contents (Elt F) → (⟨S1x64, .f32⟩ : BufTy).Contents (Elt F)),
    StableHlo.unary main_v198 main_v199 (broadcastInDim S100000x64 ![0, 1] bcast_S1x64_S100000x64_0_1 : (⟨S1x64, .f32⟩ : BufTy).Contents (Elt F) → (⟨S100000x64, .f32⟩ : BufTy).Contents (Elt F)),
    StableHlo.binary main_v197 main_v199 main_v200 (mulf : (⟨S100000x64, .f32⟩ : BufTy).Contents (Elt F) → (⟨S100000x64, .f32⟩ : BufTy).Contents (Elt F) → (⟨S100000x64, .f32⟩ : BufTy).Contents (Elt F)),
    StableHlo.unary main_arg20 main_v201 (broadcastInDim S1x64 ![1] bcast_S64_S1x64_1 : (⟨S64, .f32⟩ : BufTy).Contents (Elt F) → (⟨S1x64, .f32⟩ : BufTy).Contents (Elt F)),
    StableHlo.unary main_v201 main_v202 (broadcastInDim S100000x64 ![0, 1] bcast_S1x64_S100000x64_0_1 : (⟨S1x64, .f32⟩ : BufTy).Contents (Elt F) → (⟨S100000x64, .f32⟩ : BufTy).Contents (Elt F)),
    StableHlo.binary main_v200 main_v202 main_v203 (addf : (⟨S100000x64, .f32⟩ : BufTy).Contents (Elt F) → (⟨S100000x64, .f32⟩ : BufTy).Contents (Elt F) → (⟨S100000x64, .f32⟩ : BufTy).Contents (Elt F)) ]
theorem ops19_sub : (ops19 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem ops19_fresh : (ops19 : List (HloOp τ sig (Elt F))).Forall fun op => op.fresh = ∅ := by
  simp only [List.Forall]; repeat' constructor

/-- Piece 20: 15 operations. -/
abbrev ops20 : List (HloOp τ sig (Elt F)) :=
  [ StableHlo.binary main_v101 main_v203 main_v204 (subf : (⟨S100000x64, .f32⟩ : BufTy).Contents (Elt F) → (⟨S100000x64, .f32⟩ : BufTy).Contents (Elt F) → (⟨S100000x64, .f32⟩ : BufTy).Contents (Elt F)),
    StableHlo.unary main_v204 main_v205 (Host.absf : (⟨S100000x64, .f32⟩ : BufTy).Contents (Elt F) → (⟨S100000x64, .f32⟩ : BufTy).Contents (Elt F)),
    StableHlo.binary main_v101 main_v203 main_v206 (mulf : (⟨S100000x64, .f32⟩ : BufTy).Contents (Elt F) → (⟨S100000x64, .f32⟩ : BufTy).Contents (Elt F) → (⟨S100000x64, .f32⟩ : BufTy).Contents (Elt F)),
    StableHlo.nary ![main_v101, main_v203, main_v205, main_v206] main_v207 (fun u => concatenate S100000x256 1 [⟨S100000x64, u 0⟩, ⟨S100000x64, u 1⟩, ⟨S100000x64, u 2⟩, ⟨S100000x64, u 3⟩] concatenates_S100000x64_S100000x64_S100000x64_S100000x64_S100000x256_d1),
    StableHlo.binary main_v207 main_arg21 main_v208 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    StableHlo.unary main_arg22 main_v209 (broadcastInDim S1x64 ![1] bcast_S64_S1x64_1 : (⟨S64, .f32⟩ : BufTy).Contents (Elt F) → (⟨S1x64, .f32⟩ : BufTy).Contents (Elt F)),
    StableHlo.unary main_v209 main_v210 (broadcastInDim S100000x64 ![0, 1] bcast_S1x64_S100000x64_0_1 : (⟨S1x64, .f32⟩ : BufTy).Contents (Elt F) → (⟨S100000x64, .f32⟩ : BufTy).Contents (Elt F)),
    StableHlo.binary main_v208 main_v210 main_v211 (addf : (⟨S100000x64, .f32⟩ : BufTy).Contents (Elt F) → (⟨S100000x64, .f32⟩ : BufTy).Contents (Elt F) → (⟨S100000x64, .f32⟩ : BufTy).Contents (Elt F)),
    StableHlo.nullary main_cst_46 (constant S_ .f32 0x00000000#32),
    StableHlo.unary main_cst_46 main_v212 (broadcastInDim S100000x64 ![] bcast_S_S100000x64 : (⟨S_, .f32⟩ : BufTy).Contents (Elt F) → (⟨S100000x64, .f32⟩ : BufTy).Contents (Elt F)),
    StableHlo.binary main_v211 main_v212 main_v213 (cmpf .ogt : (⟨S100000x64, .f32⟩ : BufTy).Contents (Elt F) → (⟨S100000x64, .f32⟩ : BufTy).Contents (Elt F) → (⟨S100000x64, .i1⟩ : BufTy).Contents (Elt F)),
    StableHlo.unary main_arg23 main_v214 (broadcastInDim S1x1 ![1] bcast_S1_S1x1_1 : (⟨S1, .f32⟩ : BufTy).Contents (Elt F) → (⟨S1x1, .f32⟩ : BufTy).Contents (Elt F)),
    StableHlo.unary main_v214 main_v215 (broadcastInDim S100000x64 ![0, 1] bcast_S1x1_S100000x64_0_1 : (⟨S1x1, .f32⟩ : BufTy).Contents (Elt F) → (⟨S100000x64, .f32⟩ : BufTy).Contents (Elt F)),
    StableHlo.binary main_v215 main_v211 main_v216 (mulf : (⟨S100000x64, .f32⟩ : BufTy).Contents (Elt F) → (⟨S100000x64, .f32⟩ : BufTy).Contents (Elt F) → (⟨S100000x64, .f32⟩ : BufTy).Contents (Elt F)),
    StableHlo.TRef.ternary (.of main_v213 : StableHlo.TRef sig ⟨S100000x64, .i1⟩) (.of main_v211 : StableHlo.TRef sig ⟨S100000x64, .f32⟩) (.of main_v216 : StableHlo.TRef sig ⟨S100000x64, .f32⟩) main_call16.v0 select ]
theorem ops20_sub : (ops20 : List (HloOp τ sig (Elt F))).Forall fun op => op.bufs ⊆ StableHlo.tcRefs τ sig :=
  ⟨StableHlo.binary_bufs_sub .., StableHlo.unary_bufs_sub .., StableHlo.binary_bufs_sub .., StableHlo.nary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub ..⟩
theorem ops20_fresh : (ops20 : List (HloOp τ sig (Elt F))).Forall fun op => op.fresh = ∅ := by
  simp only [List.Forall]; repeat' constructor

/-- Piece 21: 22 operations. -/
abbrev ops21 : List (HloOp τ sig (Elt F)) :=
  [ StableHlo.binary main_v217 main_arg24 main_v218 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg25 main_v219 (broadcastInDim S1x64 ![1] bcast_S64_S1x64_1 : (⟨S64, .f32⟩ : BufTy).Contents (Elt F) → (⟨S1x64, .f32⟩ : BufTy).Contents (Elt F)),
    StableHlo.unary main_v219 main_v220 (broadcastInDim S100000x64 ![0, 1] bcast_S1x64_S100000x64_0_1 : (⟨S1x64, .f32⟩ : BufTy).Contents (Elt F) → (⟨S100000x64, .f32⟩ : BufTy).Contents (Elt F)),
    StableHlo.binary main_v218 main_v220 main_v221 (addf : (⟨S100000x64, .f32⟩ : BufTy).Contents (Elt F) → (⟨S100000x64, .f32⟩ : BufTy).Contents (Elt F) → (⟨S100000x64, .f32⟩ : BufTy).Contents (Elt F)),
    StableHlo.unary main_v221 main_v222 (Host.negf : (⟨S100000x64, .f32⟩ : BufTy).Contents (Elt F) → (⟨S100000x64, .f32⟩ : BufTy).Contents (Elt F)),
    StableHlo.unary main_v222 main_v223 (Host.exp : (⟨S100000x64, .f32⟩ : BufTy).Contents (Elt F) → (⟨S100000x64, .f32⟩ : BufTy).Contents (Elt F)),
    StableHlo.nullary main_cst_47 (constant S_ .f32 0x3F800000#32),
    StableHlo.unary main_cst_47 main_v224 (broadcastInDim S100000x64 ![] bcast_S_S100000x64 : (⟨S_, .f32⟩ : BufTy).Contents (Elt F) → (⟨S100000x64, .f32⟩ : BufTy).Contents (Elt F)),
    StableHlo.binary main_v224 main_v223 main_v225 (addf : (⟨S100000x64, .f32⟩ : BufTy).Contents (Elt F) → (⟨S100000x64, .f32⟩ : BufTy).Contents (Elt F) → (⟨S100000x64, .f32⟩ : BufTy).Contents (Elt F)),
    StableHlo.nullary main_cst_48 (constant S_ .f32 0x3F800000#32),
    StableHlo.unary main_cst_48 main_v226 (broadcastInDim S100000x64 ![] bcast_S_S100000x64 : (⟨S_, .f32⟩ : BufTy).Contents (Elt F) → (⟨S100000x64, .f32⟩ : BufTy).Contents (Elt F)),
    StableHlo.binary main_v226 main_v225 main_v227 (Host.divf : (⟨S100000x64, .f32⟩ : BufTy).Contents (Elt F) → (⟨S100000x64, .f32⟩ : BufTy).Contents (Elt F) → (⟨S100000x64, .f32⟩ : BufTy).Contents (Elt F)),
    StableHlo.binary main_v227 main_v101 main_v228 (mulf : (⟨S100000x64, .f32⟩ : BufTy).Contents (Elt F) → (⟨S100000x64, .f32⟩ : BufTy).Contents (Elt F) → (⟨S100000x64, .f32⟩ : BufTy).Contents (Elt F)),
    StableHlo.nullary main_cst_49 (constant S_ .f32 0x3F800000#32),
    StableHlo.unary main_cst_49 main_v229 (broadcastInDim S100000x64 ![] bcast_S_S100000x64 : (⟨S_, .f32⟩ : BufTy).Contents (Elt F) → (⟨S100000x64, .f32⟩ : BufTy).Contents (Elt F)),
    StableHlo.binary main_v229 main_v227 main_v230 (subf : (⟨S100000x64, .f32⟩ : BufTy).Contents (Elt F) → (⟨S100000x64, .f32⟩ : BufTy).Contents (Elt F) → (⟨S100000x64, .f32⟩ : BufTy).Contents (Elt F)),
    StableHlo.binary main_v230 main_v203 main_v231 (mulf : (⟨S100000x64, .f32⟩ : BufTy).Contents (Elt F) → (⟨S100000x64, .f32⟩ : BufTy).Contents (Elt F) → (⟨S100000x64, .f32⟩ : BufTy).Contents (Elt F)),
    StableHlo.binary main_v228 main_v231 main_v232 (addf : (⟨S100000x64, .f32⟩ : BufTy).Contents (Elt F) → (⟨S100000x64, .f32⟩ : BufTy).Contents (Elt F) → (⟨S100000x64, .f32⟩ : BufTy).Contents (Elt F)),
    StableHlo.binary main_v232 main_arg26 main_v233 ((fun l r => Host.dotGeneral dot_S100000x64_S64x129_S100000x129_1_0_0_1_n_n none l r) : (⟨S100000x64, .f32⟩ : BufTy).Contents (Elt F) → (⟨S64x129, .f32⟩ : BufTy).Contents (Elt F) → (⟨S100000x129, .f32⟩ : BufTy).Contents (Elt F)),
    StableHlo.unary main_arg27 main_v234 (broadcastInDim S1x129 ![1] bcast_S129_S1x129_1 : (⟨S129, .f32⟩ : BufTy).Contents (Elt F) → (⟨S1x129, .f32⟩ : BufTy).Contents (Elt F)),
    StableHlo.unary main_v234 main_v235 (broadcastInDim S100000x129 ![0, 1] bcast_S1x129_S100000x129_0_1 : (⟨S1x129, .f32⟩ : BufTy).Contents (Elt F) → (⟨S100000x129, .f32⟩ : BufTy).Contents (Elt F)),
    StableHlo.binary main_v233 main_v235 main_v236 (addf : (⟨S100000x129, .f32⟩ : BufTy).Contents (Elt F) → (⟨S100000x129, .f32⟩ : BufTy).Contents (Elt F) → (⟨S100000x129, .f32⟩ : BufTy).Contents (Elt F)) ]
theorem ops21_sub : (ops21 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub ..⟩
theorem ops21_fresh : (ops21 : List (HloOp τ sig (Elt F))).Forall fun op => op.fresh = ∅ := by
  simp only [List.Forall]; repeat' constructor

end Cert.ReferenceIdeal.Ops

end
-- ==== Proof.RefRun.lean ====
/-
  The reference program is a straight line of host operations. Its @main is the sequence of the operations listed
  piece by piece (a called function's operations at its call), so every execution ends, and every buffer then holds
  the fold of the operations' results over what the buffers held at launch. The fold is cut at the pieces'
  boundaries: `R k` is what the buffers hold after the first `k` pieces.
-/
import proofs.«162194_j13769665151544_1_alg».proof.Proof.RefOps
import Idealize.ShloMosaic.Lib.StableHlo.Run
import Idealize.ShloMosaic.Lib.Pipeline.Regions

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Running two lists one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A property of every operation of two lists holds of every operation of their concatenation. -/
theorem forall_append {p : HloOp τ sig (Elt F) → Prop} (a b : List (HloOp τ sig (Elt F))) (ha : a.Forall p) (hb : b.Forall p) :
    (a ++ b).Forall p :=
  List.forall_iff_forall_mem.mpr fun x hx =>
    (List.mem_append.mp hx).elim (List.forall_iff_forall_mem.mp ha x) (List.forall_iff_forall_mem.mp hb x)

/-- All the operations of @main, in order. -/
abbrev opsAll : List (HloOp τ sig (Elt F)) := ops0 ++ (ops1 ++ (ops2 ++ (ops3 ++ (ops4 ++ (ops5 ++ (ops6 ++ (ops7 ++ (ops8 ++ (ops9 ++ (ops10 ++ (ops11 ++ (ops12 ++ (ops13 ++ (ops14 ++ (ops15 ++ (ops16 ++ (ops17 ++ (ops18 ++ (ops19 ++ (ops20 ++ (ops21)))))))))))))))))))))

theorem opsAll_sub : (opsAll : List (HloOp τ sig (Elt F))).Forall fun op => op.bufs ⊆ StableHlo.tcRefs τ sig :=
  forall_append _ _ ops0_sub (forall_append _ _ ops1_sub (forall_append _ _ ops2_sub (forall_append _ _ ops3_sub (forall_append _ _ ops4_sub (forall_append _ _ ops5_sub (forall_append _ _ ops6_sub (forall_append _ _ ops7_sub (forall_append _ _ ops8_sub (forall_append _ _ ops9_sub (forall_append _ _ ops10_sub (forall_append _ _ ops11_sub (forall_append _ _ ops12_sub (forall_append _ _ ops13_sub (forall_append _ _ ops14_sub (forall_append _ _ ops15_sub (forall_append _ _ ops16_sub (forall_append _ _ ops17_sub (forall_append _ _ ops18_sub (forall_append _ _ ops19_sub (forall_append _ _ ops20_sub (ops21_sub)))))))))))))))))))))

theorem opsAll_fresh : (opsAll : List (HloOp τ sig (Elt F))).Forall fun op => op.fresh = ∅ :=
  forall_append _ _ ops0_fresh (forall_append _ _ ops1_fresh (forall_append _ _ ops2_fresh (forall_append _ _ ops3_fresh (forall_append _ _ ops4_fresh (forall_append _ _ ops5_fresh (forall_append _ _ ops6_fresh (forall_append _ _ ops7_fresh (forall_append _ _ ops8_fresh (forall_append _ _ ops9_fresh (forall_append _ _ ops10_fresh (forall_append _ _ ops11_fresh (forall_append _ _ ops12_fresh (forall_append _ _ ops13_fresh (forall_append _ _ ops14_fresh (forall_append _ _ ops15_fresh (forall_append _ _ ops16_fresh (forall_append _ _ ops17_fresh (forall_append _ _ ops18_fresh (forall_append _ _ ops19_fresh (forall_append _ _ ops20_fresh (ops21_fresh)))))))))))))))))))))

/-- @main is the sequence of its operations. -/
theorem main_eq (c : Dev nD) : main (F := F) c = seq opsAll := by chain_rfl

theorem scopedRefs_eq : (Finset.univ.filter fun b : Ref sig .tc => b.isScoped) = ∅ := by decide
theorem scopedSems_eq : (Finset.univ.filter fun sm : SemLoc sig => sm.isScoped .tc) = ∅ := by decide

variable (m : (ℓ : Loc nD τ sig) → Buf (Elt F) ℓ)

/-- The buffers at launch. -/
abbrev R0 (c : Dev nD) : Valuation τ sig (Elt F) := launchContents m c
/-- The buffers after piece 0. -/
abbrev R1 (c : Dev nD) : Valuation τ sig (Elt F) := after ops0 (R0 m c)
/-- The buffers after piece 1. -/
abbrev R2 (c : Dev nD) : Valuation τ sig (Elt F) := after ops1 (R1 m c)
/-- The buffers after piece 2. -/
abbrev R3 (c : Dev nD) : Valuation τ sig (Elt F) := after ops2 (R2 m c)
/-- The buffers after piece 3. -/
abbrev R4 (c : Dev nD) : Valuation τ sig (Elt F) := after ops3 (R3 m c)
/-- The buffers after piece 4. -/
abbrev R5 (c : Dev nD) : Valuation τ sig (Elt F) := after ops4 (R4 m c)
/-- The buffers after piece 5. -/
abbrev R6 (c : Dev nD) : Valuation τ sig (Elt F) := after ops5 (R5 m c)
/-- The buffers after piece 6. -/
abbrev R7 (c : Dev nD) : Valuation τ sig (Elt F) := after ops6 (R6 m c)
/-- The buffers after piece 7. -/
abbrev R8 (c : Dev nD) : Valuation τ sig (Elt F) := after ops7 (R7 m c)
/-- The buffers after piece 8. -/
abbrev R9 (c : Dev nD) : Valuation τ sig (Elt F) := after ops8 (R8 m c)
/-- The buffers after piece 9. -/
abbrev R10 (c : Dev nD) : Valuation τ sig (Elt F) := after ops9 (R9 m c)
/-- The buffers after piece 10. -/
abbrev R11 (c : Dev nD) : Valuation τ sig (Elt F) := after ops10 (R10 m c)
/-- The buffers after piece 11. -/
abbrev R12 (c : Dev nD) : Valuation τ sig (Elt F) := after ops11 (R11 m c)
/-- The buffers after piece 12. -/
abbrev R13 (c : Dev nD) : Valuation τ sig (Elt F) := after ops12 (R12 m c)
/-- The buffers after piece 13. -/
abbrev R14 (c : Dev nD) : Valuation τ sig (Elt F) := after ops13 (R13 m c)
/-- The buffers after piece 14. -/
abbrev R15 (c : Dev nD) : Valuation τ sig (Elt F) := after ops14 (R14 m c)
/-- The buffers after piece 15. -/
abbrev R16 (c : Dev nD) : Valuation τ sig (Elt F) := after ops15 (R15 m c)
/-- The buffers after piece 16. -/
abbrev R17 (c : Dev nD) : Valuation τ sig (Elt F) := after ops16 (R16 m c)
/-- The buffers after piece 17. -/
abbrev R18 (c : Dev nD) : Valuation τ sig (Elt F) := after ops17 (R17 m c)
/-- The buffers after piece 18. -/
abbrev R19 (c : Dev nD) : Valuation τ sig (Elt F) := after ops18 (R18 m c)
/-- The buffers after piece 19. -/
abbrev R20 (c : Dev nD) : Valuation τ sig (Elt F) := after ops19 (R19 m c)
/-- The buffers after piece 20. -/
abbrev R21 (c : Dev nD) : Valuation τ sig (Elt F) := after ops20 (R20 m c)
/-- The buffers after piece 21. -/
abbrev R22 (c : Dev nD) : Valuation τ sig (Elt F) := after ops21 (R21 m c)

/-- The fold over all the operations is the fold piece by piece. -/
theorem after_opsAll (c : Dev nD) : after opsAll (launchContents m c) = R22 m c := by
  simp only [after_append]

/-- From any memory with zero counters every weakly fair execution of the reference ends, and every buffer then
    holds the piecewise fold over the launch contents. -/
theorem run (ρ : Dev nD → PrngReg) :
    θ_run defs (onTc (τ := τ) (main (F := F))) ⟨m, fun _ => 0, ρ⟩ fun r =>
      ∀ (c : Dev nD) (b : Ref sig .tc), r.2.mem ((c.tc : Thread nD τ).loc b) = R22 m c (Proc.devRef .tc b) :=
  (θ_run defs _ _).mono (fun _ h c b => (h c b).trans (congrFun (after_opsAll m c) _))
    (run_seq scopedRefs_eq scopedSems_eq defs main (fun _ => opsAll) main_eq (fun _ => opsAll_sub) m ρ
      (fun _ op h => List.forall_iff_forall_mem.mp opsAll_fresh op h))

end Cert.ReferenceIdeal.Ops

end
-- ==== Proof.Spec.lean ====
/-
  The three row-local stages of the model, entry by entry, on the extended reals.

  Every stage takes a matrix of `M` rows and produces a matrix of `M` rows whose row `p` depends on row `p` of the
  inputs only, so the same formulas describe a tile of rows and the whole array.

  * a dense layer followed by ELU: `elu (∑ k, x p k · W k q + b q)`, with `elu y = y` for `y > 0` and `e^y − 1` otherwise;
  * the affine normalisation of a column by given column statistics: `(x p q − μ q) · (σ² q + ε)^(−1/2) · g q + β q`;
  * the gated fusion head: from two feature rows `h₁, h₂`, the pre-activation
    `z₀ = h₁·G₀ + h₂·G₁ + |h₁ − h₂|·G₂ + (h₁ ∘ h₂)·G₃ + b₁`, the leaky rectifier `z = z₀` if `z₀ > 0` else `a · z₀`,
    the gate `s = logistic (z·W₂ + b₂)`, the mixture `f = s ∘ h₁ + (1 − s) ∘ h₂` and the output `f·W_c + b_c`.
-/
import Idealize.ShloMosaic.PureOps.Ideal
import Idealize.ShloMosaic.Lib.ValueIdx

noncomputable section

namespace Cert.Spec

open Idealize.ShloMosaic Idealize.ShloMosaic.ValueIdx

/-- A matrix of extended reals with `r` rows and `c` columns. -/
abbrev Mat (r c : ℕ) : Type := FVec Ideal ⟨2, ![r, c]⟩ .f32

/-- An extended real. -/
abbrev R : Type := Ideal .f32

def zero : R := Scalar.ofBits (F := Ideal) .f32 0x00000000#32
def one : R := Scalar.ofBits (F := Ideal) .f32 0x3F800000#32
/-- The variance offset, the binary fraction nearest to 10⁻⁵ (the same word in both programs). -/
def eps : R := Scalar.ofBits (F := Ideal) .f32 0x3727C5AC#32

/-- The test `y > 0` as one bit. -/
def pos (y : R) : BitVec 1 := FloatOps.cmpf .ogt y zero

/-- `elu y = y` where `y > 0`, `e^y − 1` elsewhere. -/
def elu (y : R) : R := Scalar.select (pos y) y (FloatOps.subf (FloatOps.exp y) one)

/-- Row `p` of `x` times column `q` of `W`. -/
def rowDot {M K N : ℕ} (x : Mat M K) (W : Mat K N) (p : Fin M) (q : Fin N) : R := ∑ k : Fin K, x (ix2 p k) * W (ix2 k q)

/-- Entry `(p, q)` of the dense layer with ELU. -/
def linEluAt {M : ℕ} (x : Mat M 64) (W : Mat 64 64) (b : Fin 64 → R) (p : Fin M) (q : Fin 64) : R :=
  elu (FloatOps.addf (rowDot x W p q) (b q))

/-- The dense layer with ELU as a matrix. -/
def linElu {M : ℕ} (x : Mat M 64) (W : Mat 64 64) (b : Fin 64 → R) : Mat M 64 := fun i => linEluAt x W b (i 0) (i 1)

/-- Entry `(p, q)` of the normalisation by column statistics. -/
def bnAt {M : ℕ} (x : Mat M 64) (mu var g bt : Fin 64 → R) (p : Fin M) (q : Fin 64) : R :=
  FloatOps.addf (FloatOps.mulf (FloatOps.mulf (FloatOps.subf (x (ix2 p q)) (mu q)) (FloatOps.rsqrt (FloatOps.addf (var q) eps))) (g q)) (bt q)

/-- The normalisation as a matrix. -/
def bn {M : ℕ} (x : Mat M 64) (mu var g bt : Fin 64 → R) : Mat M 64 := fun i => bnAt x mu var g bt (i 0) (i 1)

/-- The fusion head's pre-activation at row `p`, column `j`. -/
def preAt {M : ℕ} (h1 h2 : Mat M 64) (G0 G1 G2 G3 : Mat 64 64) (b1 : Fin 64 → R) (p : Fin M) (j : Fin 64) : R :=
  FloatOps.addf
    (FloatOps.addf
      (FloatOps.addf
        (FloatOps.addf (∑ k : Fin 64, h1 (ix2 p k) * G0 (ix2 k j)) (∑ k : Fin 64, h2 (ix2 p k) * G1 (ix2 k j)))
        (∑ k : Fin 64, FloatOps.absf (FloatOps.subf (h1 (ix2 p k)) (h2 (ix2 p k))) * G2 (ix2 k j)))
      (∑ k : Fin 64, FloatOps.mulf (h1 (ix2 p k)) (h2 (ix2 p k)) * G3 (ix2 k j)))
    (b1 j)

/-- The leaky rectifier with slope `a` below zero. -/
def leaky (a y : R) : R := Scalar.select (pos y) y (FloatOps.mulf a y)

/-- The gate at row `p`, column `j`. -/
def gateAt {M : ℕ} (h1 h2 : Mat M 64) (G0 G1 G2 G3 : Mat 64 64) (b1 : Fin 64 → R) (a : R) (W2 : Mat 64 64) (b2 : Fin 64 → R)
    (p : Fin M) (j : Fin 64) : R :=
  FloatOps.logistic (FloatOps.addf (∑ k : Fin 64, leaky a (preAt h1 h2 G0 G1 G2 G3 b1 p k) * W2 (ix2 k j)) (b2 j))

/-- The gated mixture of the two feature rows at row `p`, column `j`. -/
def mixAt {M : ℕ} (h1 h2 : Mat M 64) (G0 G1 G2 G3 : Mat 64 64) (b1 : Fin 64 → R) (a : R) (W2 : Mat 64 64) (b2 : Fin 64 → R)
    (p : Fin M) (j : Fin 64) : R :=
  FloatOps.addf (FloatOps.mulf (gateAt h1 h2 G0 G1 G2 G3 b1 a W2 b2 p j) (h1 (ix2 p j)))
    (FloatOps.mulf (FloatOps.subf one (gateAt h1 h2 G0 G1 G2 G3 b1 a W2 b2 p j)) (h2 (ix2 p j)))

/-- Entry `(p, q)` of the fusion head. -/
def fuseAt {M : ℕ} (h1 h2 : Mat M 64) (G0 G1 G2 G3 : Mat 64 64) (b1 : Fin 64 → R) (a : R) (W2 : Mat 64 64) (b2 : Fin 64 → R)
    (Wc : Mat 64 129) (bc : Fin 129 → R) (p : Fin M) (q : Fin 129) : R :=
  FloatOps.addf (∑ j : Fin 64, mixAt h1 h2 G0 G1 G2 G3 b1 a W2 b2 p j * Wc (ix2 j q)) (bc q)

/-- The fusion head as a matrix. -/
def fuse {M : ℕ} (h1 h2 : Mat M 64) (G0 G1 G2 G3 : Mat 64 64) (b1 : Fin 64 → R) (a : R) (W2 : Mat 64 64) (b2 : Fin 64 → R)
    (Wc : Mat 64 129) (bc : Fin 129 → R) : FVec Ideal ⟨2, ![M, 129]⟩ .f32 :=
  fun i => fuseAt h1 h2 G0 G1 G2 G3 b1 a W2 b2 Wc bc (i 0) (i 1)

/-- Rows `64·s … 64·s + 63` of a 256-row matrix. -/
def rows64 (s : Fin 4) (G : Mat 256 64) : Mat 64 64 :=
  fun i => G (ix2 ⟨64 * s.val + (i 0).val, by have := (i 0).isLt; have := s.isLt; simp only [Matrix.cons_val_zero] at *; omega⟩ (i 1))

/-- A one-row matrix read as a row. -/
def rowOf {N : ℕ} (b : FVec Ideal ⟨2, ![1, N]⟩ .f32) : Fin N → R := fun q => b (ix2 (0 : Fin 1) q)

/-- A vector read as a row. -/
def vecOf {N : ℕ} (b : FVec Ideal ⟨1, ![N]⟩ .f32) : Fin N → R := fun q => b (ix1 q)

end Cert.Spec

end
-- ==== Proof.SimBase.lean ====
/-
  The two programs are compared boundary by boundary: at matching points of the two runs, a buffer of the kernel program
  and the buffer of the reference that plays the same part hold equal contents, provided the two launch memories agree on
  the arguments. This module fixes that agreement and the reading of a buffer back through the kernel program's run: a
  stretch of host operations rewrites only the buffers its operations write, a kernel region only its own arrays, and at
  launch a buffer holds what the memory holds.
-/
import proofs.«162194_j13769665151544_1_alg».proof.Proof.KRun
import proofs.«162194_j13769665151544_1_alg».proof.Proof.RefRun
import proofs.«162194_j13769665151544_1_alg».proof.Proof.Spec

noncomputable section

namespace Cert.Proof.Sim

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

/-- The reference's launch memory holds, at each argument, what the kernel program's holds. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
  ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
  ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
  ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
  ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
  ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
  ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
  ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
  ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
  ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)

/-- At launch a buffer of the kernel program holds what the memory holds. -/
theorem kLaunch (b : Ref Cert.KernelIdeal.sig .tc) :
    Cert.KernelIdeal.Gen.W0 (F := Ideal) m ρ c (Proc.devRef .tc b) = m ((c.tc : Thread Cert.KernelIdeal.nD Cert.KernelIdeal.τ).loc b) := rfl

/-- At launch a buffer of the reference holds what the memory holds. -/
theorem rLaunch (b : Ref Cert.ReferenceIdeal.sig .tc) :
    Cert.ReferenceIdeal.Ops.R0 (F := Ideal) m' c (Proc.devRef .tc b) = m' ((c.tc : Thread Cert.ReferenceIdeal.nD Cert.ReferenceIdeal.τ).loc b) := rfl

/-- Region 0 leaves every buffer that is none of its arrays as it found it (in the form the simplifier can use). -/
theorem hop0 (b : Ref Cert.KernelIdeal.sig .tc) (hb : ∀ w, Pipeline.arrRef Cert.KernelIdeal.spec0 w ≠ b) :
    Cert.KernelIdeal.Gen.W6 (F := Ideal) m ρ c (no_index (Proc.devRef .tc b)) = Cert.KernelIdeal.Gen.W5 (F := Ideal) m ρ c (Proc.devRef .tc b) :=
  Cert.KernelIdeal.Gen.W6_of_ne m ρ c b hb

/-- Region 1 leaves every buffer that is none of its arrays as it found it (in the form the simplifier can use). -/
theorem hop1 (b : Ref Cert.KernelIdeal.sig .tc) (hb : ∀ w, Pipeline.arrRef Cert.KernelIdeal.spec1 w ≠ b) :
    Cert.KernelIdeal.Gen.W10 (F := Ideal) m ρ c (no_index (Proc.devRef .tc b)) = Cert.KernelIdeal.Gen.W9 (F := Ideal) m ρ c (Proc.devRef .tc b) :=
  Cert.KernelIdeal.Gen.W10_of_ne m ρ c b hb

/-- Region 2 leaves every buffer that is none of its arrays as it found it (in the form the simplifier can use). -/
theorem hop2 (b : Ref Cert.KernelIdeal.sig .tc) (hb : ∀ w, Pipeline.arrRef Cert.KernelIdeal.spec2 w ≠ b) :
    Cert.KernelIdeal.Gen.W12 (F := Ideal) m ρ c (no_index (Proc.devRef .tc b)) = Cert.KernelIdeal.Gen.W11 (F := Ideal) m ρ c (Proc.devRef .tc b) :=
  Cert.KernelIdeal.Gen.W12_of_ne m ρ c b hb

/-- Region 3 leaves every buffer that is none of its arrays as it found it (in the form the simplifier can use). -/
theorem hop3 (b : Ref Cert.KernelIdeal.sig .tc) (hb : ∀ w, Pipeline.arrRef Cert.KernelIdeal.spec3 w ≠ b) :
    Cert.KernelIdeal.Gen.W16 (F := Ideal) m ρ c (no_index (Proc.devRef .tc b)) = Cert.KernelIdeal.Gen.W15 (F := Ideal) m ρ c (Proc.devRef .tc b) :=
  Cert.KernelIdeal.Gen.W16_of_ne m ρ c b hb

/-- Region 4 leaves every buffer that is none of its arrays as it found it (in the form the simplifier can use). -/
theorem hop4 (b : Ref Cert.KernelIdeal.sig .tc) (hb : ∀ w, Pipeline.arrRef Cert.KernelIdeal.spec4 w ≠ b) :
    Cert.KernelIdeal.Gen.W22 (F := Ideal) m ρ c (no_index (Proc.devRef .tc b)) = Cert.KernelIdeal.Gen.W21 (F := Ideal) m ρ c (Proc.devRef .tc b) :=
  Cert.KernelIdeal.Gen.W22_of_ne m ρ c b hb

/-- Region 5 leaves every buffer that is none of its arrays as it found it (in the form the simplifier can use). -/
theorem hop5 (b : Ref Cert.KernelIdeal.sig .tc) (hb : ∀ w, Pipeline.arrRef Cert.KernelIdeal.spec5 w ≠ b) :
    Cert.KernelIdeal.Gen.W26 (F := Ideal) m ρ c (no_index (Proc.devRef .tc b)) = Cert.KernelIdeal.Gen.W25 (F := Ideal) m ρ c (Proc.devRef .tc b) :=
  Cert.KernelIdeal.Gen.W26_of_ne m ρ c b hb

/-- Region 6 leaves every buffer that is none of its arrays as it found it (in the form the simplifier can use). -/
theorem hop6 (b : Ref Cert.KernelIdeal.sig .tc) (hb : ∀ w, Pipeline.arrRef Cert.KernelIdeal.spec6 w ≠ b) :
    Cert.KernelIdeal.Gen.W28 (F := Ideal) m ρ c (no_index (Proc.devRef .tc b)) = Cert.KernelIdeal.Gen.W27 (F := Ideal) m ρ c (Proc.devRef .tc b) :=
  Cert.KernelIdeal.Gen.W28_of_ne m ρ c b hb

/-- Region 7 leaves every buffer that is none of its arrays as it found it (in the form the simplifier can use). -/
theorem hop7 (b : Ref Cert.KernelIdeal.sig .tc) (hb : ∀ w, Pipeline.arrRef Cert.KernelIdeal.spec7 w ≠ b) :
    Cert.KernelIdeal.Gen.W32 (F := Ideal) m ρ c (no_index (Proc.devRef .tc b)) = Cert.KernelIdeal.Gen.W31 (F := Ideal) m ρ c (Proc.devRef .tc b) :=
  Cert.KernelIdeal.Gen.W32_of_ne m ρ c b hb

/-- Region 8 leaves every buffer that is none of its arrays as it found it (in the form the simplifier can use). -/
theorem hop8 (b : Ref Cert.KernelIdeal.sig .tc) (hb : ∀ w, Pipeline.arrRef Cert.KernelIdeal.spec8 w ≠ b) :
    Cert.KernelIdeal.Gen.W34 (F := Ideal) m ρ c (no_index (Proc.devRef .tc b)) = Cert.KernelIdeal.Gen.W33 (F := Ideal) m ρ c (Proc.devRef .tc b) :=
  Cert.KernelIdeal.Gen.W34_of_ne m ρ c b hb

/-- Read the kernel program's buffers back through its run: through every stretch of host operations (each operation's
    result at its own buffer, any other buffer untouched) and through every region (a buffer that is none of the
    region's arrays untouched), as far as a region's own output or the launch. -/
macro "kdown" : tactic =>
  `(tactic| simp (disch := decide) only [Cert.KernelIdeal.Gen.W1, Cert.KernelIdeal.Gen.W2, Cert.KernelIdeal.Gen.W3, Cert.KernelIdeal.Gen.W4, Cert.KernelIdeal.Gen.W5, Cert.KernelIdeal.Gen.W7, Cert.KernelIdeal.Gen.W8, Cert.KernelIdeal.Gen.W9, Cert.KernelIdeal.Gen.W11, Cert.KernelIdeal.Gen.W13, Cert.KernelIdeal.Gen.W14, Cert.KernelIdeal.Gen.W15, Cert.KernelIdeal.Gen.W17, Cert.KernelIdeal.Gen.W18, Cert.KernelIdeal.Gen.W19, Cert.KernelIdeal.Gen.W20, Cert.KernelIdeal.Gen.W21, Cert.KernelIdeal.Gen.W23, Cert.KernelIdeal.Gen.W24, Cert.KernelIdeal.Gen.W25, Cert.KernelIdeal.Gen.W27, Cert.KernelIdeal.Gen.W29, Cert.KernelIdeal.Gen.W30, Cert.KernelIdeal.Gen.W31, Cert.KernelIdeal.Gen.W33,
      StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne',
      Cert.Proof.Sim.hop0, Cert.Proof.Sim.hop1, Cert.Proof.Sim.hop2, Cert.Proof.Sim.hop3, Cert.Proof.Sim.hop4, Cert.Proof.Sim.hop5, Cert.Proof.Sim.hop6, Cert.Proof.Sim.hop7, Cert.Proof.Sim.hop8])

/-- Read the buffers back through the lists of host operations in sight (both programs'), one simplification pass. -/
macro "hostdown" : tactic =>
  `(tactic| simp (disch := decide) only [StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'])

end Cert.Proof.Sim

end
-- ==== Proof.RefArgsA.lean ====
/-
  The reference writes none of its argument buffers: read back through every piece of its run, an argument buffer
  holds at the end what the memory held at launch.
-/
import proofs.«162194_j13769665151544_1_alg».proof.Proof.SimBase

set_option maxRecDepth 16384
set_option maxHeartbeats 8000000

noncomputable section

namespace Cert.Proof.RefArgs

open Idealize.ShloMosaic Idealize.ShloMosaic.TcCoe Idealize.SL.Sem Idealize.ShloMosaic.StableHlo Cert.Proof.Sim

variable (m' : (ℓ : Loc Cert.ReferenceIdeal.nD Cert.ReferenceIdeal.τ Cert.ReferenceIdeal.sig) → Buf (Elt Ideal) ℓ) (c : Dev Cert.ReferenceIdeal.nD)

theorem arg0 : Cert.ReferenceIdeal.Ops.R22 (F := Ideal) m' c (Proc.devRef .tc Cert.ReferenceIdeal.main_arg0) = m' ((c.tc : Thread Cert.ReferenceIdeal.nD Cert.ReferenceIdeal.τ).loc Cert.ReferenceIdeal.main_arg0) := by
  dsimp only [Cert.ReferenceIdeal.Ops.R22, Cert.ReferenceIdeal.Ops.R21, Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg1 : Cert.ReferenceIdeal.Ops.R22 (F := Ideal) m' c (Proc.devRef .tc Cert.ReferenceIdeal.main_arg1) = m' ((c.tc : Thread Cert.ReferenceIdeal.nD Cert.ReferenceIdeal.τ).loc Cert.ReferenceIdeal.main_arg1) := by
  dsimp only [Cert.ReferenceIdeal.Ops.R22, Cert.ReferenceIdeal.Ops.R21, Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg2 : Cert.ReferenceIdeal.Ops.R22 (F := Ideal) m' c (Proc.devRef .tc Cert.ReferenceIdeal.main_arg2) = m' ((c.tc : Thread Cert.ReferenceIdeal.nD Cert.ReferenceIdeal.τ).loc Cert.ReferenceIdeal.main_arg2) := by
  dsimp only [Cert.ReferenceIdeal.Ops.R22, Cert.ReferenceIdeal.Ops.R21, Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg3 : Cert.ReferenceIdeal.Ops.R22 (F := Ideal) m' c (Proc.devRef .tc Cert.ReferenceIdeal.main_arg3) = m' ((c.tc : Thread Cert.ReferenceIdeal.nD Cert.ReferenceIdeal.τ).loc Cert.ReferenceIdeal.main_arg3) := by
  dsimp only [Cert.ReferenceIdeal.Ops.R22, Cert.ReferenceIdeal.Ops.R21, Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg4 : Cert.ReferenceIdeal.Ops.R22 (F := Ideal) m' c (Proc.devRef .tc Cert.ReferenceIdeal.main_arg4) = m' ((c.tc : Thread Cert.ReferenceIdeal.nD Cert.ReferenceIdeal.τ).loc Cert.ReferenceIdeal.main_arg4) := by
  dsimp only [Cert.ReferenceIdeal.Ops.R22, Cert.ReferenceIdeal.Ops.R21, Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg5 : Cert.ReferenceIdeal.Ops.R22 (F := Ideal) m' c (Proc.devRef .tc Cert.ReferenceIdeal.main_arg5) = m' ((c.tc : Thread Cert.ReferenceIdeal.nD Cert.ReferenceIdeal.τ).loc Cert.ReferenceIdeal.main_arg5) := by
  dsimp only [Cert.ReferenceIdeal.Ops.R22, Cert.ReferenceIdeal.Ops.R21, Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg6 : Cert.ReferenceIdeal.Ops.R22 (F := Ideal) m' c (Proc.devRef .tc Cert.ReferenceIdeal.main_arg6) = m' ((c.tc : Thread Cert.ReferenceIdeal.nD Cert.ReferenceIdeal.τ).loc Cert.ReferenceIdeal.main_arg6) := by
  dsimp only [Cert.ReferenceIdeal.Ops.R22, Cert.ReferenceIdeal.Ops.R21, Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg7 : Cert.ReferenceIdeal.Ops.R22 (F := Ideal) m' c (Proc.devRef .tc Cert.ReferenceIdeal.main_arg7) = m' ((c.tc : Thread Cert.ReferenceIdeal.nD Cert.ReferenceIdeal.τ).loc Cert.ReferenceIdeal.main_arg7) := by
  dsimp only [Cert.ReferenceIdeal.Ops.R22, Cert.ReferenceIdeal.Ops.R21, Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg8 : Cert.ReferenceIdeal.Ops.R22 (F := Ideal) m' c (Proc.devRef .tc Cert.ReferenceIdeal.main_arg8) = m' ((c.tc : Thread Cert.ReferenceIdeal.nD Cert.ReferenceIdeal.τ).loc Cert.ReferenceIdeal.main_arg8) := by
  dsimp only [Cert.ReferenceIdeal.Ops.R22, Cert.ReferenceIdeal.Ops.R21, Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg9 : Cert.ReferenceIdeal.Ops.R22 (F := Ideal) m' c (Proc.devRef .tc Cert.ReferenceIdeal.main_arg9) = m' ((c.tc : Thread Cert.ReferenceIdeal.nD Cert.ReferenceIdeal.τ).loc Cert.ReferenceIdeal.main_arg9) := by
  dsimp only [Cert.ReferenceIdeal.Ops.R22, Cert.ReferenceIdeal.Ops.R21, Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg10 : Cert.ReferenceIdeal.Ops.R22 (F := Ideal) m' c (Proc.devRef .tc Cert.ReferenceIdeal.main_arg10) = m' ((c.tc : Thread Cert.ReferenceIdeal.nD Cert.ReferenceIdeal.τ).loc Cert.ReferenceIdeal.main_arg10) := by
  dsimp only [Cert.ReferenceIdeal.Ops.R22, Cert.ReferenceIdeal.Ops.R21, Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg11 : Cert.ReferenceIdeal.Ops.R22 (F := Ideal) m' c (Proc.devRef .tc Cert.ReferenceIdeal.main_arg11) = m' ((c.tc : Thread Cert.ReferenceIdeal.nD Cert.ReferenceIdeal.τ).loc Cert.ReferenceIdeal.main_arg11) := by
  dsimp only [Cert.ReferenceIdeal.Ops.R22, Cert.ReferenceIdeal.Ops.R21, Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg12 : Cert.ReferenceIdeal.Ops.R22 (F := Ideal) m' c (Proc.devRef .tc Cert.ReferenceIdeal.main_arg12) = m' ((c.tc : Thread Cert.ReferenceIdeal.nD Cert.ReferenceIdeal.τ).loc Cert.ReferenceIdeal.main_arg12) := by
  dsimp only [Cert.ReferenceIdeal.Ops.R22, Cert.ReferenceIdeal.Ops.R21, Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg13 : Cert.ReferenceIdeal.Ops.R22 (F := Ideal) m' c (Proc.devRef .tc Cert.ReferenceIdeal.main_arg13) = m' ((c.tc : Thread Cert.ReferenceIdeal.nD Cert.ReferenceIdeal.τ).loc Cert.ReferenceIdeal.main_arg13) := by
  dsimp only [Cert.ReferenceIdeal.Ops.R22, Cert.ReferenceIdeal.Ops.R21, Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

end Cert.Proof.RefArgs

end
-- ==== Proof.RefArgsB.lean ====
/-
  The reference writes none of its argument buffers: read back through every piece of its run, an argument buffer
  holds at the end what the memory held at launch.
-/
import proofs.«162194_j13769665151544_1_alg».proof.Proof.SimBase

set_option maxRecDepth 16384
set_option maxHeartbeats 8000000

noncomputable section

namespace Cert.Proof.RefArgs

open Idealize.ShloMosaic Idealize.ShloMosaic.TcCoe Idealize.SL.Sem Idealize.ShloMosaic.StableHlo Cert.Proof.Sim

variable (m' : (ℓ : Loc Cert.ReferenceIdeal.nD Cert.ReferenceIdeal.τ Cert.ReferenceIdeal.sig) → Buf (Elt Ideal) ℓ) (c : Dev Cert.ReferenceIdeal.nD)

theorem arg14 : Cert.ReferenceIdeal.Ops.R22 (F := Ideal) m' c (Proc.devRef .tc Cert.ReferenceIdeal.main_arg14) = m' ((c.tc : Thread Cert.ReferenceIdeal.nD Cert.ReferenceIdeal.τ).loc Cert.ReferenceIdeal.main_arg14) := by
  dsimp only [Cert.ReferenceIdeal.Ops.R22, Cert.ReferenceIdeal.Ops.R21, Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg15 : Cert.ReferenceIdeal.Ops.R22 (F := Ideal) m' c (Proc.devRef .tc Cert.ReferenceIdeal.main_arg15) = m' ((c.tc : Thread Cert.ReferenceIdeal.nD Cert.ReferenceIdeal.τ).loc Cert.ReferenceIdeal.main_arg15) := by
  dsimp only [Cert.ReferenceIdeal.Ops.R22, Cert.ReferenceIdeal.Ops.R21, Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg16 : Cert.ReferenceIdeal.Ops.R22 (F := Ideal) m' c (Proc.devRef .tc Cert.ReferenceIdeal.main_arg16) = m' ((c.tc : Thread Cert.ReferenceIdeal.nD Cert.ReferenceIdeal.τ).loc Cert.ReferenceIdeal.main_arg16) := by
  dsimp only [Cert.ReferenceIdeal.Ops.R22, Cert.ReferenceIdeal.Ops.R21, Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg17 : Cert.ReferenceIdeal.Ops.R22 (F := Ideal) m' c (Proc.devRef .tc Cert.ReferenceIdeal.main_arg17) = m' ((c.tc : Thread Cert.ReferenceIdeal.nD Cert.ReferenceIdeal.τ).loc Cert.ReferenceIdeal.main_arg17) := by
  dsimp only [Cert.ReferenceIdeal.Ops.R22, Cert.ReferenceIdeal.Ops.R21, Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg18 : Cert.ReferenceIdeal.Ops.R22 (F := Ideal) m' c (Proc.devRef .tc Cert.ReferenceIdeal.main_arg18) = m' ((c.tc : Thread Cert.ReferenceIdeal.nD Cert.ReferenceIdeal.τ).loc Cert.ReferenceIdeal.main_arg18) := by
  dsimp only [Cert.ReferenceIdeal.Ops.R22, Cert.ReferenceIdeal.Ops.R21, Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg19 : Cert.ReferenceIdeal.Ops.R22 (F := Ideal) m' c (Proc.devRef .tc Cert.ReferenceIdeal.main_arg19) = m' ((c.tc : Thread Cert.ReferenceIdeal.nD Cert.ReferenceIdeal.τ).loc Cert.ReferenceIdeal.main_arg19) := by
  dsimp only [Cert.ReferenceIdeal.Ops.R22, Cert.ReferenceIdeal.Ops.R21, Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg20 : Cert.ReferenceIdeal.Ops.R22 (F := Ideal) m' c (Proc.devRef .tc Cert.ReferenceIdeal.main_arg20) = m' ((c.tc : Thread Cert.ReferenceIdeal.nD Cert.ReferenceIdeal.τ).loc Cert.ReferenceIdeal.main_arg20) := by
  dsimp only [Cert.ReferenceIdeal.Ops.R22, Cert.ReferenceIdeal.Ops.R21, Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg21 : Cert.ReferenceIdeal.Ops.R22 (F := Ideal) m' c (Proc.devRef .tc Cert.ReferenceIdeal.main_arg21) = m' ((c.tc : Thread Cert.ReferenceIdeal.nD Cert.ReferenceIdeal.τ).loc Cert.ReferenceIdeal.main_arg21) := by
  dsimp only [Cert.ReferenceIdeal.Ops.R22, Cert.ReferenceIdeal.Ops.R21, Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg22 : Cert.ReferenceIdeal.Ops.R22 (F := Ideal) m' c (Proc.devRef .tc Cert.ReferenceIdeal.main_arg22) = m' ((c.tc : Thread Cert.ReferenceIdeal.nD Cert.ReferenceIdeal.τ).loc Cert.ReferenceIdeal.main_arg22) := by
  dsimp only [Cert.ReferenceIdeal.Ops.R22, Cert.ReferenceIdeal.Ops.R21, Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg23 : Cert.ReferenceIdeal.Ops.R22 (F := Ideal) m' c (Proc.devRef .tc Cert.ReferenceIdeal.main_arg23) = m' ((c.tc : Thread Cert.ReferenceIdeal.nD Cert.ReferenceIdeal.τ).loc Cert.ReferenceIdeal.main_arg23) := by
  dsimp only [Cert.ReferenceIdeal.Ops.R22, Cert.ReferenceIdeal.Ops.R21, Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg24 : Cert.ReferenceIdeal.Ops.R22 (F := Ideal) m' c (Proc.devRef .tc Cert.ReferenceIdeal.main_arg24) = m' ((c.tc : Thread Cert.ReferenceIdeal.nD Cert.ReferenceIdeal.τ).loc Cert.ReferenceIdeal.main_arg24) := by
  dsimp only [Cert.ReferenceIdeal.Ops.R22, Cert.ReferenceIdeal.Ops.R21, Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg25 : Cert.ReferenceIdeal.Ops.R22 (F := Ideal) m' c (Proc.devRef .tc Cert.ReferenceIdeal.main_arg25) = m' ((c.tc : Thread Cert.ReferenceIdeal.nD Cert.ReferenceIdeal.τ).loc Cert.ReferenceIdeal.main_arg25) := by
  dsimp only [Cert.ReferenceIdeal.Ops.R22, Cert.ReferenceIdeal.Ops.R21, Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg26 : Cert.ReferenceIdeal.Ops.R22 (F := Ideal) m' c (Proc.devRef .tc Cert.ReferenceIdeal.main_arg26) = m' ((c.tc : Thread Cert.ReferenceIdeal.nD Cert.ReferenceIdeal.τ).loc Cert.ReferenceIdeal.main_arg26) := by
  dsimp only [Cert.ReferenceIdeal.Ops.R22, Cert.ReferenceIdeal.Ops.R21, Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg27 : Cert.ReferenceIdeal.Ops.R22 (F := Ideal) m' c (Proc.devRef .tc Cert.ReferenceIdeal.main_arg27) = m' ((c.tc : Thread Cert.ReferenceIdeal.nD Cert.ReferenceIdeal.τ).loc Cert.ReferenceIdeal.main_arg27) := by
  dsimp only [Cert.ReferenceIdeal.Ops.R22, Cert.ReferenceIdeal.Ops.R21, Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

end Cert.Proof.RefArgs

end
-- ==== Proof.LibGlue.lean ====
/-
  How the host glue around the kernels reads, entry by entry.

  * A vector of N numbers reshaped to a matrix of one row: entry (0, q) of the matrix is entry q of the vector (both sit
    at row-major position q), so the matrix read as a row is the vector read as a row.
  * A block of 64 rows cut out of a 256-row matrix at row offset 64·s: its entry (r, q) is entry (64·s + r, q) of the
    matrix.
  * A vector of one number reshaped to a 1 × 1 matrix holds that number.
-/
import proofs.«162194_j13769665151544_1_alg».proof.Proof.Spec
import Idealize.ShloMosaic.Lib.ValueIdx
import Idealize.ShloMosaic.Lib.Pipeline.Value

noncomputable section

namespace Cert.LibGlue

open Idealize.ShloMosaic Idealize.ShloMosaic.ValueIdx

/-- A vector reshaped to a one-row matrix reads back, as a row, as the vector. -/
theorem rowOf_shapeCast {N : ℕ} (v : FVec Ideal ⟨1, ![N]⟩ .f32) (h : (⟨1, ![N]⟩ : Shape).ShapeCasts ⟨2, ![1, N]⟩) :
    Cert.Spec.rowOf (fun i => shapeCast ⟨2, ![1, N]⟩ v h i) = Cert.Spec.vecOf v := by
  funext q
  show shapeCast ⟨2, ![1, N]⟩ v h (ix2 (0 : Fin 1) q) = v (ix1 q)
  refine shapeCast_apply v h (ix2 (0 : Fin 1) q) (ix1 q) ?_
  rw [Shape.rowMajor_val_one, Shape.rowMajor_val_two]
  show q.val = (0 : Fin 1).val * N + q.val
  simp

/-- The 64 rows of a 256-row matrix from row offset 64·s on (no column offset) are the s-th block of 64 rows. -/
theorem rows64_slice (s : Fin 4) (G : Cert.Spec.Mat 256 64) (off : Fin 2 → ℕ) (h0 : off 0 = 64 * s.val) (h1 : off 1 = 0)
    (h : (⟨2, ![256, 64]⟩ : Shape).Slices off ⟨2, ![64, 64]⟩) :
    extractStridedSlice ⟨2, ![64, 64]⟩ off G h = Cert.Spec.rows64 s G := by
  funext i
  unfold Cert.Spec.rows64
  refine extractStridedSlice_apply off G h i _ fun a => ?_
  match a with
  | ⟨0, _⟩ => show 64 * s.val + (i 0).val = off 0 + (i 0).val; rw [h0]
  | ⟨1, _⟩ => show (i 1).val = off 1 + (i 1).val; rw [h1]; omega

/-- Rows 0 … 63. -/
theorem rows64_slice0 (G : Cert.Spec.Mat 256 64) (h : (⟨2, ![256, 64]⟩ : Shape).Slices ![0, 0] ⟨2, ![64, 64]⟩) :
    extractStridedSlice ⟨2, ![64, 64]⟩ ![0, 0] G h = Cert.Spec.rows64 0 G := rows64_slice 0 G ![0, 0] rfl rfl h

/-- Rows 64 … 127. -/
theorem rows64_slice1 (G : Cert.Spec.Mat 256 64) (h : (⟨2, ![256, 64]⟩ : Shape).Slices ![64, 0] ⟨2, ![64, 64]⟩) :
    extractStridedSlice ⟨2, ![64, 64]⟩ ![64, 0] G h = Cert.Spec.rows64 1 G := rows64_slice 1 G ![64, 0] rfl rfl h

/-- Rows 128 … 191. -/
theorem rows64_slice2 (G : Cert.Spec.Mat 256 64) (h : (⟨2, ![256, 64]⟩ : Shape).Slices ![128, 0] ⟨2, ![64, 64]⟩) :
    extractStridedSlice ⟨2, ![64, 64]⟩ ![128, 0] G h = Cert.Spec.rows64 2 G := rows64_slice 2 G ![128, 0] rfl rfl h

/-- Rows 192 … 255. -/
theorem rows64_slice3 (G : Cert.Spec.Mat 256 64) (h : (⟨2, ![256, 64]⟩ : Shape).Slices ![192, 0] ⟨2, ![64, 64]⟩) :
    extractStridedSlice ⟨2, ![64, 64]⟩ ![192, 0] G h = Cert.Spec.rows64 3 G := rows64_slice 3 G ![192, 0] rfl rfl h

/-- A one-element vector reshaped to a 1 × 1 matrix holds that element. -/
theorem scalar_shapeCast (v : FVec Ideal ⟨1, ![1]⟩ .f32) (h : (⟨1, ![1]⟩ : Shape).ShapeCasts ⟨2, ![1, 1]⟩) :
    (fun i => shapeCast ⟨2, ![1, 1]⟩ v h i) (ix2 (0 : Fin 1) (0 : Fin 1)) = v (ix1 (0 : Fin 1)) := by
  show shapeCast ⟨2, ![1, 1]⟩ v h (ix2 (0 : Fin 1) (0 : Fin 1)) = v (ix1 (0 : Fin 1))
  refine shapeCast_apply v h (ix2 (0 : Fin 1) (0 : Fin 1)) (ix1 (0 : Fin 1)) ?_
  rw [Shape.rowMajor_val_one, Shape.rowMajor_val_two]
  rfl

end Cert.LibGlue

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.RegDense0.lean ====
/-
  The first dense layer with ELU, from the tile to the whole array.

  The kernel walks the 100000 rows of its input in 20 tiles of 5000 rows. On a tile it multiplies the tile's rows by
  the 64 × 64 weight matrix, adds the bias row to every row and applies ELU entry by entry; each format change on the
  way is the identity on the extended reals. So entry (p, q) of what a tile stores is
  elu (∑ k, x p k · W k q + b q) of the tile's own row p: the layer's entry, which depends on that one row only.
  Tile t holds rows 5000·t … 5000·t + 4999 of the input and is written back to the same rows of the output, the weights
  and the bias are read whole at every tile, and the 20 tiles cover every row (row r lies in tile r / 5000). Hence the
  output array ends holding the layer of the whole input.
-/
import proofs.«162194_j13769665151544_1_alg».proof.Proof.Spec
import proofs.«162194_j13769665151544_1_alg».proof.Proof.LibDense
import proofs.«162194_j13769665151544_1_alg».proof.Proof.Gen.KernelIdeal.Frame
import Idealize.ShloMosaic.Lib.ValueIdx
import Idealize.ShloMosaic.Lib.ValueLayout
import Idealize.ShloMosaic.Lib.Pipeline.Value

noncomputable section

namespace Cert.Proof.RegDense0

open Idealize.ShloMosaic Idealize.ShloMosaic.ValueIdx Idealize.ShloMosaic.TcCoe Idealize.SL.Sem
open Idealize.ShloMosaic.Pipeline (Dat)
open Cert.KernelIdeal Cert.KernelIdeal.Gen

/-! ## The layer on a tile of rows, entry by entry -/

/-- The zero offsets of a whole-buffer access, however they are spelt. -/
theorem hz : (![0, 0] : Fin 2 → Nat) = fun _ => 0 := funext fun a => by fin_cases a <;> rfl

/-- The printed product's dimension numbers are the rows-by-columns ones. -/
theorem dot_eq_plain : dot_S5000x64_S64x64_S5000x64_1_0_0_1_n_n = DotDims.plain 5000 64 64 := rfl

/-- The product of a tile with the weights into a zero accumulator, plus the bias row laid along every row, read at
    (p, q): row p of the tile times column q of the weights, plus the bias at q. -/
theorem tile_pre_apply (x : FVec Ideal S5000x64 .bf16) (W : FVec Ideal S64x64 .bf16) (b : FVec Ideal S1x64 .f32)
    (hb : S1x64.Broadcasts S5000x64) (p : Fin 5000) (q : Fin 64) :
    addf (matmul dot_S5000x64_S64x64_S5000x64_1_0_0_1_n_n none x W (constant (F := Ideal) S5000x64 .f32 0x00000000#32))
        (broadcastTo S5000x64 b hb) (ix2 p q)
      = FloatOps.addf (∑ k : Fin 64, x (ix2 p k) * W (ix2 k q)) (b (ix2 (0 : Fin 1) q)) := by
  rw [dot_eq_plain]
  show FloatOps.addf (FloatOps.matmul (DotDims.plain 5000 64 64) none x W (constant ⟨2, ![5000, 64]⟩ .f32 0x00000000#32) (ix2 p q))
      (broadcastTo ⟨2, ![5000, 64]⟩ b hb (ix2 p q)) = _
  rw [Cert.LibDense.matmul_plain_zero_apply, broadcastTo_1b_ab_apply]
  rfl

/-- ELU as the kernel spells it — compare with a splat zero, exponential, subtract a splat one, select — read at an
    index: ELU of the entry. -/
theorem tile_elu_apply (y : FVec Ideal S5000x64 .f32) (i : S5000x64.Idx) :
    select (cmpf .ogt y (broadcast S5000x64 (Scalar.ofBits (F := Ideal) .f32 0x00000000#32))) y
        (subf (exp y) (broadcast S5000x64 (Scalar.ofBits (F := Ideal) .f32 0x3F800000#32))) i
      = Cert.Spec.elu (y i) := rfl

/-- The layer's entry depends on the input's row only through the row's entries, so a row of a tile that is a row of
    the array gives the array's entry. -/
theorem linEluAt_congr {M M' : ℕ} (x : Cert.Spec.Mat M 64) (x' : Cert.Spec.Mat M' 64) (W : Cert.Spec.Mat 64 64)
    (b : Fin 64 → Cert.Spec.R) (p : Fin M) (p' : Fin M') (q : Fin 64) (h : ∀ k : Fin 64, x (ix2 p k) = x' (ix2 p' k)) :
    Cert.Spec.linEluAt x W b p q = Cert.Spec.linEluAt x' W b p' q := by
  unfold Cert.Spec.linEluAt Cert.Spec.rowDot
  simp only [h]

/-! ## Region 0: what a tile stores -/

/-- Entry (p, q) of what the kernel stores for a tile: the layer's entry of the tile's row p. -/
theorem k0_pay1_apply (x : Vec Ideal S5000x64 .f32) (W : Vec Ideal S64x64 .f32) (b : Vec Ideal S1x64 .f32)
    (p : Fin 5000) (q : Fin 64) :
    k0_pay1 (F := Ideal) x W b (ix2 p q) = Cert.Spec.linEluAt x W (Cert.Spec.rowOf b) p q := by
  unfold k0_pay1
  simp only [shapeCast_self]
  refine (tile_elu_apply _ (ix2 p q)).trans ?_
  rw [tile_pre_apply]
  rfl

/-! ## Region 0: from the tiles to the array -/

/-- The printed index maps, decided over the 20 grid points: the input's and the output's row tiles move together, tile
    t at block row t; the weights and the bias are one whole block at every point. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section Region0

variable (V : (c : Dev nD) → (b : Ref sig .tc) → Buf (Elt Ideal) ((c : Thread nD τ).loc b))

/-- The input array as the region finds it. -/
abbrev X0 (c : Dev nD) : Cert.Spec.Mat 100000 64 := V c main_v26
/-- The weights as the region finds them. -/
abbrev Wt0 (c : Dev nD) : Cert.Spec.Mat 64 64 := V c main_arg5
/-- The bias row as the region finds it. -/
abbrev B0 (c : Dev nD) : FVec Ideal S1x64 .f32 := V c main_v27

/-- What the output array ends holding: the layer of the whole input. -/
abbrev G0 (c : Dev nD) : Cert.Spec.Mat 100000 64 := Cert.Spec.linElu (X0 V c) (Wt0 V c) (Cert.Spec.rowOf (B0 V c))

/-- Entry (p, k) of the input's tile at point t is entry (5000·t + p, k) of the input array. -/
theorem iblk0_0_apply (c : Dev nD) (t : Fin cfg0.N) (p : Fin 5000) (k : Fin 64) (i : S100000x64.Idx)
    (h0 : (i 0).val = 5000 * t.val + p.val) (h1 : (i 1).val = k.val) :
    (iblk0 V c 0 t : FVec Ideal S5000x64 .f32) (ix2 p k) = X0 V c i := by
  obtain ⟨e0, e1, -⟩ := idx_facts0 t
  unfold iblk0
  rw [View.read_apply]
  show V c main_v26 _ = V c main_v26 _
  congr 1
  funext a
  apply Fin.ext
  match a with
  | ⟨0, _⟩ => show win0_0.index t (0 : Fin 2) * 5000 + 1 * p.val = (i 0).val; omega
  | ⟨1, _⟩ => show win0_0.index t (1 : Fin 2) * 64 + 1 * k.val = (i 1).val; omega

/-- The weights' block at every point is the whole weight matrix. -/
theorem iblk0_1_eq (c : Dev nD) (t : Fin cfg0.N) : (iblk0 V c 1 t : FVec Ideal S64x64 .f32) = Wt0 V c := by
  obtain ⟨-, -, e0, e1, -⟩ := idx_facts0 t
  funext y
  unfold iblk0
  rw [View.read_apply]
  show V c main_arg5 _ = V c main_arg5 _
  congr 1
  funext a
  apply Fin.ext
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- The bias's block at every point is the whole bias row. -/
theorem iblk0_2_eq (c : Dev nD) (t : Fin cfg0.N) : (iblk0 V c 2 t : FVec Ideal S1x64 .f32) = B0 V c := by
  obtain ⟨-, -, -, -, e0, e1, -⟩ := idx_facts0 t
  funext y
  unfold iblk0
  rw [View.read_apply]
  show V c main_v27 _ = V c main_v27 _
  congr 1
  funext a
  apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- Entry (p, q) of the output's block at point t sits at (5000·t + p, q) of the output array. -/
theorem blk0_3_emb (t : Fin cfg0.N) (p : Fin 5000) (q : Fin 64) :
    ((((cfg0.win 3).blk t).view.emb (ix2 p q) : S100000x64.Idx) 0).val = 5000 * t.val + p.val
    ∧ ((((cfg0.win 3).blk t).view.emb (ix2 p q) : S100000x64.Idx) 1).val = q.val := by
  obtain ⟨-, -, -, -, -, -, e0, e1⟩ := idx_facts0 t
  constructor
  · show win0_3.index t (0 : Fin 2) * 5000 + 1 * p.val = _; omega
  · show win0_3.index t (1 : Fin 2) * 64 + 1 * q.val = _; omega

/-- WHAT POINT t WRITES BACK is block t of the layer of the whole input. -/
theorem flushed0_3_eq (c : Dev nD) (t : Fin cfg0.N) :
    (dat0 (F := Ideal) V c).flushed 3 t = ((cfg0.win 3).blk t).view.read (Elt Ideal) (G0 V c) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz, View.ld_unit_zero (S := S1x64) hz]
  rw [iblk0_1_eq V c t, iblk0_2_eq V c t]
  funext j
  obtain ⟨p, q, rfl⟩ : ∃ (p : Fin 5000) (q : Fin 64), j = ix2 p q := ⟨j 0, j 1, eq_ix2 j⟩
  obtain ⟨r0, r1⟩ := blk0_3_emb t p q
  show k0_pay1 (F := Ideal) (iblk0 V c 0 t) (Wt0 V c) (B0 V c) (ix2 p q)
      = Cert.Spec.linEluAt (X0 V c) (Wt0 V c) (Cert.Spec.rowOf (B0 V c)) ((((cfg0.win 3).blk t).view.emb (ix2 p q) : S100000x64.Idx) 0)
          ((((cfg0.win 3).blk t).view.emb (ix2 p q) : S100000x64.Idx) 1)
  rw [k0_pay1_apply]
  have hq : ((((cfg0.win 3).blk t).view.emb (ix2 p q) : S100000x64.Idx) 1 : Fin 64) = q := Fin.ext r1
  rw [hq]
  refine linEluAt_congr _ _ _ _ p _ q fun k => ?_
  exact iblk0_0_apply V c t p k _ r0 rfl

/-- An index of the output array is in point t's block iff each coordinate is in the block's range on its axis. -/
theorem mem_blk0_3 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v28).slice (win0_3.rect t)).set ↔ _
  rw [View.set_slice_whole, Rect.mem_set_unit]
  exact Iff.rfl

/-- Every row of the output is in some point's block: row r in the block of point r / 5000. -/
theorem covered0_3 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_3 _, ?_⟩
  rw [mem_blk0_3]
  obtain ⟨-, -, -, -, -, -, e0, e1⟩ := idx_facts0 ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e0]
    show (i 0).val / 5000 * 5000 ≤ (i 0).val ∧ (i 0).val < (i 0).val / 5000 * 5000 + 5000
    omega
  | ⟨1, _⟩ =>
    show win0_3.index _ (1 : Fin 2) * 64 ≤ (i 1).val ∧ (i 1).val < win0_3.index _ (1 : Fin 2) * 64 + 64
    rw [e1]
    omega

/-- THE OUTPUT ARRAY after the region: the layer of the whole input, the weights and the bias as the region finds them. -/
theorem final0_3 (c : Dev nD) :
    (dat0 (F := Ideal) V c).arrAt 3 cfg0.N = Cert.Spec.linElu (V c main_v26) (V c main_arg5) (Cert.Spec.rowOf (V c main_v27)) :=
  (dat0 (F := Ideal) V c).arrAt_eq_of_cover 3 (G0 V c) (fun t _ => flushed0_3_eq V c t) covered0_3

end Region0

/-! ## Region 0 in the run -/

/-- After region 0 the output buffer holds the layer of the input buffer, the weights and the bias as they are when the
    region is entered. -/
theorem out (m : (ℓ : Loc nD τ sig) → Buf (Elt Ideal) ℓ) (ρ : Dev nD → PrngReg) (c : Dev nD) :
    W6 (F := Ideal) m ρ c (Proc.devRef .tc main_v28)
      = Cert.Spec.linElu (W5 (F := Ideal) m ρ c (Proc.devRef .tc main_v26)) (W5 (F := Ideal) m ρ c (Proc.devRef .tc main_arg5))
          (Cert.Spec.rowOf (W5 (F := Ideal) m ρ c (Proc.devRef .tc main_v27))) := by
  have h := W6_arr (F := Ideal) m ρ c 3
  rw [final0_3 (V5 (F := Ideal) m ρ) c] at h
  exact h

end Cert.Proof.RegDense0

end
-- ==== Proof.RegNorm1.lean ====
/-
  Region 1 of the kernel program: the affine normalisation of a 100000 × 64 matrix by given column statistics.

  The kernel normalises one tile of 5000 rows at a time: from the tile `x`, the one-row matrices of column variances,
  column means, scales and shifts it stores `(x p q − μ q) · (σ² q + ε)^(−1/2) · g q + β q` at every entry (p, q) of the
  tile. Row `p` of the result depends on row `p` of `x` only, so the tile of rows `5000·t … 5000·t + 4999` that grid
  point `t` writes back is that block of the normalisation of the whole matrix; the twenty blocks tile the 100000 rows
  (row `r` lies in block `r / 5000`), so the output array ends holding the normalisation of the whole input.
-/
import proofs.«162194_j13769665151544_1_alg».proof.Proof.Gen.KernelIdeal.Frame
import proofs.«162194_j13769665151544_1_alg».proof.Proof.Spec
import Idealize.ShloMosaic.Lib.ValueIdx
import Idealize.ShloMosaic.Lib.ValueLayout
import Idealize.ShloMosaic.Lib.Pipeline.Value

noncomputable section

namespace Cert.Proof.RegNorm1

open Idealize.ShloMosaic Idealize.ShloMosaic.TcCoe Idealize.ShloMosaic.ValueIdx Idealize.SL.Sem
open Idealize.ShloMosaic.Pipeline (Dat)
open Cert.KernelIdeal Cert.KernelIdeal.Gen

/-! ## The normalisation of a tile, entry by entry

Nothing in this section depends on which launch of the normalisation kernel is read. -/

/-- The normalisation as the kernel spells it on a tile of 5000 rows — the tile less the means laid along every row,
    times the inverse square root of the variances plus the offset laid along every row, times the scales, plus the
    shifts — read at entry (p, q): the normalisation's entry formula at the tile. -/
theorem bn_tile_apply (hx : S5000x64.ShapeCasts S5000x64) (hr : S1x64.ShapeCasts S1x64) (hb : S1x64.Broadcasts S5000x64)
    (x : Vec Ideal S5000x64 .f32) (var mu g bt : Vec Ideal S1x64 .f32) (p : Fin 5000) (q : Fin 64) :
    addf (mulf (mulf (subf (shapeCast S5000x64 x hx) (broadcastTo S5000x64 (shapeCast S1x64 mu hr) hb))
          (broadcastTo S5000x64
            (rsqrt (addf (shapeCast S1x64 var hr) (broadcast S1x64 (Scalar.ofBits (F := Ideal) .f32 0x3727C5AC#32)))) hb))
        (broadcastTo S5000x64 (shapeCast S1x64 g hr) hb)) (broadcastTo S5000x64 (shapeCast S1x64 bt hr) hb) (ix2 p q)
      = Cert.Spec.bnAt x (Cert.Spec.rowOf mu) (Cert.Spec.rowOf var) (Cert.Spec.rowOf g) (Cert.Spec.rowOf bt) p q := by
  simp only [shapeCast_self]
  show FloatOps.addf (FloatOps.mulf (FloatOps.mulf (FloatOps.subf (x (ix2 p q)) (broadcastTo S5000x64 mu hb (ix2 p q)))
      (broadcastTo S5000x64 (rsqrt (addf var (broadcast S1x64 (Scalar.ofBits (F := Ideal) .f32 0x3727C5AC#32)))) hb (ix2 p q)))
      (broadcastTo S5000x64 g hb (ix2 p q))) (broadcastTo S5000x64 bt hb (ix2 p q)) = _
  rw [broadcastTo_1b_ab_apply, broadcastTo_1b_ab_apply, broadcastTo_1b_ab_apply, broadcastTo_1b_ab_apply]
  rfl

/-- The entry formula depends on the input through its entry (p, q) only, and on each statistic through its entry `q`. -/
theorem bnAt_congr {M M' : ℕ} {x : Cert.Spec.Mat M 64} {x' : Cert.Spec.Mat M' 64} {mu var g bt mu' var' g' bt' : Fin 64 → Cert.Spec.R}
    {p : Fin M} {p' : Fin M'} {q : Fin 64} (hx : x (ix2 p q) = x' (ix2 p' q)) (hmu : mu q = mu' q) (hvar : var q = var' q)
    (hg : g q = g' q) (hbt : bt q = bt' q) :
    Cert.Spec.bnAt x mu var g bt p q = Cert.Spec.bnAt x' mu' var' g' bt' p' q := by
  unfold Cert.Spec.bnAt
  rw [hx, hmu, hvar, hg, hbt]

theorem hz : (![0, 0] : Fin 2 → Nat) = fun _ => 0 := funext fun a => by fin_cases a <;> rfl

/-! ## Region 1: the kernel's payload, the blocks of its windows, and the output array -/

/-- The kernel's stored value at entry (p, q) of its tile is the normalisation's entry formula at the tile it loaded,
    with the loaded rows of means, variances, scales and shifts. -/
theorem k1_pay1_apply (x : Vec Ideal S5000x64 .f32) (var mu g bt : Vec Ideal S1x64 .f32) (p : Fin 5000) (q : Fin 64) :
    k1_pay1 (F := Ideal) x var mu g bt (ix2 p q)
      = Cert.Spec.bnAt x (Cert.Spec.rowOf mu) (Cert.Spec.rowOf var) (Cert.Spec.rowOf g) (Cert.Spec.rowOf bt) p q := by
  unfold k1_pay1
  exact bn_tile_apply _ _ _ x var mu g bt p q

section Region1

variable (V : (c : Dev nD) → (b : Ref sig .tc) → Buf (Elt Ideal) ((c : Thread nD τ).loc b))

/-- The input matrix as the region finds it. -/
abbrev X1 (c : Dev nD) : Cert.Spec.Mat 100000 64 := V c main_v28
/-- The one-row matrix of column means. -/
abbrev Mu1 (c : Dev nD) : Cert.Spec.Mat 1 64 := V c main_v32
/-- The one-row matrix of column variances. -/
abbrev Var1 (c : Dev nD) : Cert.Spec.Mat 1 64 := V c main_v34
/-- The one-row matrix of scales. -/
abbrev Scale1 (c : Dev nD) : Cert.Spec.Mat 1 64 := V c main_v35
/-- The one-row matrix of shifts. -/
abbrev Shift1 (c : Dev nD) : Cert.Spec.Mat 1 64 := V c main_v36

/-- What the output array ends holding: the normalisation of the whole input matrix. -/
abbrev G1 (c : Dev nD) : Cert.Spec.Mat 100000 64 :=
  Cert.Spec.bn (X1 V c) (Cert.Spec.rowOf (Mu1 V c)) (Cert.Spec.rowOf (Var1 V c)) (Cert.Spec.rowOf (Scale1 V c))
    (Cert.Spec.rowOf (Shift1 V c))

/-- The printed index maps, decided over the grid: the row-tiled windows sit at block (t, 0) at point `t`, the one-row
    windows at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry (p, q) of the input window's block at point `t` is entry (5000·t + p, q) of the input matrix. -/
theorem iblk1_0_apply (c : Dev nD) (t : Fin cfg1.N) (p : Fin 5000) (q : Fin 64) (h : t.val * 5000 + p.val < 100000) :
    (iblk1 V c 0 t : Vec Ideal S5000x64 .f32) (ix2 p q) = X1 V c (ix2 (⟨t.val * 5000 + p.val, h⟩ : Fin 100000) q) := by
  obtain ⟨e0, e1, -⟩ := idx_facts1 t
  unfold iblk1
  rw [View.read_apply]
  show V c main_v28 _ = V c main_v28 _
  congr 1
  funext a
  apply Fin.ext
  match a with
  | ⟨0, _⟩ => show win1_0.index t (0 : Fin 2) * 5000 + 1 * p.val = t.val * 5000 + p.val; omega
  | ⟨1, _⟩ => show win1_0.index t (1 : Fin 2) * 64 + 1 * q.val = q.val; omega

/-- The block of the means' window at any point is the whole row. -/
theorem iblk1_1_apply (c : Dev nD) (t : Fin cfg1.N) (q : Fin 64) :
    (iblk1 V c 1 t : Vec Ideal S1x64 .f32) (ix2 (0 : Fin 1) q) = Mu1 V c (ix2 (0 : Fin 1) q) := by
  obtain ⟨-, -, e0, e1, -⟩ := idx_facts1 t
  unfold iblk1
  rw [View.read_apply]
  show V c main_v32 _ = V c main_v32 _
  congr 1
  funext a
  apply Fin.ext
  match a with
  | ⟨0, _⟩ => show win1_1.index t (0 : Fin 2) * 1 + 1 * 0 = 0; omega
  | ⟨1, _⟩ => show win1_1.index t (1 : Fin 2) * 64 + 1 * q.val = q.val; omega

/-- The block of the variances' window at any point is the whole row. -/
theorem iblk1_2_apply (c : Dev nD) (t : Fin cfg1.N) (q : Fin 64) :
    (iblk1 V c 2 t : Vec Ideal S1x64 .f32) (ix2 (0 : Fin 1) q) = Var1 V c (ix2 (0 : Fin 1) q) := by
  obtain ⟨-, -, -, -, e0, e1, -⟩ := idx_facts1 t
  unfold iblk1
  rw [View.read_apply]
  show V c main_v34 _ = V c main_v34 _
  congr 1
  funext a
  apply Fin.ext
  match a with
  | ⟨0, _⟩ => show win1_2.index t (0 : Fin 2) * 1 + 1 * 0 = 0; omega
  | ⟨1, _⟩ => show win1_2.index t (1 : Fin 2) * 64 + 1 * q.val = q.val; omega

/-- The block of the scales' window at any point is the whole row. -/
theorem iblk1_3_apply (c : Dev nD) (t : Fin cfg1.N) (q : Fin 64) :
    (iblk1 V c 3 t : Vec Ideal S1x64 .f32) (ix2 (0 : Fin 1) q) = Scale1 V c (ix2 (0 : Fin 1) q) := by
  obtain ⟨-, -, -, -, -, -, e0, e1, -⟩ := idx_facts1 t
  unfold iblk1
  rw [View.read_apply]
  show V c main_v35 _ = V c main_v35 _
  congr 1
  funext a
  apply Fin.ext
  match a with
  | ⟨0, _⟩ => show win1_3.index t (0 : Fin 2) * 1 + 1 * 0 = 0; omega
  | ⟨1, _⟩ => show win1_3.index t (1 : Fin 2) * 64 + 1 * q.val = q.val; omega

/-- The block of the shifts' window at any point is the whole row. -/
theorem iblk1_4_apply (c : Dev nD) (t : Fin cfg1.N) (q : Fin 64) :
    (iblk1 V c 4 t : Vec Ideal S1x64 .f32) (ix2 (0 : Fin 1) q) = Shift1 V c (ix2 (0 : Fin 1) q) := by
  obtain ⟨-, -, -, -, -, -, -, -, e0, e1, -⟩ := idx_facts1 t
  unfold iblk1
  rw [View.read_apply]
  show V c main_v36 _ = V c main_v36 _
  congr 1
  funext a
  apply Fin.ext
  match a with
  | ⟨0, _⟩ => show win1_4.index t (0 : Fin 2) * 1 + 1 * 0 = 0; omega
  | ⟨1, _⟩ => show win1_4.index t (1 : Fin 2) * 64 + 1 * q.val = q.val; omega

/-- Entry (p, q) of the output window's block at point `t` sits at (5000·t + p, q) of the output array. -/
theorem emb1_5 (t : Fin cfg1.N) (p : Fin 5000) (q : Fin 64) (h : t.val * 5000 + p.val < 100000) :
    ((cfg1.win 5).blk t).view.emb (ix2 p q) = (ix2 (⟨t.val * 5000 + p.val, h⟩ : Fin 100000) q : S100000x64.Idx) := by
  obtain ⟨-, -, -, -, -, -, -, -, -, -, e0, e1⟩ := idx_facts1 t
  funext a
  apply Fin.ext
  match a with
  | ⟨0, _⟩ => show win1_5.index t (0 : Fin 2) * 5000 + 1 * p.val = t.val * 5000 + p.val; omega
  | ⟨1, _⟩ => show win1_5.index t (1 : Fin 2) * 64 + 1 * q.val = q.val; omega

/-- WHAT POINT `t` WRITES BACK is block `t` of the normalisation of the whole input matrix. -/
theorem flushed1_5_eq (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  unfold out1_5
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  have hN : cfg1.N = 20 := N_1
  have ht : t.val < cfg1.N := t.isLt
  have hp : p.val < 5000 := p.isLt
  have h : t.val * 5000 + p.val < 100000 := by omega
  show k1_pay1 (F := Ideal) (iblk1 V c 0 t) (iblk1 V c 2 t) (iblk1 V c 1 t) (iblk1 V c 3 t) (iblk1 V c 4 t) (ix2 p q)
    = G1 V c (((cfg1.win 5).blk t).view.emb (ix2 p q))
  rw [emb1_5 t p q h]
  show _ = Cert.Spec.bnAt (X1 V c) (Cert.Spec.rowOf (Mu1 V c)) (Cert.Spec.rowOf (Var1 V c)) (Cert.Spec.rowOf (Scale1 V c))
    (Cert.Spec.rowOf (Shift1 V c)) (⟨t.val * 5000 + p.val, h⟩ : Fin 100000) q
  refine (k1_pay1_apply _ _ _ _ _ p q).trans ?_
  exact bnAt_congr (iblk1_0_apply V c t p q h) (iblk1_1_apply V c t q) (iblk1_2_apply V c t q) (iblk1_3_apply V c t q)
    (iblk1_4_apply V c t q)

/-- An index of the output array is in point `t`'s block iff each coordinate is in the block's range on its axis. -/
theorem mem_blk1_5 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v37).slice (win1_5.rect t)).set ↔ _
  rw [View.set_slice_whole, Rect.mem_set_unit]
  exact Iff.rfl

/-- THE BLOCKS COVER THE ARRAY: row `r` lies in the block of point `r / 5000`. -/
theorem covered1_5 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  have hlt : (i 0).val / 5000 < cfg1.N := by omega
  obtain ⟨-, -, -, -, -, -, -, -, -, -, e0, e1⟩ := idx_facts1 ⟨(i 0).val / 5000, hlt⟩
  have e0' : win1_5.index ⟨(i 0).val / 5000, hlt⟩ (0 : Fin 2) = (i 0).val / 5000 := e0
  refine ⟨⟨(i 0).val / 5000, hlt⟩, flush1_5 _, ?_⟩
  rw [mem_blk1_5]
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    omega
  | ⟨1, _⟩ =>
    show win1_5.index ⟨(i 0).val / 5000, hlt⟩ (1 : Fin 2) * 64 ≤ (i 1).val
      ∧ (i 1).val < win1_5.index ⟨(i 0).val / 5000, hlt⟩ (1 : Fin 2) * 64 + 64
    omega

/-- THE OUTPUT ARRAY after the region's write-backs: the normalisation of the whole input matrix by the given column
    statistics. -/
theorem arr1_5 (c : Dev nD) : (dat1 (F := Ideal) V c).arrAt 5 cfg1.N = G1 V c :=
  (dat1 (F := Ideal) V c).arrAt_eq_of_cover 5 (G1 V c) (fun t _ => flushed1_5_eq V c t) covered1_5

end Region1

/-- Region 1's output buffer at the region's exit is the normalisation of its input buffer at the region's entry by the
    column means, variances, scales and shifts found there. -/
theorem out (m : (ℓ : Loc nD τ sig) → Buf (Elt Ideal) ℓ) (ρ : Dev nD → PrngReg) (c : Dev nD) :
    W10 (F := Ideal) m ρ c (Proc.devRef .tc main_v37)
      = Cert.Spec.bn (W9 (F := Ideal) m ρ c (Proc.devRef .tc main_v28))
          (Cert.Spec.rowOf (W9 (F := Ideal) m ρ c (Proc.devRef .tc main_v32))) (Cert.Spec.rowOf (W9 (F := Ideal) m ρ c (Proc.devRef .tc main_v34)))
          (Cert.Spec.rowOf (W9 (F := Ideal) m ρ c (Proc.devRef .tc main_v35))) (Cert.Spec.rowOf (W9 (F := Ideal) m ρ c (Proc.devRef .tc main_v36))) :=
  (W10_arr (F := Ideal) m ρ c 5).trans (arr1_5 (V9 (F := Ideal) m ρ) c)

end Cert.Proof.RegNorm1

end
-- ==== Proof.RefLayers.lean ====
/-
  The reference's four dense layers with ELU and its four normalisations, read off its run.

  A dense layer of the reference is the product of the input with a 64 × 64 weight matrix, plus a bias vector laid
  along every row, followed by ELU spelt `select (y > 0) y (1 · (e^(select (y > 0) 0 y) − 1))`. Entry by entry this is
  `elu (∑ k, x p k · W k q + b q)`: where `y > 0` both selects take `y`; elsewhere the inner select takes `y`, and
  `1 · (e^y − 1) = e^y − 1` on the extended reals. A normalisation is `(x − μ) · rsqrt (σ² + ε) · g + β` with the four
  vectors laid along every row, which entry by entry is the specification's formula. Each statement is first proved for
  the composed term over arbitrary arrays, then the result buffer after the layer's piece of the run is shown to hold
  that term of the piece's input buffers.
-/
import proofs.«162194_j13769665151544_1_alg».proof.Proof.RefRun
import proofs.«162194_j13769665151544_1_alg».proof.Proof.Spec
import proofs.«162194_j13769665151544_1_alg».proof.Proof.LibDense

noncomputable section

namespace Cert.Proof.RefLayers

open Cert.ReferenceIdeal Cert.ReferenceIdeal.Gen Cert.ReferenceIdeal.Ops Idealize.ShloMosaic Idealize.ShloMosaic.TcCoe Idealize.SL.Sem
  Idealize.ShloMosaic.StableHlo Idealize.ShloMosaic.ValueIdx

/-! ## The operations' composed terms, entry by entry -/

/-- The word `0x3F800000` is the extended real one. -/
theorem ofBits_one_f32 : Ideal.ofBits .f32 0x3F800000#32 = 1 := by
  simp [Ideal.ofBits, Ideal.ieee, -EReal.coe_mul]; norm_num

/-- A vector laid along axis 1 of a one-row matrix, and that row laid down every row. -/
abbrev rowsOf (b : FVec Ideal S64 .f32) : FVec Ideal S100000x64 .f32 :=
  broadcastInDim S100000x64 ![0, 1] bcast_S1x64_S100000x64_0_1 (broadcastInDim S1x64 ![1] bcast_S64_S1x64_1 b)

/-- Entry `(p, q)` of the vector laid down the rows is the vector's entry `q`. -/
theorem rowsOf_apply (b : FVec Ideal S64 .f32) (p : Fin 100000) (q : Fin 64) : rowsOf b (ix2 p q) = b (ix1 q) := by
  have e2 := broadcastInDim_oneRow_apply bcast_S1x64_S100000x64_0_1 (broadcastInDim S1x64 ![1] bcast_S64_S1x64_1 b) p q
  have e1 := broadcastInDim_apply ![1] bcast_S64_S1x64_1 b (ix2 (0 : Fin 1) q) (ix1 q) (fun a => by
    match a with
    | ⟨0, _⟩ =>
      show q.val = if 64 = 1 then 0 else q.val
      rfl)
  exact e2.trans e1

/-- A scalar constant laid over the whole matrix. -/
abbrev splat (w : BitVec 32) : FVec Ideal S100000x64 .f32 :=
  broadcastInDim S100000x64 ![] bcast_S_S100000x64 (constant (F := Ideal) S_ .f32 w)

theorem splat_apply (w : BitVec 32) (i : S100000x64.Idx) : splat w i = Ideal.ofBits .f32 w := rfl

/-- The pre-activation of the reference's dense layer: the product with the weights plus the bias laid down the rows. -/
def hostPre (x : FVec Ideal S100000x64 .f32) (W : FVec Ideal S64x64 .f32) (b : FVec Ideal S64 .f32) : FVec Ideal S100000x64 .f32 :=
  addf (Host.dotGeneral dot_S100000x64_S64x64_S100000x64_1_0_0_1_n_n none x W) (rowsOf b)

theorem hostPre_apply (x : FVec Ideal S100000x64 .f32) (W : FVec Ideal S64x64 .f32) (b : FVec Ideal S64 .f32) (p : Fin 100000) (q : Fin 64) :
    hostPre x W b (ix2 p q) = FloatOps.addf (Cert.Spec.rowDot x W p q) (b (ix1 q)) := by
  have hd : dot_S100000x64_S64x64_S100000x64_1_0_0_1_n_n = DotDims.plain 100000 64 64 := rfl
  show FloatOps.dotGeneral dot_S100000x64_S64x64_S100000x64_1_0_0_1_n_n none .single x W (ix2 p q) + rowsOf b (ix2 p q) = _
  rw [hd, Cert.LibDense.dotGeneral_plain_apply, rowsOf_apply]
  rfl

/-- The reference's ELU: `select (y > 0) y (1 · expm1 (select (y > 0) 0 y))`, the constants laid over the matrix. -/
def hostElu (y : FVec Ideal S100000x64 .f32) : FVec Ideal S100000x64 .f32 :=
  select (cmpf .ogt y (splat 0x00000000#32)) y
    (mulf (splat 0x3F800000#32)
      (Host.expm1 (select (cmpf .ogt y (splat 0x00000000#32))
        (broadcastInDim S100000x64 ![] bcast_S_S100000x64 (id (constant (F := Ideal) S_ .f32 0x00000000#32))) y)))

theorem hostElu_apply (y : FVec Ideal S100000x64 .f32) (i : S100000x64.Idx) : hostElu y i = Cert.Spec.elu (y i) := by
  show Scalar.select (FloatOps.cmpf .ogt (y i) (Ideal.ofBits .f32 0x00000000#32)) (y i)
      (Ideal.ofBits .f32 0x3F800000#32 * (Ideal.exp (Scalar.select (FloatOps.cmpf .ogt (y i) (Ideal.ofBits .f32 0x00000000#32)) (Ideal.ofBits .f32 0x00000000#32) (y i)) - 1))
    = Scalar.select (FloatOps.cmpf .ogt (y i) (Ideal.ofBits .f32 0x00000000#32)) (y i) (Ideal.exp (y i) - Ideal.ofBits .f32 0x3F800000#32)
  rw [ofBits_one_f32, one_mul]
  by_cases h : FloatOps.cmpf .ogt (y i) (Ideal.ofBits .f32 0x00000000#32) = 1#1
  · rw [h, select_one, select_one]
  · rw [eq_zero_of_ne_one h, select_zero, select_zero, select_zero]

/-- The reference's normalisation as its operations compose: `(x − μ) · rsqrt (σ² + ε) · g + β`, every vector laid down the rows. -/
def hostBn (x : FVec Ideal S100000x64 .f32) (mu var g bt : FVec Ideal S64 .f32) : FVec Ideal S100000x64 .f32 :=
  addf (mulf (mulf (subf x (rowsOf mu))
      (rowsOf (Host.rsqrt (addf var (broadcastInDim S64 ![] bcast_S_S64 (constant (F := Ideal) S_ .f32 0x3727C5AC#32))))))
    (rowsOf g)) (rowsOf bt)

theorem hostBn_apply (x : FVec Ideal S100000x64 .f32) (mu var g bt : FVec Ideal S64 .f32) (p : Fin 100000) (q : Fin 64) :
    hostBn x mu var g bt (ix2 p q)
      = Cert.Spec.bnAt x (Cert.Spec.vecOf mu) (Cert.Spec.vecOf var) (Cert.Spec.vecOf g) (Cert.Spec.vecOf bt) p q := by
  unfold hostBn
  rw [addf_apply, mulf_apply, mulf_apply, subf_apply, rowsOf_apply, rowsOf_apply, rowsOf_apply, rowsOf_apply]
  rfl

/-- The dense layer with ELU, from the composed term to the specification. -/
theorem hostLinElu_eq (x : FVec Ideal S100000x64 .f32) (W : FVec Ideal S64x64 .f32) (b : FVec Ideal S64 .f32) :
    hostElu (hostPre x W b) = Cert.Spec.linElu x W (Cert.Spec.vecOf b) := by
  funext i
  obtain ⟨p, q, rfl⟩ : ∃ (p : Fin 100000) (q : Fin 64), i = ix2 p q := ⟨i 0, i 1, eq_ix2 i⟩
  rw [hostElu_apply, hostPre_apply]
  rfl

/-- The normalisation, from the composed term to the specification. -/
theorem hostBn_eq (x : FVec Ideal S100000x64 .f32) (mu var g bt : FVec Ideal S64 .f32) :
    hostBn x mu var g bt = Cert.Spec.bn x (Cert.Spec.vecOf mu) (Cert.Spec.vecOf var) (Cert.Spec.vecOf g) (Cert.Spec.vecOf bt) := by
  funext i
  obtain ⟨p, q, rfl⟩ : ∃ (p : Fin 100000) (q : Fin 64), i = ix2 p q := ⟨i 0, i 1, eq_ix2 i⟩
  rw [hostBn_apply]
  rfl

/-! ## The pieces of the run that hold the layers

Over any buffer contents `V` before a piece, the layer's result buffer after the piece holds the composed term of the
contents of the piece's input buffers. -/

/-- Dense layer 1 with ELU: the result buffer after its piece. -/
theorem lin1_piece (V : Valuation τ sig (Elt Ideal)) :
    after ops1 V (Proc.devRef .tc main_v31)
      = hostElu (hostPre (V (Proc.devRef .tc main_v26)) (V (Proc.devRef .tc main_arg5)) (V (Proc.devRef .tc main_arg6))) := by
  after_results_simp
  rfl

/-- Dense layer 2 with ELU: the result buffer after its piece. -/
theorem lin2_piece (V : Valuation τ sig (Elt Ideal)) :
    after ops6 V (Proc.devRef .tc main_v82)
      = hostElu (hostPre (V (Proc.devRef .tc main_v77)) (V (Proc.devRef .tc main_arg9)) (V (Proc.devRef .tc main_arg10))) := by
  after_results_simp
  rfl

/-- Dense layer 3 with ELU: the result buffer after its piece. -/
theorem lin3_piece (V : Valuation τ sig (Elt Ideal)) :
    after ops11 V (Proc.devRef .tc main_v133)
      = hostElu (hostPre (V (Proc.devRef .tc main_v128)) (V (Proc.devRef .tc main_arg13)) (V (Proc.devRef .tc main_arg14))) := by
  after_results_simp
  rfl

/-- Dense layer 4 with ELU: the result buffer after its piece. -/
theorem lin4_piece (V : Valuation τ sig (Elt Ideal)) :
    after ops16 V (Proc.devRef .tc main_v184)
      = hostElu (hostPre (V (Proc.devRef .tc main_v179)) (V (Proc.devRef .tc main_arg17)) (V (Proc.devRef .tc main_arg18))) := by
  after_results_simp
  rfl

/-- Normalisation 1: the result buffer after its two pieces. -/
theorem bn1_piece (V : Valuation τ sig (Elt Ideal)) :
    after ops4 (after ops3 V) (Proc.devRef .tc main_v50)
      = hostBn (V (Proc.devRef .tc main_v31)) (V (Proc.devRef .tc main_v34)) (V (Proc.devRef .tc main_v35)) (V (Proc.devRef .tc main_arg7)) (V (Proc.devRef .tc main_arg8)) := by
  after_results_simp
  rfl

/-- Normalisation 2: the result buffer after its two pieces. -/
theorem bn2_piece (V : Valuation τ sig (Elt Ideal)) :
    after ops9 (after ops8 V) (Proc.devRef .tc main_v101)
      = hostBn (V (Proc.devRef .tc main_v82)) (V (Proc.devRef .tc main_v85)) (V (Proc.devRef .tc main_v86)) (V (Proc.devRef .tc main_arg11)) (V (Proc.devRef .tc main_arg12)) := by
  after_results_simp
  rfl

/-- Normalisation 3: the result buffer after its two pieces. -/
theorem bn3_piece (V : Valuation τ sig (Elt Ideal)) :
    after ops14 (after ops13 V) (Proc.devRef .tc main_v152)
      = hostBn (V (Proc.devRef .tc main_v133)) (V (Proc.devRef .tc main_v136)) (V (Proc.devRef .tc main_v137)) (V (Proc.devRef .tc main_arg15)) (V (Proc.devRef .tc main_arg16)) := by
  after_results_simp
  rfl

/-- Normalisation 4: the result buffer after its two pieces. -/
theorem bn4_piece (V : Valuation τ sig (Elt Ideal)) :
    after ops19 (after ops18 V) (Proc.devRef .tc main_v203)
      = hostBn (V (Proc.devRef .tc main_v184)) (V (Proc.devRef .tc main_v187)) (V (Proc.devRef .tc main_v188)) (V (Proc.devRef .tc main_arg19)) (V (Proc.devRef .tc main_arg20)) := by
  after_results_simp
  rfl

/-! ## The layers of the reference's run -/

variable (m : (ℓ : Loc nD τ sig) → Buf (Elt Ideal) ℓ) (c : Dev nD)

/-- After piece 1 the buffer of dense layer 1 holds the layer of what its inputs held before the piece. -/
theorem lin1 : R2 (F := Ideal) m c (Proc.devRef .tc main_v31)
    = Cert.Spec.linElu (R1 (F := Ideal) m c (Proc.devRef .tc main_v26)) (R1 (F := Ideal) m c (Proc.devRef .tc main_arg5)) (Cert.Spec.vecOf (R1 (F := Ideal) m c (Proc.devRef .tc main_arg6))) :=
  (lin1_piece (R1 (F := Ideal) m c)).trans (hostLinElu_eq _ _ _)

/-- After piece 6 the buffer of dense layer 2 holds the layer of what its inputs held before the piece. -/
theorem lin2 : R7 (F := Ideal) m c (Proc.devRef .tc main_v82)
    = Cert.Spec.linElu (R6 (F := Ideal) m c (Proc.devRef .tc main_v77)) (R6 (F := Ideal) m c (Proc.devRef .tc main_arg9)) (Cert.Spec.vecOf (R6 (F := Ideal) m c (Proc.devRef .tc main_arg10))) :=
  (lin2_piece (R6 (F := Ideal) m c)).trans (hostLinElu_eq _ _ _)

/-- After piece 11 the buffer of dense layer 3 holds the layer of what its inputs held before the piece. -/
theorem lin3 : R12 (F := Ideal) m c (Proc.devRef .tc main_v133)
    = Cert.Spec.linElu (R11 (F := Ideal) m c (Proc.devRef .tc main_v128)) (R11 (F := Ideal) m c (Proc.devRef .tc main_arg13)) (Cert.Spec.vecOf (R11 (F := Ideal) m c (Proc.devRef .tc main_arg14))) :=
  (lin3_piece (R11 (F := Ideal) m c)).trans (hostLinElu_eq _ _ _)

/-- After piece 16 the buffer of dense layer 4 holds the layer of what its inputs held before the piece. -/
theorem lin4 : R17 (F := Ideal) m c (Proc.devRef .tc main_v184)
    = Cert.Spec.linElu (R16 (F := Ideal) m c (Proc.devRef .tc main_v179)) (R16 (F := Ideal) m c (Proc.devRef .tc main_arg17)) (Cert.Spec.vecOf (R16 (F := Ideal) m c (Proc.devRef .tc main_arg18))) :=
  (lin4_piece (R16 (F := Ideal) m c)).trans (hostLinElu_eq _ _ _)

/-- After pieces 3 and 4 the buffer of normalisation 1 holds the normalisation of what its inputs held before them. -/
theorem bn1 : R5 (F := Ideal) m c (Proc.devRef .tc main_v50)
    = Cert.Spec.bn (R3 (F := Ideal) m c (Proc.devRef .tc main_v31)) (Cert.Spec.vecOf (R3 (F := Ideal) m c (Proc.devRef .tc main_v34))) (Cert.Spec.vecOf (R3 (F := Ideal) m c (Proc.devRef .tc main_v35)))
        (Cert.Spec.vecOf (R3 (F := Ideal) m c (Proc.devRef .tc main_arg7))) (Cert.Spec.vecOf (R3 (F := Ideal) m c (Proc.devRef .tc main_arg8))) :=
  (bn1_piece (R3 (F := Ideal) m c)).trans (hostBn_eq _ _ _ _ _)

/-- After pieces 8 and 9 the buffer of normalisation 2 holds the normalisation of what its inputs held before them. -/
theorem bn2 : R10 (F := Ideal) m c (Proc.devRef .tc main_v101)
    = Cert.Spec.bn (R8 (F := Ideal) m c (Proc.devRef .tc main_v82)) (Cert.Spec.vecOf (R8 (F := Ideal) m c (Proc.devRef .tc main_v85))) (Cert.Spec.vecOf (R8 (F := Ideal) m c (Proc.devRef .tc main_v86)))
        (Cert.Spec.vecOf (R8 (F := Ideal) m c (Proc.devRef .tc main_arg11))) (Cert.Spec.vecOf (R8 (F := Ideal) m c (Proc.devRef .tc main_arg12))) :=
  (bn2_piece (R8 (F := Ideal) m c)).trans (hostBn_eq _ _ _ _ _)

/-- After pieces 13 and 14 the buffer of normalisation 3 holds the normalisation of what its inputs held before them. -/
theorem bn3 : R15 (F := Ideal) m c (Proc.devRef .tc main_v152)
    = Cert.Spec.bn (R13 (F := Ideal) m c (Proc.devRef .tc main_v133)) (Cert.Spec.vecOf (R13 (F := Ideal) m c (Proc.devRef .tc main_v136))) (Cert.Spec.vecOf (R13 (F := Ideal) m c (Proc.devRef .tc main_v137)))
        (Cert.Spec.vecOf (R13 (F := Ideal) m c (Proc.devRef .tc main_arg15))) (Cert.Spec.vecOf (R13 (F := Ideal) m c (Proc.devRef .tc main_arg16))) :=
  (bn3_piece (R13 (F := Ideal) m c)).trans (hostBn_eq _ _ _ _ _)

/-- After pieces 18 and 19 the buffer of normalisation 4 holds the normalisation of what its inputs held before them. -/
theorem bn4 : R20 (F := Ideal) m c (Proc.devRef .tc main_v203)
    = Cert.Spec.bn (R18 (F := Ideal) m c (Proc.devRef .tc main_v184)) (Cert.Spec.vecOf (R18 (F := Ideal) m c (Proc.devRef .tc main_v187))) (Cert.Spec.vecOf (R18 (F := Ideal) m c (Proc.devRef .tc main_v188)))
        (Cert.Spec.vecOf (R18 (F := Ideal) m c (Proc.devRef .tc main_arg19))) (Cert.Spec.vecOf (R18 (F := Ideal) m c (Proc.devRef .tc main_arg20))) :=
  (bn4_piece (R18 (F := Ideal) m c)).trans (hostBn_eq _ _ _ _ _)

end Cert.Proof.RefLayers

end
-- ==== Proof.SimL1.lean ====
/-
  Layer 1 of the model (first branch, first graph convolution), compared between the two programs: the degree-normalised
  neighbourhood sum that enters the dense layer, the dense layer with ELU, the column statistics, and the
  normalisation. Each step says that a buffer of the kernel program and the buffer of the reference that plays the same
  part hold equal contents, given that the step before does. The host operations the two programs share are the same
  operations on equal operands; the dense layer and the normalisation are the kernel regions on one side and host
  operations on the other, both equal to the entry formulas of the specification.
-/
import proofs.«162194_j13769665151544_1_alg».proof.Proof.SimBase
import proofs.«162194_j13769665151544_1_alg».proof.Proof.LibGlue
import proofs.«162194_j13769665151544_1_alg».proof.Proof.RegDense0
import proofs.«162194_j13769665151544_1_alg».proof.Proof.RegNorm1
import proofs.«162194_j13769665151544_1_alg».proof.Proof.RefLayers

set_option maxRecDepth 16384
set_option maxHeartbeats 8000000

noncomputable section

namespace Cert.Proof.Sim.L1

open Idealize.ShloMosaic Idealize.ShloMosaic.TcCoe Idealize.SL.Sem Idealize.ShloMosaic.StableHlo Cert.Proof.Sim

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

attribute [local irreducible] Host.scatterAdd Host.gather Host.reduceAdd in
/-- The neighbourhood sum entering the dense layer: the same host operations of the node features and the edge lists. -/
theorem agg (hag : Agree m m' c) : (Cert.KernelIdeal.Gen.W5 (F := Ideal) m ρ c (Proc.devRef .tc Cert.KernelIdeal.main_v26) : Cert.Spec.Mat 100000 64) = Cert.ReferenceIdeal.Ops.R1 (F := Ideal) m' c (Proc.devRef .tc Cert.ReferenceIdeal.main_v26) := by
  obtain ⟨h0, h1, h2, h3, h4, h5, h6, h7, h8, h9, h10, h11, h12, h13, h14, h15, h16, h17, h18, h19, h20, h21, h22, h23, h24, h25, h26, h27⟩ := hag
  have r0 : Cert.ReferenceIdeal.Ops.R0 (F := Ideal) m' c (Proc.devRef .tc Cert.ReferenceIdeal.main_arg0) = m' ((c.tc : Thread Cert.ReferenceIdeal.nD Cert.ReferenceIdeal.τ).loc Cert.ReferenceIdeal.main_arg0) := by
    rfl
  have rs : Cert.ReferenceIdeal.Ops.R0 (F := Ideal) m' c (Proc.devRef .tc Cert.ReferenceIdeal.main_arg1) = m' ((c.tc : Thread Cert.ReferenceIdeal.nD Cert.ReferenceIdeal.τ).loc Cert.ReferenceIdeal.main_arg1) := by
    rfl
  have rd : Cert.ReferenceIdeal.Ops.R0 (F := Ideal) m' c (Proc.devRef .tc Cert.ReferenceIdeal.main_arg2) = m' ((c.tc : Thread Cert.ReferenceIdeal.nD Cert.ReferenceIdeal.τ).loc Cert.ReferenceIdeal.main_arg2) := by
    rfl
  dsimp only [Cert.ReferenceIdeal.Ops.R1]
  generalize Cert.ReferenceIdeal.Ops.R0 (F := Ideal) m' c = V at r0 rs rd ⊢
  kdown
  simp only [kLaunch, r0, rs, rd, h0, h1, h2]
  rfl

/-- The dense layer with ELU: a kernel region on one side, host operations on the other, both the specification's
    layer of equal inputs, weights and bias. -/
theorem lin (hag : Agree m m' c) (hagg : (Cert.KernelIdeal.Gen.W5 (F := Ideal) m ρ c (Proc.devRef .tc Cert.KernelIdeal.main_v26) : Cert.Spec.Mat 100000 64) = Cert.ReferenceIdeal.Ops.R1 (F := Ideal) m' c (Proc.devRef .tc Cert.ReferenceIdeal.main_v26)) :
    (Cert.KernelIdeal.Gen.W6 (F := Ideal) m ρ c (Proc.devRef .tc Cert.KernelIdeal.main_v28) : Cert.Spec.Mat 100000 64) = Cert.ReferenceIdeal.Ops.R2 (F := Ideal) m' c (Proc.devRef .tc Cert.ReferenceIdeal.main_v31) := by
  obtain ⟨h0, h1, h2, h3, h4, h5, h6, h7, h8, h9, h10, h11, h12, h13, h14, h15, h16, h17, h18, h19, h20, h21, h22, h23, h24, h25, h26, h27⟩ := hag
  rw [Cert.Proof.RegDense0.out m ρ c, Cert.Proof.RefLayers.lin1 m' c, hagg]
  have hw : (Cert.KernelIdeal.Gen.W5 (F := Ideal) m ρ c (Proc.devRef .tc Cert.KernelIdeal.main_arg5) : Cert.Spec.Mat 64 64) = Cert.ReferenceIdeal.Ops.R1 (F := Ideal) m' c (Proc.devRef .tc Cert.ReferenceIdeal.main_arg5) := by
    have r : Cert.ReferenceIdeal.Ops.R1 (F := Ideal) m' c (Proc.devRef .tc Cert.ReferenceIdeal.main_arg5) = m' ((c.tc : Thread Cert.ReferenceIdeal.nD Cert.ReferenceIdeal.τ).loc Cert.ReferenceIdeal.main_arg5) := by
      dsimp only [Cert.ReferenceIdeal.Ops.R1]
      hostdown
    rw [r, h5]
    kdown
  have hb : Cert.Spec.rowOf (Cert.KernelIdeal.Gen.W5 (F := Ideal) m ρ c (Proc.devRef .tc Cert.KernelIdeal.main_v27)) = Cert.Spec.vecOf (Cert.ReferenceIdeal.Ops.R1 (F := Ideal) m' c (Proc.devRef .tc Cert.ReferenceIdeal.main_arg6)) := by
    have r : Cert.ReferenceIdeal.Ops.R1 (F := Ideal) m' c (Proc.devRef .tc Cert.ReferenceIdeal.main_arg6) = m' ((c.tc : Thread Cert.ReferenceIdeal.nD Cert.ReferenceIdeal.τ).loc Cert.ReferenceIdeal.main_arg6) := by
      dsimp only [Cert.ReferenceIdeal.Ops.R1]
      hostdown
    rw [r, h6]
    kdown
    rw [kLaunch]
    exact Cert.LibGlue.rowOf_shapeCast _ _
  rw [hw, hb]

attribute [local irreducible] Host.reduceAdd in
/-- The normalisation by the column statistics: the statistics are the same host operations of equal matrices, the
    normalisation itself a kernel region on one side and host operations on the other, both the specification's. -/
theorem bn (hag : Agree m m' c) (hlin : (Cert.KernelIdeal.Gen.W6 (F := Ideal) m ρ c (Proc.devRef .tc Cert.KernelIdeal.main_v28) : Cert.Spec.Mat 100000 64) = Cert.ReferenceIdeal.Ops.R2 (F := Ideal) m' c (Proc.devRef .tc Cert.ReferenceIdeal.main_v31)) :
    (Cert.KernelIdeal.Gen.W10 (F := Ideal) m ρ c (Proc.devRef .tc Cert.KernelIdeal.main_v37) : Cert.Spec.Mat 100000 64) = Cert.ReferenceIdeal.Ops.R5 (F := Ideal) m' c (Proc.devRef .tc Cert.ReferenceIdeal.main_v50) := by
  obtain ⟨h0, h1, h2, h3, h4, h5, h6, h7, h8, h9, h10, h11, h12, h13, h14, h15, h16, h17, h18, h19, h20, h21, h22, h23, h24, h25, h26, h27⟩ := hag
  rw [Cert.Proof.RegNorm1.out m ρ c, Cert.Proof.RefLayers.bn1 m' c]
  have hx : (Cert.KernelIdeal.Gen.W9 (F := Ideal) m ρ c (Proc.devRef .tc Cert.KernelIdeal.main_v28) : Cert.Spec.Mat 100000 64) = Cert.ReferenceIdeal.Ops.R3 (F := Ideal) m' c (Proc.devRef .tc Cert.ReferenceIdeal.main_v31) := by
    dsimp only [Cert.ReferenceIdeal.Ops.R3]
    generalize Cert.ReferenceIdeal.Ops.R2 (F := Ideal) m' c = V at hlin ⊢
    kdown
    exact hlin
  have hmu : Cert.Spec.rowOf (Cert.KernelIdeal.Gen.W9 (F := Ideal) m ρ c (Proc.devRef .tc Cert.KernelIdeal.main_v32)) = Cert.Spec.vecOf (Cert.ReferenceIdeal.Ops.R3 (F := Ideal) m' c (Proc.devRef .tc Cert.ReferenceIdeal.main_v34)) := by
    dsimp only [Cert.ReferenceIdeal.Ops.R3]
    generalize Cert.ReferenceIdeal.Ops.R2 (F := Ideal) m' c = V at hlin ⊢
    kdown
    rw [hlin]
    exact Cert.LibGlue.rowOf_shapeCast _ _
  have hvar : Cert.Spec.rowOf (Cert.KernelIdeal.Gen.W9 (F := Ideal) m ρ c (Proc.devRef .tc Cert.KernelIdeal.main_v34)) = Cert.Spec.vecOf (Cert.ReferenceIdeal.Ops.R3 (F := Ideal) m' c (Proc.devRef .tc Cert.ReferenceIdeal.main_v35)) := by
    dsimp only [Cert.ReferenceIdeal.Ops.R3]
    generalize Cert.ReferenceIdeal.Ops.R2 (F := Ideal) m' c = V at hlin ⊢
    kdown
    rw [hlin]
    exact Cert.LibGlue.rowOf_shapeCast _ _
  have hg : Cert.Spec.rowOf (Cert.KernelIdeal.Gen.W9 (F := Ideal) m ρ c (Proc.devRef .tc Cert.KernelIdeal.main_v35)) = Cert.Spec.vecOf (Cert.ReferenceIdeal.Ops.R3 (F := Ideal) m' c (Proc.devRef .tc Cert.ReferenceIdeal.main_arg7)) := by
    have r : Cert.ReferenceIdeal.Ops.R3 (F := Ideal) m' c (Proc.devRef .tc Cert.ReferenceIdeal.main_arg7) = m' ((c.tc : Thread Cert.ReferenceIdeal.nD Cert.ReferenceIdeal.τ).loc Cert.ReferenceIdeal.main_arg7) := by
      dsimp only [Cert.ReferenceIdeal.Ops.R3, Cert.ReferenceIdeal.Ops.R2, Cert.ReferenceIdeal.Ops.R1]
      hostdown
    rw [r, h7]
    kdown
    rw [kLaunch]
    exact Cert.LibGlue.rowOf_shapeCast _ _
  have hbt : Cert.Spec.rowOf (Cert.KernelIdeal.Gen.W9 (F := Ideal) m ρ c (Proc.devRef .tc Cert.KernelIdeal.main_v36)) = Cert.Spec.vecOf (Cert.ReferenceIdeal.Ops.R3 (F := Ideal) m' c (Proc.devRef .tc Cert.ReferenceIdeal.main_arg8)) := by
    have r : Cert.ReferenceIdeal.Ops.R3 (F := Ideal) m' c (Proc.devRef .tc Cert.ReferenceIdeal.main_arg8) = m' ((c.tc : Thread Cert.ReferenceIdeal.nD Cert.ReferenceIdeal.τ).loc Cert.ReferenceIdeal.main_arg8) := by
      dsimp only [Cert.ReferenceIdeal.Ops.R3, Cert.ReferenceIdeal.Ops.R2, Cert.ReferenceIdeal.Ops.R1]
      hostdown
    rw [r, h8]
    kdown
    rw [kLaunch]
    exact Cert.LibGlue.rowOf_shapeCast _ _
  rw [hx, hmu, hvar, hg, hbt]

end Cert.Proof.Sim.L1

end
-- ==== Proof.RegDense2.lean ====
/-
  The first dense layer with ELU, from the tile to the whole array.

  The kernel walks the 100000 rows of its input in 20 tiles of 5000 rows. On a tile it multiplies the tile's rows by
  the 64 × 64 weight matrix, adds the bias row to every row and applies ELU entry by entry; each format change on the
  way is the identity on the extended reals. So entry (p, q) of what a tile stores is
  elu (∑ k, x p k · W k q + b q) of the tile's own row p: the layer's entry, which depends on that one row only.
  Tile t holds rows 5000·t … 5000·t + 4999 of the input and is written back to the same rows of the output, the weights
  and the bias are read whole at every tile, and the 20 tiles cover every row (row r lies in tile r / 5000). Hence the
  output array ends holding the layer of the whole input.
-/
import proofs.«162194_j13769665151544_1_alg».proof.Proof.Spec
import proofs.«162194_j13769665151544_1_alg».proof.Proof.LibDense
import proofs.«162194_j13769665151544_1_alg».proof.Proof.Gen.KernelIdeal.Frame
import Idealize.ShloMosaic.Lib.ValueIdx
import Idealize.ShloMosaic.Lib.ValueLayout
import Idealize.ShloMosaic.Lib.Pipeline.Value

noncomputable section

namespace Cert.Proof.RegDense2

open Idealize.ShloMosaic Idealize.ShloMosaic.ValueIdx Idealize.ShloMosaic.TcCoe Idealize.SL.Sem
open Idealize.ShloMosaic.Pipeline (Dat)
open Cert.KernelIdeal Cert.KernelIdeal.Gen

/-! ## The layer on a tile of rows, entry by entry -/

/-- The zero offsets of a whole-buffer access, however they are spelt. -/
theorem hz : (![0, 0] : Fin 2 → Nat) = fun _ => 0 := funext fun a => by fin_cases a <;> rfl

/-- The printed product's dimension numbers are the rows-by-columns ones. -/
theorem dot_eq_plain : dot_S5000x64_S64x64_S5000x64_1_0_0_1_n_n = DotDims.plain 5000 64 64 := rfl

/-- The product of a tile with the weights into a zero accumulator, plus the bias row laid along every row, read at
    (p, q): row p of the tile times column q of the weights, plus the bias at q. -/
theorem tile_pre_apply (x : FVec Ideal S5000x64 .bf16) (W : FVec Ideal S64x64 .bf16) (b : FVec Ideal S1x64 .f32)
    (hb : S1x64.Broadcasts S5000x64) (p : Fin 5000) (q : Fin 64) :
    addf (matmul dot_S5000x64_S64x64_S5000x64_1_0_0_1_n_n none x W (constant (F := Ideal) S5000x64 .f32 0x00000000#32))
        (broadcastTo S5000x64 b hb) (ix2 p q)
      = FloatOps.addf (∑ k : Fin 64, x (ix2 p k) * W (ix2 k q)) (b (ix2 (0 : Fin 1) q)) := by
  rw [dot_eq_plain]
  show FloatOps.addf (FloatOps.matmul (DotDims.plain 5000 64 64) none x W (constant ⟨2, ![5000, 64]⟩ .f32 0x00000000#32) (ix2 p q))
      (broadcastTo ⟨2, ![5000, 64]⟩ b hb (ix2 p q)) = _
  rw [Cert.LibDense.matmul_plain_zero_apply, broadcastTo_1b_ab_apply]
  rfl

/-- ELU as the kernel spells it — compare with a splat zero, exponential, subtract a splat one, select — read at an
    index: ELU of the entry. -/
theorem tile_elu_apply (y : FVec Ideal S5000x64 .f32) (i : S5000x64.Idx) :
    select (cmpf .ogt y (broadcast S5000x64 (Scalar.ofBits (F := Ideal) .f32 0x00000000#32))) y
        (subf (exp y) (broadcast S5000x64 (Scalar.ofBits (F := Ideal) .f32 0x3F800000#32))) i
      = Cert.Spec.elu (y i) := rfl

/-- The layer's entry depends on the input's row only through the row's entries, so a row of a tile that is a row of
    the array gives the array's entry. -/
theorem linEluAt_congr {M M' : ℕ} (x : Cert.Spec.Mat M 64) (x' : Cert.Spec.Mat M' 64) (W : Cert.Spec.Mat 64 64)
    (b : Fin 64 → Cert.Spec.R) (p : Fin M) (p' : Fin M') (q : Fin 64) (h : ∀ k : Fin 64, x (ix2 p k) = x' (ix2 p' k)) :
    Cert.Spec.linEluAt x W b p q = Cert.Spec.linEluAt x' W b p' q := by
  unfold Cert.Spec.linEluAt Cert.Spec.rowDot
  simp only [h]

/-! ## Region 2: what a tile stores -/

/-- Entry (p, q) of what the kernel stores for a tile: the layer's entry of the tile's row p. -/
theorem k2_pay1_apply (x : Vec Ideal S5000x64 .f32) (W : Vec Ideal S64x64 .f32) (b : Vec Ideal S1x64 .f32)
    (p : Fin 5000) (q : Fin 64) :
    k2_pay1 (F := Ideal) x W b (ix2 p q) = Cert.Spec.linEluAt x W (Cert.Spec.rowOf b) p q := by
  unfold k2_pay1
  simp only [shapeCast_self]
  refine (tile_elu_apply _ (ix2 p q)).trans ?_
  rw [tile_pre_apply]
  rfl

/-! ## Region 2: from the tiles to the array -/

/-- The printed index maps, decided over the 20 grid points: the input's and the output's row tiles move together, tile
    t at block row t; the weights and the bias are one whole block at every point. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section Region2

variable (V : (c : Dev nD) → (b : Ref sig .tc) → Buf (Elt Ideal) ((c : Thread nD τ).loc b))

/-- The input array as the region finds it. -/
abbrev X2 (c : Dev nD) : Cert.Spec.Mat 100000 64 := V c main_v53
/-- The weights as the region finds them. -/
abbrev Wt2 (c : Dev nD) : Cert.Spec.Mat 64 64 := V c main_arg9
/-- The bias row as the region finds it. -/
abbrev B2 (c : Dev nD) : FVec Ideal S1x64 .f32 := V c main_v54

/-- What the output array ends holding: the layer of the whole input. -/
abbrev G2 (c : Dev nD) : Cert.Spec.Mat 100000 64 := Cert.Spec.linElu (X2 V c) (Wt2 V c) (Cert.Spec.rowOf (B2 V c))

/-- Entry (p, k) of the input's tile at point t is entry (5000·t + p, k) of the input array. -/
theorem iblk2_0_apply (c : Dev nD) (t : Fin cfg2.N) (p : Fin 5000) (k : Fin 64) (i : S100000x64.Idx)
    (h0 : (i 0).val = 5000 * t.val + p.val) (h1 : (i 1).val = k.val) :
    (iblk2 V c 0 t : FVec Ideal S5000x64 .f32) (ix2 p k) = X2 V c i := by
  obtain ⟨e0, e1, -⟩ := idx_facts2 t
  unfold iblk2
  rw [View.read_apply]
  show V c main_v53 _ = V c main_v53 _
  congr 1
  funext a
  apply Fin.ext
  match a with
  | ⟨0, _⟩ => show win2_0.index t (0 : Fin 2) * 5000 + 1 * p.val = (i 0).val; omega
  | ⟨1, _⟩ => show win2_0.index t (1 : Fin 2) * 64 + 1 * k.val = (i 1).val; omega

/-- The weights' block at every point is the whole weight matrix. -/
theorem iblk2_1_eq (c : Dev nD) (t : Fin cfg2.N) : (iblk2 V c 1 t : FVec Ideal S64x64 .f32) = Wt2 V c := by
  obtain ⟨-, -, e0, e1, -⟩ := idx_facts2 t
  funext y
  unfold iblk2
  rw [View.read_apply]
  show V c main_arg9 _ = V c main_arg9 _
  congr 1
  funext a
  apply Fin.ext
  match a with
  | ⟨0, _⟩ => show win2_1.index t (0 : Fin 2) * 64 + 1 * (y 0).val = (y 0).val; omega
  | ⟨1, _⟩ => show win2_1.index t (1 : Fin 2) * 64 + 1 * (y 1).val = (y 1).val; omega

/-- The bias's block at every point is the whole bias row. -/
theorem iblk2_2_eq (c : Dev nD) (t : Fin cfg2.N) : (iblk2 V c 2 t : FVec Ideal S1x64 .f32) = B2 V c := by
  obtain ⟨-, -, -, -, e0, e1, -⟩ := idx_facts2 t
  funext y
  unfold iblk2
  rw [View.read_apply]
  show V c main_v54 _ = V c main_v54 _
  congr 1
  funext a
  apply Fin.ext
  match a with
  | ⟨0, _⟩ => show win2_2.index t (0 : Fin 2) * 1 + 1 * (y 0).val = (y 0).val; omega
  | ⟨1, _⟩ => show win2_2.index t (1 : Fin 2) * 64 + 1 * (y 1).val = (y 1).val; omega

/-- Entry (p, q) of the output's block at point t sits at (5000·t + p, q) of the output array. -/
theorem blk2_3_emb (t : Fin cfg2.N) (p : Fin 5000) (q : Fin 64) :
    ((((cfg2.win 3).blk t).view.emb (ix2 p q) : S100000x64.Idx) 0).val = 5000 * t.val + p.val
    ∧ ((((cfg2.win 3).blk t).view.emb (ix2 p q) : S100000x64.Idx) 1).val = q.val := by
  obtain ⟨-, -, -, -, -, -, e0, e1⟩ := idx_facts2 t
  constructor
  · show win2_3.index t (0 : Fin 2) * 5000 + 1 * p.val = _; omega
  · show win2_3.index t (1 : Fin 2) * 64 + 1 * q.val = _; omega

/-- WHAT POINT t WRITES BACK is block t of the layer of the whole input. -/
theorem flushed2_3_eq (c : Dev nD) (t : Fin cfg2.N) :
    (dat2 (F := Ideal) V c).flushed 3 t = ((cfg2.win 3).blk t).view.read (Elt Ideal) (G2 V c) := by
  show (cfg2.win 3).cut (grid2.coords t) ((dat2 V c).after 3 t) = _
  rw [after2_3]
  unfold out2_3
  rw [View.canon_unit_zero hz]
  simp only [View.ld_unit_zero (S := S5000x64) hz, View.ld_unit_zero (S := S64x64) hz, View.ld_unit_zero (S := S1x64) hz]
  rw [iblk2_1_eq V c t, iblk2_2_eq V c t]
  funext j
  obtain ⟨p, q, rfl⟩ : ∃ (p : Fin 5000) (q : Fin 64), j = ix2 p q := ⟨j 0, j 1, eq_ix2 j⟩
  obtain ⟨r0, r1⟩ := blk2_3_emb t p q
  show k2_pay1 (F := Ideal) (iblk2 V c 0 t) (Wt2 V c) (B2 V c) (ix2 p q)
      = Cert.Spec.linEluAt (X2 V c) (Wt2 V c) (Cert.Spec.rowOf (B2 V c)) ((((cfg2.win 3).blk t).view.emb (ix2 p q) : S100000x64.Idx) 0)
          ((((cfg2.win 3).blk t).view.emb (ix2 p q) : S100000x64.Idx) 1)
  rw [k2_pay1_apply]
  have hq : ((((cfg2.win 3).blk t).view.emb (ix2 p q) : S100000x64.Idx) 1 : Fin 64) = q := Fin.ext r1
  rw [hq]
  refine linEluAt_congr _ _ _ _ p _ q fun k => ?_
  exact iblk2_0_apply V c t p k _ r0 rfl

/-- An index of the output array is in point t's block iff each coordinate is in the block's range on its axis. -/
theorem mem_blk2_3 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v55).slice (win2_3.rect t)).set ↔ _
  rw [View.set_slice_whole, Rect.mem_set_unit]
  exact Iff.rfl

/-- Every row of the output is in some point's block: row r in the block of point r / 5000. -/
theorem covered2_3 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_3 _, ?_⟩
  rw [mem_blk2_3]
  obtain ⟨-, -, -, -, -, -, e0, e1⟩ := idx_facts2 ⟨(i 0).val / 5000, by rw [hN]; omega⟩
  intro a
  match a with
  | ⟨0, _⟩ =>
    show win2_3.index _ (0 : Fin 2) * 5000 ≤ (i 0).val ∧ (i 0).val < win2_3.index _ (0 : Fin 2) * 5000 + 5000
    rw [e0]
    show (i 0).val / 5000 * 5000 ≤ (i 0).val ∧ (i 0).val < (i 0).val / 5000 * 5000 + 5000
    omega
  | ⟨1, _⟩ =>
    show win2_3.index _ (1 : Fin 2) * 64 ≤ (i 1).val ∧ (i 1).val < win2_3.index _ (1 : Fin 2) * 64 + 64
    rw [e1]
    omega

/-- THE OUTPUT ARRAY after the region: the layer of the whole input, the weights and the bias as the region finds them. -/
theorem final2_3 (c : Dev nD) :
    (dat2 (F := Ideal) V c).arrAt 3 cfg2.N = Cert.Spec.linElu (V c main_v53) (V c main_arg9) (Cert.Spec.rowOf (V c main_v54)) :=
  (dat2 (F := Ideal) V c).arrAt_eq_of_cover 3 (G2 V c) (fun t _ => flushed2_3_eq V c t) covered2_3

end Region2

/-! ## Region 2 in the run -/

/-- After region 2 the output buffer holds the layer of the input buffer, the weights and the bias as they are when the
    region is entered. -/
theorem out (m : (ℓ : Loc nD τ sig) → Buf (Elt Ideal) ℓ) (ρ : Dev nD → PrngReg) (c : Dev nD) :
    W12 (F := Ideal) m ρ c (Proc.devRef .tc main_v55)
      = Cert.Spec.linElu (W11 (F := Ideal) m ρ c (Proc.devRef .tc main_v53)) (W11 (F := Ideal) m ρ c (Proc.devRef .tc main_arg9))
          (Cert.Spec.rowOf (W11 (F := Ideal) m ρ c (Proc.devRef .tc main_v54))) := by
  have h := W12_arr (F := Ideal) m ρ c 3
  rw [final2_3 (V11 (F := Ideal) m ρ) c] at h
  exact h

end Cert.Proof.RegDense2

end
-- ==== Proof.RegNorm3.lean ====
/-
  Region 3 of the kernel program: the affine normalisation of a 100000 × 64 matrix by given column statistics.

  The kernel normalises one tile of 5000 rows at a time: from the tile `x`, the one-row matrices of column variances,
  column means, scales and shifts it stores `(x p q − μ q) · (σ² q + ε)^(−1/2) · g q + β q` at every entry (p, q) of the
  tile. Row `p` of the result depends on row `p` of `x` only, so the tile of rows `5000·t … 5000·t + 4999` that grid
  point `t` writes back is that block of the normalisation of the whole matrix; the twenty blocks tile the 100000 rows
  (row `r` lies in block `r / 5000`), so the output array ends holding the normalisation of the whole input.
-/
import proofs.«162194_j13769665151544_1_alg».proof.Proof.Gen.KernelIdeal.Frame
import proofs.«162194_j13769665151544_1_alg».proof.Proof.Spec
import Idealize.ShloMosaic.Lib.ValueIdx
import Idealize.ShloMosaic.Lib.ValueLayout
import Idealize.ShloMosaic.Lib.Pipeline.Value

noncomputable section

namespace Cert.Proof.RegNorm3

open Idealize.ShloMosaic Idealize.ShloMosaic.TcCoe Idealize.ShloMosaic.ValueIdx Idealize.SL.Sem
open Idealize.ShloMosaic.Pipeline (Dat)
open Cert.KernelIdeal Cert.KernelIdeal.Gen

/-! ## The normalisation of a tile, entry by entry

Nothing in this section depends on which launch of the normalisation kernel is read. -/

/-- The normalisation as the kernel spells it on a tile of 5000 rows — the tile less the means laid along every row,
    times the inverse square root of the variances plus the offset laid along every row, times the scales, plus the
    shifts — read at entry (p, q): the normalisation's entry formula at the tile. -/
theorem bn_tile_apply (hx : S5000x64.ShapeCasts S5000x64) (hr : S1x64.ShapeCasts S1x64) (hb : S1x64.Broadcasts S5000x64)
    (x : Vec Ideal S5000x64 .f32) (var mu g bt : Vec Ideal S1x64 .f32) (p : Fin 5000) (q : Fin 64) :
    addf (mulf (mulf (subf (shapeCast S5000x64 x hx) (broadcastTo S5000x64 (shapeCast S1x64 mu hr) hb))
          (broadcastTo S5000x64
            (rsqrt (addf (shapeCast S1x64 var hr) (broadcast S1x64 (Scalar.ofBits (F := Ideal) .f32 0x3727C5AC#32)))) hb))
        (broadcastTo S5000x64 (shapeCast S1x64 g hr) hb)) (broadcastTo S5000x64 (shapeCast S1x64 bt hr) hb) (ix2 p q)
      = Cert.Spec.bnAt x (Cert.Spec.rowOf mu) (Cert.Spec.rowOf var) (Cert.Spec.rowOf g) (Cert.Spec.rowOf bt) p q := by
  simp only [shapeCast_self]
  show FloatOps.addf (FloatOps.mulf (FloatOps.mulf (FloatOps.subf (x (ix2 p q)) (broadcastTo S5000x64 mu hb (ix2 p q)))
      (broadcastTo S5000x64 (rsqrt (addf var (broadcast S1x64 (Scalar.ofBits (F := Ideal) .f32 0x3727C5AC#32)))) hb (ix2 p q)))
      (broadcastTo S5000x64 g hb (ix2 p q))) (broadcastTo S5000x64 bt hb (ix2 p q)) = _
  rw [broadcastTo_1b_ab_apply, broadcastTo_1b_ab_apply, broadcastTo_1b_ab_apply, broadcastTo_1b_ab_apply]
  rfl

/-- The entry formula depends on the input through its entry (p, q) only, and on each statistic through its entry `q`. -/
theorem bnAt_congr {M M' : ℕ} {x : Cert.Spec.Mat M 64} {x' : Cert.Spec.Mat M' 64} {mu var g bt mu' var' g' bt' : Fin 64 → Cert.Spec.R}
    {p : Fin M} {p' : Fin M'} {q : Fin 64} (hx : x (ix2 p q) = x' (ix2 p' q)) (hmu : mu q = mu' q) (hvar : var q = var' q)
    (hg : g q = g' q) (hbt : bt q = bt' q) :
    Cert.Spec.bnAt x mu var g bt p q = Cert.Spec.bnAt x' mu' var' g' bt' p' q := by
  unfold Cert.Spec.bnAt
  rw [hx, hmu, hvar, hg, hbt]

theorem hz : (![0, 0] : Fin 2 → Nat) = fun _ => 0 := funext fun a => by fin_cases a <;> rfl

/-! ## Region 3: the kernel's payload, the blocks of its windows, and the output array -/

/-- The kernel's stored value at entry (p, q) of its tile is the normalisation's entry formula at the tile it loaded,
    with the loaded rows of means, variances, scales and shifts. -/
theorem k3_pay1_apply (x : Vec Ideal S5000x64 .f32) (var mu g bt : Vec Ideal S1x64 .f32) (p : Fin 5000) (q : Fin 64) :
    k3_pay1 (F := Ideal) x var mu g bt (ix2 p q)
      = Cert.Spec.bnAt x (Cert.Spec.rowOf mu) (Cert.Spec.rowOf var) (Cert.Spec.rowOf g) (Cert.Spec.rowOf bt) p q := by
  unfold k3_pay1
  exact bn_tile_apply _ _ _ x var mu g bt p q

section Region3

variable (V : (c : Dev nD) → (b : Ref sig .tc) → Buf (Elt Ideal) ((c : Thread nD τ).loc b))

/-- The input matrix as the region finds it. -/
abbrev X3 (c : Dev nD) : Cert.Spec.Mat 100000 64 := V c main_v55
/-- The one-row matrix of column means. -/
abbrev Mu3 (c : Dev nD) : Cert.Spec.Mat 1 64 := V c main_v59
/-- The one-row matrix of column variances. -/
abbrev Var3 (c : Dev nD) : Cert.Spec.Mat 1 64 := V c main_v61
/-- The one-row matrix of scales. -/
abbrev Scale3 (c : Dev nD) : Cert.Spec.Mat 1 64 := V c main_v62
/-- The one-row matrix of shifts. -/
abbrev Shift3 (c : Dev nD) : Cert.Spec.Mat 1 64 := V c main_v63

/-- What the output array ends holding: the normalisation of the whole input matrix. -/
abbrev G3 (c : Dev nD) : Cert.Spec.Mat 100000 64 :=
  Cert.Spec.bn (X3 V c) (Cert.Spec.rowOf (Mu3 V c)) (Cert.Spec.rowOf (Var3 V c)) (Cert.Spec.rowOf (Scale3 V c))
    (Cert.Spec.rowOf (Shift3 V c))

/-- The printed index maps, decided over the grid: the row-tiled windows sit at block (t, 0) at point `t`, the one-row
    windows at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Entry (p, q) of the input window's block at point `t` is entry (5000·t + p, q) of the input matrix. -/
theorem iblk3_0_apply (c : Dev nD) (t : Fin cfg3.N) (p : Fin 5000) (q : Fin 64) (h : t.val * 5000 + p.val < 100000) :
    (iblk3 V c 0 t : Vec Ideal S5000x64 .f32) (ix2 p q) = X3 V c (ix2 (⟨t.val * 5000 + p.val, h⟩ : Fin 100000) q) := by
  obtain ⟨e0, e1, -⟩ := idx_facts3 t
  unfold iblk3
  rw [View.read_apply]
  show V c main_v55 _ = V c main_v55 _
  congr 1
  funext a
  apply Fin.ext
  match a with
  | ⟨0, _⟩ => show win3_0.index t (0 : Fin 2) * 5000 + 1 * p.val = t.val * 5000 + p.val; omega
  | ⟨1, _⟩ => show win3_0.index t (1 : Fin 2) * 64 + 1 * q.val = q.val; omega

/-- The block of the means' window at any point is the whole row. -/
theorem iblk3_1_apply (c : Dev nD) (t : Fin cfg3.N) (q : Fin 64) :
    (iblk3 V c 1 t : Vec Ideal S1x64 .f32) (ix2 (0 : Fin 1) q) = Mu3 V c (ix2 (0 : Fin 1) q) := by
  obtain ⟨-, -, e0, e1, -⟩ := idx_facts3 t
  unfold iblk3
  rw [View.read_apply]
  show V c main_v59 _ = V c main_v59 _
  congr 1
  funext a
  apply Fin.ext
  match a with
  | ⟨0, _⟩ => show win3_1.index t (0 : Fin 2) * 1 + 1 * 0 = 0; omega
  | ⟨1, _⟩ => show win3_1.index t (1 : Fin 2) * 64 + 1 * q.val = q.val; omega

/-- The block of the variances' window at any point is the whole row. -/
theorem iblk3_2_apply (c : Dev nD) (t : Fin cfg3.N) (q : Fin 64) :
    (iblk3 V c 2 t : Vec Ideal S1x64 .f32) (ix2 (0 : Fin 1) q) = Var3 V c (ix2 (0 : Fin 1) q) := by
  obtain ⟨-, -, -, -, e0, e1, -⟩ := idx_facts3 t
  unfold iblk3
  rw [View.read_apply]
  show V c main_v61 _ = V c main_v61 _
  congr 1
  funext a
  apply Fin.ext
  match a with
  | ⟨0, _⟩ => show win3_2.index t (0 : Fin 2) * 1 + 1 * 0 = 0; omega
  | ⟨1, _⟩ => show win3_2.index t (1 : Fin 2) * 64 + 1 * q.val = q.val; omega

/-- The block of the scales' window at any point is the whole row. -/
theorem iblk3_3_apply (c : Dev nD) (t : Fin cfg3.N) (q : Fin 64) :
    (iblk3 V c 3 t : Vec Ideal S1x64 .f32) (ix2 (0 : Fin 1) q) = Scale3 V c (ix2 (0 : Fin 1) q) := by
  obtain ⟨-, -, -, -, -, -, e0, e1, -⟩ := idx_facts3 t
  unfold iblk3
  rw [View.read_apply]
  show V c main_v62 _ = V c main_v62 _
  congr 1
  funext a
  apply Fin.ext
  match a with
  | ⟨0, _⟩ => show win3_3.index t (0 : Fin 2) * 1 + 1 * 0 = 0; omega
  | ⟨1, _⟩ => show win3_3.index t (1 : Fin 2) * 64 + 1 * q.val = q.val; omega

/-- The block of the shifts' window at any point is the whole row. -/
theorem iblk3_4_apply (c : Dev nD) (t : Fin cfg3.N) (q : Fin 64) :
    (iblk3 V c 4 t : Vec Ideal S1x64 .f32) (ix2 (0 : Fin 1) q) = Shift3 V c (ix2 (0 : Fin 1) q) := by
  obtain ⟨-, -, -, -, -, -, -, -, e0, e1, -⟩ := idx_facts3 t
  unfold iblk3
  rw [View.read_apply]
  show V c main_v63 _ = V c main_v63 _
  congr 1
  funext a
  apply Fin.ext
  match a with
  | ⟨0, _⟩ => show win3_4.index t (0 : Fin 2) * 1 + 1 * 0 = 0; omega
  | ⟨1, _⟩ => show win3_4.index t (1 : Fin 2) * 64 + 1 * q.val = q.val; omega

/-- Entry (p, q) of the output window's block at point `t` sits at (5000·t + p, q) of the output array. -/
theorem emb3_5 (t : Fin cfg3.N) (p : Fin 5000) (q : Fin 64) (h : t.val * 5000 + p.val < 100000) :
    ((cfg3.win 5).blk t).view.emb (ix2 p q) = (ix2 (⟨t.val * 5000 + p.val, h⟩ : Fin 100000) q : S100000x64.Idx) := by
  obtain ⟨-, -, -, -, -, -, -, -, -, -, e0, e1⟩ := idx_facts3 t
  funext a
  apply Fin.ext
  match a with
  | ⟨0, _⟩ => show win3_5.index t (0 : Fin 2) * 5000 + 1 * p.val = t.val * 5000 + p.val; omega
  | ⟨1, _⟩ => show win3_5.index t (1 : Fin 2) * 64 + 1 * q.val = q.val; omega

/-- WHAT POINT `t` WRITES BACK is block `t` of the normalisation of the whole input matrix. -/
theorem flushed3_5_eq (c : Dev nD) (t : Fin cfg3.N) :
    (dat3 (F := Ideal) V c).flushed 5 t = ((cfg3.win 5).blk t).view.read (Elt Ideal) (G3 V c) := by
  show (cfg3.win 5).cut (grid3.coords t) ((dat3 (F := Ideal) V c).after 5 t) = _
  rw [after3_5]
  unfold out3_5
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  have hN : cfg3.N = 20 := N_3
  have ht : t.val < cfg3.N := t.isLt
  have hp : p.val < 5000 := p.isLt
  have h : t.val * 5000 + p.val < 100000 := by omega
  show k3_pay1 (F := Ideal) (iblk3 V c 0 t) (iblk3 V c 2 t) (iblk3 V c 1 t) (iblk3 V c 3 t) (iblk3 V c 4 t) (ix2 p q)
    = G3 V c (((cfg3.win 5).blk t).view.emb (ix2 p q))
  rw [emb3_5 t p q h]
  show _ = Cert.Spec.bnAt (X3 V c) (Cert.Spec.rowOf (Mu3 V c)) (Cert.Spec.rowOf (Var3 V c)) (Cert.Spec.rowOf (Scale3 V c))
    (Cert.Spec.rowOf (Shift3 V c)) (⟨t.val * 5000 + p.val, h⟩ : Fin 100000) q
  refine (k3_pay1_apply _ _ _ _ _ p q).trans ?_
  exact bnAt_congr (iblk3_0_apply V c t p q h) (iblk3_1_apply V c t q) (iblk3_2_apply V c t q) (iblk3_3_apply V c t q)
    (iblk3_4_apply V c t q)

/-- An index of the output array is in point `t`'s block iff each coordinate is in the block's range on its axis. -/
theorem mem_blk3_5 (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v64).slice (win3_5.rect t)).set ↔ _
  rw [View.set_slice_whole, Rect.mem_set_unit]
  exact Iff.rfl

/-- THE BLOCKS COVER THE ARRAY: row `r` lies in the block of point `r / 5000`. -/
theorem covered3_5 (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 20 := N_3
  have hlt : (i 0).val / 5000 < cfg3.N := by omega
  obtain ⟨-, -, -, -, -, -, -, -, -, -, e0, e1⟩ := idx_facts3 ⟨(i 0).val / 5000, hlt⟩
  have e0' : win3_5.index ⟨(i 0).val / 5000, hlt⟩ (0 : Fin 2) = (i 0).val / 5000 := e0
  refine ⟨⟨(i 0).val / 5000, hlt⟩, flush3_5 _, ?_⟩
  rw [mem_blk3_5]
  intro a
  match a with
  | ⟨0, _⟩ =>
    show win3_5.index ⟨(i 0).val / 5000, hlt⟩ (0 : Fin 2) * 5000 ≤ (i 0).val
      ∧ (i 0).val < win3_5.index ⟨(i 0).val / 5000, hlt⟩ (0 : Fin 2) * 5000 + 5000
    omega
  | ⟨1, _⟩ =>
    show win3_5.index ⟨(i 0).val / 5000, hlt⟩ (1 : Fin 2) * 64 ≤ (i 1).val
      ∧ (i 1).val < win3_5.index ⟨(i 0).val / 5000, hlt⟩ (1 : Fin 2) * 64 + 64
    omega

/-- THE OUTPUT ARRAY after the region's write-backs: the normalisation of the whole input matrix by the given column
    statistics. -/
theorem arr3_5 (c : Dev nD) : (dat3 (F := Ideal) V c).arrAt 5 cfg3.N = G3 V c :=
  (dat3 (F := Ideal) V c).arrAt_eq_of_cover 5 (G3 V c) (fun t _ => flushed3_5_eq V c t) covered3_5

end Region3

/-- Region 3's output buffer at the region's exit is the normalisation of its input buffer at the region's entry by the
    column means, variances, scales and shifts found there. -/
theorem out (m : (ℓ : Loc nD τ sig) → Buf (Elt Ideal) ℓ) (ρ : Dev nD → PrngReg) (c : Dev nD) :
    W16 (F := Ideal) m ρ c (Proc.devRef .tc main_v64)
      = Cert.Spec.bn (W15 (F := Ideal) m ρ c (Proc.devRef .tc main_v55))
          (Cert.Spec.rowOf (W15 (F := Ideal) m ρ c (Proc.devRef .tc main_v59))) (Cert.Spec.rowOf (W15 (F := Ideal) m ρ c (Proc.devRef .tc main_v61)))
          (Cert.Spec.rowOf (W15 (F := Ideal) m ρ c (Proc.devRef .tc main_v62))) (Cert.Spec.rowOf (W15 (F := Ideal) m ρ c (Proc.devRef .tc main_v63))) :=
  (W16_arr (F := Ideal) m ρ c 5).trans (arr3_5 (V15 (F := Ideal) m ρ) c)

end Cert.Proof.RegNorm3

end
-- ==== Proof.SimL2.lean ====
/-
  Layer 2 of the model (first branch, second graph convolution), compared between the two programs: the degree-normalised
  neighbourhood sum that enters the dense layer, the dense layer with ELU, the column statistics, and the
  normalisation. Each step says that a buffer of the kernel program and the buffer of the reference that plays the same
  part hold equal contents, given that the step before does. The host operations the two programs share are the same
  operations on equal operands; the dense layer and the normalisation are the kernel regions on one side and host
  operations on the other, both equal to the entry formulas of the specification.
-/
import proofs.«162194_j13769665151544_1_alg».proof.Proof.SimBase
import proofs.«162194_j13769665151544_1_alg».proof.Proof.LibGlue
import proofs.«162194_j13769665151544_1_alg».proof.Proof.RegDense2
import proofs.«162194_j13769665151544_1_alg».proof.Proof.RegNorm3
import proofs.«162194_j13769665151544_1_alg».proof.Proof.RefLayers

set_option maxRecDepth 16384
set_option maxHeartbeats 8000000

noncomputable section

namespace Cert.Proof.Sim.L2

open Idealize.ShloMosaic Idealize.ShloMosaic.TcCoe Idealize.SL.Sem Idealize.ShloMosaic.StableHlo Cert.Proof.Sim

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

attribute [local irreducible] Host.scatterAdd Host.gather Host.reduceAdd in
/-- The neighbourhood sum entering the dense layer: the same host operations of the layer before's output and the edge
    lists (the reference computes the degree norms anew, the kernel program reads the ones it computed for the layer
    before: the same operations of the same edge lists). -/
theorem agg (hag : Agree m m' c) (hprev : (Cert.KernelIdeal.Gen.W10 (F := Ideal) m ρ c (Proc.devRef .tc Cert.KernelIdeal.main_v37) : Cert.Spec.Mat 100000 64) = Cert.ReferenceIdeal.Ops.R5 (F := Ideal) m' c (Proc.devRef .tc Cert.ReferenceIdeal.main_v50)) :
    (Cert.KernelIdeal.Gen.W11 (F := Ideal) m ρ c (Proc.devRef .tc Cert.KernelIdeal.main_v53) : Cert.Spec.Mat 100000 64) = Cert.ReferenceIdeal.Ops.R6 (F := Ideal) m' c (Proc.devRef .tc Cert.ReferenceIdeal.main_v77) := by
  obtain ⟨h0, h1, h2, h3, h4, h5, h6, h7, h8, h9, h10, h11, h12, h13, h14, h15, h16, h17, h18, h19, h20, h21, h22, h23, h24, h25, h26, h27⟩ := hag
  have rs : Cert.ReferenceIdeal.Ops.R5 (F := Ideal) m' c (Proc.devRef .tc Cert.ReferenceIdeal.main_arg1) = m' ((c.tc : Thread Cert.ReferenceIdeal.nD Cert.ReferenceIdeal.τ).loc Cert.ReferenceIdeal.main_arg1) := by
    dsimp only [Cert.ReferenceIdeal.Ops.R5, Cert.ReferenceIdeal.Ops.R4, Cert.ReferenceIdeal.Ops.R3, Cert.ReferenceIdeal.Ops.R2, Cert.ReferenceIdeal.Ops.R1]
    hostdown
  have rd : Cert.ReferenceIdeal.Ops.R5 (F := Ideal) m' c (Proc.devRef .tc Cert.ReferenceIdeal.main_arg2) = m' ((c.tc : Thread Cert.ReferenceIdeal.nD Cert.ReferenceIdeal.τ).loc Cert.ReferenceIdeal.main_arg2) := by
    dsimp only [Cert.ReferenceIdeal.Ops.R5, Cert.ReferenceIdeal.Ops.R4, Cert.ReferenceIdeal.Ops.R3, Cert.ReferenceIdeal.Ops.R2, Cert.ReferenceIdeal.Ops.R1]
    hostdown
  dsimp only [Cert.ReferenceIdeal.Ops.R6]
  generalize Cert.ReferenceIdeal.Ops.R5 (F := Ideal) m' c = V at hprev rs rd ⊢
  dsimp only [Cert.KernelIdeal.Gen.W11]
  hostdown
  rw [hprev]
  kdown
  simp only [kLaunch, rs, rd, h1, h2]
  rfl

/-- The dense layer with ELU: a kernel region on one side, host operations on the other, both the specification's
    layer of equal inputs, weights and bias. -/
theorem lin (hag : Agree m m' c) (hagg : (Cert.KernelIdeal.Gen.W11 (F := Ideal) m ρ c (Proc.devRef .tc Cert.KernelIdeal.main_v53) : Cert.Spec.Mat 100000 64) = Cert.ReferenceIdeal.Ops.R6 (F := Ideal) m' c (Proc.devRef .tc Cert.ReferenceIdeal.main_v77)) :
    (Cert.KernelIdeal.Gen.W12 (F := Ideal) m ρ c (Proc.devRef .tc Cert.KernelIdeal.main_v55) : Cert.Spec.Mat 100000 64) = Cert.ReferenceIdeal.Ops.R7 (F := Ideal) m' c (Proc.devRef .tc Cert.ReferenceIdeal.main_v82) := by
  obtain ⟨h0, h1, h2, h3, h4, h5, h6, h7, h8, h9, h10, h11, h12, h13, h14, h15, h16, h17, h18, h19, h20, h21, h22, h23, h24, h25, h26, h27⟩ := hag
  rw [Cert.Proof.RegDense2.out m ρ c, Cert.Proof.RefLayers.lin2 m' c, hagg]
  have hw : (Cert.KernelIdeal.Gen.W11 (F := Ideal) m ρ c (Proc.devRef .tc Cert.KernelIdeal.main_arg9) : Cert.Spec.Mat 64 64) = Cert.ReferenceIdeal.Ops.R6 (F := Ideal) m' c (Proc.devRef .tc Cert.ReferenceIdeal.main_arg9) := by
    have r : Cert.ReferenceIdeal.Ops.R6 (F := Ideal) m' c (Proc.devRef .tc Cert.ReferenceIdeal.main_arg9) = m' ((c.tc : Thread Cert.ReferenceIdeal.nD Cert.ReferenceIdeal.τ).loc Cert.ReferenceIdeal.main_arg9) := by
      dsimp only [Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
      hostdown
    rw [r, h9]
    kdown
  have hb : Cert.Spec.rowOf (Cert.KernelIdeal.Gen.W11 (F := Ideal) m ρ c (Proc.devRef .tc Cert.KernelIdeal.main_v54)) = Cert.Spec.vecOf (Cert.ReferenceIdeal.Ops.R6 (F := Ideal) m' c (Proc.devRef .tc Cert.ReferenceIdeal.main_arg10)) := by
    have r : Cert.ReferenceIdeal.Ops.R6 (F := Ideal) m' c (Proc.devRef .tc Cert.ReferenceIdeal.main_arg10) = m' ((c.tc : Thread Cert.ReferenceIdeal.nD Cert.ReferenceIdeal.τ).loc Cert.ReferenceIdeal.main_arg10) := by
      dsimp only [Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
      hostdown
    rw [r, h10]
    kdown
    rw [kLaunch]
    exact Cert.LibGlue.rowOf_shapeCast _ _
  rw [hw, hb]

attribute [local irreducible] Host.reduceAdd in
/-- The normalisation by the column statistics: the statistics are the same host operations of equal matrices, the
    normalisation itself a kernel region on one side and host operations on the other, both the specification's. -/
theorem bn (hag : Agree m m' c) (hlin : (Cert.KernelIdeal.Gen.W12 (F := Ideal) m ρ c (Proc.devRef .tc Cert.KernelIdeal.main_v55) : Cert.Spec.Mat 100000 64) = Cert.ReferenceIdeal.Ops.R7 (F := Ideal) m' c (Proc.devRef .tc Cert.ReferenceIdeal.main_v82)) :
    (Cert.KernelIdeal.Gen.W16 (F := Ideal) m ρ c (Proc.devRef .tc Cert.KernelIdeal.main_v64) : Cert.Spec.Mat 100000 64) = Cert.ReferenceIdeal.Ops.R10 (F := Ideal) m' c (Proc.devRef .tc Cert.ReferenceIdeal.main_v101) := by
  obtain ⟨h0, h1, h2, h3, h4, h5, h6, h7, h8, h9, h10, h11, h12, h13, h14, h15, h16, h17, h18, h19, h20, h21, h22, h23, h24, h25, h26, h27⟩ := hag
  rw [Cert.Proof.RegNorm3.out m ρ c, Cert.Proof.RefLayers.bn2 m' c]
  have hx : (Cert.KernelIdeal.Gen.W15 (F := Ideal) m ρ c (Proc.devRef .tc Cert.KernelIdeal.main_v55) : Cert.Spec.Mat 100000 64) = Cert.ReferenceIdeal.Ops.R8 (F := Ideal) m' c (Proc.devRef .tc Cert.ReferenceIdeal.main_v82) := by
    dsimp only [Cert.ReferenceIdeal.Ops.R8]
    generalize Cert.ReferenceIdeal.Ops.R7 (F := Ideal) m' c = V at hlin ⊢
    kdown
    exact hlin
  have hmu : Cert.Spec.rowOf (Cert.KernelIdeal.Gen.W15 (F := Ideal) m ρ c (Proc.devRef .tc Cert.KernelIdeal.main_v59)) = Cert.Spec.vecOf (Cert.ReferenceIdeal.Ops.R8 (F := Ideal) m' c (Proc.devRef .tc Cert.ReferenceIdeal.main_v85)) := by
    dsimp only [Cert.ReferenceIdeal.Ops.R8]
    generalize Cert.ReferenceIdeal.Ops.R7 (F := Ideal) m' c = V at hlin ⊢
    kdown
    rw [hlin]
    exact Cert.LibGlue.rowOf_shapeCast _ _
  have hvar : Cert.Spec.rowOf (Cert.KernelIdeal.Gen.W15 (F := Ideal) m ρ c (Proc.devRef .tc Cert.KernelIdeal.main_v61)) = Cert.Spec.vecOf (Cert.ReferenceIdeal.Ops.R8 (F := Ideal) m' c (Proc.devRef .tc Cert.ReferenceIdeal.main_v86)) := by
    dsimp only [Cert.ReferenceIdeal.Ops.R8]
    generalize Cert.ReferenceIdeal.Ops.R7 (F := Ideal) m' c = V at hlin ⊢
    kdown
    rw [hlin]
    exact Cert.LibGlue.rowOf_shapeCast _ _
  have hg : Cert.Spec.rowOf (Cert.KernelIdeal.Gen.W15 (F := Ideal) m ρ c (Proc.devRef .tc Cert.KernelIdeal.main_v62)) = Cert.Spec.vecOf (Cert.ReferenceIdeal.Ops.R8 (F := Ideal) m' c (Proc.devRef .tc Cert.ReferenceIdeal.main_arg11)) := by
    have r : Cert.ReferenceIdeal.Ops.R8 (F := Ideal) m' c (Proc.devRef .tc Cert.ReferenceIdeal.main_arg11) = m' ((c.tc : Thread Cert.ReferenceIdeal.nD Cert.ReferenceIdeal.τ).loc Cert.ReferenceIdeal.main_arg11) := by
      dsimp only [Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
      hostdown
    rw [r, h11]
    kdown
    rw [kLaunch]
    exact Cert.LibGlue.rowOf_shapeCast _ _
  have hbt : Cert.Spec.rowOf (Cert.KernelIdeal.Gen.W15 (F := Ideal) m ρ c (Proc.devRef .tc Cert.KernelIdeal.main_v63)) = Cert.Spec.vecOf (Cert.ReferenceIdeal.Ops.R8 (F := Ideal) m' c (Proc.devRef .tc Cert.ReferenceIdeal.main_arg12)) := by
    have r : Cert.ReferenceIdeal.Ops.R8 (F := Ideal) m' c (Proc.devRef .tc Cert.ReferenceIdeal.main_arg12) = m' ((c.tc : Thread Cert.ReferenceIdeal.nD Cert.ReferenceIdeal.τ).loc Cert.ReferenceIdeal.main_arg12) := by
      dsimp only [Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
      hostdown
    rw [r, h12]
    kdown
    rw [kLaunch]
    exact Cert.LibGlue.rowOf_shapeCast _ _
  rw [hx, hmu, hvar, hg, hbt]

end Cert.Proof.Sim.L2

end
-- ==== Proof.RegDense4.lean ====
/-
  The first dense layer with ELU, from the tile to the whole array.

  The kernel walks the 100000 rows of its input in 20 tiles of 5000 rows. On a tile it multiplies the tile's rows by
  the 64 × 64 weight matrix, adds the bias row to every row and applies ELU entry by entry; each format change on the
  way is the identity on the extended reals. So entry (p, q) of what a tile stores is
  elu (∑ k, x p k · W k q + b q) of the tile's own row p: the layer's entry, which depends on that one row only.
  Tile t holds rows 5000·t … 5000·t + 4999 of the input and is written back to the same rows of the output, the weights
  and the bias are read whole at every tile, and the 20 tiles cover every row (row r lies in tile r / 5000). Hence the
  output array ends holding the layer of the whole input.
-/
import proofs.«162194_j13769665151544_1_alg».proof.Proof.Spec
import proofs.«162194_j13769665151544_1_alg».proof.Proof.LibDense
import proofs.«162194_j13769665151544_1_alg».proof.Proof.Gen.KernelIdeal.Frame
import Idealize.ShloMosaic.Lib.ValueIdx
import Idealize.ShloMosaic.Lib.ValueLayout
import Idealize.ShloMosaic.Lib.Pipeline.Value

noncomputable section

namespace Cert.Proof.RegDense4

open Idealize.ShloMosaic Idealize.ShloMosaic.ValueIdx Idealize.ShloMosaic.TcCoe Idealize.SL.Sem
open Idealize.ShloMosaic.Pipeline (Dat)
open Cert.KernelIdeal Cert.KernelIdeal.Gen

/-! ## The layer on a tile of rows, entry by entry -/

/-- The zero offsets of a whole-buffer access, however they are spelt. -/
theorem hz : (![0, 0] : Fin 2 → Nat) = fun _ => 0 := funext fun a => by fin_cases a <;> rfl

/-- The printed product's dimension numbers are the rows-by-columns ones. -/
theorem dot_eq_plain : dot_S5000x64_S64x64_S5000x64_1_0_0_1_n_n = DotDims.plain 5000 64 64 := rfl

/-- The product of a tile with the weights into a zero accumulator, plus the bias row laid along every row, read at
    (p, q): row p of the tile times column q of the weights, plus the bias at q. -/
theorem tile_pre_apply (x : FVec Ideal S5000x64 .bf16) (W : FVec Ideal S64x64 .bf16) (b : FVec Ideal S1x64 .f32)
    (hb : S1x64.Broadcasts S5000x64) (p : Fin 5000) (q : Fin 64) :
    addf (matmul dot_S5000x64_S64x64_S5000x64_1_0_0_1_n_n none x W (constant (F := Ideal) S5000x64 .f32 0x00000000#32))
        (broadcastTo S5000x64 b hb) (ix2 p q)
      = FloatOps.addf (∑ k : Fin 64, x (ix2 p k) * W (ix2 k q)) (b (ix2 (0 : Fin 1) q)) := by
  rw [dot_eq_plain]
  show FloatOps.addf (FloatOps.matmul (DotDims.plain 5000 64 64) none x W (constant ⟨2, ![5000, 64]⟩ .f32 0x00000000#32) (ix2 p q))
      (broadcastTo ⟨2, ![5000, 64]⟩ b hb (ix2 p q)) = _
  rw [Cert.LibDense.matmul_plain_zero_apply, broadcastTo_1b_ab_apply]
  rfl

/-- ELU as the kernel spells it — compare with a splat zero, exponential, subtract a splat one, select — read at an
    index: ELU of the entry. -/
theorem tile_elu_apply (y : FVec Ideal S5000x64 .f32) (i : S5000x64.Idx) :
    select (cmpf .ogt y (broadcast S5000x64 (Scalar.ofBits (F := Ideal) .f32 0x00000000#32))) y
        (subf (exp y) (broadcast S5000x64 (Scalar.ofBits (F := Ideal) .f32 0x3F800000#32))) i
      = Cert.Spec.elu (y i) := rfl

/-- The layer's entry depends on the input's row only through the row's entries, so a row of a tile that is a row of
    the array gives the array's entry. -/
theorem linEluAt_congr {M M' : ℕ} (x : Cert.Spec.Mat M 64) (x' : Cert.Spec.Mat M' 64) (W : Cert.Spec.Mat 64 64)
    (b : Fin 64 → Cert.Spec.R) (p : Fin M) (p' : Fin M') (q : Fin 64) (h : ∀ k : Fin 64, x (ix2 p k) = x' (ix2 p' k)) :
    Cert.Spec.linEluAt x W b p q = Cert.Spec.linEluAt x' W b p' q := by
  unfold Cert.Spec.linEluAt Cert.Spec.rowDot
  simp only [h]

/-! ## Region 4: what a tile stores -/

/-- Entry (p, q) of what the kernel stores for a tile: the layer's entry of the tile's row p. -/
theorem k4_pay1_apply (x : Vec Ideal S5000x64 .f32) (W : Vec Ideal S64x64 .f32) (b : Vec Ideal S1x64 .f32)
    (p : Fin 5000) (q : Fin 64) :
    k4_pay1 (F := Ideal) x W b (ix2 p q) = Cert.Spec.linEluAt x W (Cert.Spec.rowOf b) p q := by
  unfold k4_pay1
  simp only [shapeCast_self]
  refine (tile_elu_apply _ (ix2 p q)).trans ?_
  rw [tile_pre_apply]
  rfl

/-! ## Region 4: from the tiles to the array -/

/-- The printed index maps, decided over the 20 grid points: the input's and the output's row tiles move together, tile
    t at block row t; the weights and the bias are one whole block at every point. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

section Region4

variable (V : (c : Dev nD) → (b : Ref sig .tc) → Buf (Elt Ideal) ((c : Thread nD τ).loc b))

/-- The input array as the region finds it. -/
abbrev X4 (c : Dev nD) : Cert.Spec.Mat 100000 64 := V c main_v91
/-- The weights as the region finds them. -/
abbrev Wt4 (c : Dev nD) : Cert.Spec.Mat 64 64 := V c main_arg13
/-- The bias row as the region finds it. -/
abbrev B4 (c : Dev nD) : FVec Ideal S1x64 .f32 := V c main_v92

/-- What the output array ends holding: the layer of the whole input. -/
abbrev G4 (c : Dev nD) : Cert.Spec.Mat 100000 64 := Cert.Spec.linElu (X4 V c) (Wt4 V c) (Cert.Spec.rowOf (B4 V c))

/-- Entry (p, k) of the input's tile at point t is entry (5000·t + p, k) of the input array. -/
theorem iblk4_0_apply (c : Dev nD) (t : Fin cfg4.N) (p : Fin 5000) (k : Fin 64) (i : S100000x64.Idx)
    (h0 : (i 0).val = 5000 * t.val + p.val) (h1 : (i 1).val = k.val) :
    (iblk4 V c 0 t : FVec Ideal S5000x64 .f32) (ix2 p k) = X4 V c i := by
  obtain ⟨e0, e1, -⟩ := idx_facts4 t
  unfold iblk4
  rw [View.read_apply]
  show V c main_v91 _ = V c main_v91 _
  congr 1
  funext a
  apply Fin.ext
  match a with
  | ⟨0, _⟩ => show win4_0.index t (0 : Fin 2) * 5000 + 1 * p.val = (i 0).val; omega
  | ⟨1, _⟩ => show win4_0.index t (1 : Fin 2) * 64 + 1 * k.val = (i 1).val; omega

/-- The weights' block at every point is the whole weight matrix. -/
theorem iblk4_1_eq (c : Dev nD) (t : Fin cfg4.N) : (iblk4 V c 1 t : FVec Ideal S64x64 .f32) = Wt4 V c := by
  obtain ⟨-, -, e0, e1, -⟩ := idx_facts4 t
  funext y
  unfold iblk4
  rw [View.read_apply]
  show V c main_arg13 _ = V c main_arg13 _
  congr 1
  funext a
  apply Fin.ext
  match a with
  | ⟨0, _⟩ => show win4_1.index t (0 : Fin 2) * 64 + 1 * (y 0).val = (y 0).val; omega
  | ⟨1, _⟩ => show win4_1.index t (1 : Fin 2) * 64 + 1 * (y 1).val = (y 1).val; omega

/-- The bias's block at every point is the whole bias row. -/
theorem iblk4_2_eq (c : Dev nD) (t : Fin cfg4.N) : (iblk4 V c 2 t : FVec Ideal S1x64 .f32) = B4 V c := by
  obtain ⟨-, -, -, -, e0, e1, -⟩ := idx_facts4 t
  funext y
  unfold iblk4
  rw [View.read_apply]
  show V c main_v92 _ = V c main_v92 _
  congr 1
  funext a
  apply Fin.ext
  match a with
  | ⟨0, _⟩ => show win4_2.index t (0 : Fin 2) * 1 + 1 * (y 0).val = (y 0).val; omega
  | ⟨1, _⟩ => show win4_2.index t (1 : Fin 2) * 64 + 1 * (y 1).val = (y 1).val; omega

/-- Entry (p, q) of the output's block at point t sits at (5000·t + p, q) of the output array. -/
theorem blk4_3_emb (t : Fin cfg4.N) (p : Fin 5000) (q : Fin 64) :
    ((((cfg4.win 3).blk t).view.emb (ix2 p q) : S100000x64.Idx) 0).val = 5000 * t.val + p.val
    ∧ ((((cfg4.win 3).blk t).view.emb (ix2 p q) : S100000x64.Idx) 1).val = q.val := by
  obtain ⟨-, -, -, -, -, -, e0, e1⟩ := idx_facts4 t
  constructor
  · show win4_3.index t (0 : Fin 2) * 5000 + 1 * p.val = _; omega
  · show win4_3.index t (1 : Fin 2) * 64 + 1 * q.val = _; omega

/-- WHAT POINT t WRITES BACK is block t of the layer of the whole input. -/
theorem flushed4_3_eq (c : Dev nD) (t : Fin cfg4.N) :
    (dat4 (F := Ideal) V c).flushed 3 t = ((cfg4.win 3).blk t).view.read (Elt Ideal) (G4 V c) := by
  show (cfg4.win 3).cut (grid4.coords t) ((dat4 V c).after 3 t) = _
  rw [after4_3]
  unfold out4_3
  rw [View.canon_unit_zero hz]
  simp only [View.ld_unit_zero (S := S5000x64) hz, View.ld_unit_zero (S := S64x64) hz, View.ld_unit_zero (S := S1x64) hz]
  rw [iblk4_1_eq V c t, iblk4_2_eq V c t]
  funext j
  obtain ⟨p, q, rfl⟩ : ∃ (p : Fin 5000) (q : Fin 64), j = ix2 p q := ⟨j 0, j 1, eq_ix2 j⟩
  obtain ⟨r0, r1⟩ := blk4_3_emb t p q
  show k4_pay1 (F := Ideal) (iblk4 V c 0 t) (Wt4 V c) (B4 V c) (ix2 p q)
      = Cert.Spec.linEluAt (X4 V c) (Wt4 V c) (Cert.Spec.rowOf (B4 V c)) ((((cfg4.win 3).blk t).view.emb (ix2 p q) : S100000x64.Idx) 0)
          ((((cfg4.win 3).blk t).view.emb (ix2 p q) : S100000x64.Idx) 1)
  rw [k4_pay1_apply]
  have hq : ((((cfg4.win 3).blk t).view.emb (ix2 p q) : S100000x64.Idx) 1 : Fin 64) = q := Fin.ext r1
  rw [hq]
  refine linEluAt_congr _ _ _ _ p _ q fun k => ?_
  exact iblk4_0_apply V c t p k _ r0 rfl

/-- An index of the output array is in point t's block iff each coordinate is in the block's range on its axis. -/
theorem mem_blk4_3 (t : Fin cfg4.N) (i : S100000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v93).slice (win4_3.rect t)).set ↔ _
  rw [View.set_slice_whole, Rect.mem_set_unit]
  exact Iff.rfl

/-- Every row of the output is in some point's block: row r in the block of point r / 5000. -/
theorem covered4_3 (i : S100000x64.Idx) : ∃ t : Fin cfg4.N, (cfg4.win 3).flush t = true ∧ i ∈ ((cfg4.win 3).blk t).view.set := by
  have hi0 : (i 0).val < 100000 := (i 0).isLt
  have hi1 : (i 1).val < 64 := (i 1).isLt
  have hN : cfg4.N = 20 := N_4
  refine ⟨⟨(i 0).val / 5000, by rw [hN]; omega⟩, flush4_3 _, ?_⟩
  rw [mem_blk4_3]
  obtain ⟨-, -, -, -, -, -, e0, e1⟩ := idx_facts4 ⟨(i 0).val / 5000, by rw [hN]; omega⟩
  intro a
  match a with
  | ⟨0, _⟩ =>
    show win4_3.index _ (0 : Fin 2) * 5000 ≤ (i 0).val ∧ (i 0).val < win4_3.index _ (0 : Fin 2) * 5000 + 5000
    rw [e0]
    show (i 0).val / 5000 * 5000 ≤ (i 0).val ∧ (i 0).val < (i 0).val / 5000 * 5000 + 5000
    omega
  | ⟨1, _⟩ =>
    show win4_3.index _ (1 : Fin 2) * 64 ≤ (i 1).val ∧ (i 1).val < win4_3.index _ (1 : Fin 2) * 64 + 64
    rw [e1]
    omega

/-- THE OUTPUT ARRAY after the region: the layer of the whole input, the weights and the bias as the region finds them. -/
theorem final4_3 (c : Dev nD) :
    (dat4 (F := Ideal) V c).arrAt 3 cfg4.N = Cert.Spec.linElu (V c main_v91) (V c main_arg13) (Cert.Spec.rowOf (V c main_v92)) :=
  (dat4 (F := Ideal) V c).arrAt_eq_of_cover 3 (G4 V c) (fun t _ => flushed4_3_eq V c t) covered4_3

end Region4

/-! ## Region 4 in the run -/

/-- After region 4 the output buffer holds the layer of the input buffer, the weights and the bias as they are when the
    region is entered. -/
theorem out (m : (ℓ : Loc nD τ sig) → Buf (Elt Ideal) ℓ) (ρ : Dev nD → PrngReg) (c : Dev nD) :
    W22 (F := Ideal) m ρ c (Proc.devRef .tc main_v93)
      = Cert.Spec.linElu (W21 (F := Ideal) m ρ c (Proc.devRef .tc main_v91)) (W21 (F := Ideal) m ρ c (Proc.devRef .tc main_arg13))
          (Cert.Spec.rowOf (W21 (F := Ideal) m ρ c (Proc.devRef .tc main_v92))) := by
  have h := W22_arr (F := Ideal) m ρ c 3
  rw [final4_3 (V21 (F := Ideal) m ρ) c] at h
  exact h

end Cert.Proof.RegDense4

end
-- ==== Proof.RegNorm5.lean ====
/-
  Region 5 of the kernel program: the affine normalisation of a 100000 × 64 matrix by given column statistics.

  The kernel normalises one tile of 5000 rows at a time: from the tile `x`, the one-row matrices of column variances,
  column means, scales and shifts it stores `(x p q − μ q) · (σ² q + ε)^(−1/2) · g q + β q` at every entry (p, q) of the
  tile. Row `p` of the result depends on row `p` of `x` only, so the tile of rows `5000·t … 5000·t + 4999` that grid
  point `t` writes back is that block of the normalisation of the whole matrix; the twenty blocks tile the 100000 rows
  (row `r` lies in block `r / 5000`), so the output array ends holding the normalisation of the whole input.
-/
import proofs.«162194_j13769665151544_1_alg».proof.Proof.Gen.KernelIdeal.Frame
import proofs.«162194_j13769665151544_1_alg».proof.Proof.Spec
import Idealize.ShloMosaic.Lib.ValueIdx
import Idealize.ShloMosaic.Lib.ValueLayout
import Idealize.ShloMosaic.Lib.Pipeline.Value

noncomputable section

namespace Cert.Proof.RegNorm5

open Idealize.ShloMosaic Idealize.ShloMosaic.TcCoe Idealize.ShloMosaic.ValueIdx Idealize.SL.Sem
open Idealize.ShloMosaic.Pipeline (Dat)
open Cert.KernelIdeal Cert.KernelIdeal.Gen

/-! ## The normalisation of a tile, entry by entry

Nothing in this section depends on which launch of the normalisation kernel is read. -/

/-- The normalisation as the kernel spells it on a tile of 5000 rows — the tile less the means laid along every row,
    times the inverse square root of the variances plus the offset laid along every row, times the scales, plus the
    shifts — read at entry (p, q): the normalisation's entry formula at the tile. -/
theorem bn_tile_apply (hx : S5000x64.ShapeCasts S5000x64) (hr : S1x64.ShapeCasts S1x64) (hb : S1x64.Broadcasts S5000x64)
    (x : Vec Ideal S5000x64 .f32) (var mu g bt : Vec Ideal S1x64 .f32) (p : Fin 5000) (q : Fin 64) :
    addf (mulf (mulf (subf (shapeCast S5000x64 x hx) (broadcastTo S5000x64 (shapeCast S1x64 mu hr) hb))
          (broadcastTo S5000x64
            (rsqrt (addf (shapeCast S1x64 var hr) (broadcast S1x64 (Scalar.ofBits (F := Ideal) .f32 0x3727C5AC#32)))) hb))
        (broadcastTo S5000x64 (shapeCast S1x64 g hr) hb)) (broadcastTo S5000x64 (shapeCast S1x64 bt hr) hb) (ix2 p q)
      = Cert.Spec.bnAt x (Cert.Spec.rowOf mu) (Cert.Spec.rowOf var) (Cert.Spec.rowOf g) (Cert.Spec.rowOf bt) p q := by
  simp only [shapeCast_self]
  show FloatOps.addf (FloatOps.mulf (FloatOps.mulf (FloatOps.subf (x (ix2 p q)) (broadcastTo S5000x64 mu hb (ix2 p q)))
      (broadcastTo S5000x64 (rsqrt (addf var (broadcast S1x64 (Scalar.ofBits (F := Ideal) .f32 0x3727C5AC#32)))) hb (ix2 p q)))
      (broadcastTo S5000x64 g hb (ix2 p q))) (broadcastTo S5000x64 bt hb (ix2 p q)) = _
  rw [broadcastTo_1b_ab_apply, broadcastTo_1b_ab_apply, broadcastTo_1b_ab_apply, broadcastTo_1b_ab_apply]
  rfl

/-- The entry formula depends on the input through its entry (p, q) only, and on each statistic through its entry `q`. -/
theorem bnAt_congr {M M' : ℕ} {x : Cert.Spec.Mat M 64} {x' : Cert.Spec.Mat M' 64} {mu var g bt mu' var' g' bt' : Fin 64 → Cert.Spec.R}
    {p : Fin M} {p' : Fin M'} {q : Fin 64} (hx : x (ix2 p q) = x' (ix2 p' q)) (hmu : mu q = mu' q) (hvar : var q = var' q)
    (hg : g q = g' q) (hbt : bt q = bt' q) :
    Cert.Spec.bnAt x mu var g bt p q = Cert.Spec.bnAt x' mu' var' g' bt' p' q := by
  unfold Cert.Spec.bnAt
  rw [hx, hmu, hvar, hg, hbt]

theorem hz : (![0, 0] : Fin 2 → Nat) = fun _ => 0 := funext fun a => by fin_cases a <;> rfl

/-! ## Region 5: the kernel's payload, the blocks of its windows, and the output array -/

/-- The kernel's stored value at entry (p, q) of its tile is the normalisation's entry formula at the tile it loaded,
    with the loaded rows of means, variances, scales and shifts. -/
theorem k5_pay1_apply (x : Vec Ideal S5000x64 .f32) (var mu g bt : Vec Ideal S1x64 .f32) (p : Fin 5000) (q : Fin 64) :
    k5_pay1 (F := Ideal) x var mu g bt (ix2 p q)
      = Cert.Spec.bnAt x (Cert.Spec.rowOf mu) (Cert.Spec.rowOf var) (Cert.Spec.rowOf g) (Cert.Spec.rowOf bt) p q := by
  unfold k5_pay1
  exact bn_tile_apply _ _ _ x var mu g bt p q

section Region5

variable (V : (c : Dev nD) → (b : Ref sig .tc) → Buf (Elt Ideal) ((c : Thread nD τ).loc b))

/-- The input matrix as the region finds it. -/
abbrev X5 (c : Dev nD) : Cert.Spec.Mat 100000 64 := V c main_v93
/-- The one-row matrix of column means. -/
abbrev Mu5 (c : Dev nD) : Cert.Spec.Mat 1 64 := V c main_v97
/-- The one-row matrix of column variances. -/
abbrev Var5 (c : Dev nD) : Cert.Spec.Mat 1 64 := V c main_v99
/-- The one-row matrix of scales. -/
abbrev Scale5 (c : Dev nD) : Cert.Spec.Mat 1 64 := V c main_v100
/-- The one-row matrix of shifts. -/
abbrev Shift5 (c : Dev nD) : Cert.Spec.Mat 1 64 := V c main_v101

/-- What the output array ends holding: the normalisation of the whole input matrix. -/
abbrev G5 (c : Dev nD) : Cert.Spec.Mat 100000 64 :=
  Cert.Spec.bn (X5 V c) (Cert.Spec.rowOf (Mu5 V c)) (Cert.Spec.rowOf (Var5 V c)) (Cert.Spec.rowOf (Scale5 V c))
    (Cert.Spec.rowOf (Shift5 V c))

/-- The printed index maps, decided over the grid: the row-tiled windows sit at block (t, 0) at point `t`, the one-row
    windows at block (0, 0). -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Entry (p, q) of the input window's block at point `t` is entry (5000·t + p, q) of the input matrix. -/
theorem iblk5_0_apply (c : Dev nD) (t : Fin cfg5.N) (p : Fin 5000) (q : Fin 64) (h : t.val * 5000 + p.val < 100000) :
    (iblk5 V c 0 t : Vec Ideal S5000x64 .f32) (ix2 p q) = X5 V c (ix2 (⟨t.val * 5000 + p.val, h⟩ : Fin 100000) q) := by
  obtain ⟨e0, e1, -⟩ := idx_facts5 t
  unfold iblk5
  rw [View.read_apply]
  show V c main_v93 _ = V c main_v93 _
  congr 1
  funext a
  apply Fin.ext
  match a with
  | ⟨0, _⟩ => show win5_0.index t (0 : Fin 2) * 5000 + 1 * p.val = t.val * 5000 + p.val; omega
  | ⟨1, _⟩ => show win5_0.index t (1 : Fin 2) * 64 + 1 * q.val = q.val; omega

/-- The block of the means' window at any point is the whole row. -/
theorem iblk5_1_apply (c : Dev nD) (t : Fin cfg5.N) (q : Fin 64) :
    (iblk5 V c 1 t : Vec Ideal S1x64 .f32) (ix2 (0 : Fin 1) q) = Mu5 V c (ix2 (0 : Fin 1) q) := by
  obtain ⟨-, -, e0, e1, -⟩ := idx_facts5 t
  unfold iblk5
  rw [View.read_apply]
  show V c main_v97 _ = V c main_v97 _
  congr 1
  funext a
  apply Fin.ext
  match a with
  | ⟨0, _⟩ => show win5_1.index t (0 : Fin 2) * 1 + 1 * 0 = 0; omega
  | ⟨1, _⟩ => show win5_1.index t (1 : Fin 2) * 64 + 1 * q.val = q.val; omega

/-- The block of the variances' window at any point is the whole row. -/
theorem iblk5_2_apply (c : Dev nD) (t : Fin cfg5.N) (q : Fin 64) :
    (iblk5 V c 2 t : Vec Ideal S1x64 .f32) (ix2 (0 : Fin 1) q) = Var5 V c (ix2 (0 : Fin 1) q) := by
  obtain ⟨-, -, -, -, e0, e1, -⟩ := idx_facts5 t
  unfold iblk5
  rw [View.read_apply]
  show V c main_v99 _ = V c main_v99 _
  congr 1
  funext a
  apply Fin.ext
  match a with
  | ⟨0, _⟩ => show win5_2.index t (0 : Fin 2) * 1 + 1 * 0 = 0; omega
  | ⟨1, _⟩ => show win5_2.index t (1 : Fin 2) * 64 + 1 * q.val = q.val; omega

/-- The block of the scales' window at any point is the whole row. -/
theorem iblk5_3_apply (c : Dev nD) (t : Fin cfg5.N) (q : Fin 64) :
    (iblk5 V c 3 t : Vec Ideal S1x64 .f32) (ix2 (0 : Fin 1) q) = Scale5 V c (ix2 (0 : Fin 1) q) := by
  obtain ⟨-, -, -, -, -, -, e0, e1, -⟩ := idx_facts5 t
  unfold iblk5
  rw [View.read_apply]
  show V c main_v100 _ = V c main_v100 _
  congr 1
  funext a
  apply Fin.ext
  match a with
  | ⟨0, _⟩ => show win5_3.index t (0 : Fin 2) * 1 + 1 * 0 = 0; omega
  | ⟨1, _⟩ => show win5_3.index t (1 : Fin 2) * 64 + 1 * q.val = q.val; omega

/-- The block of the shifts' window at any point is the whole row. -/
theorem iblk5_4_apply (c : Dev nD) (t : Fin cfg5.N) (q : Fin 64) :
    (iblk5 V c 4 t : Vec Ideal S1x64 .f32) (ix2 (0 : Fin 1) q) = Shift5 V c (ix2 (0 : Fin 1) q) := by
  obtain ⟨-, -, -, -, -, -, -, -, e0, e1, -⟩ := idx_facts5 t
  unfold iblk5
  rw [View.read_apply]
  show V c main_v101 _ = V c main_v101 _
  congr 1
  funext a
  apply Fin.ext
  match a with
  | ⟨0, _⟩ => show win5_4.index t (0 : Fin 2) * 1 + 1 * 0 = 0; omega
  | ⟨1, _⟩ => show win5_4.index t (1 : Fin 2) * 64 + 1 * q.val = q.val; omega

/-- Entry (p, q) of the output window's block at point `t` sits at (5000·t + p, q) of the output array. -/
theorem emb5_5 (t : Fin cfg5.N) (p : Fin 5000) (q : Fin 64) (h : t.val * 5000 + p.val < 100000) :
    ((cfg5.win 5).blk t).view.emb (ix2 p q) = (ix2 (⟨t.val * 5000 + p.val, h⟩ : Fin 100000) q : S100000x64.Idx) := by
  obtain ⟨-, -, -, -, -, -, -, -, -, -, e0, e1⟩ := idx_facts5 t
  funext a
  apply Fin.ext
  match a with
  | ⟨0, _⟩ => show win5_5.index t (0 : Fin 2) * 5000 + 1 * p.val = t.val * 5000 + p.val; omega
  | ⟨1, _⟩ => show win5_5.index t (1 : Fin 2) * 64 + 1 * q.val = q.val; omega

/-- WHAT POINT `t` WRITES BACK is block `t` of the normalisation of the whole input matrix. -/
theorem flushed5_5_eq (c : Dev nD) (t : Fin cfg5.N) :
    (dat5 (F := Ideal) V c).flushed 5 t = ((cfg5.win 5).blk t).view.read (Elt Ideal) (G5 V c) := by
  show (cfg5.win 5).cut (grid5.coords t) ((dat5 (F := Ideal) V c).after 5 t) = _
  rw [after5_5]
  unfold out5_5
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  have hN : cfg5.N = 20 := N_5
  have ht : t.val < cfg5.N := t.isLt
  have hp : p.val < 5000 := p.isLt
  have h : t.val * 5000 + p.val < 100000 := by omega
  show k5_pay1 (F := Ideal) (iblk5 V c 0 t) (iblk5 V c 2 t) (iblk5 V c 1 t) (iblk5 V c 3 t) (iblk5 V c 4 t) (ix2 p q)
    = G5 V c (((cfg5.win 5).blk t).view.emb (ix2 p q))
  rw [emb5_5 t p q h]
  show _ = Cert.Spec.bnAt (X5 V c) (Cert.Spec.rowOf (Mu5 V c)) (Cert.Spec.rowOf (Var5 V c)) (Cert.Spec.rowOf (Scale5 V c))
    (Cert.Spec.rowOf (Shift5 V c)) (⟨t.val * 5000 + p.val, h⟩ : Fin 100000) q
  refine (k5_pay1_apply _ _ _ _ _ p q).trans ?_
  exact bnAt_congr (iblk5_0_apply V c t p q h) (iblk5_1_apply V c t q) (iblk5_2_apply V c t q) (iblk5_3_apply V c t q)
    (iblk5_4_apply V c t q)

/-- An index of the output array is in point `t`'s block iff each coordinate is in the block's range on its axis. -/
theorem mem_blk5_5 (t : Fin cfg5.N) (i : S100000x64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole main_v102).slice (win5_5.rect t)).set ↔ _
  rw [View.set_slice_whole, Rect.mem_set_unit]
  exact Iff.rfl

/-- THE BLOCKS COVER THE ARRAY: row `r` lies in the block of point `r / 5000`. -/
theorem covered5_5 (i : S100000x64.Idx) :
    ∃ t : Fin cfg5.N, (cfg5.win 5).flush t = true ∧ i ∈ ((cfg5.win 5).blk t).view.set := by
  have hi0 : (i 0).val < 100000 := (i 0).isLt
  have hi1 : (i 1).val < 64 := (i 1).isLt
  have hN : cfg5.N = 20 := N_5
  have hlt : (i 0).val / 5000 < cfg5.N := by omega
  obtain ⟨-, -, -, -, -, -, -, -, -, -, e0, e1⟩ := idx_facts5 ⟨(i 0).val / 5000, hlt⟩
  have e0' : win5_5.index ⟨(i 0).val / 5000, hlt⟩ (0 : Fin 2) = (i 0).val / 5000 := e0
  refine ⟨⟨(i 0).val / 5000, hlt⟩, flush5_5 _, ?_⟩
  rw [mem_blk5_5]
  intro a
  match a with
  | ⟨0, _⟩ =>
    show win5_5.index ⟨(i 0).val / 5000, hlt⟩ (0 : Fin 2) * 5000 ≤ (i 0).val
      ∧ (i 0).val < win5_5.index ⟨(i 0).val / 5000, hlt⟩ (0 : Fin 2) * 5000 + 5000
    omega
  | ⟨1, _⟩ =>
    show win5_5.index ⟨(i 0).val / 5000, hlt⟩ (1 : Fin 2) * 64 ≤ (i 1).val
      ∧ (i 1).val < win5_5.index ⟨(i 0).val / 5000, hlt⟩ (1 : Fin 2) * 64 + 64
    omega

/-- THE OUTPUT ARRAY after the region's write-backs: the normalisation of the whole input matrix by the given column
    statistics. -/
theorem arr5_5 (c : Dev nD) : (dat5 (F := Ideal) V c).arrAt 5 cfg5.N = G5 V c :=
  (dat5 (F := Ideal) V c).arrAt_eq_of_cover 5 (G5 V c) (fun t _ => flushed5_5_eq V c t) covered5_5

end Region5

/-- Region 5's output buffer at the region's exit is the normalisation of its input buffer at the region's entry by the
    column means, variances, scales and shifts found there. -/
theorem out (m : (ℓ : Loc nD τ sig) → Buf (Elt Ideal) ℓ) (ρ : Dev nD → PrngReg) (c : Dev nD) :
    W26 (F := Ideal) m ρ c (Proc.devRef .tc main_v102)
      = Cert.Spec.bn (W25 (F := Ideal) m ρ c (Proc.devRef .tc main_v93))
          (Cert.Spec.rowOf (W25 (F := Ideal) m ρ c (Proc.devRef .tc main_v97))) (Cert.Spec.rowOf (W25 (F := Ideal) m ρ c (Proc.devRef .tc main_v99)))
          (Cert.Spec.rowOf (W25 (F := Ideal) m ρ c (Proc.devRef .tc main_v100))) (Cert.Spec.rowOf (W25 (F := Ideal) m ρ c (Proc.devRef .tc main_v101))) :=
  (W26_arr (F := Ideal) m ρ c 5).trans (arr5_5 (V25 (F := Ideal) m ρ) c)

end Cert.Proof.RegNorm5

end
-- ==== Proof.SimL3.lean ====
/-
  Layer 3 of the model (second branch, first graph convolution), compared between the two programs: the degree-normalised
  neighbourhood sum that enters the dense layer, the dense layer with ELU, the column statistics, and the
  normalisation. Each step says that a buffer of the kernel program and the buffer of the reference that plays the same
  part hold equal contents, given that the step before does. The host operations the two programs share are the same
  operations on equal operands; the dense layer and the normalisation are the kernel regions on one side and host
  operations on the other, both equal to the entry formulas of the specification.
-/
import proofs.«162194_j13769665151544_1_alg».proof.Proof.SimBase
import proofs.«162194_j13769665151544_1_alg».proof.Proof.LibGlue
import proofs.«162194_j13769665151544_1_alg».proof.Proof.RegDense4
import proofs.«162194_j13769665151544_1_alg».proof.Proof.RegNorm5
import proofs.«162194_j13769665151544_1_alg».proof.Proof.RefLayers

set_option maxRecDepth 16384
set_option maxHeartbeats 8000000

noncomputable section

namespace Cert.Proof.Sim.L3

open Idealize.ShloMosaic Idealize.ShloMosaic.TcCoe Idealize.SL.Sem Idealize.ShloMosaic.StableHlo Cert.Proof.Sim

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

attribute [local irreducible] Host.scatterAdd Host.gather Host.reduceAdd in
/-- The neighbourhood sum entering the dense layer: the same host operations of the node features and the edge lists. -/
theorem agg (hag : Agree m m' c) : (Cert.KernelIdeal.Gen.W21 (F := Ideal) m ρ c (Proc.devRef .tc Cert.KernelIdeal.main_v91) : Cert.Spec.Mat 100000 64) = Cert.ReferenceIdeal.Ops.R11 (F := Ideal) m' c (Proc.devRef .tc Cert.ReferenceIdeal.main_v128) := by
  obtain ⟨h0, h1, h2, h3, h4, h5, h6, h7, h8, h9, h10, h11, h12, h13, h14, h15, h16, h17, h18, h19, h20, h21, h22, h23, h24, h25, h26, h27⟩ := hag
  have r0 : Cert.ReferenceIdeal.Ops.R10 (F := Ideal) m' c (Proc.devRef .tc Cert.ReferenceIdeal.main_arg0) = m' ((c.tc : Thread Cert.ReferenceIdeal.nD Cert.ReferenceIdeal.τ).loc Cert.ReferenceIdeal.main_arg0) := by
    dsimp only [Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
    hostdown
  have rs : Cert.ReferenceIdeal.Ops.R10 (F := Ideal) m' c (Proc.devRef .tc Cert.ReferenceIdeal.main_arg3) = m' ((c.tc : Thread Cert.ReferenceIdeal.nD Cert.ReferenceIdeal.τ).loc Cert.ReferenceIdeal.main_arg3) := by
    dsimp only [Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
    hostdown
  have rd : Cert.ReferenceIdeal.Ops.R10 (F := Ideal) m' c (Proc.devRef .tc Cert.ReferenceIdeal.main_arg4) = m' ((c.tc : Thread Cert.ReferenceIdeal.nD Cert.ReferenceIdeal.τ).loc Cert.ReferenceIdeal.main_arg4) := by
    dsimp only [Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
    hostdown
  dsimp only [Cert.ReferenceIdeal.Ops.R11]
  generalize Cert.ReferenceIdeal.Ops.R10 (F := Ideal) m' c = V at r0 rs rd ⊢
  kdown
  simp only [kLaunch, r0, rs, rd, h0, h3, h4]
  rfl

/-- The dense layer with ELU: a kernel region on one side, host operations on the other, both the specification's
    layer of equal inputs, weights and bias. -/
theorem lin (hag : Agree m m' c) (hagg : (Cert.KernelIdeal.Gen.W21 (F := Ideal) m ρ c (Proc.devRef .tc Cert.KernelIdeal.main_v91) : Cert.Spec.Mat 100000 64) = Cert.ReferenceIdeal.Ops.R11 (F := Ideal) m' c (Proc.devRef .tc Cert.ReferenceIdeal.main_v128)) :
    (Cert.KernelIdeal.Gen.W22 (F := Ideal) m ρ c (Proc.devRef .tc Cert.KernelIdeal.main_v93) : Cert.Spec.Mat 100000 64) = Cert.ReferenceIdeal.Ops.R12 (F := Ideal) m' c (Proc.devRef .tc Cert.ReferenceIdeal.main_v133) := by
  obtain ⟨h0, h1, h2, h3, h4, h5, h6, h7, h8, h9, h10, h11, h12, h13, h14, h15, h16, h17, h18, h19, h20, h21, h22, h23, h24, h25, h26, h27⟩ := hag
  rw [Cert.Proof.RegDense4.out m ρ c, Cert.Proof.RefLayers.lin3 m' c, hagg]
  have hw : (Cert.KernelIdeal.Gen.W21 (F := Ideal) m ρ c (Proc.devRef .tc Cert.KernelIdeal.main_arg13) : Cert.Spec.Mat 64 64) = Cert.ReferenceIdeal.Ops.R11 (F := Ideal) m' c (Proc.devRef .tc Cert.ReferenceIdeal.main_arg13) := by
    have r : Cert.ReferenceIdeal.Ops.R11 (F := Ideal) m' c (Proc.devRef .tc Cert.ReferenceIdeal.main_arg13) = m' ((c.tc : Thread Cert.ReferenceIdeal.nD Cert.ReferenceIdeal.τ).loc Cert.ReferenceIdeal.main_arg13) := by
      dsimp only [Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
      hostdown
    rw [r, h13]
    kdown
  have hb : Cert.Spec.rowOf (Cert.KernelIdeal.Gen.W21 (F := Ideal) m ρ c (Proc.devRef .tc Cert.KernelIdeal.main_v92)) = Cert.Spec.vecOf (Cert.ReferenceIdeal.Ops.R11 (F := Ideal) m' c (Proc.devRef .tc Cert.ReferenceIdeal.main_arg14)) := by
    have r : Cert.ReferenceIdeal.Ops.R11 (F := Ideal) m' c (Proc.devRef .tc Cert.ReferenceIdeal.main_arg14) = m' ((c.tc : Thread Cert.ReferenceIdeal.nD Cert.ReferenceIdeal.τ).loc Cert.ReferenceIdeal.main_arg14) := by
      dsimp only [Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
      hostdown
    rw [r, h14]
    kdown
    rw [kLaunch]
    exact Cert.LibGlue.rowOf_shapeCast _ _
  rw [hw, hb]

attribute [local irreducible] Host.reduceAdd in
/-- The normalisation by the column statistics: the statistics are the same host operations of equal matrices, the
    normalisation itself a kernel region on one side and host operations on the other, both the specification's. -/
theorem bn (hag : Agree m m' c) (hlin : (Cert.KernelIdeal.Gen.W22 (F := Ideal) m ρ c (Proc.devRef .tc Cert.KernelIdeal.main_v93) : Cert.Spec.Mat 100000 64) = Cert.ReferenceIdeal.Ops.R12 (F := Ideal) m' c (Proc.devRef .tc Cert.ReferenceIdeal.main_v133)) :
    (Cert.KernelIdeal.Gen.W26 (F := Ideal) m ρ c (Proc.devRef .tc Cert.KernelIdeal.main_v102) : Cert.Spec.Mat 100000 64) = Cert.ReferenceIdeal.Ops.R15 (F := Ideal) m' c (Proc.devRef .tc Cert.ReferenceIdeal.main_v152) := by
  obtain ⟨h0, h1, h2, h3, h4, h5, h6, h7, h8, h9, h10, h11, h12, h13, h14, h15, h16, h17, h18, h19, h20, h21, h22, h23, h24, h25, h26, h27⟩ := hag
  rw [Cert.Proof.RegNorm5.out m ρ c, Cert.Proof.RefLayers.bn3 m' c]
  have hx : (Cert.KernelIdeal.Gen.W25 (F := Ideal) m ρ c (Proc.devRef .tc Cert.KernelIdeal.main_v93) : Cert.Spec.Mat 100000 64) = Cert.ReferenceIdeal.Ops.R13 (F := Ideal) m' c (Proc.devRef .tc Cert.ReferenceIdeal.main_v133) := by
    dsimp only [Cert.ReferenceIdeal.Ops.R13]
    generalize Cert.ReferenceIdeal.Ops.R12 (F := Ideal) m' c = V at hlin ⊢
    kdown
    exact hlin
  have hmu : Cert.Spec.rowOf (Cert.KernelIdeal.Gen.W25 (F := Ideal) m ρ c (Proc.devRef .tc Cert.KernelIdeal.main_v97)) = Cert.Spec.vecOf (Cert.ReferenceIdeal.Ops.R13 (F := Ideal) m' c (Proc.devRef .tc Cert.ReferenceIdeal.main_v136)) := by
    dsimp only [Cert.ReferenceIdeal.Ops.R13]
    generalize Cert.ReferenceIdeal.Ops.R12 (F := Ideal) m' c = V at hlin ⊢
    kdown
    rw [hlin]
    exact Cert.LibGlue.rowOf_shapeCast _ _
  have hvar : Cert.Spec.rowOf (Cert.KernelIdeal.Gen.W25 (F := Ideal) m ρ c (Proc.devRef .tc Cert.KernelIdeal.main_v99)) = Cert.Spec.vecOf (Cert.ReferenceIdeal.Ops.R13 (F := Ideal) m' c (Proc.devRef .tc Cert.ReferenceIdeal.main_v137)) := by
    dsimp only [Cert.ReferenceIdeal.Ops.R13]
    generalize Cert.ReferenceIdeal.Ops.R12 (F := Ideal) m' c = V at hlin ⊢
    kdown
    rw [hlin]
    exact Cert.LibGlue.rowOf_shapeCast _ _
  have hg : Cert.Spec.rowOf (Cert.KernelIdeal.Gen.W25 (F := Ideal) m ρ c (Proc.devRef .tc Cert.KernelIdeal.main_v100)) = Cert.Spec.vecOf (Cert.ReferenceIdeal.Ops.R13 (F := Ideal) m' c (Proc.devRef .tc Cert.ReferenceIdeal.main_arg15)) := by
    have r : Cert.ReferenceIdeal.Ops.R13 (F := Ideal) m' c (Proc.devRef .tc Cert.ReferenceIdeal.main_arg15) = m' ((c.tc : Thread Cert.ReferenceIdeal.nD Cert.ReferenceIdeal.τ).loc Cert.ReferenceIdeal.main_arg15) := by
      dsimp only [Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
      hostdown
    rw [r, h15]
    kdown
    rw [kLaunch]
    exact Cert.LibGlue.rowOf_shapeCast _ _
  have hbt : Cert.Spec.rowOf (Cert.KernelIdeal.Gen.W25 (F := Ideal) m ρ c (Proc.devRef .tc Cert.KernelIdeal.main_v101)) = Cert.Spec.vecOf (Cert.ReferenceIdeal.Ops.R13 (F := Ideal) m' c (Proc.devRef .tc Cert.ReferenceIdeal.main_arg16)) := by
    have r : Cert.ReferenceIdeal.Ops.R13 (F := Ideal) m' c (Proc.devRef .tc Cert.ReferenceIdeal.main_arg16) = m' ((c.tc : Thread Cert.ReferenceIdeal.nD Cert.ReferenceIdeal.τ).loc Cert.ReferenceIdeal.main_arg16) := by
      dsimp only [Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
      hostdown
    rw [r, h16]
    kdown
    rw [kLaunch]
    exact Cert.LibGlue.rowOf_shapeCast _ _
  rw [hx, hmu, hvar, hg, hbt]

end Cert.Proof.Sim.L3

end
-- ==== Proof.RegDense6.lean ====
/-
  The first dense layer with ELU, from the tile to the whole array.

  The kernel walks the 100000 rows of its input in 20 tiles of 5000 rows. On a tile it multiplies the tile's rows by
  the 64 × 64 weight matrix, adds the bias row to every row and applies ELU entry by entry; each format change on the
  way is the identity on the extended reals. So entry (p, q) of what a tile stores is
  elu (∑ k, x p k · W k q + b q) of the tile's own row p: the layer's entry, which depends on that one row only.
  Tile t holds rows 5000·t … 5000·t + 4999 of the input and is written back to the same rows of the output, the weights
  and the bias are read whole at every tile, and the 20 tiles cover every row (row r lies in tile r / 5000). Hence the
  output array ends holding the layer of the whole input.
-/
import proofs.«162194_j13769665151544_1_alg».proof.Proof.Spec
import proofs.«162194_j13769665151544_1_alg».proof.Proof.LibDense
import proofs.«162194_j13769665151544_1_alg».proof.Proof.Gen.KernelIdeal.Frame
import Idealize.ShloMosaic.Lib.ValueIdx
import Idealize.ShloMosaic.Lib.ValueLayout
import Idealize.ShloMosaic.Lib.Pipeline.Value

noncomputable section

namespace Cert.Proof.RegDense6

open Idealize.ShloMosaic Idealize.ShloMosaic.ValueIdx Idealize.ShloMosaic.TcCoe Idealize.SL.Sem
open Idealize.ShloMosaic.Pipeline (Dat)
open Cert.KernelIdeal Cert.KernelIdeal.Gen

/-! ## The layer on a tile of rows, entry by entry -/

/-- The zero offsets of a whole-buffer access, however they are spelt. -/
theorem hz : (![0, 0] : Fin 2 → Nat) = fun _ => 0 := funext fun a => by fin_cases a <;> rfl

/-- The printed product's dimension numbers are the rows-by-columns ones. -/
theorem dot_eq_plain : dot_S5000x64_S64x64_S5000x64_1_0_0_1_n_n = DotDims.plain 5000 64 64 := rfl

/-- The product of a tile with the weights into a zero accumulator, plus the bias row laid along every row, read at
    (p, q): row p of the tile times column q of the weights, plus the bias at q. -/
theorem tile_pre_apply (x : FVec Ideal S5000x64 .bf16) (W : FVec Ideal S64x64 .bf16) (b : FVec Ideal S1x64 .f32)
    (hb : S1x64.Broadcasts S5000x64) (p : Fin 5000) (q : Fin 64) :
    addf (matmul dot_S5000x64_S64x64_S5000x64_1_0_0_1_n_n none x W (constant (F := Ideal) S5000x64 .f32 0x00000000#32))
        (broadcastTo S5000x64 b hb) (ix2 p q)
      = FloatOps.addf (∑ k : Fin 64, x (ix2 p k) * W (ix2 k q)) (b (ix2 (0 : Fin 1) q)) := by
  rw [dot_eq_plain]
  show FloatOps.addf (FloatOps.matmul (DotDims.plain 5000 64 64) none x W (constant ⟨2, ![5000, 64]⟩ .f32 0x00000000#32) (ix2 p q))
      (broadcastTo ⟨2, ![5000, 64]⟩ b hb (ix2 p q)) = _
  rw [Cert.LibDense.matmul_plain_zero_apply, broadcastTo_1b_ab_apply]
  rfl

/-- ELU as the kernel spells it — compare with a splat zero, exponential, subtract a splat one, select — read at an
    index: ELU of the entry. -/
theorem tile_elu_apply (y : FVec Ideal S5000x64 .f32) (i : S5000x64.Idx) :
    select (cmpf .ogt y (broadcast S5000x64 (Scalar.ofBits (F := Ideal) .f32 0x00000000#32))) y
        (subf (exp y) (broadcast S5000x64 (Scalar.ofBits (F := Ideal) .f32 0x3F800000#32))) i
      = Cert.Spec.elu (y i) := rfl

/-- The layer's entry depends on the input's row only through the row's entries, so a row of a tile that is a row of
    the array gives the array's entry. -/
theorem linEluAt_congr {M M' : ℕ} (x : Cert.Spec.Mat M 64) (x' : Cert.Spec.Mat M' 64) (W : Cert.Spec.Mat 64 64)
    (b : Fin 64 → Cert.Spec.R) (p : Fin M) (p' : Fin M') (q : Fin 64) (h : ∀ k : Fin 64, x (ix2 p k) = x' (ix2 p' k)) :
    Cert.Spec.linEluAt x W b p q = Cert.Spec.linEluAt x' W b p' q := by
  unfold Cert.Spec.linEluAt Cert.Spec.rowDot
  simp only [h]

/-! ## Region 6: what a tile stores -/

/-- Entry (p, q) of what the kernel stores for a tile: the layer's entry of the tile's row p. -/
theorem k6_pay1_apply (x : Vec Ideal S5000x64 .f32) (W : Vec Ideal S64x64 .f32) (b : Vec Ideal S1x64 .f32)
    (p : Fin 5000) (q : Fin 64) :
    k6_pay1 (F := Ideal) x W b (ix2 p q) = Cert.Spec.linEluAt x W (Cert.Spec.rowOf b) p q := by
  unfold k6_pay1
  simp only [shapeCast_self]
  refine (tile_elu_apply _ (ix2 p q)).trans ?_
  rw [tile_pre_apply]
  rfl

/-! ## Region 6: from the tiles to the array -/

/-- The printed index maps, decided over the 20 grid points: the input's and the output's row tiles move together, tile
    t at block row t; the weights and the bias are one whole block at every point. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

section Region6

variable (V : (c : Dev nD) → (b : Ref sig .tc) → Buf (Elt Ideal) ((c : Thread nD τ).loc b))

/-- The input array as the region finds it. -/
abbrev X6 (c : Dev nD) : Cert.Spec.Mat 100000 64 := V c main_v118
/-- The weights as the region finds them. -/
abbrev Wt6 (c : Dev nD) : Cert.Spec.Mat 64 64 := V c main_arg17
/-- The bias row as the region finds it. -/
abbrev B6 (c : Dev nD) : FVec Ideal S1x64 .f32 := V c main_v119

/-- What the output array ends holding: the layer of the whole input. -/
abbrev G6 (c : Dev nD) : Cert.Spec.Mat 100000 64 := Cert.Spec.linElu (X6 V c) (Wt6 V c) (Cert.Spec.rowOf (B6 V c))

/-- Entry (p, k) of the input's tile at point t is entry (5000·t + p, k) of the input array. -/
theorem iblk6_0_apply (c : Dev nD) (t : Fin cfg6.N) (p : Fin 5000) (k : Fin 64) (i : S100000x64.Idx)
    (h0 : (i 0).val = 5000 * t.val + p.val) (h1 : (i 1).val = k.val) :
    (iblk6 V c 0 t : FVec Ideal S5000x64 .f32) (ix2 p k) = X6 V c i := by
  obtain ⟨e0, e1, -⟩ := idx_facts6 t
  unfold iblk6
  rw [View.read_apply]
  show V c main_v118 _ = V c main_v118 _
  congr 1
  funext a
  apply Fin.ext
  match a with
  | ⟨0, _⟩ => show win6_0.index t (0 : Fin 2) * 5000 + 1 * p.val = (i 0).val; omega
  | ⟨1, _⟩ => show win6_0.index t (1 : Fin 2) * 64 + 1 * k.val = (i 1).val; omega

/-- The weights' block at every point is the whole weight matrix. -/
theorem iblk6_1_eq (c : Dev nD) (t : Fin cfg6.N) : (iblk6 V c 1 t : FVec Ideal S64x64 .f32) = Wt6 V c := by
  obtain ⟨-, -, e0, e1, -⟩ := idx_facts6 t
  funext y
  unfold iblk6
  rw [View.read_apply]
  show V c main_arg17 _ = V c main_arg17 _
  congr 1
  funext a
  apply Fin.ext
  match a with
  | ⟨0, _⟩ => show win6_1.index t (0 : Fin 2) * 64 + 1 * (y 0).val = (y 0).val; omega
  | ⟨1, _⟩ => show win6_1.index t (1 : Fin 2) * 64 + 1 * (y 1).val = (y 1).val; omega

/-- The bias's block at every point is the whole bias row. -/
theorem iblk6_2_eq (c : Dev nD) (t : Fin cfg6.N) : (iblk6 V c 2 t : FVec Ideal S1x64 .f32) = B6 V c := by
  obtain ⟨-, -, -, -, e0, e1, -⟩ := idx_facts6 t
  funext y
  unfold iblk6
  rw [View.read_apply]
  show V c main_v119 _ = V c main_v119 _
  congr 1
  funext a
  apply Fin.ext
  match a with
  | ⟨0, _⟩ => show win6_2.index t (0 : Fin 2) * 1 + 1 * (y 0).val = (y 0).val; omega
  | ⟨1, _⟩ => show win6_2.index t (1 : Fin 2) * 64 + 1 * (y 1).val = (y 1).val; omega

/-- Entry (p, q) of the output's block at point t sits at (5000·t + p, q) of the output array. -/
theorem blk6_3_emb (t : Fin cfg6.N) (p : Fin 5000) (q : Fin 64) :
    ((((cfg6.win 3).blk t).view.emb (ix2 p q) : S100000x64.Idx) 0).val = 5000 * t.val + p.val
    ∧ ((((cfg6.win 3).blk t).view.emb (ix2 p q) : S100000x64.Idx) 1).val = q.val := by
  obtain ⟨-, -, -, -, -, -, e0, e1⟩ := idx_facts6 t
  constructor
  · show win6_3.index t (0 : Fin 2) * 5000 + 1 * p.val = _; omega
  · show win6_3.index t (1 : Fin 2) * 64 + 1 * q.val = _; omega

/-- WHAT POINT t WRITES BACK is block t of the layer of the whole input. -/
theorem flushed6_3_eq (c : Dev nD) (t : Fin cfg6.N) :
    (dat6 (F := Ideal) V c).flushed 3 t = ((cfg6.win 3).blk t).view.read (Elt Ideal) (G6 V c) := by
  show (cfg6.win 3).cut (grid6.coords t) ((dat6 V c).after 3 t) = _
  rw [after6_3]
  unfold out6_3
  rw [View.canon_unit_zero hz]
  simp only [View.ld_unit_zero (S := S5000x64) hz, View.ld_unit_zero (S := S64x64) hz, View.ld_unit_zero (S := S1x64) hz]
  rw [iblk6_1_eq V c t, iblk6_2_eq V c t]
  funext j
  obtain ⟨p, q, rfl⟩ : ∃ (p : Fin 5000) (q : Fin 64), j = ix2 p q := ⟨j 0, j 1, eq_ix2 j⟩
  obtain ⟨r0, r1⟩ := blk6_3_emb t p q
  show k6_pay1 (F := Ideal) (iblk6 V c 0 t) (Wt6 V c) (B6 V c) (ix2 p q)
      = Cert.Spec.linEluAt (X6 V c) (Wt6 V c) (Cert.Spec.rowOf (B6 V c)) ((((cfg6.win 3).blk t).view.emb (ix2 p q) : S100000x64.Idx) 0)
          ((((cfg6.win 3).blk t).view.emb (ix2 p q) : S100000x64.Idx) 1)
  rw [k6_pay1_apply]
  have hq : ((((cfg6.win 3).blk t).view.emb (ix2 p q) : S100000x64.Idx) 1 : Fin 64) = q := Fin.ext r1
  rw [hq]
  refine linEluAt_congr _ _ _ _ p _ q fun k => ?_
  exact iblk6_0_apply V c t p k _ r0 rfl

/-- An index of the output array is in point t's block iff each coordinate is in the block's range on its axis. -/
theorem mem_blk6_3 (t : Fin cfg6.N) (i : S100000x64.Idx) :
    i ∈ ((cfg6.win 3).blk t).view.set ↔ ∀ a : Fin 2, win6_3.index t a * S5000x64.size a ≤ (i a).val ∧ (i a).val < win6_3.index t a * S5000x64.size a + S5000x64.size a := by
  show i ∈ ((View.whole main_v120).slice (win6_3.rect t)).set ↔ _
  rw [View.set_slice_whole, Rect.mem_set_unit]
  exact Iff.rfl

/-- Every row of the output is in some point's block: row r in the block of point r / 5000. -/
theorem covered6_3 (i : S100000x64.Idx) : ∃ t : Fin cfg6.N, (cfg6.win 3).flush t = true ∧ i ∈ ((cfg6.win 3).blk t).view.set := by
  have hi0 : (i 0).val < 100000 := (i 0).isLt
  have hi1 : (i 1).val < 64 := (i 1).isLt
  have hN : cfg6.N = 20 := N_6
  refine ⟨⟨(i 0).val / 5000, by rw [hN]; omega⟩, flush6_3 _, ?_⟩
  rw [mem_blk6_3]
  obtain ⟨-, -, -, -, -, -, e0, e1⟩ := idx_facts6 ⟨(i 0).val / 5000, by rw [hN]; omega⟩
  intro a
  match a with
  | ⟨0, _⟩ =>
    show win6_3.index _ (0 : Fin 2) * 5000 ≤ (i 0).val ∧ (i 0).val < win6_3.index _ (0 : Fin 2) * 5000 + 5000
    rw [e0]
    show (i 0).val / 5000 * 5000 ≤ (i 0).val ∧ (i 0).val < (i 0).val / 5000 * 5000 + 5000
    omega
  | ⟨1, _⟩ =>
    show win6_3.index _ (1 : Fin 2) * 64 ≤ (i 1).val ∧ (i 1).val < win6_3.index _ (1 : Fin 2) * 64 + 64
    rw [e1]
    omega

/-- THE OUTPUT ARRAY after the region: the layer of the whole input, the weights and the bias as the region finds them. -/
theorem final6_3 (c : Dev nD) :
    (dat6 (F := Ideal) V c).arrAt 3 cfg6.N = Cert.Spec.linElu (V c main_v118) (V c main_arg17) (Cert.Spec.rowOf (V c main_v119)) :=
  (dat6 (F := Ideal) V c).arrAt_eq_of_cover 3 (G6 V c) (fun t _ => flushed6_3_eq V c t) covered6_3

end Region6

/-! ## Region 6 in the run -/

/-- After region 6 the output buffer holds the layer of the input buffer, the weights and the bias as they are when the
    region is entered. -/
theorem out (m : (ℓ : Loc nD τ sig) → Buf (Elt Ideal) ℓ) (ρ : Dev nD → PrngReg) (c : Dev nD) :
    W28 (F := Ideal) m ρ c (Proc.devRef .tc main_v120)
      = Cert.Spec.linElu (W27 (F := Ideal) m ρ c (Proc.devRef .tc main_v118)) (W27 (F := Ideal) m ρ c (Proc.devRef .tc main_arg17))
          (Cert.Spec.rowOf (W27 (F := Ideal) m ρ c (Proc.devRef .tc main_v119))) := by
  have h := W28_arr (F := Ideal) m ρ c 3
  rw [final6_3 (V27 (F := Ideal) m ρ) c] at h
  exact h

end Cert.Proof.RegDense6

end
-- ==== Proof.RegNorm7.lean ====
/-
  Region 7 of the kernel program: the affine normalisation of a 100000 × 64 matrix by given column statistics.

  The kernel normalises one tile of 5000 rows at a time: from the tile `x`, the one-row matrices of column variances,
  column means, scales and shifts it stores `(x p q − μ q) · (σ² q + ε)^(−1/2) · g q + β q` at every entry (p, q) of the
  tile. Row `p` of the result depends on row `p` of `x` only, so the tile of rows `5000·t … 5000·t + 4999` that grid
  point `t` writes back is that block of the normalisation of the whole matrix; the twenty blocks tile the 100000 rows
  (row `r` lies in block `r / 5000`), so the output array ends holding the normalisation of the whole input.
-/
import proofs.«162194_j13769665151544_1_alg».proof.Proof.Gen.KernelIdeal.Frame
import proofs.«162194_j13769665151544_1_alg».proof.Proof.Spec
import Idealize.ShloMosaic.Lib.ValueIdx
import Idealize.ShloMosaic.Lib.ValueLayout
import Idealize.ShloMosaic.Lib.Pipeline.Value

noncomputable section

namespace Cert.Proof.RegNorm7

open Idealize.ShloMosaic Idealize.ShloMosaic.TcCoe Idealize.ShloMosaic.ValueIdx Idealize.SL.Sem
open Idealize.ShloMosaic.Pipeline (Dat)
open Cert.KernelIdeal Cert.KernelIdeal.Gen

/-! ## The normalisation of a tile, entry by entry

Nothing in this section depends on which launch of the normalisation kernel is read. -/

/-- The normalisation as the kernel spells it on a tile of 5000 rows — the tile less the means laid along every row,
    times the inverse square root of the variances plus the offset laid along every row, times the scales, plus the
    shifts — read at entry (p, q): the normalisation's entry formula at the tile. -/
theorem bn_tile_apply (hx : S5000x64.ShapeCasts S5000x64) (hr : S1x64.ShapeCasts S1x64) (hb : S1x64.Broadcasts S5000x64)
    (x : Vec Ideal S5000x64 .f32) (var mu g bt : Vec Ideal S1x64 .f32) (p : Fin 5000) (q : Fin 64) :
    addf (mulf (mulf (subf (shapeCast S5000x64 x hx) (broadcastTo S5000x64 (shapeCast S1x64 mu hr) hb))
          (broadcastTo S5000x64
            (rsqrt (addf (shapeCast S1x64 var hr) (broadcast S1x64 (Scalar.ofBits (F := Ideal) .f32 0x3727C5AC#32)))) hb))
        (broadcastTo S5000x64 (shapeCast S1x64 g hr) hb)) (broadcastTo S5000x64 (shapeCast S1x64 bt hr) hb) (ix2 p q)
      = Cert.Spec.bnAt x (Cert.Spec.rowOf mu) (Cert.Spec.rowOf var) (Cert.Spec.rowOf g) (Cert.Spec.rowOf bt) p q := by
  simp only [shapeCast_self]
  show FloatOps.addf (FloatOps.mulf (FloatOps.mulf (FloatOps.subf (x (ix2 p q)) (broadcastTo S5000x64 mu hb (ix2 p q)))
      (broadcastTo S5000x64 (rsqrt (addf var (broadcast S1x64 (Scalar.ofBits (F := Ideal) .f32 0x3727C5AC#32)))) hb (ix2 p q)))
      (broadcastTo S5000x64 g hb (ix2 p q))) (broadcastTo S5000x64 bt hb (ix2 p q)) = _
  rw [broadcastTo_1b_ab_apply, broadcastTo_1b_ab_apply, broadcastTo_1b_ab_apply, broadcastTo_1b_ab_apply]
  rfl

/-- The entry formula depends on the input through its entry (p, q) only, and on each statistic through its entry `q`. -/
theorem bnAt_congr {M M' : ℕ} {x : Cert.Spec.Mat M 64} {x' : Cert.Spec.Mat M' 64} {mu var g bt mu' var' g' bt' : Fin 64 → Cert.Spec.R}
    {p : Fin M} {p' : Fin M'} {q : Fin 64} (hx : x (ix2 p q) = x' (ix2 p' q)) (hmu : mu q = mu' q) (hvar : var q = var' q)
    (hg : g q = g' q) (hbt : bt q = bt' q) :
    Cert.Spec.bnAt x mu var g bt p q = Cert.Spec.bnAt x' mu' var' g' bt' p' q := by
  unfold Cert.Spec.bnAt
  rw [hx, hmu, hvar, hg, hbt]

theorem hz : (![0, 0] : Fin 2 → Nat) = fun _ => 0 := funext fun a => by fin_cases a <;> rfl

/-! ## Region 7: the kernel's payload, the blocks of its windows, and the output array -/

/-- The kernel's stored value at entry (p, q) of its tile is the normalisation's entry formula at the tile it loaded,
    with the loaded rows of means, variances, scales and shifts. -/
theorem k7_pay1_apply (x : Vec Ideal S5000x64 .f32) (var mu g bt : Vec Ideal S1x64 .f32) (p : Fin 5000) (q : Fin 64) :
    k7_pay1 (F := Ideal) x var mu g bt (ix2 p q)
      = Cert.Spec.bnAt x (Cert.Spec.rowOf mu) (Cert.Spec.rowOf var) (Cert.Spec.rowOf g) (Cert.Spec.rowOf bt) p q := by
  unfold k7_pay1
  exact bn_tile_apply _ _ _ x var mu g bt p q

section Region7

variable (V : (c : Dev nD) → (b : Ref sig .tc) → Buf (Elt Ideal) ((c : Thread nD τ).loc b))

/-- The input matrix as the region finds it. -/
abbrev X7 (c : Dev nD) : Cert.Spec.Mat 100000 64 := V c main_v120
/-- The one-row matrix of column means. -/
abbrev Mu7 (c : Dev nD) : Cert.Spec.Mat 1 64 := V c main_v124
/-- The one-row matrix of column variances. -/
abbrev Var7 (c : Dev nD) : Cert.Spec.Mat 1 64 := V c main_v126
/-- The one-row matrix of scales. -/
abbrev Scale7 (c : Dev nD) : Cert.Spec.Mat 1 64 := V c main_v127
/-- The one-row matrix of shifts. -/
abbrev Shift7 (c : Dev nD) : Cert.Spec.Mat 1 64 := V c main_v128

/-- What the output array ends holding: the normalisation of the whole input matrix. -/
abbrev G7 (c : Dev nD) : Cert.Spec.Mat 100000 64 :=
  Cert.Spec.bn (X7 V c) (Cert.Spec.rowOf (Mu7 V c)) (Cert.Spec.rowOf (Var7 V c)) (Cert.Spec.rowOf (Scale7 V c))
    (Cert.Spec.rowOf (Shift7 V c))

/-- The printed index maps, decided over the grid: the row-tiled windows sit at block (t, 0) at point `t`, the one-row
    windows at block (0, 0). -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- Entry (p, q) of the input window's block at point `t` is entry (5000·t + p, q) of the input matrix. -/
theorem iblk7_0_apply (c : Dev nD) (t : Fin cfg7.N) (p : Fin 5000) (q : Fin 64) (h : t.val * 5000 + p.val < 100000) :
    (iblk7 V c 0 t : Vec Ideal S5000x64 .f32) (ix2 p q) = X7 V c (ix2 (⟨t.val * 5000 + p.val, h⟩ : Fin 100000) q) := by
  obtain ⟨e0, e1, -⟩ := idx_facts7 t
  unfold iblk7
  rw [View.read_apply]
  show V c main_v120 _ = V c main_v120 _
  congr 1
  funext a
  apply Fin.ext
  match a with
  | ⟨0, _⟩ => show win7_0.index t (0 : Fin 2) * 5000 + 1 * p.val = t.val * 5000 + p.val; omega
  | ⟨1, _⟩ => show win7_0.index t (1 : Fin 2) * 64 + 1 * q.val = q.val; omega

/-- The block of the means' window at any point is the whole row. -/
theorem iblk7_1_apply (c : Dev nD) (t : Fin cfg7.N) (q : Fin 64) :
    (iblk7 V c 1 t : Vec Ideal S1x64 .f32) (ix2 (0 : Fin 1) q) = Mu7 V c (ix2 (0 : Fin 1) q) := by
  obtain ⟨-, -, e0, e1, -⟩ := idx_facts7 t
  unfold iblk7
  rw [View.read_apply]
  show V c main_v124 _ = V c main_v124 _
  congr 1
  funext a
  apply Fin.ext
  match a with
  | ⟨0, _⟩ => show win7_1.index t (0 : Fin 2) * 1 + 1 * 0 = 0; omega
  | ⟨1, _⟩ => show win7_1.index t (1 : Fin 2) * 64 + 1 * q.val = q.val; omega

/-- The block of the variances' window at any point is the whole row. -/
theorem iblk7_2_apply (c : Dev nD) (t : Fin cfg7.N) (q : Fin 64) :
    (iblk7 V c 2 t : Vec Ideal S1x64 .f32) (ix2 (0 : Fin 1) q) = Var7 V c (ix2 (0 : Fin 1) q) := by
  obtain ⟨-, -, -, -, e0, e1, -⟩ := idx_facts7 t
  unfold iblk7
  rw [View.read_apply]
  show V c main_v126 _ = V c main_v126 _
  congr 1
  funext a
  apply Fin.ext
  match a with
  | ⟨0, _⟩ => show win7_2.index t (0 : Fin 2) * 1 + 1 * 0 = 0; omega
  | ⟨1, _⟩ => show win7_2.index t (1 : Fin 2) * 64 + 1 * q.val = q.val; omega

/-- The block of the scales' window at any point is the whole row. -/
theorem iblk7_3_apply (c : Dev nD) (t : Fin cfg7.N) (q : Fin 64) :
    (iblk7 V c 3 t : Vec Ideal S1x64 .f32) (ix2 (0 : Fin 1) q) = Scale7 V c (ix2 (0 : Fin 1) q) := by
  obtain ⟨-, -, -, -, -, -, e0, e1, -⟩ := idx_facts7 t
  unfold iblk7
  rw [View.read_apply]
  show V c main_v127 _ = V c main_v127 _
  congr 1
  funext a
  apply Fin.ext
  match a with
  | ⟨0, _⟩ => show win7_3.index t (0 : Fin 2) * 1 + 1 * 0 = 0; omega
  | ⟨1, _⟩ => show win7_3.index t (1 : Fin 2) * 64 + 1 * q.val = q.val; omega

/-- The block of the shifts' window at any point is the whole row. -/
theorem iblk7_4_apply (c : Dev nD) (t : Fin cfg7.N) (q : Fin 64) :
    (iblk7 V c 4 t : Vec Ideal S1x64 .f32) (ix2 (0 : Fin 1) q) = Shift7 V c (ix2 (0 : Fin 1) q) := by
  obtain ⟨-, -, -, -, -, -, -, -, e0, e1, -⟩ := idx_facts7 t
  unfold iblk7
  rw [View.read_apply]
  show V c main_v128 _ = V c main_v128 _
  congr 1
  funext a
  apply Fin.ext
  match a with
  | ⟨0, _⟩ => show win7_4.index t (0 : Fin 2) * 1 + 1 * 0 = 0; omega
  | ⟨1, _⟩ => show win7_4.index t (1 : Fin 2) * 64 + 1 * q.val = q.val; omega

/-- Entry (p, q) of the output window's block at point `t` sits at (5000·t + p, q) of the output array. -/
theorem emb7_5 (t : Fin cfg7.N) (p : Fin 5000) (q : Fin 64) (h : t.val * 5000 + p.val < 100000) :
    ((cfg7.win 5).blk t).view.emb (ix2 p q) = (ix2 (⟨t.val * 5000 + p.val, h⟩ : Fin 100000) q : S100000x64.Idx) := by
  obtain ⟨-, -, -, -, -, -, -, -, -, -, e0, e1⟩ := idx_facts7 t
  funext a
  apply Fin.ext
  match a with
  | ⟨0, _⟩ => show win7_5.index t (0 : Fin 2) * 5000 + 1 * p.val = t.val * 5000 + p.val; omega
  | ⟨1, _⟩ => show win7_5.index t (1 : Fin 2) * 64 + 1 * q.val = q.val; omega

/-- WHAT POINT `t` WRITES BACK is block `t` of the normalisation of the whole input matrix. -/
theorem flushed7_5_eq (c : Dev nD) (t : Fin cfg7.N) :
    (dat7 (F := Ideal) V c).flushed 5 t = ((cfg7.win 5).blk t).view.read (Elt Ideal) (G7 V c) := by
  show (cfg7.win 5).cut (grid7.coords t) ((dat7 (F := Ideal) V c).after 5 t) = _
  rw [after7_5]
  unfold out7_5
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  have hN : cfg7.N = 20 := N_7
  have ht : t.val < cfg7.N := t.isLt
  have hp : p.val < 5000 := p.isLt
  have h : t.val * 5000 + p.val < 100000 := by omega
  show k7_pay1 (F := Ideal) (iblk7 V c 0 t) (iblk7 V c 2 t) (iblk7 V c 1 t) (iblk7 V c 3 t) (iblk7 V c 4 t) (ix2 p q)
    = G7 V c (((cfg7.win 5).blk t).view.emb (ix2 p q))
  rw [emb7_5 t p q h]
  show _ = Cert.Spec.bnAt (X7 V c) (Cert.Spec.rowOf (Mu7 V c)) (Cert.Spec.rowOf (Var7 V c)) (Cert.Spec.rowOf (Scale7 V c))
    (Cert.Spec.rowOf (Shift7 V c)) (⟨t.val * 5000 + p.val, h⟩ : Fin 100000) q
  refine (k7_pay1_apply _ _ _ _ _ p q).trans ?_
  exact bnAt_congr (iblk7_0_apply V c t p q h) (iblk7_1_apply V c t q) (iblk7_2_apply V c t q) (iblk7_3_apply V c t q)
    (iblk7_4_apply V c t q)

/-- An index of the output array is in point `t`'s block iff each coordinate is in the block's range on its axis. -/
theorem mem_blk7_5 (t : Fin cfg7.N) (i : S100000x64.Idx) :
    i ∈ ((cfg7.win 5).blk t).view.set ↔ ∀ a : Fin 2, win7_5.index t a * S5000x64.size a ≤ (i a).val ∧ (i a).val < win7_5.index t a * S5000x64.size a + S5000x64.size a := by
  show i ∈ ((View.whole main_v129).slice (win7_5.rect t)).set ↔ _
  rw [View.set_slice_whole, Rect.mem_set_unit]
  exact Iff.rfl

/-- THE BLOCKS COVER THE ARRAY: row `r` lies in the block of point `r / 5000`. -/
theorem covered7_5 (i : S100000x64.Idx) :
    ∃ t : Fin cfg7.N, (cfg7.win 5).flush t = true ∧ i ∈ ((cfg7.win 5).blk t).view.set := by
  have hi0 : (i 0).val < 100000 := (i 0).isLt
  have hi1 : (i 1).val < 64 := (i 1).isLt
  have hN : cfg7.N = 20 := N_7
  have hlt : (i 0).val / 5000 < cfg7.N := by omega
  obtain ⟨-, -, -, -, -, -, -, -, -, -, e0, e1⟩ := idx_facts7 ⟨(i 0).val / 5000, hlt⟩
  have e0' : win7_5.index ⟨(i 0).val / 5000, hlt⟩ (0 : Fin 2) = (i 0).val / 5000 := e0
  refine ⟨⟨(i 0).val / 5000, hlt⟩, flush7_5 _, ?_⟩
  rw [mem_blk7_5]
  intro a
  match a with
  | ⟨0, _⟩ =>
    show win7_5.index ⟨(i 0).val / 5000, hlt⟩ (0 : Fin 2) * 5000 ≤ (i 0).val
      ∧ (i 0).val < win7_5.index ⟨(i 0).val / 5000, hlt⟩ (0 : Fin 2) * 5000 + 5000
    omega
  | ⟨1, _⟩ =>
    show win7_5.index ⟨(i 0).val / 5000, hlt⟩ (1 : Fin 2) * 64 ≤ (i 1).val
      ∧ (i 1).val < win7_5.index ⟨(i 0).val / 5000, hlt⟩ (1 : Fin 2) * 64 + 64
    omega

/-- THE OUTPUT ARRAY after the region's write-backs: the normalisation of the whole input matrix by the given column
    statistics. -/
theorem arr7_5 (c : Dev nD) : (dat7 (F := Ideal) V c).arrAt 5 cfg7.N = G7 V c :=
  (dat7 (F := Ideal) V c).arrAt_eq_of_cover 5 (G7 V c) (fun t _ => flushed7_5_eq V c t) covered7_5

end Region7

/-- Region 7's output buffer at the region's exit is the normalisation of its input buffer at the region's entry by the
    column means, variances, scales and shifts found there. -/
theorem out (m : (ℓ : Loc nD τ sig) → Buf (Elt Ideal) ℓ) (ρ : Dev nD → PrngReg) (c : Dev nD) :
    W32 (F := Ideal) m ρ c (Proc.devRef .tc main_v129)
      = Cert.Spec.bn (W31 (F := Ideal) m ρ c (Proc.devRef .tc main_v120))
          (Cert.Spec.rowOf (W31 (F := Ideal) m ρ c (Proc.devRef .tc main_v124))) (Cert.Spec.rowOf (W31 (F := Ideal) m ρ c (Proc.devRef .tc main_v126)))
          (Cert.Spec.rowOf (W31 (F := Ideal) m ρ c (Proc.devRef .tc main_v127))) (Cert.Spec.rowOf (W31 (F := Ideal) m ρ c (Proc.devRef .tc main_v128))) :=
  (W32_arr (F := Ideal) m ρ c 5).trans (arr7_5 (V31 (F := Ideal) m ρ) c)

end Cert.Proof.RegNorm7

end
-- ==== Proof.SimL4.lean ====
/-
  Layer 4 of the model (second branch, second graph convolution), compared between the two programs: the degree-normalised
  neighbourhood sum that enters the dense layer, the dense layer with ELU, the column statistics, and the
  normalisation. Each step says that a buffer of the kernel program and the buffer of the reference that plays the same
  part hold equal contents, given that the step before does. The host operations the two programs share are the same
  operations on equal operands; the dense layer and the normalisation are the kernel regions on one side and host
  operations on the other, both equal to the entry formulas of the specification.
-/
import proofs.«162194_j13769665151544_1_alg».proof.Proof.SimBase
import proofs.«162194_j13769665151544_1_alg».proof.Proof.LibGlue
import proofs.«162194_j13769665151544_1_alg».proof.Proof.RegDense6
import proofs.«162194_j13769665151544_1_alg».proof.Proof.RegNorm7
import proofs.«162194_j13769665151544_1_alg».proof.Proof.RefLayers

set_option maxRecDepth 16384
set_option maxHeartbeats 8000000

noncomputable section

namespace Cert.Proof.Sim.L4

open Idealize.ShloMosaic Idealize.ShloMosaic.TcCoe Idealize.SL.Sem Idealize.ShloMosaic.StableHlo Cert.Proof.Sim

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

attribute [local irreducible] Host.scatterAdd Host.gather Host.reduceAdd in
/-- The neighbourhood sum entering the dense layer: the same host operations of the layer before's output and the edge
    lists (the reference computes the degree norms anew, the kernel program reads the ones it computed for the layer
    before: the same operations of the same edge lists). -/
theorem agg (hag : Agree m m' c) (hprev : (Cert.KernelIdeal.Gen.W26 (F := Ideal) m ρ c (Proc.devRef .tc Cert.KernelIdeal.main_v102) : Cert.Spec.Mat 100000 64) = Cert.ReferenceIdeal.Ops.R15 (F := Ideal) m' c (Proc.devRef .tc Cert.ReferenceIdeal.main_v152)) :
    (Cert.KernelIdeal.Gen.W27 (F := Ideal) m ρ c (Proc.devRef .tc Cert.KernelIdeal.main_v118) : Cert.Spec.Mat 100000 64) = Cert.ReferenceIdeal.Ops.R16 (F := Ideal) m' c (Proc.devRef .tc Cert.ReferenceIdeal.main_v179) := by
  obtain ⟨h0, h1, h2, h3, h4, h5, h6, h7, h8, h9, h10, h11, h12, h13, h14, h15, h16, h17, h18, h19, h20, h21, h22, h23, h24, h25, h26, h27⟩ := hag
  have rs : Cert.ReferenceIdeal.Ops.R15 (F := Ideal) m' c (Proc.devRef .tc Cert.ReferenceIdeal.main_arg3) = m' ((c.tc : Thread Cert.ReferenceIdeal.nD Cert.ReferenceIdeal.τ).loc Cert.ReferenceIdeal.main_arg3) := by
    dsimp only [Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
    hostdown
  have rd : Cert.ReferenceIdeal.Ops.R15 (F := Ideal) m' c (Proc.devRef .tc Cert.ReferenceIdeal.main_arg4) = m' ((c.tc : Thread Cert.ReferenceIdeal.nD Cert.ReferenceIdeal.τ).loc Cert.ReferenceIdeal.main_arg4) := by
    dsimp only [Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
    hostdown
  dsimp only [Cert.ReferenceIdeal.Ops.R16]
  generalize Cert.ReferenceIdeal.Ops.R15 (F := Ideal) m' c = V at hprev rs rd ⊢
  dsimp only [Cert.KernelIdeal.Gen.W27]
  hostdown
  rw [hprev]
  kdown
  simp only [kLaunch, rs, rd, h3, h4]
  rfl

/-- The dense layer with ELU: a kernel region on one side, host operations on the other, both the specification's
    layer of equal inputs, weights and bias. -/
theorem lin (hag : Agree m m' c) (hagg : (Cert.KernelIdeal.Gen.W27 (F := Ideal) m ρ c (Proc.devRef .tc Cert.KernelIdeal.main_v118) : Cert.Spec.Mat 100000 64) = Cert.ReferenceIdeal.Ops.R16 (F := Ideal) m' c (Proc.devRef .tc Cert.ReferenceIdeal.main_v179)) :
    (Cert.KernelIdeal.Gen.W28 (F := Ideal) m ρ c (Proc.devRef .tc Cert.KernelIdeal.main_v120) : Cert.Spec.Mat 100000 64) = Cert.ReferenceIdeal.Ops.R17 (F := Ideal) m' c (Proc.devRef .tc Cert.ReferenceIdeal.main_v184) := by
  obtain ⟨h0, h1, h2, h3, h4, h5, h6, h7, h8, h9, h10, h11, h12, h13, h14, h15, h16, h17, h18, h19, h20, h21, h22, h23, h24, h25, h26, h27⟩ := hag
  rw [Cert.Proof.RegDense6.out m ρ c, Cert.Proof.RefLayers.lin4 m' c, hagg]
  have hw : (Cert.KernelIdeal.Gen.W27 (F := Ideal) m ρ c (Proc.devRef .tc Cert.KernelIdeal.main_arg17) : Cert.Spec.Mat 64 64) = Cert.ReferenceIdeal.Ops.R16 (F := Ideal) m' c (Proc.devRef .tc Cert.ReferenceIdeal.main_arg17) := by
    have r : Cert.ReferenceIdeal.Ops.R16 (F := Ideal) m' c (Proc.devRef .tc Cert.ReferenceIdeal.main_arg17) = m' ((c.tc : Thread Cert.ReferenceIdeal.nD Cert.ReferenceIdeal.τ).loc Cert.ReferenceIdeal.main_arg17) := by
      dsimp only [Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
      hostdown
    rw [r, h17]
    kdown
  have hb : Cert.Spec.rowOf (Cert.KernelIdeal.Gen.W27 (F := Ideal) m ρ c (Proc.devRef .tc Cert.KernelIdeal.main_v119)) = Cert.Spec.vecOf (Cert.ReferenceIdeal.Ops.R16 (F := Ideal) m' c (Proc.devRef .tc Cert.ReferenceIdeal.main_arg18)) := by
    have r : Cert.ReferenceIdeal.Ops.R16 (F := Ideal) m' c (Proc.devRef .tc Cert.ReferenceIdeal.main_arg18) = m' ((c.tc : Thread Cert.ReferenceIdeal.nD Cert.ReferenceIdeal.τ).loc Cert.ReferenceIdeal.main_arg18) := by
      dsimp only [Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
      hostdown
    rw [r, h18]
    kdown
    rw [kLaunch]
    exact Cert.LibGlue.rowOf_shapeCast _ _
  rw [hw, hb]

attribute [local irreducible] Host.reduceAdd in
/-- The normalisation by the column statistics: the statistics are the same host operations of equal matrices, the
    normalisation itself a kernel region on one side and host operations on the other, both the specification's. -/
theorem bn (hag : Agree m m' c) (hlin : (Cert.KernelIdeal.Gen.W28 (F := Ideal) m ρ c (Proc.devRef .tc Cert.KernelIdeal.main_v120) : Cert.Spec.Mat 100000 64) = Cert.ReferenceIdeal.Ops.R17 (F := Ideal) m' c (Proc.devRef .tc Cert.ReferenceIdeal.main_v184)) :
    (Cert.KernelIdeal.Gen.W32 (F := Ideal) m ρ c (Proc.devRef .tc Cert.KernelIdeal.main_v129) : Cert.Spec.Mat 100000 64) = Cert.ReferenceIdeal.Ops.R20 (F := Ideal) m' c (Proc.devRef .tc Cert.ReferenceIdeal.main_v203) := by
  obtain ⟨h0, h1, h2, h3, h4, h5, h6, h7, h8, h9, h10, h11, h12, h13, h14, h15, h16, h17, h18, h19, h20, h21, h22, h23, h24, h25, h26, h27⟩ := hag
  rw [Cert.Proof.RegNorm7.out m ρ c, Cert.Proof.RefLayers.bn4 m' c]
  have hx : (Cert.KernelIdeal.Gen.W31 (F := Ideal) m ρ c (Proc.devRef .tc Cert.KernelIdeal.main_v120) : Cert.Spec.Mat 100000 64) = Cert.ReferenceIdeal.Ops.R18 (F := Ideal) m' c (Proc.devRef .tc Cert.ReferenceIdeal.main_v184) := by
    dsimp only [Cert.ReferenceIdeal.Ops.R18]
    generalize Cert.ReferenceIdeal.Ops.R17 (F := Ideal) m' c = V at hlin ⊢
    kdown
    exact hlin
  have hmu : Cert.Spec.rowOf (Cert.KernelIdeal.Gen.W31 (F := Ideal) m ρ c (Proc.devRef .tc Cert.KernelIdeal.main_v124)) = Cert.Spec.vecOf (Cert.ReferenceIdeal.Ops.R18 (F := Ideal) m' c (Proc.devRef .tc Cert.ReferenceIdeal.main_v187)) := by
    dsimp only [Cert.ReferenceIdeal.Ops.R18]
    generalize Cert.ReferenceIdeal.Ops.R17 (F := Ideal) m' c = V at hlin ⊢
    kdown
    rw [hlin]
    exact Cert.LibGlue.rowOf_shapeCast _ _
  have hvar : Cert.Spec.rowOf (Cert.KernelIdeal.Gen.W31 (F := Ideal) m ρ c (Proc.devRef .tc Cert.KernelIdeal.main_v126)) = Cert.Spec.vecOf (Cert.ReferenceIdeal.Ops.R18 (F := Ideal) m' c (Proc.devRef .tc Cert.ReferenceIdeal.main_v188)) := by
    dsimp only [Cert.ReferenceIdeal.Ops.R18]
    generalize Cert.ReferenceIdeal.Ops.R17 (F := Ideal) m' c = V at hlin ⊢
    kdown
    rw [hlin]
    exact Cert.LibGlue.rowOf_shapeCast _ _
  have hg : Cert.Spec.rowOf (Cert.KernelIdeal.Gen.W31 (F := Ideal) m ρ c (Proc.devRef .tc Cert.KernelIdeal.main_v127)) = Cert.Spec.vecOf (Cert.ReferenceIdeal.Ops.R18 (F := Ideal) m' c (Proc.devRef .tc Cert.ReferenceIdeal.main_arg19)) := by
    have r : Cert.ReferenceIdeal.Ops.R18 (F := Ideal) m' c (Proc.devRef .tc Cert.ReferenceIdeal.main_arg19) = m' ((c.tc : Thread Cert.ReferenceIdeal.nD Cert.ReferenceIdeal.τ).loc Cert.ReferenceIdeal.main_arg19) := by
      dsimp only [Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
      hostdown
    rw [r, h19]
    kdown
    rw [kLaunch]
    exact Cert.LibGlue.rowOf_shapeCast _ _
  have hbt : Cert.Spec.rowOf (Cert.KernelIdeal.Gen.W31 (F := Ideal) m ρ c (Proc.devRef .tc Cert.KernelIdeal.main_v128)) = Cert.Spec.vecOf (Cert.ReferenceIdeal.Ops.R18 (F := Ideal) m' c (Proc.devRef .tc Cert.ReferenceIdeal.main_arg20)) := by
    have r : Cert.ReferenceIdeal.Ops.R18 (F := Ideal) m' c (Proc.devRef .tc Cert.ReferenceIdeal.main_arg20) = m' ((c.tc : Thread Cert.ReferenceIdeal.nD Cert.ReferenceIdeal.τ).loc Cert.ReferenceIdeal.main_arg20) := by
      dsimp only [Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
      hostdown
    rw [r, h20]
    kdown
    rw [kLaunch]
    exact Cert.LibGlue.rowOf_shapeCast _ _
  rw [hx, hmu, hvar, hg, hbt]

end Cert.Proof.Sim.L4

end
-- ==== Proof.SimHeadR.lean ====
/-
  What the reference's fusion head finds in its buffers: the first branch's features as the second layer left them, and
  each parameter as the launch memory holds it — none of the operations in between writes those buffers.
-/
import proofs.«162194_j13769665151544_1_alg».proof.Proof.SimBase

set_option maxRecDepth 16384
set_option maxHeartbeats 8000000

noncomputable section

namespace Cert.Proof.Sim.HeadR

open Idealize.ShloMosaic Idealize.ShloMosaic.TcCoe Idealize.SL.Sem Idealize.ShloMosaic.StableHlo Cert.Proof.Sim

variable (m' : (ℓ : Loc Cert.ReferenceIdeal.nD Cert.ReferenceIdeal.τ Cert.ReferenceIdeal.sig) → Buf (Elt Ideal) ℓ) (c : Dev Cert.KernelIdeal.nD)

/-- The first branch's features are untouched by the second branch's operations. -/
theorem feat : Cert.ReferenceIdeal.Ops.R20 (F := Ideal) m' c (Proc.devRef .tc Cert.ReferenceIdeal.main_v101) = Cert.ReferenceIdeal.Ops.R10 (F := Ideal) m' c (Proc.devRef .tc Cert.ReferenceIdeal.main_v101) := by
  dsimp only [Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11]
  generalize Cert.ReferenceIdeal.Ops.R10 (F := Ideal) m' c = V
  hostdown

theorem arg21 : Cert.ReferenceIdeal.Ops.R20 (F := Ideal) m' c (Proc.devRef .tc Cert.ReferenceIdeal.main_arg21) = m' ((c.tc : Thread Cert.ReferenceIdeal.nD Cert.ReferenceIdeal.τ).loc Cert.ReferenceIdeal.main_arg21) := by
  dsimp only [Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg22 : Cert.ReferenceIdeal.Ops.R20 (F := Ideal) m' c (Proc.devRef .tc Cert.ReferenceIdeal.main_arg22) = m' ((c.tc : Thread Cert.ReferenceIdeal.nD Cert.ReferenceIdeal.τ).loc Cert.ReferenceIdeal.main_arg22) := by
  dsimp only [Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg23 : Cert.ReferenceIdeal.Ops.R20 (F := Ideal) m' c (Proc.devRef .tc Cert.ReferenceIdeal.main_arg23) = m' ((c.tc : Thread Cert.ReferenceIdeal.nD Cert.ReferenceIdeal.τ).loc Cert.ReferenceIdeal.main_arg23) := by
  dsimp only [Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg24 : Cert.ReferenceIdeal.Ops.R20 (F := Ideal) m' c (Proc.devRef .tc Cert.ReferenceIdeal.main_arg24) = m' ((c.tc : Thread Cert.ReferenceIdeal.nD Cert.ReferenceIdeal.τ).loc Cert.ReferenceIdeal.main_arg24) := by
  dsimp only [Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg25 : Cert.ReferenceIdeal.Ops.R20 (F := Ideal) m' c (Proc.devRef .tc Cert.ReferenceIdeal.main_arg25) = m' ((c.tc : Thread Cert.ReferenceIdeal.nD Cert.ReferenceIdeal.τ).loc Cert.ReferenceIdeal.main_arg25) := by
  dsimp only [Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg26 : Cert.ReferenceIdeal.Ops.R20 (F := Ideal) m' c (Proc.devRef .tc Cert.ReferenceIdeal.main_arg26) = m' ((c.tc : Thread Cert.ReferenceIdeal.nD Cert.ReferenceIdeal.τ).loc Cert.ReferenceIdeal.main_arg26) := by
  dsimp only [Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

theorem arg27 : Cert.ReferenceIdeal.Ops.R20 (F := Ideal) m' c (Proc.devRef .tc Cert.ReferenceIdeal.main_arg27) = m' ((c.tc : Thread Cert.ReferenceIdeal.nD Cert.ReferenceIdeal.τ).loc Cert.ReferenceIdeal.main_arg27) := by
  dsimp only [Cert.ReferenceIdeal.Ops.R20, Cert.ReferenceIdeal.Ops.R19, Cert.ReferenceIdeal.Ops.R18, Cert.ReferenceIdeal.Ops.R17, Cert.ReferenceIdeal.Ops.R16, Cert.ReferenceIdeal.Ops.R15, Cert.ReferenceIdeal.Ops.R14, Cert.ReferenceIdeal.Ops.R13, Cert.ReferenceIdeal.Ops.R12, Cert.ReferenceIdeal.Ops.R11, Cert.ReferenceIdeal.Ops.R10, Cert.ReferenceIdeal.Ops.R9, Cert.ReferenceIdeal.Ops.R8, Cert.ReferenceIdeal.Ops.R7, Cert.ReferenceIdeal.Ops.R6, Cert.ReferenceIdeal.Ops.R5, Cert.ReferenceIdeal.Ops.R4, Cert.ReferenceIdeal.Ops.R3, Cert.ReferenceIdeal.Ops.R2, Cert.ReferenceIdeal.Ops.R1]
  hostdown

end Cert.Proof.Sim.HeadR

end
-- ==== Proof.SimHeadK1.lean ====
/-
  What the kernel program's fusion head finds in its buffers, first half: the two branches' features as their last
  normalisations left them, and the four 64-row blocks of the 256 × 64 weight matrix, sliced out of the launch memory's
  matrix.
-/
import proofs.«162194_j13769665151544_1_alg».proof.Proof.SimBase
import proofs.«162194_j13769665151544_1_alg».proof.Proof.LibGlue

set_option maxRecDepth 16384
set_option maxHeartbeats 8000000

noncomputable section

namespace Cert.Proof.Sim.HeadK

open Idealize.ShloMosaic Idealize.ShloMosaic.TcCoe Idealize.SL.Sem Idealize.ShloMosaic.StableHlo Cert.Proof.Sim

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The first branch's features are untouched by everything after the second layer's normalisation. -/
theorem feat1 : Cert.KernelIdeal.Gen.W33 (F := Ideal) m ρ c (Proc.devRef .tc Cert.KernelIdeal.main_v64) = Cert.KernelIdeal.Gen.W16 (F := Ideal) m ρ c (Proc.devRef .tc Cert.KernelIdeal.main_v64) := by
  kdown

/-- The second branch's features are untouched by the slices and reshapes before the head. -/
theorem feat2 : Cert.KernelIdeal.Gen.W33 (F := Ideal) m ρ c (Proc.devRef .tc Cert.KernelIdeal.main_v129) = Cert.KernelIdeal.Gen.W32 (F := Ideal) m ρ c (Proc.devRef .tc Cert.KernelIdeal.main_v129) := by
  kdown

theorem block0 : (Cert.KernelIdeal.Gen.W33 (F := Ideal) m ρ c (Proc.devRef .tc Cert.KernelIdeal.main_v130) : Cert.Spec.Mat 64 64) = Cert.Spec.rows64 0 (m ((c.tc : Thread Cert.KernelIdeal.nD Cert.KernelIdeal.τ).loc Cert.KernelIdeal.main_arg21)) := by
  kdown
  rw [kLaunch]
  exact Cert.LibGlue.rows64_slice0 _ _

theorem block1 : (Cert.KernelIdeal.Gen.W33 (F := Ideal) m ρ c (Proc.devRef .tc Cert.KernelIdeal.main_v131) : Cert.Spec.Mat 64 64) = Cert.Spec.rows64 1 (m ((c.tc : Thread Cert.KernelIdeal.nD Cert.KernelIdeal.τ).loc Cert.KernelIdeal.main_arg21)) := by
  kdown
  rw [kLaunch]
  exact Cert.LibGlue.rows64_slice1 _ _

theorem block2 : (Cert.KernelIdeal.Gen.W33 (F := Ideal) m ρ c (Proc.devRef .tc Cert.KernelIdeal.main_v132) : Cert.Spec.Mat 64 64) = Cert.Spec.rows64 2 (m ((c.tc : Thread Cert.KernelIdeal.nD Cert.KernelIdeal.τ).loc Cert.KernelIdeal.main_arg21)) := by
  kdown
  rw [kLaunch]
  exact Cert.LibGlue.rows64_slice2 _ _

theorem block3 : (Cert.KernelIdeal.Gen.W33 (F := Ideal) m ρ c (Proc.devRef .tc Cert.KernelIdeal.main_v133) : Cert.Spec.Mat 64 64) = Cert.Spec.rows64 3 (m ((c.tc : Thread Cert.KernelIdeal.nD Cert.KernelIdeal.τ).loc Cert.KernelIdeal.main_arg21)) := by
  kdown
  rw [kLaunch]
  exact Cert.LibGlue.rows64_slice3 _ _

end Cert.Proof.Sim.HeadK

end
-- ==== Proof.SimHeadK2.lean ====
/-
  What the kernel program's fusion head finds in its buffers, second half: the biases as one-row matrices reshaped
  from the launch memory's vectors, the slope as a 1 × 1 matrix, and the two weight matrices it reads directly.
-/
import proofs.«162194_j13769665151544_1_alg».proof.Proof.SimBase
import proofs.«162194_j13769665151544_1_alg».proof.Proof.LibGlue

set_option maxRecDepth 16384
set_option maxHeartbeats 8000000

noncomputable section

namespace Cert.Proof.Sim.HeadK

open Idealize.ShloMosaic Idealize.ShloMosaic.TcCoe Idealize.SL.Sem Idealize.ShloMosaic.StableHlo Cert.Proof.Sim

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

theorem bias1 : Cert.Spec.rowOf (Cert.KernelIdeal.Gen.W33 (F := Ideal) m ρ c (Proc.devRef .tc Cert.KernelIdeal.main_v134)) = Cert.Spec.vecOf (m ((c.tc : Thread Cert.KernelIdeal.nD Cert.KernelIdeal.τ).loc Cert.KernelIdeal.main_arg22)) := by
  kdown
  rw [kLaunch]
  exact Cert.LibGlue.rowOf_shapeCast _ _

theorem slope : (Cert.KernelIdeal.Gen.W33 (F := Ideal) m ρ c (Proc.devRef .tc Cert.KernelIdeal.main_v135)) (ValueIdx.ix2 (0 : Fin 1) (0 : Fin 1)) = (m ((c.tc : Thread Cert.KernelIdeal.nD Cert.KernelIdeal.τ).loc Cert.KernelIdeal.main_arg23)) (ValueIdx.ix1 (0 : Fin 1)) := by
  kdown
  rw [kLaunch]
  exact Cert.LibGlue.scalar_shapeCast _ _

theorem weight2 : (Cert.KernelIdeal.Gen.W33 (F := Ideal) m ρ c (Proc.devRef .tc Cert.KernelIdeal.main_arg24) : Cert.Spec.Mat 64 64) = m ((c.tc : Thread Cert.KernelIdeal.nD Cert.KernelIdeal.τ).loc Cert.KernelIdeal.main_arg24) := by
  kdown

theorem bias2 : Cert.Spec.rowOf (Cert.KernelIdeal.Gen.W33 (F := Ideal) m ρ c (Proc.devRef .tc Cert.KernelIdeal.main_v136)) = Cert.Spec.vecOf (m ((c.tc : Thread Cert.KernelIdeal.nD Cert.KernelIdeal.τ).loc Cert.KernelIdeal.main_arg25)) := by
  kdown
  rw [kLaunch]
  exact Cert.LibGlue.rowOf_shapeCast _ _

theorem weightC : (Cert.KernelIdeal.Gen.W33 (F := Ideal) m ρ c (Proc.devRef .tc Cert.KernelIdeal.main_arg26) : Cert.Spec.Mat 64 129) = m ((c.tc : Thread Cert.KernelIdeal.nD Cert.KernelIdeal.τ).loc Cert.KernelIdeal.main_arg26) := by
  kdown

theorem biasC : Cert.Spec.rowOf (Cert.KernelIdeal.Gen.W33 (F := Ideal) m ρ c (Proc.devRef .tc Cert.KernelIdeal.main_v137)) = Cert.Spec.vecOf (m ((c.tc : Thread Cert.KernelIdeal.nD Cert.KernelIdeal.τ).loc Cert.KernelIdeal.main_arg27)) := by
  kdown
  rw [kLaunch]
  exact Cert.LibGlue.rowOf_shapeCast _ _

end Cert.Proof.Sim.HeadK

end
-- ==== Proof.RegFuse8.lean ====
/-
  The last kernel of the program, the gated fusion head, read as one function of its operand arrays.

  The kernel runs over 20 grid points. Point `t` reads rows `5000·t … 5000·t + 4999` of the two 100000×64 feature
  matrices `h₁, h₂` and every other operand whole — four 64×64 blocks `G₀ … G₃` with a bias row `b₁`, a slope `a`, a
  64×64 block `W₂` with a bias row `b₂`, a 64×129 block `W_c` with a bias row `b_c` — and writes the same rows of the
  100000×129 output. On the extended reals every product is exact and a change of format is the identity, so what the
  body stores at `(p, q)` of its tile is

      z₀ = h₁·G₀ + h₂·G₁ + |h₁ − h₂|·G₂ + (h₁ ∘ h₂)·G₃ + b₁   (the four products added left to right, then the bias),
      z  = z₀ where z₀ > 0, a · z₀ elsewhere,
      s  = logistic (z·W₂ + b₂),   f = s ∘ h₁ + (1 − s) ∘ h₂,   the entry (f·W_c + b_c) (p, q),

  all at row `p` of the tile: the specification's `fuseAt` of the tile. That entry depends on `h₁, h₂` through row `p`
  only, and row `p` of the tile at point `t` is row `5000·t + p` of the matrix, so the tile stored at point `t` is
  block `t` of `fuse` of the whole arrays. Row `r` of the output lies in the block of point `r / 5000`, so the 20 blocks
  cover the output, and the output array after the region is `fuse` of the operand arrays as the region finds them.
-/
import proofs.«162194_j13769665151544_1_alg».proof.Proof.Gen.KernelIdeal.Frame
import proofs.«162194_j13769665151544_1_alg».proof.Proof.Spec
import proofs.«162194_j13769665151544_1_alg».proof.Proof.LibDense
import Idealize.ShloMosaic.Lib.ValueIdx
import Idealize.ShloMosaic.Lib.ValueLayout
import Idealize.ShloMosaic.Lib.Pipeline.Value

noncomputable section
namespace Cert.Proof.RegFuse8
open Idealize.ShloMosaic Idealize.ShloMosaic.ValueIdx Idealize.ShloMosaic.TcCoe Idealize.SL.Sem
open Idealize.ShloMosaic.Pipeline (Dat)
open Cert.KernelIdeal Cert.KernelIdeal.Gen

/-! ## The tile's arithmetic, entry by entry

Every vector below is a variable of its literal type; `p` is a row of the 5000-row tile. -/

/-- The two products' dimension records are the rows-by-columns ones. -/
theorem dot64_plain : dot_S5000x64_S64x64_S5000x64_1_0_0_1_n_n = DotDims.plain 5000 64 64 := rfl
theorem dot129_plain : dot_S5000x64_S64x129_S5000x129_1_0_0_1_n_n = DotDims.plain 5000 64 129 := rfl

/-- A 5000×64 by 64×64 product into a zero accumulator, at (p, q). -/
theorem prod64 {φ₁ φ₂ : FTy} (a : FVec Ideal S5000x64 φ₁) (b : FVec Ideal S64x64 φ₂) (p : Fin 5000) (q : Fin 64) :
    matmul dot_S5000x64_S64x64_S5000x64_1_0_0_1_n_n none a b (constant (F := Ideal) S5000x64 .f32 0x00000000#32) (ix2 p q)
      = ∑ k : Fin 64, a (ix2 p k) * b (ix2 k q) := by
  rw [dot64_plain]
  exact LibDense.matmul_plain_zero_apply none a b p q

/-- A 5000×64 by 64×129 product into a zero accumulator, at (p, q). -/
theorem prod129 {φ₁ φ₂ : FTy} (a : FVec Ideal S5000x64 φ₁) (b : FVec Ideal S64x129 φ₂) (p : Fin 5000) (q : Fin 129) :
    matmul dot_S5000x64_S64x129_S5000x129_1_0_0_1_n_n none a b (constant (F := Ideal) S5000x129 .f32 0x00000000#32) (ix2 p q)
      = ∑ k : Fin 64, a (ix2 p k) * b (ix2 k q) := by
  rw [dot129_plain]
  exact LibDense.matmul_plain_zero_apply none a b p q

/-- The one-entry slope laid over the tile reads that entry everywhere. -/
theorem slope_apply (v : FVec Ideal S1x1 .f32) (p : Fin 5000) (k : Fin 64) :
    broadcastTo S5000x64 v broadcasts_S1x1_S5000x64 (ix2 p k) = v (ix2 (0 : Fin 1) (0 : Fin 1)) := by
  refine broadcastTo_apply v broadcasts_S1x1_S5000x64 (ix2 p k) (ix2 (0 : Fin 1) (0 : Fin 1)) fun a => ?_
  match a with
  | ⟨0, _⟩ => rfl
  | ⟨1, _⟩ => rfl

/-- The pointwise operations at an index, in the operations' own spelling. -/
theorem mulf_at {s : Shape} {φ : FTy} (x y : FVec Ideal s φ) (i : s.Idx) : mulf x y i = FloatOps.mulf (x i) (y i) := rfl
theorem subf_at {s : Shape} {φ : FTy} (x y : FVec Ideal s φ) (i : s.Idx) : subf x y i = FloatOps.subf (x i) (y i) := rfl
theorem addf_at {s : Shape} {φ : FTy} (x y : FVec Ideal s φ) (i : s.Idx) : addf x y i = FloatOps.addf (x i) (y i) := rfl
theorem absf_at {s : Shape} {φ : FTy} (x : FVec Ideal s φ) (i : s.Idx) : absf x i = FloatOps.absf (x i) := rfl
/-- A change of format is the identity on the extended reals. -/
theorem trunc_at {s : Shape} {φ ψ : FTy} (x : FVec Ideal s φ) (h : ψ.bits < φ.bits) (i : s.Idx) :
    (truncf ψ x h : FVec Ideal s ψ) i = x i := rfl

/-- The pre-activation of the tile: four products added left to right, then the bias row. -/
theorem pre_apply (v0 v2 : Vec Ideal S5000x64 .f32) (v11 v14 v17 v20 : Vec Ideal S64x64 .f32) (v30 : Vec Ideal S1x64 .f32)
    (p : Fin 5000) (q : Fin 64) :
    k8_pay4 (F := Ideal) v0 v2 v11 v14 v17 v20 v30 (ix2 p q)
      = Spec.preAt v0 v2 v11 v14 v17 v20 (Spec.rowOf v30) p q := by
  unfold k8_pay4 k8_pay2 k8_pay3
  simp only [shapeCast_self]
  show FloatOps.addf (FloatOps.addf (FloatOps.addf (FloatOps.addf
      (matmul dot_S5000x64_S64x64_S5000x64_1_0_0_1_n_n none (truncf .bf16 v0 bitsLt_bf16_f32) (truncf .bf16 v11 bitsLt_bf16_f32)
        (constant (F := Ideal) S5000x64 .f32 0x00000000#32) (ix2 p q))
      (matmul dot_S5000x64_S64x64_S5000x64_1_0_0_1_n_n none (truncf .bf16 v2 bitsLt_bf16_f32) (truncf .bf16 v14 bitsLt_bf16_f32)
        (constant (F := Ideal) S5000x64 .f32 0x00000000#32) (ix2 p q)))
      (matmul dot_S5000x64_S64x64_S5000x64_1_0_0_1_n_n none (truncf .bf16 (absf (subf v0 v2)) bitsLt_bf16_f32)
        (truncf .bf16 v17 bitsLt_bf16_f32) (constant (F := Ideal) S5000x64 .f32 0x00000000#32) (ix2 p q)))
      (matmul dot_S5000x64_S64x64_S5000x64_1_0_0_1_n_n none (truncf .bf16 (mulf v0 v2) bitsLt_bf16_f32)
        (truncf .bf16 v20 bitsLt_bf16_f32) (constant (F := Ideal) S5000x64 .f32 0x00000000#32) (ix2 p q)))
      (broadcastTo S5000x64 v30 broadcasts_S1x64_S5000x64 (ix2 p q)) = _
  rw [prod64, prod64, prod64, prod64, broadcastTo_1b_ab_apply]
  simp only [trunc_at, absf_at, subf_at, mulf_at]
  unfold Spec.preAt Spec.rowOf
  rfl

/-- Its test against zero. -/
theorem pos_apply (v0 v2 : Vec Ideal S5000x64 .f32) (v11 v14 v17 v20 : Vec Ideal S64x64 .f32) (v30 : Vec Ideal S1x64 .f32)
    (p : Fin 5000) (q : Fin 64) :
    k8_pay6 (F := Ideal) v0 v2 v11 v14 v17 v20 v30 (ix2 p q)
      = Spec.pos (Spec.preAt v0 v2 v11 v14 v17 v20 (Spec.rowOf v30) p q) := by
  rw [← pre_apply]
  rfl

/-- The two feature tiles and the slope pass through unchanged. -/
theorem feat1_eq (v0 : Vec Ideal S5000x64 .f32) : k8_pay2 (F := Ideal) v0 = v0 := by
  unfold k8_pay2; exact shapeCast_self _ _
theorem feat2_eq (v2 : Vec Ideal S5000x64 .f32) : k8_pay3 (F := Ideal) v2 = v2 := by
  unfold k8_pay3; exact shapeCast_self _ _
theorem slope_eq (v34 : Vec Ideal S1x1 .f32) : k8_pay5 (F := Ideal) v34 = v34 := by
  unfold k8_pay5; exact shapeCast_self _ _

/-- The gate of one row: from the row's pre-activation `z`, its test against zero `s` and the slope `a`, the
    logistic of the rectified row times the second weight block plus its bias. -/
def gateOf (z : Fin 64 → Spec.R) (s : Fin 64 → BitVec 1) (a : Spec.R) (W2 : Spec.Mat 64 64) (b2 : Fin 64 → Spec.R) (j : Fin 64) :
    Spec.R :=
  FloatOps.logistic (FloatOps.addf (∑ k : Fin 64, Scalar.select (s k) (z k) (FloatOps.mulf a (z k)) * W2 (ix2 k j)) (b2 j))

/-- The head of one row: the gated mixture of the two feature rows times the last weight block plus its bias. -/
def headOf (h1 h2 : Fin 64 → Spec.R) (g : Fin 64 → Spec.R) (Wc : Spec.Mat 64 129) (bc : Fin 129 → Spec.R) (q : Fin 129) : Spec.R :=
  FloatOps.addf (∑ j : Fin 64, FloatOps.addf (FloatOps.mulf (g j) (h1 j)) (FloatOps.mulf (FloatOps.subf Spec.one (g j)) (h2 j)) * Wc (ix2 j q))
    (bc q)

/-- The gate of the tile at (p, j). -/
theorem gate_apply (z : FVec Ideal S5000x64 .f32) (a : FVec Ideal S1x1 .f32) (s : IVec S5000x64 1) (W2 : Vec Ideal S64x64 .f32)
    (b2 : Vec Ideal S1x64 .f32) (p : Fin 5000) (j : Fin 64) :
    logistic (addf (matmul dot_S5000x64_S64x64_S5000x64_1_0_0_1_n_n none
        (truncf .bf16 (select s z (mulf (broadcastTo S5000x64 a broadcasts_S1x1_S5000x64) z)) bitsLt_bf16_f32)
        (truncf .bf16 W2 bitsLt_bf16_f32) (constant (F := Ideal) S5000x64 .f32 0x00000000#32))
      (broadcastTo S5000x64 b2 broadcasts_S1x64_S5000x64)) (ix2 p j)
      = gateOf (fun k => z (ix2 p k)) (fun k => s (ix2 p k)) (a (ix2 (0 : Fin 1) (0 : Fin 1))) W2 (Spec.rowOf b2) j := by
  show FloatOps.logistic (FloatOps.addf (matmul dot_S5000x64_S64x64_S5000x64_1_0_0_1_n_n none
        (truncf .bf16 (select s z (mulf (broadcastTo S5000x64 a broadcasts_S1x1_S5000x64) z)) bitsLt_bf16_f32)
        (truncf .bf16 W2 bitsLt_bf16_f32) (constant (F := Ideal) S5000x64 .f32 0x00000000#32) (ix2 p j))
      (broadcastTo S5000x64 b2 broadcasts_S1x64_S5000x64 (ix2 p j))) = _
  rw [prod64, broadcastTo_1b_ab_apply]
  simp only [trunc_at, select_apply, mulf_at, slope_apply]
  unfold gateOf Spec.rowOf
  rfl

/-- The head of the tile at (p, q), from the tile's two feature blocks, pre-activation, slope and test. -/
theorem head_apply (v1 v3 z : FVec Ideal S5000x64 .f32) (a : FVec Ideal S1x1 .f32) (s : IVec S5000x64 1) (W2 : Vec Ideal S64x64 .f32)
    (b2 : Vec Ideal S1x64 .f32) (Wc : Vec Ideal S64x129 .f32) (bc : Vec Ideal S1x129 .f32) (p : Fin 5000) (q : Fin 129) :
    k8_pay1 (F := Ideal) v1 v3 z a s W2 b2 Wc bc (ix2 p q)
      = headOf (fun j => v1 (ix2 p j)) (fun j => v3 (ix2 p j))
          (gateOf (fun k => z (ix2 p k)) (fun k => s (ix2 p k)) (a (ix2 (0 : Fin 1) (0 : Fin 1))) W2 (Spec.rowOf b2))
          Wc (Spec.rowOf bc) q := by
  unfold k8_pay1
  simp only [shapeCast_self]
  rw [addf_at, prod129, broadcastTo_1b_ab_apply]
  simp only [trunc_at, addf_at, mulf_at, subf_at, broadcast_apply, gate_apply]
  unfold headOf Spec.rowOf Spec.one
  rfl

/-- The gate and the head of a row are the specification's, at the row's pre-activation. -/
theorem headOf_spec {M : ℕ} (h1 h2 : Spec.Mat M 64) (G0 G1 G2 G3 : Spec.Mat 64 64) (b1 : Fin 64 → Spec.R) (a : Spec.R)
    (W2 : Spec.Mat 64 64) (b2 : Fin 64 → Spec.R) (Wc : Spec.Mat 64 129) (bc : Fin 129 → Spec.R) (p : Fin M) (q : Fin 129) :
    headOf (fun j => h1 (ix2 p j)) (fun j => h2 (ix2 p j))
        (gateOf (fun k => Spec.preAt h1 h2 G0 G1 G2 G3 b1 p k) (fun k => Spec.pos (Spec.preAt h1 h2 G0 G1 G2 G3 b1 p k)) a W2 b2)
        Wc bc q
      = Spec.fuseAt h1 h2 G0 G1 G2 G3 b1 a W2 b2 Wc bc p q := by
  unfold headOf gateOf Spec.fuseAt Spec.mixAt Spec.gateAt Spec.leaky
  rfl

/-- THE TILE: what the body stores at (p, q) of its output block is the fusion head of the tile's rows. -/
theorem tile_apply (x0 x1 : Vec Ideal S5000x64 .f32) (x2 x3 x4 x5 : Vec Ideal S64x64 .f32) (x6 : Vec Ideal S1x64 .f32)
    (x7 : Vec Ideal S1x1 .f32) (x8 : Vec Ideal S64x64 .f32) (x9 : Vec Ideal S1x64 .f32) (x10 : Vec Ideal S64x129 .f32)
    (x11 : Vec Ideal S1x129 .f32) (p : Fin 5000) (q : Fin 129) :
    k8_pay1 (F := Ideal) (k8_pay2 x0) (k8_pay3 x1) (k8_pay4 x0 x1 x2 x3 x4 x5 x6) (k8_pay5 x7) (k8_pay6 x0 x1 x2 x3 x4 x5 x6)
        x8 x9 x10 x11 (ix2 p q)
      = Spec.fuseAt x0 x1 x2 x3 x4 x5 (Spec.rowOf x6) (x7 (ix2 (0 : Fin 1) (0 : Fin 1))) x8 (Spec.rowOf x9) x10 (Spec.rowOf x11)
          p q := by
  rw [head_apply, feat1_eq, feat2_eq, slope_eq]
  simp only [pre_apply, pos_apply]
  exact headOf_spec x0 x1 x2 x3 x4 x5 (Spec.rowOf x6) (x7 (ix2 (0 : Fin 1) (0 : Fin 1))) x8 (Spec.rowOf x9) x10 (Spec.rowOf x11) p q

/-- The fusion head at a row depends on the two feature matrices through that row only: a row of a tile and the same row
    of the whole matrix give the same entry. -/
theorem fuseAt_congr {M M' : ℕ} {h1 h2 : Spec.Mat M 64} {H1 H2 : Spec.Mat M' 64} {G0 G1 G2 G3 G0' G1' G2' G3' : Spec.Mat 64 64}
    {b1 b1' : Fin 64 → Spec.R} {a a' : Spec.R} {W2 W2' : Spec.Mat 64 64} {b2 b2' : Fin 64 → Spec.R} {Wc Wc' : Spec.Mat 64 129}
    {bc bc' : Fin 129 → Spec.R} {p : Fin M} {r : Fin M'} (q : Fin 129)
    (e1 : ∀ k, h1 (ix2 p k) = H1 (ix2 r k)) (e2 : ∀ k, h2 (ix2 p k) = H2 (ix2 r k))
    (eG0 : G0 = G0') (eG1 : G1 = G1') (eG2 : G2 = G2') (eG3 : G3 = G3') (eb1 : b1 = b1') (ea : a = a') (eW2 : W2 = W2')
    (eb2 : b2 = b2') (eWc : Wc = Wc') (ebc : bc = bc') :
    Spec.fuseAt h1 h2 G0 G1 G2 G3 b1 a W2 b2 Wc bc p q = Spec.fuseAt H1 H2 G0' G1' G2' G3' b1' a' W2' b2' Wc' bc' r q := by
  subst eG0 eG1 eG2 eG3 eb1 ea eW2 eb2 eWc ebc
  unfold Spec.fuseAt Spec.mixAt Spec.gateAt Spec.preAt
  simp only [e1, e2]

/-! ## From the tile to the array

`V` is the contents of the buffers when the region is entered. Point `t` of the 20 works on rows
`5000·t … 5000·t + 4999` of the two feature matrices and of the output; every other operand is one whole block. -/

section Blocks

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps of the three row-tiled windows, decided over the 20 points: block `t` along the rows, block 0
    along the columns. -/
theorem row_blocks : ∀ t : Fin cfg8.N,
    win8_0.index t (0 : Fin 2) = t.val ∧ win8_0.index t (1 : Fin 2) = 0
    ∧ win8_1.index t (0 : Fin 2) = t.val ∧ win8_1.index t (1 : Fin 2) = 0
    ∧ win8_12.index t (0 : Fin 2) = t.val ∧ win8_12.index t (1 : Fin 2) = 0 :=
  (by decide +kernel : ∀ t : Fin grid8.N, _)

/-- Row `p` of the first feature matrix's block at point `t` is row `5000·t + p` of the matrix. -/
theorem feat1_blk (c : Dev nD) (t : Fin cfg8.N) (p : Fin 5000) (k : Fin 64) (r : Fin 100000) (hr : r.val = t.val * 5000 + p.val) :
    (iblk8 V c 0 t : Vec Ideal S5000x64 .f32) (ix2 p k) = (V c main_v64 : Spec.Mat 100000 64) (ix2 r k) := by
  obtain ⟨e0, e1, -⟩ := row_blocks t
  unfold iblk8
  rw [View.read_apply]
  show V c main_v64 _ = V c main_v64 _
  congr 1
  funext a; apply Fin.ext
  match a with
  | ⟨0, _⟩ => show win8_0.index t (0 : Fin 2) * 5000 + 1 * p.val = r.val; rw [e0, hr]; omega
  | ⟨1, _⟩ => show win8_0.index t (1 : Fin 2) * 64 + 1 * k.val = k.val; rw [e1]; omega

/-- The same for the second feature matrix. -/
theorem feat2_blk (c : Dev nD) (t : Fin cfg8.N) (p : Fin 5000) (k : Fin 64) (r : Fin 100000) (hr : r.val = t.val * 5000 + p.val) :
    (iblk8 V c 1 t : Vec Ideal S5000x64 .f32) (ix2 p k) = (V c main_v129 : Spec.Mat 100000 64) (ix2 r k) := by
  obtain ⟨-, -, e0, e1, -⟩ := row_blocks t
  unfold iblk8
  rw [View.read_apply]
  show V c main_v129 _ = V c main_v129 _
  congr 1
  funext a; apply Fin.ext
  match a with
  | ⟨0, _⟩ => show win8_1.index t (0 : Fin 2) * 5000 + 1 * p.val = r.val; rw [e0, hr]; omega
  | ⟨1, _⟩ => show win8_1.index t (1 : Fin 2) * 64 + 1 * k.val = k.val; rw [e1]; omega

/-- Entry `(p, q)` of the output's block at point `t`, of any contents `G` of the output array, is entry `(5000·t + p, q)`. -/
theorem out_blk (t : Fin cfg8.N) (G : S100000x129.Idx → EReal) (p : Fin 5000) (q : Fin 129) (r : Fin 100000)
    (hr : r.val = t.val * 5000 + p.val) :
    (((cfg8.win 12).blk t).view.read (Elt Ideal) G : Vec Ideal S5000x129 .f32) (ix2 p q) = G (ix2 r q) := by
  obtain ⟨-, -, -, -, e0, e1⟩ := row_blocks t
  rw [View.read_apply]
  show G _ = G _
  congr 1
  funext a; apply Fin.ext
  match a with
  | ⟨0, _⟩ => show win8_12.index t (0 : Fin 2) * 5000 + 1 * p.val = r.val; rw [e0, hr]; omega
  | ⟨1, _⟩ => show win8_12.index t (1 : Fin 2) * 129 + 1 * q.val = q.val; rw [e1]; omega

/-- Each of the nine other operands is fetched as one block, the whole array: the four first-layer weight blocks, -/
theorem gw0_blk (c : Dev nD) (t : Fin cfg8.N) : (iblk8 V c 2 t : Vec Ideal S64x64 .f32) = (V c main_v130 : Spec.Mat 64 64) := by
  funext y
  unfold iblk8
  rw [View.read_apply]
  show V c main_v130 _ = V c main_v130 _
  congr 1
  funext a; apply Fin.ext
  match a with
  | ⟨0, _⟩ => show win8_2.index t (0 : Fin 2) * 64 + 1 * (y 0).val = (y 0).val; rw [show win8_2.index t (0 : Fin 2) = 0 from rfl]; omega
  | ⟨1, _⟩ => show win8_2.index t (1 : Fin 2) * 64 + 1 * (y 1).val = (y 1).val; rw [show win8_2.index t (1 : Fin 2) = 0 from rfl]; omega

/-- (the second,) -/
theorem gw1_blk (c : Dev nD) (t : Fin cfg8.N) : (iblk8 V c 3 t : Vec Ideal S64x64 .f32) = (V c main_v131 : Spec.Mat 64 64) := by
  funext y
  unfold iblk8
  rw [View.read_apply]
  show V c main_v131 _ = V c main_v131 _
  congr 1
  funext a; apply Fin.ext
  match a with
  | ⟨0, _⟩ => show win8_3.index t (0 : Fin 2) * 64 + 1 * (y 0).val = (y 0).val; rw [show win8_3.index t (0 : Fin 2) = 0 from rfl]; omega
  | ⟨1, _⟩ => show win8_3.index t (1 : Fin 2) * 64 + 1 * (y 1).val = (y 1).val; rw [show win8_3.index t (1 : Fin 2) = 0 from rfl]; omega

/-- (the third,) -/
theorem gw2_blk (c : Dev nD) (t : Fin cfg8.N) : (iblk8 V c 4 t : Vec Ideal S64x64 .f32) = (V c main_v132 : Spec.Mat 64 64) := by
  funext y
  unfold iblk8
  rw [View.read_apply]
  show V c main_v132 _ = V c main_v132 _
  congr 1
  funext a; apply Fin.ext
  match a with
  | ⟨0, _⟩ => show win8_4.index t (0 : Fin 2) * 64 + 1 * (y 0).val = (y 0).val; rw [show win8_4.index t (0 : Fin 2) = 0 from rfl]; omega
  | ⟨1, _⟩ => show win8_4.index t (1 : Fin 2) * 64 + 1 * (y 1).val = (y 1).val; rw [show win8_4.index t (1 : Fin 2) = 0 from rfl]; omega

/-- (the fourth,) -/
theorem gw3_blk (c : Dev nD) (t : Fin cfg8.N) : (iblk8 V c 5 t : Vec Ideal S64x64 .f32) = (V c main_v133 : Spec.Mat 64 64) := by
  funext y
  unfold iblk8
  rw [View.read_apply]
  show V c main_v133 _ = V c main_v133 _
  congr 1
  funext a; apply Fin.ext
  match a with
  | ⟨0, _⟩ => show win8_5.index t (0 : Fin 2) * 64 + 1 * (y 0).val = (y 0).val; rw [show win8_5.index t (0 : Fin 2) = 0 from rfl]; omega
  | ⟨1, _⟩ => show win8_5.index t (1 : Fin 2) * 64 + 1 * (y 1).val = (y 1).val; rw [show win8_5.index t (1 : Fin 2) = 0 from rfl]; omega

/-- the first bias row, -/
theorem gb_blk (c : Dev nD) (t : Fin cfg8.N) : (iblk8 V c 6 t : Vec Ideal S1x64 .f32) = (V c main_v134 : Spec.Mat 1 64) := by
  funext y
  unfold iblk8
  rw [View.read_apply]
  show V c main_v134 _ = V c main_v134 _
  congr 1
  funext a; apply Fin.ext
  match a with
  | ⟨0, _⟩ => show win8_6.index t (0 : Fin 2) * 1 + 1 * (y 0).val = (y 0).val; rw [show win8_6.index t (0 : Fin 2) = 0 from rfl]; omega
  | ⟨1, _⟩ => show win8_6.index t (1 : Fin 2) * 64 + 1 * (y 1).val = (y 1).val; rw [show win8_6.index t (1 : Fin 2) = 0 from rfl]; omega

/-- the slope, -/
theorem slope_blk (c : Dev nD) (t : Fin cfg8.N) : (iblk8 V c 7 t : Vec Ideal S1x1 .f32) = (V c main_v135 : Spec.Mat 1 1) := by
  funext y
  unfold iblk8
  rw [View.read_apply]
  show V c main_v135 _ = V c main_v135 _
  congr 1
  funext a; apply Fin.ext
  match a with
  | ⟨0, _⟩ => show win8_7.index t (0 : Fin 2) * 1 + 1 * (y 0).val = (y 0).val; rw [show win8_7.index t (0 : Fin 2) = 0 from rfl]; omega
  | ⟨1, _⟩ => show win8_7.index t (1 : Fin 2) * 1 + 1 * (y 1).val = (y 1).val; rw [show win8_7.index t (1 : Fin 2) = 0 from rfl]; omega

/-- the second weight block, -/
theorem w2_blk (c : Dev nD) (t : Fin cfg8.N) : (iblk8 V c 8 t : Vec Ideal S64x64 .f32) = (V c main_arg24 : Spec.Mat 64 64) := by
  funext y
  unfold iblk8
  rw [View.read_apply]
  show V c main_arg24 _ = V c main_arg24 _
  congr 1
  funext a; apply Fin.ext
  match a with
  | ⟨0, _⟩ => show win8_8.index t (0 : Fin 2) * 64 + 1 * (y 0).val = (y 0).val; rw [show win8_8.index t (0 : Fin 2) = 0 from rfl]; omega
  | ⟨1, _⟩ => show win8_8.index t (1 : Fin 2) * 64 + 1 * (y 1).val = (y 1).val; rw [show win8_8.index t (1 : Fin 2) = 0 from rfl]; omega

/-- its bias row, -/
theorem b2_blk (c : Dev nD) (t : Fin cfg8.N) : (iblk8 V c 9 t : Vec Ideal S1x64 .f32) = (V c main_v136 : Spec.Mat 1 64) := by
  funext y
  unfold iblk8
  rw [View.read_apply]
  show V c main_v136 _ = V c main_v136 _
  congr 1
  funext a; apply Fin.ext
  match a with
  | ⟨0, _⟩ => show win8_9.index t (0 : Fin 2) * 1 + 1 * (y 0).val = (y 0).val; rw [show win8_9.index t (0 : Fin 2) = 0 from rfl]; omega
  | ⟨1, _⟩ => show win8_9.index t (1 : Fin 2) * 64 + 1 * (y 1).val = (y 1).val; rw [show win8_9.index t (1 : Fin 2) = 0 from rfl]; omega

/-- the last weight block, -/
theorem wc_blk (c : Dev nD) (t : Fin cfg8.N) : (iblk8 V c 10 t : Vec Ideal S64x129 .f32) = (V c main_arg26 : Spec.Mat 64 129) := by
  funext y
  unfold iblk8
  rw [View.read_apply]
  show V c main_arg26 _ = V c main_arg26 _
  congr 1
  funext a; apply Fin.ext
  match a with
  | ⟨0, _⟩ => show win8_10.index t (0 : Fin 2) * 64 + 1 * (y 0).val = (y 0).val; rw [show win8_10.index t (0 : Fin 2) = 0 from rfl]; omega
  | ⟨1, _⟩ => show win8_10.index t (1 : Fin 2) * 129 + 1 * (y 1).val = (y 1).val; rw [show win8_10.index t (1 : Fin 2) = 0 from rfl]; omega

/-- and its bias row. -/
theorem bc_blk (c : Dev nD) (t : Fin cfg8.N) : (iblk8 V c 11 t : Vec Ideal S1x129 .f32) = (V c main_v137 : Spec.Mat 1 129) := by
  funext y
  unfold iblk8
  rw [View.read_apply]
  show V c main_v137 _ = V c main_v137 _
  congr 1
  funext a; apply Fin.ext
  match a with
  | ⟨0, _⟩ => show win8_11.index t (0 : Fin 2) * 1 + 1 * (y 0).val = (y 0).val; rw [show win8_11.index t (0 : Fin 2) = 0 from rfl]; omega
  | ⟨1, _⟩ => show win8_11.index t (1 : Fin 2) * 129 + 1 * (y 1).val = (y 1).val; rw [show win8_11.index t (1 : Fin 2) = 0 from rfl]; omega

/-- The fusion head of the arrays as the region finds them. -/
abbrev fused (c : Dev nD) : S100000x129.Idx → EReal :=
  Spec.fuse (V c main_v64) (V c main_v129) (V c main_v130) (V c main_v131) (V c main_v132) (V c main_v133)
    (Spec.rowOf (V c main_v134)) ((V c main_v135) (ix2 (0 : Fin 1) (0 : Fin 1))) (V c main_arg24) (Spec.rowOf (V c main_v136))
    (V c main_arg26) (Spec.rowOf (V c main_v137))

/-- WHAT POINT `t` WRITES BACK is block `t` of the fusion head of the arrays. -/
theorem written_back (c : Dev nD) (t : Fin cfg8.N) :
    (dat8 (F := Ideal) V c).flushed 12 t = ((cfg8.win 12).blk t).view.read (Elt Ideal) (fused V c) := by
  show (cfg8.win 12).cut (grid8.coords t) ((dat8 V c).after 12 t) = _
  rw [after8_12]
  unfold out8_12
  rw [View.canon_unit_zero zero_offsets]
  simp only [View.ld_unit_zero (S := S5000x64) zero_offsets, View.ld_unit_zero (S := S64x64) zero_offsets, View.ld_unit_zero (S := S1x64) zero_offsets,
    View.ld_unit_zero (S := S1x1) zero_offsets, View.ld_unit_zero (S := S64x129) zero_offsets, View.ld_unit_zero (S := S1x129) zero_offsets]
  funext j
  obtain ⟨p, q, rfl⟩ : ∃ (p : Fin 5000) (q : Fin 129), j = ix2 p q := ⟨j 0, j 1, eq_ix2 j⟩
  have ht : t.val < 20 := t.isLt
  have hp : p.val < 5000 := p.isLt
  have hr : t.val * 5000 + p.val < 100000 := by omega
  refine ((tile_apply (iblk8 V c 0 t) (iblk8 V c 1 t) (iblk8 V c 2 t) (iblk8 V c 3 t) (iblk8 V c 4 t) (iblk8 V c 5 t) (iblk8 V c 6 t)
    (iblk8 V c 7 t) (iblk8 V c 8 t) (iblk8 V c 9 t) (iblk8 V c 10 t) (iblk8 V c 11 t) p q).trans ?_).trans
    (out_blk t (fused V c) p q ⟨t.val * 5000 + p.val, hr⟩ rfl).symm
  exact fuseAt_congr q (fun k => feat1_blk V c t p k ⟨t.val * 5000 + p.val, hr⟩ rfl) (fun k => feat2_blk V c t p k ⟨t.val * 5000 + p.val, hr⟩ rfl)
    (gw0_blk V c t) (gw1_blk V c t) (gw2_blk V c t) (gw3_blk V c t) (congrArg Spec.rowOf (gb_blk V c t))
    (congrFun (slope_blk V c t) (ix2 (0 : Fin 1) (0 : Fin 1))) (w2_blk V c t) (congrArg Spec.rowOf (b2_blk V c t)) (wc_blk V c t)
    (congrArg Spec.rowOf (bc_blk V c t))

/-- An index of the output array is in point `t`'s block iff each coordinate is in the block's range on its axis. -/
theorem mem_rows (t : Fin cfg8.N) (i : S100000x129.Idx) :
    i ∈ ((cfg8.win 12).blk t).view.set ↔ ∀ a : Fin 2, win8_12.index t a * S5000x129.size a ≤ (i a).val
      ∧ (i a).val < win8_12.index t a * S5000x129.size a + S5000x129.size a := by
  show i ∈ ((View.whole main_v138).slice (win8_12.rect t)).set ↔ _
  rw [View.set_slice_whole, Rect.mem_set_unit]
  exact Iff.rfl

/-- Every row of the output is some point's: row `r` is in the block of point `r / 5000`. -/
theorem rows_covered (i : S100000x129.Idx) :
    ∃ t : Fin cfg8.N, (cfg8.win 12).flush t = true ∧ i ∈ ((cfg8.win 12).blk t).view.set := by
  have hi0 : (i 0).val < 100000 := (i 0).isLt
  have hi1 : (i 1).val < 129 := (i 1).isLt
  have hN : cfg8.N = 20 := N_8
  refine ⟨⟨(i 0).val / 5000, by rw [hN]; omega⟩, flush8_12 _, ?_⟩
  rw [mem_rows]
  obtain ⟨-, -, -, -, e0, e1⟩ := row_blocks ⟨(i 0).val / 5000, by rw [hN]; omega⟩
  intro a
  match a with
  | ⟨0, _⟩ =>
    show win8_12.index _ (0 : Fin 2) * 5000 ≤ (i 0).val ∧ (i 0).val < win8_12.index _ (0 : Fin 2) * 5000 + 5000
    rw [e0]
    show (i 0).val / 5000 * 5000 ≤ (i 0).val ∧ (i 0).val < (i 0).val / 5000 * 5000 + 5000
    omega
  | ⟨1, _⟩ =>
    show win8_12.index _ (1 : Fin 2) * 129 ≤ (i 1).val ∧ (i 1).val < win8_12.index _ (1 : Fin 2) * 129 + 129
    rw [e1]
    omega

/-- THE OUTPUT ARRAY after the region is the fusion head of the arrays as the region finds them. -/
theorem fused_array (c : Dev nD) : (dat8 (F := Ideal) V c).arrAt 12 cfg8.N = fused V c :=
  (dat8 (F := Ideal) V c).arrAt_eq_of_cover 12 (fused V c) (fun t _ => written_back V c t) rows_covered

end Blocks

/-- REGION 8, the gated fusion head: its output array, at the region's exit, is the fusion head of the operand arrays as
    they are at its entry. -/
theorem out (m : (ℓ : Loc nD τ sig) → Buf (Elt Ideal) ℓ) (ρ : Dev nD → PrngReg) (c : Dev nD) :
    W34 (F := Ideal) m ρ c (Proc.devRef .tc main_v138)
      = Cert.Spec.fuse (W33 (F := Ideal) m ρ c (Proc.devRef .tc main_v64)) (W33 (F := Ideal) m ρ c (Proc.devRef .tc main_v129))
          (W33 (F := Ideal) m ρ c (Proc.devRef .tc main_v130)) (W33 (F := Ideal) m ρ c (Proc.devRef .tc main_v131))
          (W33 (F := Ideal) m ρ c (Proc.devRef .tc main_v132)) (W33 (F := Ideal) m ρ c (Proc.devRef .tc main_v133))
          (Cert.Spec.rowOf (W33 (F := Ideal) m ρ c (Proc.devRef .tc main_v134)))
          ((W33 (F := Ideal) m ρ c (Proc.devRef .tc main_v135)) (Idealize.ShloMosaic.ValueIdx.ix2 (0 : Fin 1) (0 : Fin 1)))
          (W33 (F := Ideal) m ρ c (Proc.devRef .tc main_arg24)) (Cert.Spec.rowOf (W33 (F := Ideal) m ρ c (Proc.devRef .tc main_v136)))
          (W33 (F := Ideal) m ρ c (Proc.devRef .tc main_arg26)) (Cert.Spec.rowOf (W33 (F := Ideal) m ρ c (Proc.devRef .tc main_v137))) :=
  (W34_arr (F := Ideal) m ρ c 12).trans (fused_array (V33 (F := Ideal) m ρ) c)

end Cert.Proof.RegFuse8

end
-- ==== Proof.RefFuse.lean ====
/-
  The reference's gated fusion head, entry by entry.

  From two feature matrices h₁, h₂ the reference lays [h₁, h₂, |h₁ − h₂|, h₁ ∘ h₂] side by side into a matrix of 256
  columns, multiplies it by a 256 × 64 matrix G and adds a bias; the specification adds the four 64-wide products with
  the four row blocks of G, left to right, and then the bias. The two agree because a sum over 256 positions is the sum
  of its four consecutive blocks of 64 — commutativity and associativity of addition on the extended reals, nothing
  else. Every later stage (the leaky rectifier, the logistic gate spelled as 1 / (1 + e^(−x)), the gated mixture, the
  output layer) is the specification's own formula once both sides are read at one entry.
-/
import proofs.«162194_j13769665151544_1_alg».proof.Proof.Spec
import proofs.«162194_j13769665151544_1_alg».proof.Proof.LibDense
import proofs.«162194_j13769665151544_1_alg».proof.Proof.RefRun
import Idealize.ShloMosaic.Lib.IdealHost
import Idealize.ShloMosaic.Lib.Pipeline.Value
import Idealize.ShloMosaic.Lib.KernelVsHost
import Idealize.ShloMosaic.Lib.StableHlo.Run
import Mathlib.Algebra.BigOperators.Fin

noncomputable section

namespace Cert.Proof.RefFuse

open Idealize.ShloMosaic Idealize.ShloMosaic.ValueIdx
/-- A sum over 256 positions is the sum of the four consecutive blocks of 64, added left to right. -/
theorem sum256 {A : Type} [AddCommMonoid A] (f : Fin 256 → A) :
    (∑ k : Fin 256, f k)
      = (((∑ k : Fin 64, f ⟨k.val, by omega⟩) + ∑ k : Fin 64, f ⟨64 + k.val, by omega⟩)
          + ∑ k : Fin 64, f ⟨128 + k.val, by omega⟩) + ∑ k : Fin 64, f ⟨192 + k.val, by omega⟩ := by
  show (∑ k : Fin (64 + 64 + 64 + 64), f k) = _
  rw [Fin.sum_univ_add, Fin.sum_univ_add, Fin.sum_univ_add]
  rfl

section Cat
variable {M : ℕ}

abbrev catShapes (M : ℕ) : List Shape := [⟨2, ![M, 64]⟩, ⟨2, ![M, 64]⟩, ⟨2, ![M, 64]⟩, ⟨2, ![M, 64]⟩]

/-- Four matrices of 64 columns laid side by side, read at a column of block `s`: matrix `s` at the column's offset in the block. -/
theorem cat4_apply (x0 x1 x2 x3 : Spec.Mat M 64)
    (hc : Shape.Concatenates [(⟨2, ![M, 64]⟩ : Shape), ⟨2, ![M, 64]⟩, ⟨2, ![M, 64]⟩, ⟨2, ![M, 64]⟩] ⟨2, ![M, 256]⟩ 1)
    (p : Fin M) (k : Fin 64) :
    concatenate (⟨2, ![M, 256]⟩ : Shape) 1 [⟨⟨2, ![M, 64]⟩, x0⟩, ⟨⟨2, ![M, 64]⟩, x1⟩, ⟨⟨2, ![M, 64]⟩, x2⟩, ⟨⟨2, ![M, 64]⟩, x3⟩] hc
        (ix2 p (⟨k.val, by omega⟩ : Fin 256)) = x0 (ix2 p k)
    ∧ concatenate (⟨2, ![M, 256]⟩ : Shape) 1 [⟨⟨2, ![M, 64]⟩, x0⟩, ⟨⟨2, ![M, 64]⟩, x1⟩, ⟨⟨2, ![M, 64]⟩, x2⟩, ⟨⟨2, ![M, 64]⟩, x3⟩] hc
        (ix2 p (⟨64 + k.val, by omega⟩ : Fin 256)) = x1 (ix2 p k)
    ∧ concatenate (⟨2, ![M, 256]⟩ : Shape) 1 [⟨⟨2, ![M, 64]⟩, x0⟩, ⟨⟨2, ![M, 64]⟩, x1⟩, ⟨⟨2, ![M, 64]⟩, x2⟩, ⟨⟨2, ![M, 64]⟩, x3⟩] hc
        (ix2 p (⟨128 + k.val, by omega⟩ : Fin 256)) = x2 (ix2 p k)
    ∧ concatenate (⟨2, ![M, 256]⟩ : Shape) 1 [⟨⟨2, ![M, 64]⟩, x0⟩, ⟨⟨2, ![M, 64]⟩, x1⟩, ⟨⟨2, ![M, 64]⟩, x2⟩, ⟨⟨2, ![M, 64]⟩, x3⟩] hc
        (ix2 p (⟨192 + k.val, by omega⟩ : Fin 256)) = x3 (ix2 p k) := by
  have hi : ∀ (c : Fin 256) (b : Fin (⟨2, ![M, 64]⟩ : Shape).rank), b.cast (rfl : (2 : ℕ) = 2) ≠ (1 : Fin 2) →
      ((ix2 p k) b).val = ((ix2 p c) (b.cast (rfl : (2 : ℕ) = 2))).val := by
    intro c b hb
    match b with
    | ⟨0, _⟩ => rfl
    | ⟨1, _⟩ => exact absurd rfl hb
  refine ⟨?_, ?_, ?_, ?_⟩
  · exact concatenate_apply_piece (t := ⟨2, ![M, 256]⟩) 1
      [⟨⟨2, ![M, 64]⟩, x0⟩, ⟨⟨2, ![M, 64]⟩, x1⟩, ⟨⟨2, ![M, 64]⟩, x2⟩, ⟨⟨2, ![M, 64]⟩, x3⟩] hc _ 0 (by simp) ⟨2, ![M, 64]⟩ x0 rfl rfl 0 rfl
      (ix2 p k) (hi _) (Nat.zero_add _)
  · exact concatenate_apply_piece (t := ⟨2, ![M, 256]⟩) 1
      [⟨⟨2, ![M, 64]⟩, x0⟩, ⟨⟨2, ![M, 64]⟩, x1⟩, ⟨⟨2, ![M, 64]⟩, x2⟩, ⟨⟨2, ![M, 64]⟩, x3⟩] hc _ 1 (by simp) ⟨2, ![M, 64]⟩ x1 rfl rfl 64 rfl
      (ix2 p k) (hi _) rfl
  · exact concatenate_apply_piece (t := ⟨2, ![M, 256]⟩) 1
      [⟨⟨2, ![M, 64]⟩, x0⟩, ⟨⟨2, ![M, 64]⟩, x1⟩, ⟨⟨2, ![M, 64]⟩, x2⟩, ⟨⟨2, ![M, 64]⟩, x3⟩] hc _ 2 (by simp) ⟨2, ![M, 64]⟩ x2 rfl rfl 128 rfl
      (ix2 p k) (hi _) rfl
  · exact concatenate_apply_piece (t := ⟨2, ![M, 256]⟩) 1
      [⟨⟨2, ![M, 64]⟩, x0⟩, ⟨⟨2, ![M, 64]⟩, x1⟩, ⟨⟨2, ![M, 64]⟩, x2⟩, ⟨⟨2, ![M, 64]⟩, x3⟩] hc _ 3 (by simp) ⟨2, ![M, 64]⟩ x3 rfl rfl 192 rfl
      (ix2 p k) (hi _) rfl

end Cat

/-! ## The stages over arbitrary matrices -/

section Stages
variable {M : ℕ}

/-- Block `s` of the 256-row matrix at (k, j) is the matrix at (64 s + k, j). -/
theorem rows64_apply (s : Fin 4) (G : Spec.Mat 256 64) (k j : Fin 64) :
    Spec.rows64 s G (ix2 k j) = G (ix2 (⟨64 * s.val + k.val, by have := s.isLt; omega⟩ : Fin 256) j) := rfl

/-- The product of a 256-column matrix whose four column blocks are `x₀ … x₃` with a 256-row matrix, read at (p, j):
    the four 64-wide products with the row blocks, added left to right. -/
theorem cat_dot (cat : Spec.Mat M 256) (x0 x1 x2 x3 : Spec.Mat M 64) (G : Spec.Mat 256 64) (p : Fin M) (j : Fin 64)
    (hcat : ∀ k : Fin 64, cat (ix2 p (⟨k.val, by omega⟩ : Fin 256)) = x0 (ix2 p k)
      ∧ cat (ix2 p (⟨64 + k.val, by omega⟩ : Fin 256)) = x1 (ix2 p k)
      ∧ cat (ix2 p (⟨128 + k.val, by omega⟩ : Fin 256)) = x2 (ix2 p k)
      ∧ cat (ix2 p (⟨192 + k.val, by omega⟩ : Fin 256)) = x3 (ix2 p k)) :
    (∑ k : Fin 256, cat (ix2 p k) * G (ix2 k j))
      = (((∑ k : Fin 64, x0 (ix2 p k) * Spec.rows64 0 G (ix2 k j)) + ∑ k : Fin 64, x1 (ix2 p k) * Spec.rows64 1 G (ix2 k j))
          + ∑ k : Fin 64, x2 (ix2 p k) * Spec.rows64 2 G (ix2 k j)) + ∑ k : Fin 64, x3 (ix2 p k) * Spec.rows64 3 G (ix2 k j) := by
  rw [sum256]
  refine congrArg₂ (· + ·) (congrArg₂ (· + ·) (congrArg₂ (· + ·) ?_ ?_) ?_) ?_
  · exact Finset.sum_congr rfl fun k _ => by
      rw [(hcat k).1, rows64_apply]
      exact congrArg (fun t : Fin 256 => x0 (ix2 p k) * G (ix2 t j)) (Fin.ext (show k.val = 64 * 0 + k.val by omega))
  · exact Finset.sum_congr rfl fun k _ => by
      rw [(hcat k).2.1, rows64_apply]
      exact congrArg (fun t : Fin 256 => x1 (ix2 p k) * G (ix2 t j)) (Fin.ext (show 64 + k.val = 64 * 1 + k.val by omega))
  · exact Finset.sum_congr rfl fun k _ => by
      rw [(hcat k).2.2.1, rows64_apply]
      exact congrArg (fun t : Fin 256 => x2 (ix2 p k) * G (ix2 t j)) (Fin.ext (show 128 + k.val = 64 * 2 + k.val by omega))
  · exact Finset.sum_congr rfl fun k _ => by
      rw [(hcat k).2.2.2, rows64_apply]
      exact congrArg (fun t : Fin 256 => x3 (ix2 p k) * G (ix2 t j)) (Fin.ext (show 192 + k.val = 64 * 3 + k.val by omega))

/-- A bias vector laid along axis 1 of a one-row matrix and that row down the rows, read at (p, j): the vector at j. -/
theorem bias_apply {N : ℕ} (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (j : Fin N) :
    broadcastInDim ⟨2, ![M, N]⟩ ![0, 1] h2 (broadcastInDim ⟨2, ![1, N]⟩ ![1] h1 b) (ix2 p j) = Spec.vecOf b j := by
  rw [broadcastInDim_oneRow_apply h2 (broadcastInDim ⟨2, ![1, N]⟩ ![1] h1 b) p j]
  refine broadcastInDim_apply ![1] h1 b (ix2 (0 : Fin 1) j) (ix1 j) fun a => ?_
  match a with
  | ⟨0, _⟩ =>
    show j.val = if N = 1 then 0 else j.val
    split
    · have := j.isLt; omega
    · rfl

/-- A rows-by-columns product plus a bias row, read at (p, j). -/
theorem dense_bias_apply {K N : ℕ} (d : DotDims ⟨2, ![M, K]⟩ ⟨2, ![K, N]⟩ ⟨2, ![M, N]⟩) (hd : d = DotDims.plain M K N)
    (prec : Option ContractPrecision) (x : Spec.Mat M K) (W : Spec.Mat K N) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (j : Fin N) :
    addf (Host.dotGeneral d prec x W) (broadcastInDim ⟨2, ![M, N]⟩ ![0, 1] h2 (broadcastInDim ⟨2, ![1, N]⟩ ![1] h1 b)) (ix2 p j)
      = FloatOps.addf (∑ k : Fin K, x (ix2 p k) * W (ix2 k j)) (Spec.vecOf b j) := by
  subst hd
  show FloatOps.dotGeneral (DotDims.plain M K N) prec .single x W (ix2 p j)
      + broadcastInDim ⟨2, ![M, N]⟩ ![0, 1] h2 (broadcastInDim ⟨2, ![1, N]⟩ ![1] h1 b) (ix2 p j) = _
  rw [LibDense.dotGeneral_plain_apply, bias_apply]
  rfl

/-- The pre-activation: the product of the four blocks laid side by side with G, plus the bias, read at (p, j). -/
theorem pre_apply (d : DotDims ⟨2, ![M, 256]⟩ ⟨2, ![256, 64]⟩ ⟨2, ![M, 64]⟩) (hd : d = DotDims.plain M 256 64)
    (prec : Option ContractPrecision) (h1 h2 : Spec.Mat M 64) (G : Spec.Mat 256 64) (b : FVec Ideal ⟨1, ![64]⟩ .f32)
    (hc : Shape.Concatenates [(⟨2, ![M, 64]⟩ : Shape), ⟨2, ![M, 64]⟩, ⟨2, ![M, 64]⟩, ⟨2, ![M, 64]⟩] ⟨2, ![M, 256]⟩ 1)
    (hb1 : (⟨1, ![64]⟩ : Shape).BroadcastsInDim ⟨2, ![1, 64]⟩ ![1])
    (hb2 : (⟨2, ![1, 64]⟩ : Shape).BroadcastsInDim ⟨2, ![M, 64]⟩ ![0, 1]) (p : Fin M) (j : Fin 64) :
    addf (Host.dotGeneral d prec
          (concatenate (⟨2, ![M, 256]⟩ : Shape) 1
            [⟨⟨2, ![M, 64]⟩, h1⟩, ⟨⟨2, ![M, 64]⟩, h2⟩, ⟨⟨2, ![M, 64]⟩, Host.absf (subf h1 h2)⟩, ⟨⟨2, ![M, 64]⟩, mulf h1 h2⟩] hc) G)
        (broadcastInDim ⟨2, ![M, 64]⟩ ![0, 1] hb2 (broadcastInDim ⟨2, ![1, 64]⟩ ![1] hb1 b)) (ix2 p j)
      = Spec.preAt h1 h2 (Spec.rows64 0 G) (Spec.rows64 1 G) (Spec.rows64 2 G) (Spec.rows64 3 G) (Spec.vecOf b) p j := by
  rw [dense_bias_apply d hd,
    cat_dot _ h1 h2 (Host.absf (subf h1 h2)) (mulf h1 h2) G p j (cat4_apply h1 h2 (Host.absf (subf h1 h2)) (mulf h1 h2) hc p)]
  rfl

/-- The leaky rectifier as the reference spells it — the test against a broadcast zero, the slope broadcast from a
    one-element vector, a select — read at (p, j). -/
theorem leaky_apply (z : Spec.Mat M 64) (a : FVec Ideal ⟨1, ![1]⟩ .f32)
    (h0 : (⟨0, ![]⟩ : Shape).BroadcastsInDim ⟨2, ![M, 64]⟩ ![])
    (ha1 : (⟨1, ![1]⟩ : Shape).BroadcastsInDim ⟨2, ![1, 1]⟩ ![1])
    (ha2 : (⟨2, ![1, 1]⟩ : Shape).BroadcastsInDim ⟨2, ![M, 64]⟩ ![0, 1]) (p : Fin M) (j : Fin 64) :
    select (cmpf .ogt z (broadcastInDim ⟨2, ![M, 64]⟩ ![] h0 (constant (F := Ideal) ⟨0, ![]⟩ .f32 0x00000000#32))) z
        (mulf (broadcastInDim ⟨2, ![M, 64]⟩ ![0, 1] ha2 (broadcastInDim ⟨2, ![1, 1]⟩ ![1] ha1 a)) z) (ix2 p j)
      = Spec.leaky (a (ix1 (0 : Fin 1))) (z (ix2 p j)) := by
  have ea : broadcastInDim ⟨2, ![M, 64]⟩ ![0, 1] ha2 (broadcastInDim ⟨2, ![1, 1]⟩ ![1] ha1 a) (ix2 p j) = a (ix1 (0 : Fin 1)) := by
    rw [broadcastInDim_apply ![0, 1] ha2 (broadcastInDim ⟨2, ![1, 1]⟩ ![1] ha1 a) (ix2 p j) (ix2 (0 : Fin 1) (0 : Fin 1))
      (fun a => by match a with | ⟨0, _⟩ => rfl | ⟨1, _⟩ => rfl)]
    exact broadcastInDim_apply ![1] ha1 a (ix2 (0 : Fin 1) (0 : Fin 1)) (ix1 (0 : Fin 1)) (fun a => by match a with | ⟨0, _⟩ => rfl)
  show Scalar.select (FloatOps.cmpf .ogt (z (ix2 p j))
        (broadcastInDim ⟨2, ![M, 64]⟩ ![] h0 (constant (F := Ideal) ⟨0, ![]⟩ .f32 0x00000000#32) (ix2 p j))) (z (ix2 p j))
      (FloatOps.mulf (broadcastInDim ⟨2, ![M, 64]⟩ ![0, 1] ha2 (broadcastInDim ⟨2, ![1, 1]⟩ ![1] ha1 a) (ix2 p j)) (z (ix2 p j))) = _
  rw [ea, broadcastInDim_scalar_apply]
  rfl

/-- The gate as the reference spells it — 1 / (1 + e^(−y)) with y a product plus a bias — read at (p, j): the logistic. -/
theorem gate_apply (d : DotDims ⟨2, ![M, 64]⟩ ⟨2, ![64, 64]⟩ ⟨2, ![M, 64]⟩) (hd : d = DotDims.plain M 64 64)
    (prec : Option ContractPrecision) (z : Spec.Mat M 64) (W : Spec.Mat 64 64) (b : FVec Ideal ⟨1, ![64]⟩ .f32)
    (hb1 : (⟨1, ![64]⟩ : Shape).BroadcastsInDim ⟨2, ![1, 64]⟩ ![1])
    (hb2 : (⟨2, ![1, 64]⟩ : Shape).BroadcastsInDim ⟨2, ![M, 64]⟩ ![0, 1])
    (h0 : (⟨0, ![]⟩ : Shape).BroadcastsInDim ⟨2, ![M, 64]⟩ ![]) (p : Fin M) (j : Fin 64) :
    Host.divf (broadcastInDim ⟨2, ![M, 64]⟩ ![] h0 (constant (F := Ideal) ⟨0, ![]⟩ .f32 0x3F800000#32))
        (addf (broadcastInDim ⟨2, ![M, 64]⟩ ![] h0 (constant (F := Ideal) ⟨0, ![]⟩ .f32 0x3F800000#32))
          (Host.exp (Host.negf (addf (Host.dotGeneral d prec z W)
            (broadcastInDim ⟨2, ![M, 64]⟩ ![0, 1] hb2 (broadcastInDim ⟨2, ![1, 64]⟩ ![1] hb1 b)))))) (ix2 p j)
      = FloatOps.logistic (FloatOps.addf (∑ k : Fin 64, z (ix2 p k) * W (ix2 k j)) (Spec.vecOf b j)) := by
  show FloatOps.hostDivf (broadcastInDim ⟨2, ![M, 64]⟩ ![] h0 (constant (F := Ideal) ⟨0, ![]⟩ .f32 0x3F800000#32) (ix2 p j))
      (FloatOps.addf (broadcastInDim ⟨2, ![M, 64]⟩ ![] h0 (constant (F := Ideal) ⟨0, ![]⟩ .f32 0x3F800000#32) (ix2 p j))
        (FloatOps.hostUnary .exp (FloatOps.hostNegf (addf (Host.dotGeneral d prec z W)
            (broadcastInDim ⟨2, ![M, 64]⟩ ![0, 1] hb2 (broadcastInDim ⟨2, ![1, 64]⟩ ![1] hb1 b)) (ix2 p j))))) = _
  rw [dense_bias_apply d hd, broadcastInDim_scalar_apply, constant_apply, Ideal.ofBits_one_f32]
  rfl

/-- The gated mixture as the reference spells it, read at an entry. -/
theorem mix_apply (s h1 h2 : Spec.Mat M 64) (h0 : (⟨0, ![]⟩ : Shape).BroadcastsInDim ⟨2, ![M, 64]⟩ ![]) (i : (⟨2, ![M, 64]⟩ : Shape).Idx) :
    addf (mulf s h1) (mulf (subf (broadcastInDim ⟨2, ![M, 64]⟩ ![] h0 (constant (F := Ideal) ⟨0, ![]⟩ .f32 0x3F800000#32)) s) h2) i
      = FloatOps.addf (FloatOps.mulf (s i) (h1 i)) (FloatOps.mulf (FloatOps.subf Spec.one (s i)) (h2 i)) := by
  show FloatOps.addf (FloatOps.mulf (s i) (h1 i)) (FloatOps.mulf (FloatOps.subf
      (broadcastInDim ⟨2, ![M, 64]⟩ ![] h0 (constant (F := Ideal) ⟨0, ![]⟩ .f32 0x3F800000#32) i) (s i)) (h2 i)) = _
  rw [broadcastInDim_scalar_apply]
  rfl

end Stages

/-! ## The reference's two pieces as functions of their inputs -/

section Pieces

open Cert.ReferenceIdeal Cert.ReferenceIdeal.Gen Cert.ReferenceIdeal.Ops

/-- Statements %204 … %217: the pre-activation through the leaky rectifier, as a function of the two feature matrices,
    the 256-row matrix, the bias and the slope. -/
def rect (h1 h2 : FVec Ideal S100000x64 .f32) (G : FVec Ideal S256x64 .f32) (b1 : FVec Ideal S64 .f32) (a : FVec Ideal S1 .f32) :
    FVec Ideal S100000x64 .f32 :=
  select
    (cmpf .ogt
      (addf
        (Host.dotGeneral dot_S100000x256_S256x64_S100000x64_1_0_0_1_n_n none
          (concatenate S100000x256 1 [⟨S100000x64, h1⟩, ⟨S100000x64, h2⟩, ⟨S100000x64, Host.absf (subf h1 h2)⟩, ⟨S100000x64, mulf h1 h2⟩]
            concatenates_S100000x64_S100000x64_S100000x64_S100000x64_S100000x256_d1) G)
        (broadcastInDim S100000x64 ![0, 1] bcast_S1x64_S100000x64_0_1 (broadcastInDim S1x64 ![1] bcast_S64_S1x64_1 b1)))
      (broadcastInDim S100000x64 ![] bcast_S_S100000x64 (constant S_ .f32 0x00000000#32)))
    (addf
      (Host.dotGeneral dot_S100000x256_S256x64_S100000x64_1_0_0_1_n_n none
        (concatenate S100000x256 1 [⟨S100000x64, h1⟩, ⟨S100000x64, h2⟩, ⟨S100000x64, Host.absf (subf h1 h2)⟩, ⟨S100000x64, mulf h1 h2⟩]
          concatenates_S100000x64_S100000x64_S100000x64_S100000x64_S100000x256_d1) G)
      (broadcastInDim S100000x64 ![0, 1] bcast_S1x64_S100000x64_0_1 (broadcastInDim S1x64 ![1] bcast_S64_S1x64_1 b1)))
    (mulf (broadcastInDim S100000x64 ![0, 1] bcast_S1x1_S100000x64_0_1 (broadcastInDim S1x1 ![1] bcast_S1_S1x1_1 a))
      (addf
        (Host.dotGeneral dot_S100000x256_S256x64_S100000x64_1_0_0_1_n_n none
          (concatenate S100000x256 1 [⟨S100000x64, h1⟩, ⟨S100000x64, h2⟩, ⟨S100000x64, Host.absf (subf h1 h2)⟩, ⟨S100000x64, mulf h1 h2⟩]
            concatenates_S100000x64_S100000x64_S100000x64_S100000x64_S100000x256_d1) G)
        (broadcastInDim S100000x64 ![0, 1] bcast_S1x64_S100000x64_0_1 (broadcastInDim S1x64 ![1] bcast_S64_S1x64_1 b1))))

/-- Statements %218 … %227: the gate, as a function of the rectified matrix, the 64 × 64 matrix and the bias. -/
def gate (z : FVec Ideal S100000x64 .f32) (W2 : FVec Ideal S64x64 .f32) (b2 : FVec Ideal S64 .f32) : FVec Ideal S100000x64 .f32 :=
  Host.divf (broadcastInDim S100000x64 ![] bcast_S_S100000x64 (constant S_ .f32 0x3F800000#32))
    (addf (broadcastInDim S100000x64 ![] bcast_S_S100000x64 (constant S_ .f32 0x3F800000#32))
      (Host.exp (Host.negf (addf (Host.dotGeneral dot_S100000x64_S64x64_S100000x64_1_0_0_1_n_n none z W2)
        (broadcastInDim S100000x64 ![0, 1] bcast_S1x64_S100000x64_0_1 (broadcastInDim S1x64 ![1] bcast_S64_S1x64_1 b2))))))

/-- Statements %218 … %236: the gate, the mixture and the output layer. -/
def head (z h1 h2 : FVec Ideal S100000x64 .f32) (W2 : FVec Ideal S64x64 .f32) (b2 : FVec Ideal S64 .f32)
    (Wc : FVec Ideal S64x129 .f32) (bc : FVec Ideal S129 .f32) : FVec Ideal S100000x129 .f32 :=
  addf
    (Host.dotGeneral dot_S100000x64_S64x129_S100000x129_1_0_0_1_n_n none
      (addf (mulf (gate z W2 b2) h1)
        (mulf (subf (broadcastInDim S100000x64 ![] bcast_S_S100000x64 (constant S_ .f32 0x3F800000#32)) (gate z W2 b2)) h2)) Wc)
    (broadcastInDim S100000x129 ![0, 1] bcast_S1x129_S100000x129_0_1 (broadcastInDim S1x129 ![1] bcast_S129_S1x129_1 bc))

/-- The rectified pre-activation at (p, k) is the specification's. -/
theorem rect_apply (h1 h2 : FVec Ideal S100000x64 .f32) (G : FVec Ideal S256x64 .f32) (b1 : FVec Ideal S64 .f32) (a : FVec Ideal S1 .f32)
    (p : Fin 100000) (k : Fin 64) :
    rect h1 h2 G b1 a (ix2 p k)
      = Spec.leaky (a (ix1 (0 : Fin 1)))
          (Spec.preAt h1 h2 (Spec.rows64 0 G) (Spec.rows64 1 G) (Spec.rows64 2 G) (Spec.rows64 3 G) (Spec.vecOf b1) p k) := by
  unfold rect
  rw [leaky_apply, pre_apply dot_S100000x256_S256x64_S100000x64_1_0_0_1_n_n rfl]

/-- The gate at (p, j) is the logistic of the product plus the bias. -/
theorem gate_at (z : FVec Ideal S100000x64 .f32) (W2 : FVec Ideal S64x64 .f32) (b2 : FVec Ideal S64 .f32) (p : Fin 100000) (j : Fin 64) :
    gate z W2 b2 (ix2 p j) = FloatOps.logistic (FloatOps.addf (∑ k : Fin 64, z (ix2 p k) * W2 (ix2 k j)) (Spec.vecOf b2 j)) := by
  unfold gate
  exact gate_apply dot_S100000x64_S64x64_S100000x64_1_0_0_1_n_n rfl none z W2 b2 _ _ _ p j

/-- The head at (p, q): the output layer of the gated mixture. -/
theorem head_apply (z h1 h2 : FVec Ideal S100000x64 .f32) (W2 : FVec Ideal S64x64 .f32) (b2 : FVec Ideal S64 .f32)
    (Wc : FVec Ideal S64x129 .f32) (bc : FVec Ideal S129 .f32) (p : Fin 100000) (q : Fin 129) :
    head z h1 h2 W2 b2 Wc bc (ix2 p q)
      = FloatOps.addf
          (∑ j : Fin 64,
            FloatOps.addf
                (FloatOps.mulf (FloatOps.logistic (FloatOps.addf (∑ k : Fin 64, z (ix2 p k) * W2 (ix2 k j)) (Spec.vecOf b2 j))) (h1 (ix2 p j)))
                (FloatOps.mulf
                  (FloatOps.subf Spec.one (FloatOps.logistic (FloatOps.addf (∑ k : Fin 64, z (ix2 p k) * W2 (ix2 k j)) (Spec.vecOf b2 j))))
                  (h2 (ix2 p j)))
              * Wc (ix2 j q))
          (Spec.vecOf bc q) := by
  unfold head
  rw [dense_bias_apply dot_S100000x64_S64x129_S100000x129_1_0_0_1_n_n rfl]
  refine congrArg (fun t => FloatOps.addf t (Spec.vecOf bc q)) (Finset.sum_congr rfl fun j _ => ?_)
  rw [mix_apply, gate_at]

end Pieces

/-! ## The reference's run through the two pieces -/

section Run

open Cert.ReferenceIdeal Cert.ReferenceIdeal.Gen Cert.ReferenceIdeal.Ops Idealize.ShloMosaic.StableHlo

variable (V : Valuation τ sig (Elt Ideal))

theorem vec4_0 {α : Type} (a b c d : α) : (![a, b, c, d] : Fin 4 → α) 0 = a := rfl
theorem vec4_1 {α : Type} (a b c d : α) : (![a, b, c, d] : Fin 4 → α) 1 = b := rfl
theorem vec4_2 {α : Type} (a b c d : α) : (![a, b, c, d] : Fin 4 → α) 2 = c := rfl
theorem vec4_3 {α : Type} (a b c d : α) : (![a, b, c, d] : Fin 4 → α) 3 = d := rfl

set_option maxHeartbeats 4000000 in
/-- What %217 holds after piece 20. -/
theorem after20_v217 :
    after (ops20 (F := Ideal)) V (Proc.devRef .tc main_v217)
      = rect (V (Proc.devRef .tc main_v101)) (V (Proc.devRef .tc main_v203)) (V (Proc.devRef .tc main_arg21))
          (V (Proc.devRef .tc main_arg22)) (V (Proc.devRef .tc main_arg23)) := by
  after_results_simp
  -- the four operands of the concatenation: the list of references read at its literal positions, then each
  -- operand's contents after the three operations before it
  dsimp only [vec4_0, vec4_1, vec4_2, vec4_3]
  repeat (first
    | rw [unary_result] | rw [binary_result]
    | (rw [unary_result_ne]; rotate_left; decide)
    | (rw [binary_result_ne]; rotate_left; decide))
  rfl

set_option maxHeartbeats 4000000 in
/-- Piece 20 writes none of the buffers piece 21 reads besides %217. -/
theorem after20_keep :
    after (ops20 (F := Ideal)) V (Proc.devRef .tc main_v101) = V (Proc.devRef .tc main_v101)
    ∧ after (ops20 (F := Ideal)) V (Proc.devRef .tc main_v203) = V (Proc.devRef .tc main_v203)
    ∧ after (ops20 (F := Ideal)) V (Proc.devRef .tc main_arg24) = V (Proc.devRef .tc main_arg24)
    ∧ after (ops20 (F := Ideal)) V (Proc.devRef .tc main_arg25) = V (Proc.devRef .tc main_arg25)
    ∧ after (ops20 (F := Ideal)) V (Proc.devRef .tc main_arg26) = V (Proc.devRef .tc main_arg26)
    ∧ after (ops20 (F := Ideal)) V (Proc.devRef .tc main_arg27) = V (Proc.devRef .tc main_arg27) := by
  refine ⟨?_, ?_, ?_, ?_, ?_, ?_⟩ <;> after_results_simp

set_option maxHeartbeats 4000000 in
/-- What %236 holds after piece 21. -/
theorem after21_v236 :
    after (ops21 (F := Ideal)) V (Proc.devRef .tc main_v236)
      = head (V (Proc.devRef .tc main_v217)) (V (Proc.devRef .tc main_v101)) (V (Proc.devRef .tc main_v203))
          (V (Proc.devRef .tc main_arg24)) (V (Proc.devRef .tc main_arg25)) (V (Proc.devRef .tc main_arg26))
          (V (Proc.devRef .tc main_arg27)) := by
  after_results_simp
  rfl

end Run

open Cert.ReferenceIdeal Cert.ReferenceIdeal.Ops in
/-- **The reference's fusion head is the specification's.** After the last piece the output buffer holds, entry by
    entry, the specification's fusion head of the two feature matrices and the head's parameters as they stood before
    the last two pieces. -/
theorem fuse (m : (ℓ : Loc nD τ sig) → Buf (Elt Ideal) ℓ) (c : Dev nD) :
    R22 (F := Ideal) m c (Proc.devRef .tc main_v236)
      = Cert.Spec.fuse (R20 (F := Ideal) m c (Proc.devRef .tc main_v101)) (R20 (F := Ideal) m c (Proc.devRef .tc main_v203))
          (Cert.Spec.rows64 0 (R20 (F := Ideal) m c (Proc.devRef .tc main_arg21)))
          (Cert.Spec.rows64 1 (R20 (F := Ideal) m c (Proc.devRef .tc main_arg21)))
          (Cert.Spec.rows64 2 (R20 (F := Ideal) m c (Proc.devRef .tc main_arg21)))
          (Cert.Spec.rows64 3 (R20 (F := Ideal) m c (Proc.devRef .tc main_arg21)))
          (Cert.Spec.vecOf (R20 (F := Ideal) m c (Proc.devRef .tc main_arg22)))
          ((R20 (F := Ideal) m c (Proc.devRef .tc main_arg23)) (Idealize.ShloMosaic.ValueIdx.ix1 (0 : Fin 1)))
          (R20 (F := Ideal) m c (Proc.devRef .tc main_arg24))
          (Cert.Spec.vecOf (R20 (F := Ideal) m c (Proc.devRef .tc main_arg25)))
          (R20 (F := Ideal) m c (Proc.devRef .tc main_arg26))
          (Cert.Spec.vecOf (R20 (F := Ideal) m c (Proc.devRef .tc main_arg27))) := by
  show Idealize.ShloMosaic.StableHlo.after ops21 (Idealize.ShloMosaic.StableHlo.after ops20 (R20 (F := Ideal) m c)) (Proc.devRef .tc main_v236) = _
  generalize R20 (F := Ideal) m c = V
  obtain ⟨k101, k203, k24, k25, k26, k27⟩ := after20_keep V
  rw [after21_v236, after20_v217, k101, k203, k24, k25, k26, k27]
  funext i
  obtain ⟨p, q, rfl⟩ : ∃ (p : Fin 100000) (q : Fin 129), i = ix2 p q := ⟨i 0, i 1, eq_ix2 i⟩
  rw [head_apply]
  simp only [rect_apply]
  rfl

end Cert.Proof.RefFuse

end
-- ==== Proof.SimHead.lean ====
/-
  The gated fusion head, compared between the two programs: a kernel region on one side and host operations on the
  other, both the specification's head of equal feature matrices and equal parameters. The kernel program hands its
  region the four 64-row blocks of the 256 × 64 weight matrix as slices and each bias as a one-row matrix; the
  reference uses the matrix whole and the biases as vectors: the same numbers.
-/
import proofs.«162194_j13769665151544_1_alg».proof.Proof.SimBase
import proofs.«162194_j13769665151544_1_alg».proof.Proof.SimHeadR
import proofs.«162194_j13769665151544_1_alg».proof.Proof.SimHeadK1
import proofs.«162194_j13769665151544_1_alg».proof.Proof.SimHeadK2
import proofs.«162194_j13769665151544_1_alg».proof.Proof.RegFuse8
import proofs.«162194_j13769665151544_1_alg».proof.Proof.RefFuse

set_option maxRecDepth 16384
set_option maxHeartbeats 8000000

noncomputable section

namespace Cert.Proof.Sim.Head

open Idealize.ShloMosaic Idealize.ShloMosaic.TcCoe Idealize.SL.Sem Idealize.ShloMosaic.StableHlo Cert.Proof.Sim

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

/-- The head's result. -/
theorem head (hag : Agree m m' c) (hf1 : (Cert.KernelIdeal.Gen.W16 (F := Ideal) m ρ c (Proc.devRef .tc Cert.KernelIdeal.main_v64) : Cert.Spec.Mat 100000 64) = Cert.ReferenceIdeal.Ops.R10 (F := Ideal) m' c (Proc.devRef .tc Cert.ReferenceIdeal.main_v101))
    (hf2 : (Cert.KernelIdeal.Gen.W32 (F := Ideal) m ρ c (Proc.devRef .tc Cert.KernelIdeal.main_v129) : Cert.Spec.Mat 100000 64) = Cert.ReferenceIdeal.Ops.R20 (F := Ideal) m' c (Proc.devRef .tc Cert.ReferenceIdeal.main_v203)) :
    (Cert.KernelIdeal.Gen.W34 (F := Ideal) m ρ c (Proc.devRef .tc Cert.KernelIdeal.main_v138) : FVec Ideal ⟨2, ![100000, 129]⟩ .f32) = Cert.ReferenceIdeal.Ops.R22 (F := Ideal) m' c (Proc.devRef .tc Cert.ReferenceIdeal.main_v236) := by
  obtain ⟨h0, h1, h2, h3, h4, h5, h6, h7, h8, h9, h10, h11, h12, h13, h14, h15, h16, h17, h18, h19, h20, h21, h22, h23, h24, h25, h26, h27⟩ := hag
  rw [Cert.Proof.RegFuse8.out m ρ c, Cert.Proof.RefFuse.fuse m' c]
  rw [HeadK.feat1 m ρ c, HeadK.feat2 m ρ c, HeadK.block0 m ρ c, HeadK.block1 m ρ c, HeadK.block2 m ρ c, HeadK.block3 m ρ c,
    HeadK.bias1 m ρ c, HeadK.slope m ρ c, HeadK.weight2 m ρ c, HeadK.bias2 m ρ c, HeadK.weightC m ρ c, HeadK.biasC m ρ c]
  rw [HeadR.feat m' c, HeadR.arg21 m' c, HeadR.arg22 m' c, HeadR.arg23 m' c, HeadR.arg24 m' c, HeadR.arg25 m' c, HeadR.arg26 m' c,
    HeadR.arg27 m' c, h21, h22, h23, h24, h25, h26, h27, hf1, hf2]

end Cert.Proof.Sim.Head

end
-- ==== Proof.lean ====
/-
  A two-branch graph network — per branch two graph convolutions (a degree-normalised neighbourhood sum, a dense layer
  with ELU, a normalisation of every column by its mean and variance over the nodes), then a gated fusion of the two
  branches' features and a linear head — computed by a program with nine tiled kernels (the four dense layers, the four
  normalisations, the fusion head) and by a plain array program, agree on the extended reals.

  The neighbourhood sums, the degree norms and the column statistics are the same host operations in both programs
  (the kernel program computes a branch's degree norms once and reads them again in the second convolution; the reference
  computes them anew from the same edge lists). Each kernel region processes 5000 rows at a time, and every row of its
  result depends on the same row of its input only, so the twenty blocks it writes back are the blocks of one function
  of the whole arrays: the dense layer `elu (∑ₖ x p k · W k q + b q)` (the kernel's `e^y − 1` below zero is the
  reference's `expm1`; rounding the operands of a product to a shorter format is the identity on the reals), the
  normalisation `(x p q − μ q) · (σ² q + ε)^(−1/2) · g q + β q` with the same binary fraction `ε` on both sides, and the
  head, where the reference's one product with the 256-row weight matrix over the concatenated features is the sum of
  the kernel's four 64-row products (addition of extended reals is commutative and associative) and its spelled-out
  `1 / (1 + e^(−x))` is the kernel's logistic function. Walking the two runs side by side, every buffer of the kernel
  program holds what the corresponding buffer of the reference holds; no step uses that the inputs are finite.
-/
import proofs.«162194_j13769665151544_1_alg».proof.Defs
import proofs.«162194_j13769665151544_1_alg».proof.Proof.Gen.Kernel
import proofs.«162194_j13769665151544_1_alg».proof.Proof.Gen.Kernel.Skeleton
import proofs.«162194_j13769665151544_1_alg».proof.Proof.Gen.Kernel.Launch
import proofs.«162194_j13769665151544_1_alg».proof.Proof.Gen.Kernel.Points
import proofs.«162194_j13769665151544_1_alg».proof.Proof.Gen.Kernel.Frame
import proofs.«162194_j13769665151544_1_alg».proof.Proof.Gen.KernelIdeal
import proofs.«162194_j13769665151544_1_alg».proof.Proof.Gen.KernelIdeal.Skeleton
import proofs.«162194_j13769665151544_1_alg».proof.Proof.Gen.KernelIdeal.Launch
import proofs.«162194_j13769665151544_1_alg».proof.Proof.Gen.KernelIdeal.Points
import proofs.«162194_j13769665151544_1_alg».proof.Proof.Gen.KernelIdeal.Frame
import proofs.«162194_j13769665151544_1_alg».proof.Proof.Gen.ReferenceIdeal
import proofs.«162194_j13769665151544_1_alg».proof.Proof.Gen.Pre_finite_inputs
import proofs.«162194_j13769665151544_1_alg».proof.Proof.KRun
import proofs.«162194_j13769665151544_1_alg».proof.Proof.RefRun
import proofs.«162194_j13769665151544_1_alg».proof.Proof.RefArgsA
import proofs.«162194_j13769665151544_1_alg».proof.Proof.RefArgsB
import proofs.«162194_j13769665151544_1_alg».proof.Proof.SimL1
import proofs.«162194_j13769665151544_1_alg».proof.Proof.SimL2
import proofs.«162194_j13769665151544_1_alg».proof.Proof.SimL3
import proofs.«162194_j13769665151544_1_alg».proof.Proof.SimL4
import proofs.«162194_j13769665151544_1_alg».proof.Proof.SimHead
import Idealize.ShloMosaic.Adequacy
import Idealize.ShloMosaic.Init

set_option maxRecDepth 16384

noncomputable section

namespace Cert.Proof

open Idealize.ShloMosaic Idealize.ShloMosaic.TcCoe Idealize.SL.Sem Cert.Proof.Sim

/-- With launch memories that agree on the arguments, the kernel program's result array holds what the reference's
    holds: the head of the two branches' features, each branch two layers deep. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD) (hag : Agree m m' c) :
    (Cert.KernelIdeal.Gen.W34 (F := Ideal) m ρ c (Proc.devRef .tc Cert.KernelIdeal.main_v138) : FVec Ideal ⟨2, ![100000, 129]⟩ .f32) = Cert.ReferenceIdeal.Ops.R22 (F := Ideal) m' c (Proc.devRef .tc Cert.ReferenceIdeal.main_v236) :=
  Cert.Proof.Sim.Head.head m ρ m' c hag
    (Cert.Proof.Sim.L2.bn m ρ m' c hag (Cert.Proof.Sim.L2.lin m ρ m' c hag (Cert.Proof.Sim.L2.agg m ρ m' c hag
      (Cert.Proof.Sim.L1.bn m ρ m' c hag (Cert.Proof.Sim.L1.lin m ρ m' c hag (Cert.Proof.Sim.L1.agg m ρ m' c hag))))))
    (Cert.Proof.Sim.L4.bn m ρ m' c hag (Cert.Proof.Sim.L4.lin m ρ m' c hag (Cert.Proof.Sim.L4.agg m ρ m' c hag
      (Cert.Proof.Sim.L3.bn m ρ m' c hag (Cert.Proof.Sim.L3.lin m ρ m' c hag (Cert.Proof.Sim.L3.agg m ρ m' c hag))))))

theorem frame_k : Cert.frame_Kernel := fun m ρ _ => Cert.Kernel.Gen.frame m ρ

theorem frame_ki : Cert.frame_KernelIdeal := fun m ρ _ => Cert.KernelIdeal.Gen.frame m ρ

/-- The reference ends with its arguments as launched: none of its operations writes one. -/
theorem frame_r : Cert.frame_ReferenceIdeal := fun m ρ _ =>
  (θ_run Cert.ReferenceIdeal.defs _ _).mono (fun _ h c =>
    ⟨(h c _).trans (Cert.Proof.RefArgs.arg0 m c),
      (h c _).trans (Cert.Proof.RefArgs.arg1 m c),
      (h c _).trans (Cert.Proof.RefArgs.arg2 m c),
      (h c _).trans (Cert.Proof.RefArgs.arg3 m c),
      (h c _).trans (Cert.Proof.RefArgs.arg4 m c),
      (h c _).trans (Cert.Proof.RefArgs.arg5 m c),
      (h c _).trans (Cert.Proof.RefArgs.arg6 m c),
      (h c _).trans (Cert.Proof.RefArgs.arg7 m c),
      (h c _).trans (Cert.Proof.RefArgs.arg8 m c),
      (h c _).trans (Cert.Proof.RefArgs.arg9 m c),
      (h c _).trans (Cert.Proof.RefArgs.arg10 m c),
      (h c _).trans (Cert.Proof.RefArgs.arg11 m c),
      (h c _).trans (Cert.Proof.RefArgs.arg12 m c),
      (h c _).trans (Cert.Proof.RefArgs.arg13 m c),
      (h c _).trans (Cert.Proof.RefArgs.arg14 m c),
      (h c _).trans (Cert.Proof.RefArgs.arg15 m c),
      (h c _).trans (Cert.Proof.RefArgs.arg16 m c),
      (h c _).trans (Cert.Proof.RefArgs.arg17 m c),
      (h c _).trans (Cert.Proof.RefArgs.arg18 m c),
      (h c _).trans (Cert.Proof.RefArgs.arg19 m c),
      (h c _).trans (Cert.Proof.RefArgs.arg20 m c),
      (h c _).trans (Cert.Proof.RefArgs.arg21 m c),
      (h c _).trans (Cert.Proof.RefArgs.arg22 m c),
      (h c _).trans (Cert.Proof.RefArgs.arg23 m c),
      (h c _).trans (Cert.Proof.RefArgs.arg24 m c),
      (h c _).trans (Cert.Proof.RefArgs.arg25 m c),
      (h c _).trans (Cert.Proof.RefArgs.arg26 m c),
      (h c _).trans (Cert.Proof.RefArgs.arg27 m c)⟩)
    (Cert.ReferenceIdeal.Ops.run (F := Ideal) m ρ)

/-- Both programs end, with equal result arrays and their arguments as launched. -/
theorem algebraic : Cert.algebraic_KernelIdeal_ReferenceIdeal := by
  intro m ρ m' ρ' _ hagree
  refine ⟨fun c => Cert.KernelIdeal.Gen.W34 (F := Ideal) m ρ c (Proc.devRef .tc Cert.KernelIdeal.main_v138), Cert.KernelIdeal.RunVal.run_result (F := Ideal) m ρ, ?_⟩
  exact (θ_run Cert.ReferenceIdeal.defs _ _).mono (fun _ h c =>
    ⟨(h c _).trans (result_eq m ρ m' c (hagree c)).symm,
      (h c _).trans (Cert.Proof.RefArgs.arg0 m' c),
      (h c _).trans (Cert.Proof.RefArgs.arg1 m' c),
      (h c _).trans (Cert.Proof.RefArgs.arg2 m' c),
      (h c _).trans (Cert.Proof.RefArgs.arg3 m' c),
      (h c _).trans (Cert.Proof.RefArgs.arg4 m' c),
      (h c _).trans (Cert.Proof.RefArgs.arg5 m' c),
      (h c _).trans (Cert.Proof.RefArgs.arg6 m' c),
      (h c _).trans (Cert.Proof.RefArgs.arg7 m' c),
      (h c _).trans (Cert.Proof.RefArgs.arg8 m' c),
      (h c _).trans (Cert.Proof.RefArgs.arg9 m' c),
      (h c _).trans (Cert.Proof.RefArgs.arg10 m' c),
      (h c _).trans (Cert.Proof.RefArgs.arg11 m' c),
      (h c _).trans (Cert.Proof.RefArgs.arg12 m' c),
      (h c _).trans (Cert.Proof.RefArgs.arg13 m' c),
      (h c _).trans (Cert.Proof.RefArgs.arg14 m' c),
      (h c _).trans (Cert.Proof.RefArgs.arg15 m' c),
      (h c _).trans (Cert.Proof.RefArgs.arg16 m' c),
      (h c _).trans (Cert.Proof.RefArgs.arg17 m' c),
      (h c _).trans (Cert.Proof.RefArgs.arg18 m' c),
      (h c _).trans (Cert.Proof.RefArgs.arg19 m' c),
      (h c _).trans (Cert.Proof.RefArgs.arg20 m' c),
      (h c _).trans (Cert.Proof.RefArgs.arg21 m' c),
      (h c _).trans (Cert.Proof.RefArgs.arg22 m' c),
      (h c _).trans (Cert.Proof.RefArgs.arg23 m' c),
      (h c _).trans (Cert.Proof.RefArgs.arg24 m' c),
      (h c _).trans (Cert.Proof.RefArgs.arg25 m' c),
      (h c _).trans (Cert.Proof.RefArgs.arg26 m' c),
      (h c _).trans (Cert.Proof.RefArgs.arg27 m' c)⟩)
    (Cert.ReferenceIdeal.Ops.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
